-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x640000 : Shape := ⟨2, ![2, 640000]⟩
abbrev S50000x128 : Shape := ⟨2, ![50000, 128]⟩
abbrev S640000x128 : Shape := ⟨2, ![640000, 128]⟩
abbrev S128x128 : Shape := ⟨2, ![128, 128]⟩
abbrev S1x4x32 : Shape := ⟨3, ![1, 4, 32]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S128x128 : S_.BroadcastsInDim S128x128 (![] : Fin 0 → Fin S128x128.rank)
  reducesTo_S128x128_S_d0_1 : S128x128.ReducesTo [0, 1] S_
  bcast_S_S1x4x32 : S_.BroadcastsInDim S1x4x32 (![] : Fin 0 → Fin S1x4x32.rank)
  reducesTo_S1x4x32_S_d0_1_2 : S1x4x32.ReducesTo [0, 1, 2] S_
  bcast_S_S2x640000 : S_.BroadcastsInDim S2x640000 (![] : Fin 0 → Fin S2x640000.rank)
  reducesTo_S2x640000_S_d0_1 : S2x640000.ReducesTo [0, 1] S_

variable [Facts]

def fn_part2 {F : FTy → Type} [FloatOps F] (main_arg0 : IVec S2x640000 32) (main_v33 : IVec S_ 1) : IVec S_ 1 :=
  let main_c_12 : IVec S_ 32 := constantI S_ 32 0#32
  let main_v34 : IVec S2x640000 32 := broadcastInDim S2x640000 ![] bcast_S_S2x640000 main_c_12
  let main_v35 : IVec S2x640000 1 := cmpi .sge main_arg0 main_v34
  let main_c_13 : IVec S_ 32 := constantI S_ 32 50000#32
  let main_v36 : IVec S2x640000 32 := broadcastInDim S2x640000 ![] bcast_S_S2x640000 main_c_13
  let main_v37 : IVec S2x640000 1 := cmpi .slt main_arg0 main_v36
  let main_v38 : IVec S2x640000 1 := andi main_v35 main_v37
  let main_c_14 : IVec S_ 1 := constantI S_ 1 1#1
  let main_v39 : IVec S_ 1 := (fun x v => Host.reduce IntOp.andi x v reducesTo_S2x640000_S_d0_1 h_S_) main_v38 main_c_14
  let main_v40 : IVec S_ 1 := andi main_v33 main_v39
  main_v40

def fn_part1 {F : FTy → Type} [FloatOps F] (main_arg0 : IVec S2x640000 32) (main_arg5 : FVec F S1x4x32 .f32) (main_arg6 : FVec F S1x4x32 .f32) (main_arg7 : FVec F S1x4x32 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S1x4x32 .f32 := Host.absf main_arg5
  let main_cst_6 : FVec F S_ .f32 := constant S_ .f32 0x7F800000#32
  let main_v20 : FVec F S1x4x32 .f32 := broadcastInDim S1x4x32 ![] bcast_S_S1x4x32 main_cst_6
  let main_v21 : IVec S1x4x32 1 := cmpf .olt main_v19 main_v20
  let main_c_7 : IVec S_ 1 := constantI S_ 1 1#1
  let main_v22 : IVec S_ 1 := (fun x v => Host.reduce IntOp.andi x v reducesTo_S1x4x32_S_d0_1_2 h_S_) main_v21 main_c_7
  let main_v23 : IVec S_ 1 := andi main_v18 main_v22
  let main_v24 : FVec F S1x4x32 .f32 := Host.absf main_arg6
  let main_cst_8 : FVec F S_ .f32 := constant S_ .f32 0x7F800000#32
  let main_v25 : FVec F S1x4x32 .f32 := broadcastInDim S1x4x32 ![] bcast_S_S1x4x32 main_cst_8
  let main_v26 : IVec S1x4x32 1 := cmpf .olt main_v24 main_v25
  let main_c_9 : IVec S_ 1 := constantI S_ 1 1#1
  let main_v27 : IVec S_ 1 := (fun x v => Host.reduce IntOp.andi x v reducesTo_S1x4x32_S_d0_1_2 h_S_) main_v26 main_c_9
  let main_v28 : IVec S_ 1 := andi main_v23 main_v27
  let main_v29 : FVec F S1x4x32 .f32 := Host.absf main_arg7
  let main_cst_10 : FVec F S_ .f32 := constant S_ .f32 0x7F800000#32
  let main_v30 : FVec F S1x4x32 .f32 := broadcastInDim S1x4x32 ![] bcast_S_S1x4x32 main_cst_10
  let main_v31 : IVec S1x4x32 1 := cmpf .olt main_v29 main_v30
  let main_c_11 : IVec S_ 1 := constantI S_ 1 1#1
  let main_v32 : IVec S_ 1 := (fun x v => Host.reduce IntOp.andi x v reducesTo_S1x4x32_S_d0_1_2 h_S_) main_v31 main_c_11
  let main_v33 : IVec S_ 1 := andi main_v28 main_v32
  fn_part2 (F := F) main_arg0 main_v33

def fn {F : FTy → Type} [FloatOps F] (main_arg0 : IVec S2x640000 32) (main_arg1 : FVec F S50000x128 .f32) (main_arg2 : FVec F S640000x128 .f32) (main_arg3 : FVec F S128x128 .f32) (main_arg4 : FVec F S128x128 .f32) (main_arg5 : FVec F S1x4x32 .f32) (main_arg6 : FVec F S1x4x32 .f32) (main_arg7 : FVec F S1x4x32 .f32) : IVec S_ 1 :=
  let main_v0 : FVec F S50000x128 .f32 := Host.absf main_arg1
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S640000x128 .f32 := Host.absf main_arg2
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg0 main_arg5 main_arg6 main_arg7 main_v13 main_v16
-- ==== Kernel.lean ====
abbrev S2x640000 : Shape := ⟨2, ![2, 640000]⟩
abbrev S50000x128 : Shape := ⟨2, ![50000, 128]⟩
abbrev S640000x128 : Shape := ⟨2, ![640000, 128]⟩
abbrev S128x128 : Shape := ⟨2, ![128, 128]⟩
abbrev S1x4x32 : Shape := ⟨3, ![1, 4, 32]⟩
abbrev S5000x128 : Shape := ⟨2, ![5000, 128]⟩
abbrev S1x640000 : Shape := ⟨2, ![1, 640000]⟩
abbrev S640000 : Shape := ⟨1, ![640000]⟩
abbrev S1x128 : Shape := ⟨2, ![1, 128]⟩
abbrev S50000x4x32 : Shape := ⟨3, ![50000, 4, 32]⟩
abbrev S_ : Shape := ⟨0, ![]⟩
abbrev S50000x4 : Shape := ⟨2, ![50000, 4]⟩
abbrev S640000x1 : Shape := ⟨2, ![640000, 1]⟩
abbrev S1 : Shape := ⟨1, ![1]⟩
abbrev S1x1 : Shape := ⟨2, ![1, 1]⟩
abbrev S640000x4 : Shape := ⟨2, ![640000, 4]⟩
abbrev S1x4 : Shape := ⟨2, ![1, 4]⟩
abbrev S3200x128 : Shape := ⟨2, ![3200, 128]⟩
abbrev S3200x4 : Shape := ⟨2, ![3200, 4]⟩
abbrev S3200x32 : Shape := ⟨2, ![3200, 32]⟩
abbrev S3200 : Shape := ⟨1, ![3200]⟩
abbrev S3200x1 : Shape := ⟨2, ![3200, 1]⟩
abbrev S4 : Shape := ⟨1, ![4]⟩
abbrev S6400x4 : Shape := ⟨2, ![6400, 4]⟩
abbrev S640000x4x32 : Shape := ⟨3, ![640000, 4, 32]⟩

abbrev nBuf : Space → Nat
  | .hbm => 113
  | .vmem => 24
  | .smem => 0
  | _ => 0

abbrev bufTy : (tb : Table) → Fin (tcTables nBuf tb) → BufTy
  | .hbm, ⟨0, _⟩ => ⟨S2x640000, .i32⟩
  | .hbm, ⟨1, _⟩ => ⟨S50000x128, .f32⟩
  | .hbm, ⟨2, _⟩ => ⟨S640000x128, .f32⟩
  | .hbm, ⟨3, _⟩ => ⟨S128x128, .f32⟩
  | .hbm, ⟨4, _⟩ => ⟨S128x128, .f32⟩
  | .hbm, ⟨5, _⟩ => ⟨S1x4x32, .f32⟩
  | .hbm, ⟨6, _⟩ => ⟨S1x4x32, .f32⟩
  | .hbm, ⟨7, _⟩ => ⟨S1x4x32, .f32⟩
  | .hbm, ⟨8, _⟩ => ⟨S50000x128, .f32⟩
  | .hbm, ⟨9, _⟩ => ⟨S1x640000, .i32⟩
  | .hbm, ⟨10, _⟩ => ⟨S640000, .i32⟩
  | .hbm, ⟨11, _⟩ => ⟨S1x640000, .i32⟩
  | .hbm, ⟨12, _⟩ => ⟨S640000, .i32⟩
  | .hbm, ⟨13, _⟩ => ⟨S1x128, .f32⟩
  | .hbm, ⟨14, _⟩ => ⟨S50000x4x32, .f32⟩
  | .hbm, ⟨15, _⟩ => ⟨S50000x4x32, .f32⟩
  | .hbm, ⟨16, _⟩ => ⟨S50000x4x32, .f32⟩
  | .hbm, ⟨17, _⟩ => ⟨S_, .f32⟩
  | .hbm, ⟨18, _⟩ => ⟨S50000x4, .f32⟩
  | .hbm, ⟨19, _⟩ => ⟨S50000x4x32, .f32⟩
  | .hbm, ⟨20, _⟩ => ⟨S50000x4x32, .f32⟩
  | .hbm, ⟨21, _⟩ => ⟨S_, .f32⟩
  | .hbm, ⟨22, _⟩ => ⟨S50000x4, .f32⟩
  | .hbm, ⟨23, _⟩ => ⟨S_, .i32⟩
  | .hbm, ⟨24, _⟩ => ⟨S640000, .i32⟩
  | .hbm, ⟨25, _⟩ => ⟨S640000, .i1⟩
  | .hbm, ⟨26, _⟩ => ⟨S_, .i32⟩
  | .hbm, ⟨27, _⟩ => ⟨S640000, .i32⟩
  | .hbm, ⟨28, _⟩ => ⟨S640000, .i32⟩
  | .hbm, ⟨29, _⟩ => ⟨S640000, .i32⟩
  | .hbm, ⟨30, _⟩ => ⟨S640000x1, .i32⟩
  | .hbm, ⟨31, _⟩ => ⟨S1, .i32⟩
  | .hbm, ⟨32, _⟩ => ⟨S_, .i32⟩
  | .hbm, ⟨33, _⟩ => ⟨S640000x1, .i32⟩
  | .hbm, ⟨34, _⟩ => ⟨S640000x1, .i1⟩
  | .hbm, ⟨35, _⟩ => ⟨S1x1, .i32⟩
  | .hbm, ⟨36, _⟩ => ⟨S640000x1, .i32⟩
  | .hbm, ⟨37, _⟩ => ⟨S640000x1, .i1⟩
  | .hbm, ⟨38, _⟩ => ⟨S640000x1, .i1⟩
  | .hbm, ⟨39, _⟩ => ⟨S_, .i1⟩
  | .hbm, ⟨40, _⟩ => ⟨S640000, .i1⟩
  | .hbm, ⟨41, _⟩ => ⟨S640000x4, .f32⟩
  | .hbm, ⟨42, _⟩ => ⟨S640000x4, .i1⟩
  | .hbm, ⟨43, _⟩ => ⟨S_, .f32⟩
  | .hbm, ⟨44, _⟩ => ⟨S640000x4, .f32⟩
  | .hbm, ⟨45, _⟩ => ⟨S640000x4, .f32⟩
  | .hbm, ⟨46, _⟩ => ⟨S_, .i32⟩
  | .hbm, ⟨47, _⟩ => ⟨S640000, .i32⟩
  | .hbm, ⟨48, _⟩ => ⟨S640000, .i1⟩
  | .hbm, ⟨49, _⟩ => ⟨S_, .i32⟩
  | .hbm, ⟨50, _⟩ => ⟨S640000, .i32⟩
  | .hbm, ⟨51, _⟩ => ⟨S640000, .i32⟩
  | .hbm, ⟨52, _⟩ => ⟨S640000, .i32⟩
  | .hbm, ⟨53, _⟩ => ⟨S640000x1, .i32⟩
  | .hbm, ⟨54, _⟩ => ⟨S1, .i32⟩
  | .hbm, ⟨55, _⟩ => ⟨S_, .i32⟩
  | .hbm, ⟨56, _⟩ => ⟨S640000x1, .i32⟩
  | .hbm, ⟨57, _⟩ => ⟨S640000x1, .i1⟩
  | .hbm, ⟨58, _⟩ => ⟨S1x1, .i32⟩
  | .hbm, ⟨59, _⟩ => ⟨S640000x1, .i32⟩
  | .hbm, ⟨60, _⟩ => ⟨S640000x1, .i1⟩
  | .hbm, ⟨61, _⟩ => ⟨S640000x1, .i1⟩
  | .hbm, ⟨62, _⟩ => ⟨S_, .i1⟩
  | .hbm, ⟨63, _⟩ => ⟨S640000, .i1⟩
  | .hbm, ⟨64, _⟩ => ⟨S640000x4, .f32⟩
  | .hbm, ⟨65, _⟩ => ⟨S640000x4, .i1⟩
  | .hbm, ⟨66, _⟩ => ⟨S_, .f32⟩
  | .hbm, ⟨67, _⟩ => ⟨S640000x4, .f32⟩
  | .hbm, ⟨68, _⟩ => ⟨S640000x4, .f32⟩
  | .hbm, ⟨69, _⟩ => ⟨S640000x4, .f32⟩
  | .hbm, ⟨70, _⟩ => ⟨S1x4, .f32⟩
  | .hbm, ⟨71, _⟩ => ⟨S640000x4, .f32⟩
  | .hbm, ⟨72, _⟩ => ⟨S1x4, .f32⟩
  | .hbm, ⟨73, _⟩ => ⟨S_, .i32⟩
  | .hbm, ⟨74, _⟩ => ⟨S640000, .i32⟩
  | .hbm, ⟨75, _⟩ => ⟨S640000, .i1⟩
  | .hbm, ⟨76, _⟩ => ⟨S_, .i32⟩
  | .hbm, ⟨77, _⟩ => ⟨S640000, .i32⟩
  | .hbm, ⟨78, _⟩ => ⟨S640000, .i32⟩
  | .hbm, ⟨79, _⟩ => ⟨S640000, .i32⟩
  | .hbm, ⟨80, _⟩ => ⟨S640000x1, .i32⟩
  | .hbm, ⟨81, _⟩ => ⟨S1, .i32⟩
  | .hbm, ⟨82, _⟩ => ⟨S_, .i32⟩
  | .hbm, ⟨83, _⟩ => ⟨S640000x1, .i32⟩
  | .hbm, ⟨84, _⟩ => ⟨S640000x1, .i1⟩
  | .hbm, ⟨85, _⟩ => ⟨S1x1, .i32⟩
  | .hbm, ⟨86, _⟩ => ⟨S640000x1, .i32⟩
  | .hbm, ⟨87, _⟩ => ⟨S640000x1, .i1⟩
  | .hbm, ⟨88, _⟩ => ⟨S640000x1, .i1⟩
  | .hbm, ⟨89, _⟩ => ⟨S_, .i1⟩
  | .hbm, ⟨90, _⟩ => ⟨S640000, .i1⟩
  | .hbm, ⟨91, _⟩ => ⟨S640000x128, .f32⟩
  | .hbm, ⟨92, _⟩ => ⟨S640000x128, .i1⟩
  | .hbm, ⟨93, _⟩ => ⟨S_, .f32⟩
  | .hbm, ⟨94, _⟩ => ⟨S640000x128, .f32⟩
  | .hbm, ⟨95, _⟩ => ⟨S640000x128, .f32⟩
  | .hbm, ⟨96, _⟩ => ⟨S640000x4x32, .f32⟩
  | .hbm, ⟨97, _⟩ => ⟨S640000x128, .f32⟩
  | .hbm, ⟨98, _⟩ => ⟨S640000x128, .f32⟩
  | .hbm, ⟨99, _⟩ => ⟨S_, .f32⟩
  | .hbm, ⟨100, _⟩ => ⟨S50000x128, .f32⟩
  | .hbm, ⟨101, _⟩ => ⟨S640000x1, .i32⟩
  | .hbm, ⟨102, _⟩ => ⟨S50000x128, .f32⟩
  | .hbm, ⟨103, _⟩ => ⟨S_, .f32⟩
  | .hbm, ⟨104, _⟩ => ⟨S1x4, .f32⟩
  | .hbm, ⟨105, _⟩ => ⟨S1x4, .f32⟩
  | .hbm, ⟨106, _⟩ => ⟨S1x4x32, .f32⟩
  | .hbm, ⟨107, _⟩ => ⟨S1x128, .f32⟩
  | .hbm, ⟨108, _⟩ => ⟨S50000x128, .f32⟩
  | .hbm, ⟨109, _⟩ => ⟨S50000x128, .f32⟩
  | .hbm, ⟨110, _⟩ => ⟨S_, .f32⟩
  | .hbm, ⟨111, _⟩ => ⟨S50000x128, .f32⟩
  | .hbm, ⟨112, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S3200x128, .f32⟩
  | .local _ .vmem, ⟨6, _⟩ => ⟨S3200x128, .f32⟩
  | .local _ .vmem, ⟨7, _⟩ => ⟨S128x128, .f32⟩
  | .local _ .vmem, ⟨8, _⟩ => ⟨S1x128, .f32⟩
  | .local _ .vmem, ⟨9, _⟩ => ⟨S3200x4, .f32⟩
  | .local _ .vmem, ⟨10, _⟩ => ⟨S3200x4, .f32⟩
  | .local _ .vmem, ⟨11, _⟩ => ⟨S3200x4, .f32⟩
  | .local _ .vmem, ⟨12, _⟩ => ⟨S3200x4, .f32⟩
  | .local _ .vmem, ⟨13, _⟩ => ⟨S3200x4, .f32⟩
  | .local _ .vmem, ⟨14, _⟩ => ⟨S3200x4, .f32⟩
  | .local _ .vmem, ⟨15, _⟩ => ⟨S1x4, .f32⟩
  | .local _ .vmem, ⟨16, _⟩ => ⟨S1x4, .f32⟩
  | .local _ .vmem, ⟨17, _⟩ => ⟨S6400x4, .f32⟩
  | .local _ .vmem, ⟨18, _⟩ => ⟨S6400x4, .f32⟩
  | .local _ .vmem, ⟨19, _⟩ => ⟨S1x4, .f32⟩
  | .local _ .vmem, ⟨20, _⟩ => ⟨S6400x4, .f32⟩
  | .local _ .vmem, ⟨21, _⟩ => ⟨S6400x4, .f32⟩
  | .local _ .vmem, ⟨22, _⟩ => ⟨S1x4, .f32⟩
  | .local _ .vmem, ⟨23, _⟩ => ⟨S1x4, .f32⟩
  | _, _ => ⟨S2x640000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_call0_cst : Ref sig .tc := ⟨.hbm, 43, rfl⟩
abbrev main_call0_v15 : Ref sig .tc := ⟨.hbm, 44, rfl⟩
abbrev main_v13 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_c_1 : Ref sig .tc := ⟨.hbm, 54, rfl⟩
abbrev main_call1_c_2 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_3 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_call1_cst : Ref sig .tc := ⟨.hbm, 66, rfl⟩
abbrev main_call1_v15 : Ref sig .tc := ⟨.hbm, 67, rfl⟩
abbrev main_v14 : Ref sig .tc := ⟨.hbm, 68, rfl⟩
abbrev main_v15_0 : Ref sig .tc := ⟨.hbm, 69, rfl⟩
abbrev main_v15_1 : Ref sig .tc := ⟨.hbm, 70, rfl⟩
abbrev main_v16_0 : Ref sig .tc := ⟨.hbm, 71, rfl⟩
abbrev main_v16_1 : Ref sig .tc := ⟨.hbm, 72, rfl⟩
abbrev main_call2_c : Ref sig .tc := ⟨.hbm, 73, rfl⟩
abbrev main_call2_v0 : Ref sig .tc := ⟨.hbm, 74, rfl⟩
abbrev main_call2_v1 : Ref sig .tc := ⟨.hbm, 75, rfl⟩
abbrev main_call2_c_0 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_v5 : Ref sig .tc := ⟨.hbm, 80, rfl⟩
abbrev main_call2_c_1 : Ref sig .tc := ⟨.hbm, 81, rfl⟩
abbrev main_call2_c_2 : Ref sig .tc := ⟨.hbm, 82, rfl⟩
abbrev main_call2_v6 : Ref sig .tc := ⟨.hbm, 83, rfl⟩
abbrev main_call2_v7 : Ref sig .tc := ⟨.hbm, 84, rfl⟩
abbrev main_call2_v8 : Ref sig .tc := ⟨.hbm, 85, rfl⟩
abbrev main_call2_v9 : Ref sig .tc := ⟨.hbm, 86, rfl⟩
abbrev main_call2_v10 : Ref sig .tc := ⟨.hbm, 87, rfl⟩
abbrev main_call2_v11 : Ref sig .tc := ⟨.hbm, 88, rfl⟩
abbrev main_call2_c_3 : Ref sig .tc := ⟨.hbm, 89, rfl⟩
abbrev main_call2_v12 : Ref sig .tc := ⟨.hbm, 90, rfl⟩
abbrev main_call2_v13 : Ref sig .tc := ⟨.hbm, 91, rfl⟩
abbrev main_call2_v14 : Ref sig .tc := ⟨.hbm, 92, rfl⟩
abbrev main_call2_cst : Ref sig .tc := ⟨.hbm, 93, rfl⟩
abbrev main_call2_v15 : Ref sig .tc := ⟨.hbm, 94, rfl⟩
abbrev main_v17 : Ref sig .tc := ⟨.hbm, 95, rfl⟩
abbrev main_v18 : Ref sig .tc := ⟨.hbm, 96, rfl⟩
abbrev main_v19 : Ref sig .tc := ⟨.hbm, 97, rfl⟩
abbrev main_v20 : Ref sig .tc := ⟨.hbm, 98, rfl⟩
abbrev main_cst_1 : Ref sig .tc := ⟨.hbm, 99, rfl⟩
abbrev main_v21 : Ref sig .tc := ⟨.hbm, 100, rfl⟩
abbrev main_v22 : Ref sig .tc := ⟨.hbm, 101, rfl⟩
abbrev main_v23 : Ref sig .tc := ⟨.hbm, 102, rfl⟩
abbrev main_cst_2 : Ref sig .tc := ⟨.hbm, 103, rfl⟩
abbrev main_v24 : Ref sig .tc := ⟨.hbm, 104, rfl⟩
abbrev main_v25 : Ref sig .tc := ⟨.hbm, 105, rfl⟩
abbrev main_v26 : Ref sig .tc := ⟨.hbm, 106, rfl⟩
abbrev main_v27 : Ref sig .tc := ⟨.hbm, 107, rfl⟩
abbrev main_v28 : Ref sig .tc := ⟨.hbm, 108, rfl⟩
abbrev main_v29 : Ref sig .tc := ⟨.hbm, 109, rfl⟩
abbrev main_call3_cst : Ref sig .tc := ⟨.hbm, 110, rfl⟩
abbrev main_call3_v0 : Ref sig .tc := ⟨.hbm, 111, rfl⟩
abbrev main_v30 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_scratch0 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem4_1 : DmaSem sig := 12
abbrev cc1_sem5_0 : DmaSem sig := 13
abbrev cc1_sem5_1 : DmaSem sig := 14
abbrev cc1_sem6_0 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S3200x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S3200x4 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S3200x4 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S3200x4 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x4 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S6400x4 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x4 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S6400x4 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x4 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S2x640000_S1x640000_0_0 : S2x640000.Slices ![0, 0] S1x640000
  shapeCasts_S1x640000_S640000 : S1x640000.ShapeCasts S640000
  slices_S2x640000_S1x640000_1_0 : S2x640000.Slices ![1, 0] S1x640000
  shapeCasts_S1x4x32_S1x128 : S1x4x32.ShapeCasts S1x128
  shapeCasts_S50000x128_S50000x4x32 : S50000x128.ShapeCasts S50000x4x32
  bcast_S1x4x32_S50000x4x32_0_1_2 : S1x4x32.BroadcastsInDim S50000x4x32 (![0, 1, 2] : Fin 3 → Fin S50000x4x32.rank)
  reducesTo_S50000x4x32_S50000x4_d2 : S50000x4x32.ReducesTo [2] S50000x4
  h_S_ : 0 < S_.numel
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  bcast_S640000_S640000x4_0 : S640000.BroadcastsInDim S640000x4 (![0] : Fin 1 → Fin S640000x4.rank)
  bcast_S_S640000x4 : S_.BroadcastsInDim S640000x4 (![] : Fin 0 → Fin S640000x4.rank)
  inb_S1x4_S1x4_0_0 : ∀ a, (![0, 0] : Fin 2 → Nat) a + S1x4.size a ≤ S1x4.size a
  h_S1x4 : 0 < S1x4.numel
  shapeCasts_S1x4_S1x4 : S1x4.ShapeCasts S1x4
  inb_S3200x128_S3200x128_0_0 : ∀ a, (![0, 0] : Fin 2 → Nat) a + S3200x128.size a ≤ S3200x128.size a
  h_S3200x128 : 0 < S3200x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S3200x128 : S1x128.Broadcasts S3200x128
  slices_S3200x128_o0_0_S3200x32 : S3200x128.Slices ![0, 0] S3200x32
  reduces_S3200x32_S3200 : S3200x32.Reduces [1] S3200
  shapeCasts_S3200_S3200x1 : S3200.ShapeCasts S3200x1
  slices_S3200x128_o0_32_S3200x32 : S3200x128.Slices ![0, 32] S3200x32
  slices_S3200x128_o0_64_S3200x32 : S3200x128.Slices ![0, 64] S3200x32
  slices_S3200x128_o0_96_S3200x32 : S3200x128.Slices ![0, 96] S3200x32
  concatenates_S3200x1_S3200x1_S3200x1_S3200x1_S3200x4_d1 : Shape.Concatenates [S3200x1, S3200x1, S3200x1, S3200x1] S3200x4 1
  inb_S3200x4_S3200x4_0_0 : ∀ a, (![0, 0] : Fin 2 → Nat) a + S3200x4.size a ≤ S3200x4.size a
  h_S3200x4 : 0 < S3200x4.numel
  shapeCasts_S3200x4_S3200x4 : S3200x4.ShapeCasts S3200x4
  reduces_S3200x4_S4 : S3200x4.Reduces [0] S4
  shapeCasts_S4_S1x4 : S4.ShapeCasts S1x4
  inb_S6400x4_S6400x4_0_0 : ∀ a, (![0, 0] : Fin 2 → Nat) a + S6400x4.size a ≤ S6400x4.size a
  h_S6400x4 : 0 < S6400x4.numel
  shapeCasts_S6400x4_S6400x4 : S6400x4.ShapeCasts S6400x4
  broadcasts_S1x4_S6400x4 : S1x4.Broadcasts S6400x4
  reduces_S6400x4_S4 : S6400x4.Reduces [0] S4
  bcast_S640000_S640000x128_0 : S640000.BroadcastsInDim S640000x128 (![0] : Fin 1 → Fin S640000x128.rank)
  bcast_S_S640000x128 : S_.BroadcastsInDim S640000x128 (![] : Fin 0 → Fin S640000x128.rank)
  bcast_S640000x4_S640000x4x32_0_1 : S640000x4.BroadcastsInDim S640000x4x32 (![0, 1] : Fin 2 → Fin S640000x4x32.rank)
  shapeCasts_S640000x4x32_S640000x128 : S640000x4x32.ShapeCasts S640000x128
  bcast_S_S50000x128 : S_.BroadcastsInDim S50000x128 (![] : Fin 0 → Fin S50000x128.rank)
  bcast_S_S1x4 : S_.BroadcastsInDim S1x4 (![] : Fin 0 → Fin S1x4.rank)
  bcast_S1x4_S1x4x32_0_1 : S1x4.BroadcastsInDim S1x4x32 (![0, 1] : Fin 2 → Fin S1x4x32.rank)
  bcast_S1x128_S50000x128_0_1 : S1x128.BroadcastsInDim S50000x128 (![0, 1] : Fin 2 → Fin S50000x128.rank)
  dot_S5000x128_S128x128_S5000x128_1_0_0_1_n_n_wf : DotDims.WF S5000x128 S128x128 S5000x128 [1] [0] [0] [1] [] []
  gather_S50000x4_S640000x1_S640000x4_1_0_n_n_0_1_14_wf : GatherDims.WF S50000x4 S640000x1 S640000x4 [1] [0] [] [0] [] 1 ![1, 4]
  dot_S3200x128_S128x128_S3200x128_1_0_0_1_n_n_wf : DotDims.WF S3200x128 S128x128 S3200x128 [1] [0] [0] [1] [] []
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3200x128.size a ≤ S640000x128.size a
  hwx1_0 : ∀ i : grid1.Coords, EltTy.bits .f32 = 32 ∨ (Rect.block (s := S640000x128) S3200x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S3200x4.size a ≤ S640000x4.size a
  hwx1_3 : ∀ i : grid1.Coords, EltTy.bits .f32 = 32 ∨ (Rect.block (s := S640000x4) S3200x4.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S3200x4.size a ≤ S640000x4.size a
  hwx1_4 : ∀ i : grid1.Coords, EltTy.bits .f32 = 32 ∨ (Rect.block (s := S640000x4) S3200x4.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S3200x4.size a ≤ S640000x4.size a
  hwx1_5 : ∀ i : grid1.Coords, EltTy.bits .f32 = 32 ∨ (Rect.block (s := S640000x4) S3200x4.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x4.size a ≤ S1x4.size a
  hwx1_6 : ∀ i : grid1.Coords, EltTy.bits .f32 = 32 ∨ (Rect.block (s := S1x4) S1x4.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6400x4.size a ≤ S640000x4.size a
  hwx2_0 : ∀ i : grid2.Coords, EltTy.bits .f32 = 32 ∨ (Rect.block (s := S640000x4) S6400x4.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x4.size a ≤ S1x4.size a
  hwx2_1 : ∀ i : grid2.Coords, EltTy.bits .f32 = 32 ∨ (Rect.block (s := S1x4) S1x4.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S6400x4.size a ≤ S640000x4.size a
  hwx2_2 : ∀ i : grid2.Coords, EltTy.bits .f32 = 32 ∨ (Rect.block (s := S640000x4) S6400x4.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x4.size a ≤ S1x4.size a
  hwx2_3 : ∀ i : grid2.Coords, EltTy.bits .f32 = 32 ∨ (Rect.block (s := S1x4) S1x4.size (cc2_transform_3 i) (hinb2_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x4_S640000x1_S640000x4_1_0_n_n_0_1_14 : GatherDims S50000x4 S640000x1 S640000x4 where
  offsetDims := [1]
  collapsedSliceDims := [0]
  operandBatchingDims := []
  startIndicesBatchingDims := []
  startIndexMap := [0]
  indexVectorDim := 1
  sliceSizes := ![1, 4]
  wf := gather_S50000x4_S640000x1_S640000x4_1_0_n_n_0_1_14_wf
def dot_S3200x128_S128x128_S3200x128_1_0_0_1_n_n : DotDims S3200x128 S128x128 S3200x128 where
  lhsContracting := [1]
  rhsContracting := [0]
  lhsNonContracting := [0]
  rhsNonContracting := [1]
  lhsBatch := []
  rhsBatch := []
  wf := dot_S3200x128_S128x128_S3200x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf

abbrev win0_0 : Pipeline.Window sig grid0 :=
  Pipeline.Window.ofSpec (Memref.whole main_arg1) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg2) S3200x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S3200x4.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v14) S3200x4.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v15_0) S3200x4.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v15_1) S1x4.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v15_0) S6400x4.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15_1) S1x4.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16_0) S6400x4.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v16_1) S1x4.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x640000 : Shape := ⟨2, ![2, 640000]⟩
abbrev S50000x128 : Shape := ⟨2, ![50000, 128]⟩
abbrev S640000x128 : Shape := ⟨2, ![640000, 128]⟩
abbrev S128x128 : Shape := ⟨2, ![128, 128]⟩
abbrev S1x4x32 : Shape := ⟨3, ![1, 4, 32]⟩
abbrev S50000x4x32 : Shape := ⟨3, ![50000, 4, 32]⟩
abbrev S640000x4x32 : Shape := ⟨3, ![640000, 4, 32]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x4 : Shape := ⟨2, ![640000, 4]⟩
abbrev S4 : Shape := ⟨1, ![4]⟩
abbrev S1x4 : Shape := ⟨2, ![1, 4]⟩
abbrev S640000x4x1 : Shape := ⟨3, ![640000, 4, 1]⟩

abbrev nBuf : Space → Nat
  | .hbm => 80
  | .vmem => 0
  | .smem => 0
  | _ => 0

abbrev bufTy : (tb : Table) → Fin (tcTables nBuf tb) → BufTy
  | .hbm, ⟨0, _⟩ => ⟨S2x640000, .i32⟩
  | .hbm, ⟨1, _⟩ => ⟨S50000x128, .f32⟩
  | .hbm, ⟨2, _⟩ => ⟨S640000x128, .f32⟩
  | .hbm, ⟨3, _⟩ => ⟨S128x128, .f32⟩
  | .hbm, ⟨4, _⟩ => ⟨S128x128, .f32⟩
  | .hbm, ⟨5, _⟩ => ⟨S1x4x32, .f32⟩
  | .hbm, ⟨6, _⟩ => ⟨S1x4x32, .f32⟩
  | .hbm, ⟨7, _⟩ => ⟨S1x4x32, .f32⟩
  | .hbm, ⟨8, _⟩ => ⟨S50000x128, .f32⟩
  | .hbm, ⟨9, _⟩ => ⟨S50000x4x32, .f32⟩
  | .hbm, ⟨10, _⟩ => ⟨S640000x128, .f32⟩
  | .hbm, ⟨11, _⟩ => ⟨S640000x4x32, .f32⟩
  | .hbm, ⟨12, _⟩ => ⟨S1x640000, .i32⟩
  | .hbm, ⟨13, _⟩ => ⟨S640000, .i32⟩
  | .hbm, ⟨14, _⟩ => ⟨S1x640000, .i32⟩
  | .hbm, ⟨15, _⟩ => ⟨S640000, .i32⟩
  | .hbm, ⟨16, _⟩ => ⟨S_, .i32⟩
  | .hbm, ⟨17, _⟩ => ⟨S640000, .i32⟩
  | .hbm, ⟨18, _⟩ => ⟨S640000, .i1⟩
  | .hbm, ⟨19, _⟩ => ⟨S_, .i32⟩
  | .hbm, ⟨20, _⟩ => ⟨S640000, .i32⟩
  | .hbm, ⟨21, _⟩ => ⟨S640000, .i32⟩
  | .hbm, ⟨22, _⟩ => ⟨S640000, .i32⟩
  | .hbm, ⟨23, _⟩ => ⟨S640000x1, .i32⟩
  | .hbm, ⟨24, _⟩ => ⟨S640000x4x32, .f32⟩
  | .hbm, ⟨25, _⟩ => ⟨S_, .i32⟩
  | .hbm, ⟨26, _⟩ => ⟨S640000, .i32⟩
  | .hbm, ⟨27, _⟩ => ⟨S640000, .i1⟩
  | .hbm, ⟨28, _⟩ => ⟨S_, .i32⟩
  | .hbm, ⟨29, _⟩ => ⟨S640000, .i32⟩
  | .hbm, ⟨30, _⟩ => ⟨S640000, .i32⟩
  | .hbm, ⟨31, _⟩ => ⟨S640000, .i32⟩
  | .hbm, ⟨32, _⟩ => ⟨S640000x1, .i32⟩
  | .hbm, ⟨33, _⟩ => ⟨S640000x4x32, .f32⟩
  | .hbm, ⟨34, _⟩ => ⟨S640000x4x32, .f32⟩
  | .hbm, ⟨35, _⟩ => ⟨S640000x4x32, .f32⟩
  | .hbm, ⟨36, _⟩ => ⟨S_, .f32⟩
  | .hbm, ⟨37, _⟩ => ⟨S640000x4, .f32⟩
  | .hbm, ⟨38, _⟩ => ⟨S640000x4x32, .f32⟩
  | .hbm, ⟨39, _⟩ => ⟨S640000x4x32, .f32⟩
  | .hbm, ⟨40, _⟩ => ⟨S_, .f32⟩
  | .hbm, ⟨41, _⟩ => ⟨S640000x4, .f32⟩
  | .hbm, ⟨42, _⟩ => ⟨S640000x4, .f32⟩
  | .hbm, ⟨43, _⟩ => ⟨S640000x4x32, .f32⟩
  | .hbm, ⟨44, _⟩ => ⟨S640000x4x32, .f32⟩
  | .hbm, ⟨45, _⟩ => ⟨S_, .f32⟩
  | .hbm, ⟨46, _⟩ => ⟨S640000x4, .f32⟩
  | .hbm, ⟨47, _⟩ => ⟨S640000x4, .f32⟩
  | .hbm, ⟨48, _⟩ => ⟨S_, .f32⟩
  | .hbm, ⟨49, _⟩ => ⟨S640000x4, .f32⟩
  | .hbm, ⟨50, _⟩ => ⟨S640000x4, .i1⟩
  | .hbm, ⟨51, _⟩ => ⟨S_, .f32⟩
  | .hbm, ⟨52, _⟩ => ⟨S640000x4, .f32⟩
  | .hbm, ⟨53, _⟩ => ⟨S640000x4, .f32⟩
  | .hbm, ⟨54, _⟩ => ⟨S640000x4, .f32⟩
  | .hbm, ⟨55, _⟩ => ⟨S_, .f32⟩
  | .hbm, ⟨56, _⟩ => ⟨S4, .f32⟩
  | .hbm, ⟨57, _⟩ => ⟨S_, .f32⟩
  | .hbm, ⟨58, _⟩ => ⟨S4, .f32⟩
  | .hbm, ⟨59, _⟩ => ⟨S4, .f32⟩
  | .hbm, ⟨60, _⟩ => ⟨S1x4, .f32⟩
  | .hbm, ⟨61, _⟩ => ⟨S640000x4, .f32⟩
  | .hbm, ⟨62, _⟩ => ⟨S640000x4, .f32⟩
  | .hbm, ⟨63, _⟩ => ⟨S640000x4, .f32⟩
  | .hbm, ⟨64, _⟩ => ⟨S_, .f32⟩
  | .hbm, ⟨65, _⟩ => ⟨S4, .f32⟩
  | .hbm, ⟨66, _⟩ => ⟨S1x4, .f32⟩
  | .hbm, ⟨67, _⟩ => ⟨S640000x4, .f32⟩
  | .hbm, ⟨68, _⟩ => ⟨S640000x4, .f32⟩
  | .hbm, ⟨69, _⟩ => ⟨S640000x4x1, .f32⟩
  | .hbm, ⟨70, _⟩ => ⟨S640000x4x32, .f32⟩
  | .hbm, ⟨71, _⟩ => ⟨S640000x4x32, .f32⟩
  | .hbm, ⟨72, _⟩ => ⟨S_, .f32⟩
  | .hbm, ⟨73, _⟩ => ⟨S50000x4x32, .f32⟩
  | .hbm, ⟨74, _⟩ => ⟨S640000x1, .i32⟩
  | .hbm, ⟨75, _⟩ => ⟨S50000x4x32, .f32⟩
  | .hbm, ⟨76, _⟩ => ⟨S_, .f32⟩
  | .hbm, ⟨77, _⟩ => ⟨S50000x4x32, .f32⟩
  | .hbm, ⟨78, _⟩ => ⟨S50000x4x32, .f32⟩
  | .hbm, ⟨79, _⟩ => ⟨S50000x128, .f32⟩
  | _, _ => ⟨S2x640000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_10 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_call1_cst : Ref sig .tc := ⟨.hbm, 76, rfl⟩
abbrev main_call1_v0 : Ref sig .tc := ⟨.hbm, 77, rfl⟩
abbrev main_v55 : Ref sig .tc := ⟨.hbm, 78, rfl⟩
abbrev main_v56 : Ref sig .tc := ⟨.hbm, 79, rfl⟩

abbrev nD : Nat := 1
abbrev τ : Topo := Topo.v7x

variable {F : FTy → Type} [FloatOps F]

class Facts₀ : Prop where
  shapeCasts_S50000x128_S50000x4x32 : S50000x128.ShapeCasts S50000x4x32
  shapeCasts_S640000x128_S640000x4x32 : S640000x128.ShapeCasts S640000x4x32
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S1x4x32_S640000x4x32_0_1_2 : S1x4x32.BroadcastsInDim S640000x4x32 (![0, 1, 2] : Fin 3 → Fin S640000x4x32.rank)
  reducesTo_S640000x4x32_S640000x4_d2 : S640000x4x32.ReducesTo [2] S640000x4
  h_S_ : 0 < S_.numel
  bcast_S_S640000x4 : S_.BroadcastsInDim S640000x4 (![] : Fin 0 → Fin S640000x4.rank)
  reducesTo_S640000x4_S4_d0 : S640000x4.ReducesTo [0] S4
  bcast_S_S4 : S_.BroadcastsInDim S4 (![] : Fin 0 → Fin S4.rank)
  bcast_S4_S1x4_1 : S4.BroadcastsInDim S1x4 (![1] : Fin 1 → Fin S1x4.rank)
  bcast_S1x4_S640000x4_0_1 : S1x4.BroadcastsInDim S640000x4 (![0, 1] : Fin 2 → Fin S640000x4.rank)
  bcast_S640000x4_S640000x4x1_0_1 : S640000x4.BroadcastsInDim S640000x4x1 (![0, 1] : Fin 2 → Fin S640000x4x1.rank)
  bcast_S640000x4x1_S640000x4x32_0_1_2 : S640000x4x1.BroadcastsInDim S640000x4x32 (![0, 1, 2] : Fin 3 → Fin S640000x4x32.rank)
  bcast_S_S50000x4x32 : S_.BroadcastsInDim S50000x4x32 (![] : Fin 0 → Fin S50000x4x32.rank)
  shapeCasts_S50000x4x32_S50000x128 : S50000x4x32.ShapeCasts S50000x128
  dot_S50000x128_S128x128_S50000x128_1_0_0_1_n_n_wf : DotDims.WF S50000x128 S128x128 S50000x128 [1] [0] [0] [1] [] []
  dot_S640000x128_S128x128_S640000x128_1_0_0_1_n_n_wf : DotDims.WF S640000x128 S128x128 S640000x128 [1] [0] [0] [1] [] []
  gather_S50000x4x32_S640000x1_S640000x4x32_12_0_n_n_0_1_1432_wf : GatherDims.WF S50000x4x32 S640000x1 S640000x4x32 [1, 2] [0] [] [0] [] 1 ![1, 4, 32]
  scatter_S50000x4x32_S640000x1_S640000x4x32_12_0_0_1_wf : ScatterDims.WF S50000x4x32 S640000x1 S640000x4x32 [1, 2] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def gather_S50000x4x32_S640000x1_S640000x4x32_12_0_n_n_0_1_1432 : GatherDims S50000x4x32 S640000x1 S640000x4x32 where
  offsetDims := [1, 2]
  collapsedSliceDims := [0]
  operandBatchingDims := []
  startIndicesBatchingDims := []
  startIndexMap := [0]
  indexVectorDim := 1
  sliceSizes := ![1, 4, 32]
  wf := gather_S50000x4x32_S640000x1_S640000x4x32_12_0_n_n_0_1_1432_wf
def scatter_S50000x4x32_S640000x1_S640000x4x32_12_0_0_1 : ScatterDims S50000x4x32 S640000x1 S640000x4x32 where
  updateWindowDims := [1, 2]
  insertedWindowDims := [0]
  scatterDimsToOperandDims := [0]
  indexVectorDim := 1
  wf := scatter_S50000x4x32_S640000x1_S640000x4x32_12_0_0_1_wf

class Facts : Prop extends Facts₀ where

variable [Facts]
-- ==== Proof.K.R0.lean ====
/-
  The first kernel region: the node-feature product h·W, ten row blocks of 5000 rows.

  At a grid point t the body reads the point's block of h (rows 5000·t … 5000·t + 4999) and the whole of W,
  and stores their product (rounded operands, zero accumulator) over the whole output block; it also reads the
  output block first, a value it never uses.  Nothing is carried from point to point.  Here: what each
  staging buffer holds after the body at a point, as a function of the arrays the region is entered with (V);
  the body's triple; and the per-point obligation the pipeline rule asks for.
-/
import proofs.«424763_j188978561164_3_alg».proof.Proof.Gen.Kernel.Launch
import proofs.«424763_j188978561164_3_alg».proof.Proof.Gen.Kernel.Skeleton
import proofs.«424763_j188978561164_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the pipeline hands the body -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of h is in its staging buffer at every point (it is fetched at every point). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- W is in its staging buffer at every point (fetched once; its block index never moves). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output block -/

abbrev r0_x : Rect S5000x128 := Rect.unit (s := S5000x128) ![0, 0] S5000x128.size inb_S5000x128_S5000x128_0_0
abbrev r0_w : Rect S128x128 := Rect.unit (s := S128x128) ![0, 0] S128x128.size inb_S128x128_S128x128_0_0

/-- The output block after the body: one store over the whole block, of the product of the two blocks read. -/
def out0_2 (x0 : Vec F S5000x128 .f32) (x1 : Vec F S128x128 .f32) : Vec F S5000x128 .f32 :=
  View.canon [⟨r0_x, k0_pay1 (View.ld x0 r0_x) (View.ld x1 r0_w)⟩]

theorem cover0_2 (p0 : Vec F S5000x128 .f32) (y : S5000x128.Idx) :
    ∃ pc ∈ ([⟨r0_x, p0⟩] : List (View.Piece (Elt F) S5000x128 .f32)), y ∈ pc.1.set :=
  View.cover_of_tiled [⟨r0_x, p0⟩] S5000x128.size (by rfl) y

/-! ## The body's triple -/

set_option maxHeartbeats 1000000 in
/-- On whole staging buffers, the inputs' at x0 and x1 and the output's at anything, the body runs to its
    continuation with the inputs' as they were and the output's at the product. -/
theorem sound_kernel0 (c : Dev nD) (E : Set ℕ) (i : grid0.Coords) (arg1 : Memref sig .tc .vmem S5000x128 .f32) (harg1 : arg1.IsWhole)
    (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data and the per-point obligation -/

/-- The region's proof data on core c: the arrays as the region finds them; after the body at point t the input
    buffers at their blocks and the output's at the product of the two; the invariant is the rest of the scoped
    memory and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline rule's obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
/-
  The second kernel region: the edge scores and their running maximum, 200 blocks of 3200 edges.

  At a grid point t the body reads the point's block of edge features (3200 × 128), the whole weight matrix
  (128 × 128) and attention row (1 × 128), and the point's blocks of source and destination scores (3200 × 4 each);
  from them it computes the block's 3200 × 4 scores (rounded product, scaled, summed per head over 32 lanes, added to
  the two score blocks, leaky-rectified) and stores them over the whole output block.  A scratch row of four words is
  kept from point to point: at the first point it is reset to -∞; at every point it becomes the maximum of itself and
  the column maxima of the point's scores, and that row is stored over the second output's block, which is written
  back once, after the last point.  Here: the body's triple in its two cases (first point / later point); what each
  staging buffer and the scratch row hold after the body at a point, as a function of the arrays the region is
  entered with (V); the invariant that carries the scratch row; and the per-point obligation the pipeline rule asks for.
-/
import proofs.«424763_j188978561164_3_alg».proof.Proof.Gen.Kernel.Launch
import proofs.«424763_j188978561164_3_alg».proof.Proof.Gen.Kernel.Skeleton
import proofs.«424763_j188978561164_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer loads and stores -/

section Whole

variable {Val : EltTy → Type} [∀ e, Nonempty (Val e)] {S : Shape} {e : EltTy} {sg : RefSig} {κ : Kind} {sp : Space}

/-- A store over the whole shape (offsets zero, the shape's own extents), made last, leaves its payload, whatever
    was stored before. -/
theorem read_store_whole (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ fun y => ⟨_, List.mem_cons.mpr (Or.inl rfl), View.mem_set_unit_zero h inb y⟩).trans
    (View.canon_cons_unit_zero h inb w L)

/-- A load over the whole shape reads the contents. -/
theorem readAt_whole (v : View sg κ sp S e) (f : v.ty.Contents Val) {off : Fin S.rank → ℕ} (h : off = fun _ => 0)
    (inb : ∀ a, off a + S.size a ≤ S.size a) :
    v.readAt Val (Rect.unit off S.size inb).toLoadRect f = v.read Val f :=
  (View.readAt_eq_ld v f _).trans (View.ld_unit_zero h inb _)

/-- A load over the whole shape after a store over the whole shape reads that store's payload. -/
theorem readCov_whole (v : View sg κ sp S e) {off : Fin S.rank → ℕ} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w :=
  (View.readCov_eq_canon_ld v _ (Rect.unit off S.size inb)
      fun y => ⟨_, List.mem_cons.mpr (Or.inl rfl), View.mem_set_unit_zero h inb y⟩).trans
    ((congrArg (fun X => View.ld X (Rect.unit off S.size inb)) (View.canon_cons_unit_zero h inb w L)).trans
      (View.ld_unit_zero h inb w))

end Whole

theorem zeros2 : (![0, 0] : Fin 2 → ℕ) = fun _ => 0 := by funext a; fin_cases a <;> rfl

/-! ## The branch on the grid coordinate -/

/-- The branch of the body: the grid coordinate is zero. -/
abbrev cond1 (i : grid1.Coords) : Prop :=
  (Scalar.cmpi .ne (Scalar.extui (Scalar.cmpi .eq (BitVec.ofNat 32 (i 0).val) 0#32)) 0#32) = 1#1

/-- It holds at the first point and at no other. -/
theorem hcond1 : ∀ t : Fin cfg1.N, cond1 (grid1.coords t) ↔ t.val = 0 :=
  (by decide +kernel : ∀ t : Fin grid1.N, cond1 (grid1.coords t) ↔ t.val = 0)

/-! ## The body's triple

On whole staging buffers — the five inputs' at x0 … x4, the two outputs' at anything — and the scratch row, the body
runs to its continuation with the inputs' buffers as they were, the first output's at the scores of x0 … x4, and the
scratch row and the second output's both at the new running maximum. -/

set_option maxHeartbeats 1000000 in
/-- At the first point (the branch taken): the scratch row, at anything before, is reset to -∞ first. -/
theorem sound_kernel1_A (c : Dev nD) (E : Set ℕ) (i : grid1.Coords) (hc : cond1 i)
    (arg1 : Memref sig .tc .vmem S3200x128 .f32) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S3200x4 .f32) (harg4 : arg4.IsWhole)
    (arg5 : Memref sig .tc .vmem S3200x4 .f32) (harg5 : arg5.IsWhole)
    (arg6 : Memref sig .tc .vmem S3200x4 .f32) (harg6 : arg6.IsWhole)
    (arg7 : Memref sig .tc .vmem S1x4 .f32) (harg7 : arg7.IsWhole)
    (arg8 : Memref sig .tc .vmem S1x4 .f32) (harg8 : arg8.IsWhole)
    (x0 : Vec F S3200x128 .f32) (x1 : Vec F S128x128 .f32) (x2 : Vec F S1x128 .f32)
    (x3 : Vec F S3200x4 .f32) (x4 : Vec F S3200x4 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
        ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (k1_pay3 x0 x1 x2 x3 x4)
            ∗ owns (c : Thread nD τ) arg7 fullShare (k1_pay1 (k1_pay3 x0 x1 x2 x3 x4) (k1_pay2 (F := F)))
            ∗ owns (c : Thread nD τ) arg8 fullShare (k1_pay1 (k1_pay3 x0 x1 x2 x3 x4) (k1_pay2 (F := F)))) -∗ K ⟨⟩))
      ⊢ wp frame (wpE (defs₀ (F := F)) Variants.none c none) E
          (cc1__edge_score_combine_kernel i arg1 harg1 arg2 harg2 arg3 harg3 arg4 harg4 arg5 harg5 arg6 harg6 arg7 harg7 arg8 harg8) K := by
  simp only [cc1__edge_score_combine_kernel_eq_skeleton]; unfold cc1__edge_score_combine_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds, %fs, -, HS⟩, Hk⟩
  subst hf0 hf1 hf2 hf3 hf4
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (read_store_whole (S := S3200x4) arg6.view f5 zeros2 _ _ _).trans ?_
    simp only [readAt_whole (S := S3200x128) _ _ zeros2, readAt_whole (S := S128x128) _ _ zeros2,
      readAt_whole (S := S1x128) _ _ zeros2, readAt_whole (S := S3200x4) _ _ zeros2, readAt_whole (S := S1x4) _ _ zeros2]
  isplitl [H6]
  · iexists _; isplitr
    swap; · iexact H6
    ipureintro
    sl_unfold_words
    refine (read_store_whole (S := S1x4) arg7.view f6 zeros2 _ _ _).trans ?_
    refine (readCov_whole (S := S1x4) arg8.view zeros2 _ _ _).trans ?_
    simp only [readAt_whole (S := S3200x128) _ _ zeros2, readAt_whole (S := S128x128) _ _ zeros2,
      readAt_whole (S := S1x128) _ _ zeros2, readAt_whole (S := S3200x4) _ _ zeros2, readAt_whole (S := S1x4) _ _ zeros2, readCov_whole (S := S1x4) _ zeros2]
  iexists _; isplitr
  swap; · iexact HS
  ipureintro
  sl_unfold_words
  refine (read_store_whole (S := S1x4) arg8.view fs zeros2 _ _ _).trans ?_
  simp only [readAt_whole (S := S3200x128) _ _ zeros2, readAt_whole (S := S128x128) _ _ zeros2,
      readAt_whole (S := S1x128) _ _ zeros2, readAt_whole (S := S3200x4) _ _ zeros2, readAt_whole (S := S1x4) _ _ zeros2, readCov_whole (S := S1x4) _ zeros2]

set_option maxHeartbeats 1000000 in
/-- At a later point (the branch not taken): the scratch row holds xs, the running maximum so far. -/
theorem sound_kernel1_B (c : Dev nD) (E : Set ℕ) (i : grid1.Coords) (hc : ¬cond1 i)
    (arg1 : Memref sig .tc .vmem S3200x128 .f32) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S3200x4 .f32) (harg4 : arg4.IsWhole)
    (arg5 : Memref sig .tc .vmem S3200x4 .f32) (harg5 : arg5.IsWhole)
    (arg6 : Memref sig .tc .vmem S3200x4 .f32) (harg6 : arg6.IsWhole)
    (arg7 : Memref sig .tc .vmem S1x4 .f32) (harg7 : arg7.IsWhole)
    (arg8 : Memref sig .tc .vmem S1x4 .f32) (harg8 : arg8.IsWhole)
    (x0 : Vec F S3200x128 .f32) (x1 : Vec F S128x128 .f32) (x2 : Vec F S1x128 .f32)
    (x3 : Vec F S3200x4 .f32) (x4 : Vec F S3200x4 .f32) (xs : Vec F S1x4 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
        ∗ (∃ d, owns (c : Thread nD τ) arg6 fullShare d) ∗ (∃ d, owns (c : Thread nD τ) arg7 fullShare d)
        ∗ owns (c : Thread nD τ) arg8 fullShare xs
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (k1_pay3 x0 x1 x2 x3 x4)
            ∗ owns (c : Thread nD τ) arg7 fullShare (k1_pay1 (k1_pay3 x0 x1 x2 x3 x4) xs)
            ∗ owns (c : Thread nD τ) arg8 fullShare (k1_pay1 (k1_pay3 x0 x1 x2 x3 x4) xs)) -∗ K ⟨⟩))
      ⊢ wp frame (wpE (defs₀ (F := F)) Variants.none c none) E
          (cc1__edge_score_combine_kernel i arg1 harg1 arg2 harg2 arg3 harg3 arg4 harg4 arg5 harg5 arg6 harg6 arg7 harg7 arg8 harg8) K := by
  simp only [cc1__edge_score_combine_kernel_eq_skeleton]; unfold cc1__edge_score_combine_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs, %hfs, HS⟩, Hk⟩
  subst hf0 hf1 hf2 hf3 hf4 hfs
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (read_store_whole (S := S3200x4) arg6.view f5 zeros2 _ _ _).trans ?_
    simp only [readAt_whole (S := S3200x128) _ _ zeros2, readAt_whole (S := S128x128) _ _ zeros2,
      readAt_whole (S := S1x128) _ _ zeros2, readAt_whole (S := S3200x4) _ _ zeros2, readAt_whole (S := S1x4) _ _ zeros2]
  isplitl [H6]
  · iexists _; isplitr
    swap; · iexact H6
    ipureintro
    sl_unfold_words
    refine (read_store_whole (S := S1x4) arg7.view f6 zeros2 _ _ _).trans ?_
    refine (readCov_whole (S := S1x4) arg8.view zeros2 _ _ _).trans ?_
    simp only [readAt_whole (S := S3200x128) _ _ zeros2, readAt_whole (S := S128x128) _ _ zeros2,
      readAt_whole (S := S1x128) _ _ zeros2, readAt_whole (S := S3200x4) _ _ zeros2, readAt_whole (S := S1x4) _ _ zeros2]
  iexists _; isplitr
  swap; · iexact HS
  ipureintro
  sl_unfold_words
  refine (read_store_whole (S := S1x4) arg8.view fs zeros2 _ _ _).trans ?_
  simp only [readAt_whole (S := S3200x128) _ _ zeros2, readAt_whole (S := S128x128) _ _ zeros2,
      readAt_whole (S := S1x128) _ _ zeros2, readAt_whole (S := S3200x4) _ _ zeros2, readAt_whole (S := S1x4) _ _ zeros2]

/-! ## The staging memrefs and the scratch -/

/-- Each window's current staging memref at point t, as the pipeline passes it to the body, and its wholeness. -/
abbrev ms1_0 (t : Fin cfg1.N) : Memref sig .tc .vmem S3200x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S3200x4 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S3200x4 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S3200x4 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x4 .f32 := win1_6.stage (cfg1.slots t 6)
abbrev hs1_6 (t : Fin cfg1.N) : (ms1_6 t).IsWhole := hstage1_6 ((cfg1.slots t 6).cast nbuf1_6)

/-- The scratch row the kernel keeps from point to point: a whole scoped buffer of its own. -/
abbrev scM1 : Memref sig .tc .vmem S1x4 .f32 := Memref.whole cc1_scratch0

/-- What the launch hands the region, with the scratch row taken out of the scoped rest: the row owned at some
    contents, every other scoped buffer that is no staging buffer of this region (unopened), and the generator register. -/
theorem PhiA1_eq (c : Dev nD) :
    (Pipeline.ΦA spec1 c : sProp 𝕄)
      = iprop(((∃ d, owns (c : Thread nD τ) scM1 fullShare d)
          ∗ Pipeline.scopedRestBut (Ix := Unit) (Name := ℕ) (U := UR sig nD τ) (Lvl := ℕ) (Val := Elt F) spec1 c [cc1_scratch0])
        ∗ (∃ r, prngReg c r)) := by
  unfold Pipeline.ΦA
  rw [Pipeline.scopedRest_split_of_list spec1 c [cc1_scratch0] (by decide) (by decide)]
  simp only [scM1, owns_whole, bigSepL_singleton]
  rfl

variable (V : (c : Dev nD) → (b : Ref sig .tc) → Buf (Elt F) ((c : Thread nD τ).loc b))

/-! ## The blocks the pipeline hands the body, and what the body computes from them -/

/-- Window w's block at point t, read off its array as the region finds it. -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scores of point t's 3200 edges (4 heads each): computed from the point's blocks of the five inputs. -/
noncomputable def logits1 (c : Dev nD) (t : Fin cfg1.N) : Vec F S3200x4 .f32 :=
  k1_pay3 (iblk1 V c 0 t) (iblk1 V c 1 t) (iblk1 V c 2 t) (iblk1 V c 3 t) (iblk1 V c 4 t)

/-- The running per-head maximum after point n: at the first point the maximum of that point's scores with -∞,
    afterwards the maximum of the point's scores with what the point before left. -/
noncomputable def runmax1 (c : Dev nD) : (n : ℕ) → n < cfg1.N → Vec F S1x4 .f32
  | 0, h => k1_pay1 (logits1 V c ⟨0, h⟩) (k1_pay2 (F := F))
  | n + 1, h => k1_pay1 (logits1 V c ⟨n + 1, h⟩) (runmax1 c n (Nat.lt_of_succ_lt h))

theorem runmax1_zero (c : Dev nD) (t : Fin cfg1.N) (h0 : t.val = 0) :
    runmax1 V c t.val t.isLt = k1_pay1 (logits1 V c t) (k1_pay2 (F := F)) := by
  obtain ⟨n, hn⟩ := t
  cases n with
  | zero => rfl
  | succ n => exact absurd h0 (Nat.succ_ne_zero n)

theorem runmax1_pos (c : Dev nD) (t : Fin cfg1.N) (h0 : t.val ≠ 0) :
    runmax1 V c t.val t.isLt
      = k1_pay1 (logits1 V c t) (runmax1 V c (t.val - 1) (Nat.lt_of_le_of_lt (Nat.sub_le _ _) t.isLt)) := by
  obtain ⟨n, hn⟩ := t
  cases n with
  | zero => exact absurd rfl h0
  | succ n => rfl

/-! ## The region invariant -/

/-- Before point n: at the first point what the launch hands the region; afterwards the same with the scratch row
    at the running maximum the point before left. -/
noncomputable def PhiS1 (c : Dev nD) : (n : ℕ) → n ≤ cfg1.N → sProp 𝕄
  | 0, _ => Pipeline.ΦA spec1 c
  | n + 1, hn => iprop((owns (c : Thread nD τ) scM1 fullShare (runmax1 V c n hn)
        ∗ Pipeline.scopedRestBut (Ix := Unit) (Name := ℕ) (U := UR sig nD τ) (Lvl := ℕ) (Val := Elt F) spec1 c [cc1_scratch0])
      ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((owns (c : Thread nD τ) scM1 fullShare (runmax1 V c n hn)
        ∗ Pipeline.scopedRestBut (Ix := Unit) (Name := ℕ) (U := UR sig nD τ) (Lvl := ℕ) (Val := Elt F) spec1 c [cc1_scratch0])
      ∗ (∃ r, prngReg c r)) := rfl

theorem PhiS1_pos (c : Dev nD) (n : ℕ) (h : n ≤ cfg1.N) (hz : n ≠ 0) :
    PhiS1 V c n h = iprop((owns (c : Thread nD τ) scM1 fullShare (runmax1 V c (n - 1) (by omega))
        ∗ Pipeline.scopedRestBut (Ix := Unit) (Name := ℕ) (U := UR sig nD τ) (Lvl := ℕ) (Val := Elt F) spec1 c [cc1_scratch0])
      ∗ (∃ r, prngReg c r)) := by
  cases n with
  | zero => exact absurd rfl hz
  | succ n => rfl

/-! ## The proof data -/

/-- The region's proof data on core c: the arrays as the region finds them; after the body at point t the input
    buffers at their blocks, the score block's buffer at the point's scores, the maximum's buffer at the running
    maximum; the invariant carries the scratch row at the running maximum; nothing owed; full shares. -/
noncomputable def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => logits1 V c t
    | ⟨6, _⟩ => runmax1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = logits1 V c t := by dsimp only [dat1]
theorem after1_6 (c : Dev nD) (t : Fin cfg1.N) : (dat1 V c).after 6 t = runmax1 V c t.val t.isLt := by dsimp only [dat1]

/-- The score block after point t, from the point's input blocks. -/
theorem after1_5_eq (c : Dev nD) (t : Fin cfg1.N) :
    (dat1 V c).after 5 t = k1_pay3 (iblk1 V c 0 t) (iblk1 V c 1 t) (iblk1 V c 2 t) (iblk1 V c 3 t) (iblk1 V c 4 t) := by
  rw [after1_5]; rfl

/-- The running maximum after the first point. -/
theorem after1_6_zero (c : Dev nD) (t : Fin cfg1.N) (h0 : t.val = 0) :
    (dat1 V c).after 6 t = k1_pay1 ((dat1 V c).after 5 t) (k1_pay2 (F := F)) := by
  rw [after1_6, after1_5]; exact runmax1_zero V c t h0

/-- The running maximum after a later point, from the one before. -/
theorem after1_6_succ (c : Dev nD) (t : Fin cfg1.N) (h0 : t.val ≠ 0) :
    (dat1 V c).after 6 t = k1_pay1 ((dat1 V c).after 5 t) ((dat1 V c).after 6 ⟨t.val - 1, by omega⟩) := by
  rw [after1_6, after1_5, after1_6]; exact runmax1_pos V c t h0

theorem PhiS1_castSucc (c : Dev nD) (t : Fin cfg1.N) :
    (dat1 V c).Φ t.castSucc = PhiS1 V c t.val (Nat.le_of_lt t.isLt) := by
  dsimp only [dat1]; simp only [Fin.coe_castSucc]

/-! ## What the body finds in the input buffers

An input window's current staging buffer holds the window's block at every point, fetched there or not: where it
is not fetched its block index has not moved, and the body left the block in place. -/

/-- The edge-feature block (fetched at every point). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The weight matrix (fetched once; its block index never moves). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The attention row (fetched once). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- The source-score block (fetched at every point). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- The destination-score block (fetched at every point). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The per-point obligation -/

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t))

set_option maxHeartbeats 2000000 in
/-- The body at any point. The input buffers hold their blocks; at the first point the invariant is what the launch
    hands over, the scratch row at anything, and the body resets it; at a later point the invariant hands the body the
    scratch row at the running maximum the point before left. Either way the body returns the row at this point's
    running maximum, which is the invariant before the next point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ,
    after1_0, after1_1, after1_2, after1_3, after1_4, after1_5, after1_6, PhiS1_castSucc]
  by_cases hz : t.val = 0
  · rw [PhiS1_zero V c _ _ hz, PhiA1_eq, runmax1_zero V c t hz]
    unfold logits1
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel1_A c Set.univ (grid1.coords t) ((hcond1 t).mpr hz) (ms1_0 t) (hs1_0 t) (ms1_1 t) (hs1_1 t)
      (ms1_2 t) (hs1_2 t) (ms1_3 t) (hs1_3 t) (ms1_4 t) (hs1_4 t) (ms1_5 t) (hs1_5 t) (ms1_6 t) (hs1_6 t)
      scM1 (Memref.isWhole_whole _) (iblk1 V c 0 t) (iblk1 V c 1 t) (iblk1 V c 2 t) (iblk1 V c 3 t) (iblk1 V c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS HR Hg]
    · isplitr [Hg]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [PhiS1_pos V c _ _ hz, runmax1_pos V c t hz]
    unfold logits1
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel1_B c Set.univ (grid1.coords t) (fun h => hz ((hcond1 t).mp h)) (ms1_0 t) (hs1_0 t) (ms1_1 t) (hs1_1 t)
      (ms1_2 t) (hs1_2 t) (ms1_3 t) (hs1_3 t) (ms1_4 t) (hs1_4 t) (ms1_5 t) (hs1_5 t) (ms1_6 t) (hs1_6 t)
      scM1 (Memref.isWhole_whole _) (iblk1 V c 0 t) (iblk1 V c 1 t) (iblk1 V c 2 t) (iblk1 V c 3 t) (iblk1 V c 4 t)
      (runmax1 V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS HR Hg]
    · isplitr [Hg]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The pipeline rule's obligation, at every point. -/
theorem body_obligation1 (c : Dev nD) : BodyObligation (dat1 (F := F) V c) (defs₀ (F := F)) Variants.none () Set.univ := fun t => by
  rw [bigSep_W1, bigSep_W1]
  exact sound_body1 V c t

/-! ## Into and out of the region -/

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]

/-- After the last point the invariant gives it back: the scratch row's contents are forgotten. -/
theorem hout1 (c : Dev nD) : (dat1 V c).Φ (Fin.last cfg1.N) ⊢ (Pipeline.ΦA spec1 c : sProp 𝕄) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 200 := N_1; omega), PhiA1_eq]
  iintro ⟨⟨HS, HR⟩, Hg⟩
  isplitr [Hg]
  · isplitl [HS]
    · iexists _; iexact HS
    iexact HR
  iexact Hg

end Cert.Kernel.Hand

end
-- ==== Proof.K.R2.lean ====
/-
  The third kernel region: the weights exp(e - m) of the edge scores and the running sum of their columns,
  one hundred row blocks of 6400 rows.

  At a grid point t the body reads the point's block of e (rows 6400·t … 6400·t + 6399) and the row m of column
  maxima, stores exp(e - m) over the whole block of weights, adds the column sums of that block to a running sum
  it keeps in a buffer of its own from point to point, and stores the running sum over the whole [1,4] output
  block.  At the first point (grid coordinate 0) it first fills the running sum with zeros; at every other point
  the running sum is what the point before left.  Here: the two cases' triples; the running sum after each point,
  by recursion on the point; the region's proof data, whose invariant carries the running sum's buffer at that
  value; the per-point obligation the pipeline rule asks for; and what each output block holds after the body,
  as the payloads of its stores applied to the blocks read.
-/
import proofs.«424763_j188978561164_3_alg».proof.Proof.Gen.Kernel.Launch
import proofs.«424763_j188978561164_3_alg».proof.Proof.Gen.Kernel.Skeleton
import proofs.«424763_j188978561164_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Whole-block rectangles -/

/-- The zero offsets, as the stores and loads of the body spell them. -/
theorem hz2 : (![0, 0] : Fin 2 → Nat) = fun _ => 0 := funext fun a => by fin_cases a <;> rfl

/-- A list of stores whose last one (the head) is over the whole [6400,4] block covers the block. -/
theorem cover2_wide (p : Vec F S6400x4 .f32) (L : List (View.Piece (Elt F) S6400x4 .f32)) (y : S6400x4.Idx) :
    ∃ pc ∈ ((⟨Rect.unit (s := S6400x4) ![0, 0] S6400x4.size inb_S6400x4_S6400x4_0_0, p⟩ : View.Piece (Elt F) S6400x4 .f32) :: L), y ∈ pc.1.set :=
  ⟨_, List.mem_cons.mpr (Or.inl rfl), View.mem_set_unit_zero hz2 inb_S6400x4_S6400x4_0_0 y⟩

/-- The same for the [1,4] blocks. -/
theorem cover2_row (p : Vec F S1x4 .f32) (L : List (View.Piece (Elt F) S1x4 .f32)) (y : S1x4.Idx) :
    ∃ pc ∈ ((⟨Rect.unit (s := S1x4) ![0, 0] S1x4.size inb_S1x4_S1x4_0_0, p⟩ : View.Piece (Elt F) S1x4 .f32) :: L), y ∈ pc.1.set :=
  ⟨_, List.mem_cons.mpr (Or.inl rfl), View.mem_set_unit_zero hz2 inb_S1x4_S1x4_0_0 y⟩

/-! ## The branch of the body -/

/-- The condition under which the body zeroes the running sum: the grid coordinate is 0. -/
abbrev cond2 (i : grid2.Coords) : Prop := (Scalar.cmpi .ne (Scalar.extui (Scalar.cmpi .eq (BitVec.ofNat 32 (i 0).val) 0#32)) 0#32) = 1#1

/-- It holds at the first of the 100 points and at no other. -/
theorem hcond2 : ∀ t : Fin cfg2.N, cond2 (grid2.coords t) ↔ t.val % 100 = 0 :=
  (by decide +kernel : ∀ t : Fin grid2.N, cond2 (grid2.coords t) ↔ t.val % 100 = 0)

/-! ## The body's triples -/

set_option maxHeartbeats 1000000 in
/-- At a point that is not the first: on whole buffers, the two inputs' at e and m, the two outputs' at anything and the
    running sum at s, the body runs to its continuation with the inputs' as they were, the weights' block at
    exp(e - m) and both the sum's block and the running sum at s + the column sums of the weights. -/
theorem sound_kernel2_later (c : Dev nD) (E : Set ℕ) (i : grid2.Coords)
    (arg1 : Memref sig .tc .vmem S6400x4 .f32) (harg1 : arg1.IsWhole) (arg2 : Memref sig .tc .vmem S1x4 .f32) (harg2 : arg2.IsWhole)
    (arg3 : Memref sig .tc .vmem S6400x4 .f32) (harg3 : arg3.IsWhole) (arg4 : Memref sig .tc .vmem S1x4 .f32) (harg4 : arg4.IsWhole)
    (arg5 : Memref sig .tc .vmem S1x4 .f32) (harg5 : arg5.IsWhole) (hc : ¬cond2 i)
    (x0 : Vec F S6400x4 .f32) (x1 : Vec F S1x4 .f32) (xs : Vec F S1x4 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ owns (c : Thread nD τ) arg5 fullShare xs
        ∗ (iprop(owns (c : Thread nD τ) arg1 fullShare x0 ∗ owns (c : Thread nD τ) arg2 fullShare x1
            ∗ owns (c : Thread nD τ) arg3 fullShare (k2_pay2 x0 x1)
            ∗ owns (c : Thread nD τ) arg4 fullShare (k2_pay3 x0 x1 xs)
            ∗ owns (c : Thread nD τ) arg5 fullShare (k2_pay3 x0 x1 xs)) -∗ K ⟨⟩))
      ⊢ wp frame (wpE (defs₀ (F := F)) Variants.none c none) E
          (cc2__sumexp_weight_kernel i arg1 harg1 arg2 harg2 arg3 harg3 arg4 harg4 arg5 harg5) K := by
  simp only [cc2__sumexp_weight_kernel_eq_skeleton]; unfold cc2__sumexp_weight_kernel_skel
  unfold owns
  iintro ⟨⟨%f0, %hf0, H0⟩, ⟨%f1, %hf1, H1⟩, ⟨%d2, %f2, -, H2⟩, ⟨%d3, %f3, -, H3⟩, ⟨%fs, %hfs, HS⟩, Hk⟩
  obtain rfl := harg1.eq_unread hf0; obtain rfl := harg2.eq_unread hf1; obtain rfl := harg5.eq_unread hfs
  sl_exec (disch := first | exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    rw [View.read_writes_eq_canon _ _ _ (cover2_wide _ _), View.canon_unit_zero hz2]
    simp only [View.readAt_eq_ld, harg1.read_unread, harg2.read_unread, View.ld_unit_zero (S := S6400x4) hz2, View.ld_unit_zero (S := S1x4) hz2]
  isplitl [H3]
  · iexists _; isplitr
    swap; · iexact H3
    ipureintro
    rw [View.read_writes_eq_canon _ _ _ (cover2_row _ _), View.canon_unit_zero hz2]
    sl_unfold_words
    rw [View.readCov_unit_zero (S := S1x4) _ hz2]
    simp only [View.readAt_eq_ld, harg1.read_unread, harg2.read_unread, harg5.read_unread, View.ld_unit_zero (S := S6400x4) hz2, View.ld_unit_zero (S := S1x4) hz2]
  iexists _; isplitr
  swap; · iexact HS
  ipureintro
  sl_unfold_words
  rw [View.read_writes_eq_canon _ _ _ (cover2_row _ _), View.canon_unit_zero hz2]
  simp only [View.readAt_eq_ld, harg1.read_unread, harg2.read_unread, harg5.read_unread, View.ld_unit_zero (S := S6400x4) hz2, View.ld_unit_zero (S := S1x4) hz2]

set_option maxHeartbeats 1000000 in
/-- At the first point: the same from the running sum at anything, which the body first fills with zeros. -/
theorem sound_kernel2_first (c : Dev nD) (E : Set ℕ) (i : grid2.Coords)
    (arg1 : Memref sig .tc .vmem S6400x4 .f32) (harg1 : arg1.IsWhole) (arg2 : Memref sig .tc .vmem S1x4 .f32) (harg2 : arg2.IsWhole)
    (arg3 : Memref sig .tc .vmem S6400x4 .f32) (harg3 : arg3.IsWhole) (arg4 : Memref sig .tc .vmem S1x4 .f32) (harg4 : arg4.IsWhole)
    (arg5 : Memref sig .tc .vmem S1x4 .f32) (harg5 : arg5.IsWhole) (hc : cond2 i)
    (x0 : Vec F S6400x4 .f32) (x1 : Vec F S1x4 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (∃ d, owns (c : Thread nD τ) arg5 fullShare d)
        ∗ (iprop(owns (c : Thread nD τ) arg1 fullShare x0 ∗ owns (c : Thread nD τ) arg2 fullShare x1
            ∗ owns (c : Thread nD τ) arg3 fullShare (k2_pay2 x0 x1)
            ∗ owns (c : Thread nD τ) arg4 fullShare (k2_pay3 x0 x1 (k2_pay1 (F := F)))
            ∗ owns (c : Thread nD τ) arg5 fullShare (k2_pay3 x0 x1 (k2_pay1 (F := F)))) -∗ K ⟨⟩))
      ⊢ wp frame (wpE (defs₀ (F := F)) Variants.none c none) E
          (cc2__sumexp_weight_kernel i arg1 harg1 arg2 harg2 arg3 harg3 arg4 harg4 arg5 harg5) K := by
  simp only [cc2__sumexp_weight_kernel_eq_skeleton]; unfold cc2__sumexp_weight_kernel_skel
  unfold owns
  iintro ⟨⟨%f0, %hf0, H0⟩, ⟨%f1, %hf1, H1⟩, ⟨%d2, %f2, -, H2⟩, ⟨%d3, %f3, -, H3⟩, ⟨%ds, %fs, -, HS⟩, Hk⟩
  obtain rfl := harg1.eq_unread hf0; obtain rfl := harg2.eq_unread hf1
  sl_exec (disch := first | exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    rw [View.read_writes_eq_canon _ _ _ (cover2_wide _ _), View.canon_unit_zero hz2]
    simp only [View.readAt_eq_ld, harg1.read_unread, harg2.read_unread, View.ld_unit_zero (S := S6400x4) hz2, View.ld_unit_zero (S := S1x4) hz2]
  isplitl [H3]
  · iexists _; isplitr
    swap; · iexact H3
    ipureintro
    rw [View.read_writes_eq_canon _ _ _ (cover2_row _ _), View.canon_unit_zero hz2]
    sl_unfold_words
    rw [View.readCov_eq_canon_ld _ _ _ (cover2_row _ _), View.canon_cons_unit_zero (S := S1x4) hz2, View.ld_unit_zero (S := S1x4) hz2,
      View.readCov_unit_zero (S := S1x4) _ hz2]
    simp only [View.readAt_eq_ld, harg1.read_unread, harg2.read_unread, View.ld_unit_zero (S := S6400x4) hz2, View.ld_unit_zero (S := S1x4) hz2]
  iexists _; isplitr
  swap; · iexact HS
  ipureintro
  sl_unfold_words
  rw [View.read_writes_eq_canon _ _ _ (cover2_row _ _), View.canon_cons_unit_zero (S := S1x4) hz2, View.readCov_unit_zero (S := S1x4) _ hz2]
  simp only [View.readAt_eq_ld, harg1.read_unread, harg2.read_unread, View.ld_unit_zero (S := S6400x4) hz2, View.ld_unit_zero (S := S1x4) hz2]

/-! ## The blocks the pipeline hands the body -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The block of e is in its staging buffer at every point (it is fetched at every point). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The row m is in its staging buffer at every point (fetched once; its block index never moves). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The running sum, point by point -/

/-- The running sum after the body at point n: at the first point the column sums of the point's weights added to
    zero, afterwards added to what the point before left. -/
def sum2 (c : Dev nD) : (n : ℕ) → n < cfg2.N → Vec F S1x4 .f32
  | 0, h => k2_pay3 (iblk2 V c 0 ⟨0, h⟩) (iblk2 V c 1 ⟨0, h⟩) (k2_pay1 (F := F))
  | n + 1, h => k2_pay3 (iblk2 V c 0 ⟨n + 1, h⟩) (iblk2 V c 1 ⟨n + 1, h⟩) (sum2 c n (Nat.lt_of_succ_lt h))

theorem sum2_first (c : Dev nD) (t : Fin cfg2.N) (h0 : t.val = 0) :
    sum2 V c t.val t.isLt = k2_pay3 (iblk2 V c 0 t) (iblk2 V c 1 t) (k2_pay1 (F := F)) := by
  obtain ⟨n, hn⟩ := t
  cases n with
  | zero => rfl
  | succ n => exact absurd h0 (Nat.succ_ne_zero n)

theorem sum2_later (c : Dev nD) (t : Fin cfg2.N) (h0 : t.val ≠ 0) :
    sum2 V c t.val t.isLt
      = k2_pay3 (iblk2 V c 0 t) (iblk2 V c 1 t) (sum2 V c (t.val - 1) (Nat.lt_of_le_of_lt (Nat.sub_le _ _) t.isLt)) := by
  obtain ⟨n, hn⟩ := t
  cases n with
  | zero => exact absurd rfl h0
  | succ n => rfl

/-! ## The region's invariant -/

/-- The buffer the body keeps the running sum in, whole. -/
abbrev scM2 : Memref sig .tc .vmem S1x4 .f32 := Memref.whole cc2_scratch0

/-- Every other scoped buffer of the core that is no staging buffer of this region, at some contents each: the body
    touches none of them. -/
abbrev rest2 (c : Dev nD) : sProp 𝕄 :=
  Pipeline.scopedRestBut (Ix := Unit) (Name := ℕ) (U := UR sig nD τ) (Lvl := ℕ) (Val := Elt F) spec2 c [cc2_scratch0]

/-- What the region is entered with, the running sum's buffer named: that buffer at some contents, the other scoped
    buffers, the generator register at some state. -/
theorem PhiA2_eq (c : Dev nD) :
    (Pipeline.ΦA spec2 c : sProp 𝕄)
      = iprop(iprop((∃ d, owns (c : Thread nD τ) scM2 fullShare d) ∗ rest2 (F := F) c) ∗ (∃ r, prngReg c r)) := by
  unfold Pipeline.ΦA
  rw [Pipeline.scopedRest_split_of_list spec2 c [cc2_scratch0] (by decide) (by decide)]
  simp only [bigSepL_singleton, scM2, owns_whole]; try rfl

/-- The invariant before position n: before the first point what the region is entered with; afterwards the same
    with the running sum's buffer at what the point before left. -/
def Phi2 (c : Dev nD) : (n : ℕ) → n ≤ cfg2.N → sProp 𝕄
  | 0, _ => Pipeline.ΦA spec2 c
  | n + 1, hn => iprop(iprop(owns (c : Thread nD τ) scM2 fullShare (sum2 V c n hn) ∗ rest2 (F := F) c) ∗ (∃ r, prngReg c r))

theorem Phi2_zero (c : Dev nD) (n : ℕ) (h : n ≤ cfg2.N) (hz : n = 0) : Phi2 V c n h = Pipeline.ΦA spec2 c := by
  subst hz; rfl

theorem Phi2_succ (c : Dev nD) (n : ℕ) (hn : n < cfg2.N) :
    Phi2 V c (n + 1) hn = iprop(iprop(owns (c : Thread nD τ) scM2 fullShare (sum2 V c n hn) ∗ rest2 (F := F) c) ∗ (∃ r, prngReg c r)) := rfl

theorem Phi2_pos (c : Dev nD) (n : ℕ) (h : n ≤ cfg2.N) (hz : n ≠ 0) :
    Phi2 V c n h = iprop(iprop(owns (c : Thread nD τ) scM2 fullShare (sum2 V c (n - 1) (by omega)) ∗ rest2 (F := F) c) ∗ (∃ r, prngReg c r)) := by
  cases n with
  | zero => exact absurd rfl hz
  | succ n => rfl

/-! ## The proof data and the per-point obligation -/

/-- The region's proof data on core c: the arrays as the region finds them; after the body at point t the input
    buffers at their blocks, the weights' at exp(e - m) of the two, the sum's at the running sum after t; the
    invariant as above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay2 (iblk2 V c 0 t) (iblk2 V c 1 t)
    | ⟨3, _⟩ => sum2 V c t.val t.isLt
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_3 (c : Dev nD) (t : Fin cfg2.N) : (dat2 V c).after 3 t = sum2 V c t.val t.isLt := by dsimp only [dat2]

/-- The weights' block after the body at point t: exp(e - m) of the point's blocks. -/
theorem after2_2_eq (c : Dev nD) (t : Fin cfg2.N) : (dat2 V c).after 2 t = k2_pay2 (iblk2 V c 0 t) (iblk2 V c 1 t) := by dsimp only [dat2]

/-- The sum's block after the body at the first point: the column sums of the point's weights added to zero. -/
theorem after2_3_zero (c : Dev nD) (t : Fin cfg2.N) (h0 : t.val = 0) :
    (dat2 V c).after 3 t = k2_pay3 (iblk2 V c 0 t) (iblk2 V c 1 t) (k2_pay1 (F := F)) := by
  rw [after2_3]; exact sum2_first V c t h0

/-- The sum's block after the body at a later point: the column sums of the point's weights added to what the
    block held after the point before. -/
theorem after2_3_succ (c : Dev nD) (t : Fin cfg2.N) (h0 : t.val ≠ 0) :
    (dat2 V c).after 3 t = k2_pay3 (iblk2 V c 0 t) (iblk2 V c 1 t) ((dat2 V c).after 3 ⟨t.val - 1, by omega⟩) := by
  rw [after2_3, after2_3]; exact sum2_later V c t h0

theorem Phi2_castSucc (c : Dev nD) (t : Fin cfg2.N) :
    (dat2 V c).Φ t.castSucc = Phi2 V c t.val (Nat.le_of_lt t.isLt) := by
  dsimp only [dat2]; simp only [Fin.coe_castSucc]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point t, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

set_option maxHeartbeats 1000000 in
/-- The body at any point: the inputs' buffers hold their blocks; at the first point the invariant hands the
    running sum's buffer at anything and the first triple applies, at any other it hands it at what the point
    before left and the other triple applies; either way the buffer goes back at the running sum after this point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl,
    show (dat2 V c).Φ t.succ = Phi2 V c (t.val + 1) t.isLt from rfl, Phi2_succ, Phi2_castSucc,
    after2_0, after2_1, after2_2_eq, after2_3]
  have hN : t.val < 100 := lt_of_lt_of_eq t.isLt (show cfg2.N = 100 from N_2)
  by_cases hz : t.val = 0
  · rw [Phi2_zero V c _ _ hz, PhiA2_eq, sum2_first V c t hz]
    iintro ⟨⟨⟨HS, Hr⟩, Hg⟩, Ho, ⟨%d0, H0⟩, ⟨%d1, H1⟩, ⟨%d2, H2⟩, ⟨%d3, H3⟩⟩
    iapply (sound_kernel2_first c Set.univ _ _ _ _ _ _ _ _ _ _ _ ((hcond2 t).mpr (by omega)) (iblk2 V c 0 t) (iblk2 V c 1 t) _)
    isplitl [H0]; · iexact H0
    isplitl [H1]; · iexact H1
    isplitl [H2]; · iexists _; iexact H2
    isplitl [H3]; · iexists _; iexact H3
    isplitl [HS]; · iexact HS
    iintro ⟨H0, H1, H2, H3, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    iexact H3
  · rw [Phi2_pos V c _ _ hz, sum2_later V c t hz]
    iintro ⟨⟨⟨HS, Hr⟩, Hg⟩, Ho, ⟨%d0, H0⟩, ⟨%d1, H1⟩, ⟨%d2, H2⟩, ⟨%d3, H3⟩⟩
    iapply (sound_kernel2_later c Set.univ _ _ _ _ _ _ _ _ _ _ _ (fun h => hz (by have := (hcond2 t).mp h; omega)) (iblk2 V c 0 t) (iblk2 V c 1 t) _ _)
    isplitl [H0]; · iexact H0
    isplitl [H1]; · iexact H1
    isplitl [H2]; · iexists _; iexact H2
    isplitl [H3]; · iexists _; iexact H3
    isplitl [HS]; · iexact HS
    iintro ⟨H0, H1, H2, H3, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    iexact H3

/-- The pipeline rule's obligation, at every point. -/
theorem body_obligation2 (c : Dev nD) : BodyObligation (dat2 (F := F) V c) (defs₀ (F := F)) Variants.none () Set.univ := fun t => by
  rw [bigSep_W2, bigSep_W2]
  exact sound_body2 V c t

/-- What the region is entered with is the invariant before the first point. -/
theorem hin2 (c : Dev nD) : (Pipeline.ΦA spec2 c : sProp 𝕄) ⊢ (dat2 V c).Φ 0 := by
  rw [show (dat2 V c).Φ 0 = Phi2 V c 0 (Nat.zero_le _) from rfl, Phi2_zero V c 0 _ rfl]
  try exact Idealize.SL.BI.Entails.refl _

/-- After the last point the invariant gives it back: the running sum's value is forgotten. -/
theorem hout2 (c : Dev nD) : (dat2 V c).Φ (Fin.last cfg2.N) ⊢ (Pipeline.ΦA spec2 c : sProp 𝕄) := by
  rw [show (dat2 V c).Φ (Fin.last cfg2.N) = Phi2 V c (Fin.last cfg2.N).val (Nat.le_of_lt_succ (Fin.last cfg2.N).isLt) from rfl,
    Phi2_pos V c _ _ (by rw [Fin.val_last]; have : cfg2.N = 100 := N_2; omega), PhiA2_eq]
  iintro ⟨⟨HS, Hr⟩, Hg⟩
  isplitl [HS Hr]
  · isplitl [HS]
    · iexists _; iexact HS
    iexact Hr
  iexact Hg

end Cert.Kernel.Hand

end
-- ==== Proof.K.Run.lean ====
/-
  The program's run: its three kernel regions chained through the host operations between them.

  What each region is entered with is what the launch, the regions before it and the host stretches between have
  left: the launch memory; then the first region's product written over main_v0; then the host stretches that make
  the edge scores; then the second region's logits and their maximum; then the third region's weights and their sum;
  then the host stretches that gather, scale, scatter and rectify.  Each region is a segment whose proof data is
  the region's own, stated at the contents it is entered with; the launch over the segments gives termination, the
  result buffer at the last boundary's contents, and every argument as launched.
-/
import proofs.«424763_j188978561164_3_alg».proof.Proof.Gen.Kernel.Launch
import proofs.«424763_j188978561164_3_alg».proof.Proof.Gen.Kernel.Skeleton
import proofs.«424763_j188978561164_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«424763_j188978561164_3_alg».proof.Proof.K.R0
import proofs.«424763_j188978561164_3_alg».proof.Proof.K.R1
import proofs.«424763_j188978561164_3_alg».proof.Proof.K.R2
import proofs.«424763_j188978561164_3_alg».proof.Proof.K.RunCond
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions are entered with, and what they leave -/

/-- The first region's entry contents: the launch memory. -/
abbrev U0 (c : Dev nD) (b : Ref sig .tc) : Buf (Elt F) ((c : Thread nD τ).loc b) := Gen.V0 m c b

/-- What the first region leaves in main_v0. -/
def o0 (c : Dev nD) : Buf (Elt F) ((c : Thread nD τ).loc main_v0) := (dat0 (U0 m) c).arrAt 2 cfg0.N

/-- The regions' results so far: the first region's only. -/
def outsA : Gen.Outs (F := F) := fun _ r c =>
  if h : r = main_v0 then h ▸ o0 m c else Gen.V0 m c r

/-- The second region's entry contents. -/
abbrev U1 (c : Dev nD) (b : Ref sig .tc) : Buf (Elt F) ((c : Thread nD τ).loc b) := Gen.V4 m (outsA m) c b

def o1a (c : Dev nD) : Buf (Elt F) ((c : Thread nD τ).loc main_v15_0) := (dat1 (U1 m) c).arrAt 5 cfg1.N
def o1b (c : Dev nD) : Buf (Elt F) ((c : Thread nD τ).loc main_v15_1) := (dat1 (U1 m) c).arrAt 6 cfg1.N

/-- The regions' results so far: the first two regions'. -/
def outsB : Gen.Outs (F := F) := fun _ r c =>
  if h : r = main_v0 then h ▸ o0 m c
  else if h : r = main_v15_0 then h ▸ o1a m c
  else if h : r = main_v15_1 then h ▸ o1b m c
  else Gen.V0 m c r

/-- The third region's entry contents. -/
abbrev U2 (c : Dev nD) (b : Ref sig .tc) : Buf (Elt F) ((c : Thread nD τ).loc b) := Gen.V5 m (outsB m) c b

def o2a (c : Dev nD) : Buf (Elt F) ((c : Thread nD τ).loc main_v16_0) := (dat2 (U2 m) c).arrAt 2 cfg2.N
def o2b (c : Dev nD) : Buf (Elt F) ((c : Thread nD τ).loc main_v16_1) := (dat2 (U2 m) c).arrAt 3 cfg2.N

/-- What the three regions leave in the buffers they write. -/
def outs : Gen.Outs (F := F) := fun _ r c =>
  if h : r = main_v0 then h ▸ o0 m c
  else if h : r = main_v15_0 then h ▸ o1a m c
  else if h : r = main_v15_1 then h ▸ o1b m c
  else if h : r = main_v16_0 then h ▸ o2a m c
  else if h : r = main_v16_1 then h ▸ o2b m c
  else Gen.V0 m c r

theorem outsA_o0 (J : ℕ) (c : Dev nD) : outsA m J main_v0 c = o0 m c := by unfold outsA; rw [dif_pos rfl]
theorem outsB_o0 (J : ℕ) (c : Dev nD) : outsB m J main_v0 c = o0 m c := by unfold outsB; rw [dif_pos rfl]
theorem outsB_o1a (J : ℕ) (c : Dev nD) : outsB m J main_v15_0 c = o1a m c := by
  unfold outsB; rw [dif_neg (by decide), dif_pos rfl]
theorem outsB_o1b (J : ℕ) (c : Dev nD) : outsB m J main_v15_1 c = o1b m c := by
  unfold outsB; rw [dif_neg (by decide), dif_neg (by decide), dif_pos rfl]
theorem outs_o0 (J : ℕ) (c : Dev nD) : outs m J main_v0 c = o0 m c := by unfold outs; rw [dif_pos rfl]
theorem outs_o1a (J : ℕ) (c : Dev nD) : outs m J main_v15_0 c = o1a m c := by
  unfold outs; rw [dif_neg (by decide), dif_pos rfl]
theorem outs_o1b (J : ℕ) (c : Dev nD) : outs m J main_v15_1 c = o1b m c := by
  unfold outs; rw [dif_neg (by decide), dif_neg (by decide), dif_pos rfl]
theorem outs_o2a (J : ℕ) (c : Dev nD) : outs m J main_v16_0 c = o2a m c := by
  unfold outs; rw [dif_neg (by decide), dif_neg (by decide), dif_neg (by decide), dif_pos rfl]
theorem outs_o2b (J : ℕ) (c : Dev nD) : outs m J main_v16_1 c = o2b m c := by
  unfold outs; rw [dif_neg (by decide), dif_neg (by decide), dif_neg (by decide), dif_neg (by decide), dif_pos rfl]

/-- The second region's entry contents read only the first region's result. -/
theorem V4_eq (c : Dev nD) : Gen.V4 m (outs m) c = Gen.V4 m (outsA m) c := by
  unfold Gen.V4 Gen.V3 Gen.V2 Gen.V1
  rw [outs_o0 m, outsA_o0 m]

/-- The third region's entry contents read only the first two regions' results. -/
theorem V5_eq (c : Dev nD) : Gen.V5 m (outs m) c = Gen.V5 m (outsB m) c := by
  have h4 : Gen.V4 m (outs m) c = Gen.V4 m (outsB m) c := by
    unfold Gen.V4 Gen.V3 Gen.V2 Gen.V1
    rw [outs_o0 m, outsB_o0 m]
  unfold Gen.V5
  rw [h4, outs_o1a m, outs_o1b m, outsB_o1a m, outsB_o1b m]

/-! ## The proof data family and what rides along -/

/-- Every region's proof data, each at its region's entry contents. -/
def pdats : (p : Fin 3) → (c : Dev nD) → Dat τ (Elt F) Unit ℕ (UR sig nD τ) ℕ (cfgs p) c
  | ⟨0, _⟩ => fun c => dat0 (U0 m) c
  | ⟨1, _⟩ => fun c => dat1 (U1 m) c
  | ⟨2, _⟩ => fun c => dat2 (U2 m) c

/-- No core owes another anything: no level is assigned. -/
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)

/-- The generator register and the scoped rest make the class's invariant of region 1, -/
theorem toPhiA1 (c : Dev nD) :
    iprop((∃ r, prngReg c r) ∗ Pipeline.prefHeld (pcfgs (F := F) 1).pre c (fun _ => fullShare) (Gen.adm (F := F) 1).1 ∗ Pipeline.scopedRest spec1 c)
      ⊢ (Pipeline.ΦA spec1 c : sProp 𝕄) := by
  unfold Pipeline.ΦA
  iintro ⟨Hp, -, Hr⟩
  isplitl [Hr]; · iexact Hr
  iexact Hp
/-- and it gives them back. -/
theorem fromPhiA1 (c : Dev nD) :
    (Pipeline.ΦA spec1 c : sProp 𝕄) ⊢ iprop((∃ r, prngReg c r) ∗ emp ∗ Pipeline.scopedRest spec1 c) := by
  unfold Pipeline.ΦA
  iintro ⟨Hr, Hp⟩
  isplitl [Hp]; · iexact Hp
  isplitr; · iempintro
  iexact Hr

/-- The generator register and the scoped rest make the class's invariant of region 2, -/
theorem toPhiA2 (c : Dev nD) :
    iprop((∃ r, prngReg c r) ∗ Pipeline.prefHeld (pcfgs (F := F) 2).pre c (fun _ => fullShare) (Gen.adm (F := F) 2).1 ∗ Pipeline.scopedRest spec2 c)
      ⊢ (Pipeline.ΦA spec2 c : sProp 𝕄) := by
  unfold Pipeline.ΦA
  iintro ⟨Hp, -, Hr⟩
  isplitl [Hr]; · iexact Hr
  iexact Hp
/-- and it gives them back. -/
theorem fromPhiA2 (c : Dev nD) :
    (Pipeline.ΦA spec2 c : sProp 𝕄) ⊢ iprop((∃ r, prngReg c r) ∗ emp ∗ Pipeline.scopedRest spec2 c) := by
  unfold Pipeline.ΦA
  iintro ⟨Hr, Hp⟩
  isplitl [Hp]; · iexact Hp
  isplitr; · iempintro
  iexact Hr

/-! ## Region 0 as a segment -/

/-- An array the region only reads holds at its exit what it held at its entry. -/
theorem hin_kept0 (c : Dev nD) (r : Ref sig .tc) (h : r ∉ ([main_v0] : List (Ref sig .tc))) :
    Gen.V1 m (outs m) c r = U0 m c r := by
  rw [Gen.V1_of m (outs m) c r h]

/-- The exit contents at output window 2's array: what the write-backs left. -/
theorem hout_at0_2 (c : Dev nD) : Gen.V1 m (outs m) c main_v0 = (pdats m 0 c).arrAt 2 cfg0.N := by
  show (Gen.V1 m (outs m) c) (Proc.devRef .tc main_v0) = _
  simp only [Gen.V1, Function.update_self]
  exact outs_o0 m _ c

set_option maxHeartbeats 1000000 in
theorem hF0 (c : Dev nD) : ∀ w : Fin cfg0.W, (pdats m 0 c).arrAt w cfg0.N = Gen.V1 m (outs m) c (Pipeline.arrRef spec0 w) := by
  intro w
  rcases w with ⟨_ | _ | _ | w, hw⟩
  · exact (((pdats m 0 c).arrAt_in 0 rfl _).trans (A_eq0 (U0 m) c 0)).trans (hin_kept0 m c main_arg1 (by decide)).symm
  · exact (((pdats m 0 c).arrAt_in 1 rfl _).trans (A_eq0 (U0 m) c 1)).trans (hin_kept0 m c main_arg3 (by decide)).symm
  · exact (hout_at0_2 m c).symm
  · exact absurd hw (by have : cfg0.W = 3 := rfl; omega)

theorem hrest0 (c : Dev nD) : ∀ b, b ∉ Finset.univ.image (Pipeline.arrRef spec0) → Gen.V1 m (outs m) c b = U0 m c b := fun b hb =>
  hin_kept0 m c b (by
    intro hmem
    simp only [List.mem_cons, List.mem_nil_iff, or_false] at hmem
    rcases hmem with rfl
    · exact hb (Finset.mem_image.mpr ⟨2, Finset.mem_univ _, rfl⟩))

set_option backward.isDefEq.respectTransparency.types false in
/-- Region 0 over the thread state: entered with every unscoped buffer at the boundary's contents, left with them at
    the next boundary's; its arrays split out of the unscoped buffers and put back at the exit contents; the generator
    register into the invariant and out; nothing owed; no semaphore of the kernel's own. -/
def reg0 : Pipeline.RegionSeg (pcfgs (F := F)) Gen.adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (U0 m) c).loose
  hwaits := Pipeline.hwaits_of_owed_zero _ _ _ _ L lv 0 fun _ _ => rfl
  pre c := iprop(StableHlo.held (c : Thread nD τ) (Pipeline.ucRefs τ sig) (Gen.V0 m c) ∗ R c)
  post c := iprop(StableHlo.held (c : Thread nD τ) (Pipeline.ucRefs τ sig) (Gen.V1 m (outs m) c) ∗ R c)
  X c := iprop(∃ r, prngReg c r)
  Y c := iprop(∃ r, prngReg c r)
  Z c := Pipeline.unscopedRest (Ix := Unit) (Name := ℕ) (U := UR sig nD τ) (Lvl := ℕ) spec0 c (U0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (U0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (U0 m c) (fun b => Gen.V1 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 as a segment -/

/-- An array the region only reads holds at its exit what it held at its entry. -/
theorem hin_kept1 (c : Dev nD) (r : Ref sig .tc) (h : r ∉ ([main_v15_0, main_v15_1] : List (Ref sig .tc))) :
    Gen.V5 m (outs m) c r = U1 m c r := by
  rw [Gen.V5_of m (outs m) c r h, V4_eq m c]

/-- The exit contents at output window 5's array: what the write-backs left. -/
theorem hout_at1_5 (c : Dev nD) : Gen.V5 m (outs m) c main_v15_0 = (pdats m 1 c).arrAt 5 cfg1.N := by
  show (Gen.V5 m (outs m) c) (Proc.devRef .tc main_v15_0) = _
  simp only [Gen.V5, Function.update_of_ne (StableHlo.devRef_ne_of_ne (by decide) : (Proc.devRef .tc main_v15_0 : DevRef τ sig) ≠ Proc.devRef .tc main_v15_1), Function.update_self]
  exact outs_o1a m _ c

/-- The exit contents at output window 6's array: what the write-backs left. -/
theorem hout_at1_6 (c : Dev nD) : Gen.V5 m (outs m) c main_v15_1 = (pdats m 1 c).arrAt 6 cfg1.N := by
  show (Gen.V5 m (outs m) c) (Proc.devRef .tc main_v15_1) = _
  simp only [Gen.V5, Function.update_self]
  exact outs_o1b m _ c

set_option maxHeartbeats 1000000 in
theorem hF1 (c : Dev nD) : ∀ w : Fin cfg1.W, (pdats m 1 c).arrAt w cfg1.N = Gen.V5 m (outs m) c (Pipeline.arrRef spec1 w) := by
  intro w
  rcases w with ⟨_ | _ | _ | _ | _ | _ | _ | w, hw⟩
  · exact (((pdats m 1 c).arrAt_in 0 rfl _).trans (A_eq1 (U1 m) c 0)).trans (hin_kept1 m c main_arg2 (by decide)).symm
  · exact (((pdats m 1 c).arrAt_in 1 rfl _).trans (A_eq1 (U1 m) c 1)).trans (hin_kept1 m c main_arg4 (by decide)).symm
  · exact (((pdats m 1 c).arrAt_in 2 rfl _).trans (A_eq1 (U1 m) c 2)).trans (hin_kept1 m c main_v5 (by decide)).symm
  · exact (((pdats m 1 c).arrAt_in 3 rfl _).trans (A_eq1 (U1 m) c 3)).trans (hin_kept1 m c main_v13 (by decide)).symm
  · exact (((pdats m 1 c).arrAt_in 4 rfl _).trans (A_eq1 (U1 m) c 4)).trans (hin_kept1 m c main_v14 (by decide)).symm
  · exact (hout_at1_5 m c).symm
  · exact (hout_at1_6 m c).symm
  · exact absurd hw (by have : cfg1.W = 7 := rfl; omega)

theorem hrest1 (c : Dev nD) : ∀ b, b ∉ Finset.univ.image (Pipeline.arrRef spec1) → Gen.V5 m (outs m) c b = U1 m c b := fun b hb =>
  hin_kept1 m c b (by
    intro hmem
    simp only [List.mem_cons, List.mem_nil_iff, or_false] at hmem
    rcases hmem with rfl | rfl
    · exact hb (Finset.mem_image.mpr ⟨5, Finset.mem_univ _, rfl⟩)
    · exact hb (Finset.mem_image.mpr ⟨6, Finset.mem_univ _, rfl⟩))

set_option backward.isDefEq.respectTransparency.types false in
/-- Region 1 over the thread state: entered with every unscoped buffer at the boundary's contents, left with them at
    the next boundary's; its arrays split out of the unscoped buffers and put back at the exit contents; the generator
    register into the invariant and out; nothing owed; no semaphore of the kernel's own. -/
def reg1 : Pipeline.RegionSeg (pcfgs (F := F)) Gen.adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (U1 m) c).loose
  hwaits := Pipeline.hwaits_of_owed_zero _ _ _ _ L lv 1 fun _ _ => rfl
  pre c := iprop(StableHlo.held (c : Thread nD τ) (Pipeline.ucRefs τ sig) (Gen.V4 m (outs m) c) ∗ R c)
  post c := iprop(StableHlo.held (c : Thread nD τ) (Pipeline.ucRefs τ sig) (Gen.V5 m (outs m) c) ∗ R c)
  X c := iprop(∃ r, prngReg c r)
  Y c := iprop(∃ r, prngReg c r)
  Z c := Pipeline.unscopedRest (Ix := Unit) (Name := ℕ) (U := UR sig nD τ) (Lvl := ℕ) spec1 c (U1 m c)
  hentry c := by
    rw [Pipeline.ownSems0_none]
    rw [V4_eq m c]
    have hsplit := Pipeline.arrays_of_unscopedBufs (p := 1) (pcfgs (F := F)) Gen.adm (pdats m) launch1.win launch1.arr_whole c
      ((pdats m 1 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toPhiA1 c).trans (hin1 (U1 m) c)
  hout c := by
    rw [Pipeline.ownSems0_none]
    exact (hout1 (U1 m) c).trans (fromPhiA1 c)
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (U1 m c) (fun b => Gen.V5 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 as a segment -/

/-- An array the region only reads holds at its exit what it held at its entry. -/
theorem hin_kept2 (c : Dev nD) (r : Ref sig .tc) (h : r ∉ ([main_v16_0, main_v16_1] : List (Ref sig .tc))) :
    Gen.V6 m (outs m) c r = U2 m c r := by
  rw [Gen.V6_of m (outs m) c r h, V5_eq m c]

/-- The exit contents at output window 2's array: what the write-backs left. -/
theorem hout_at2_2 (c : Dev nD) : Gen.V6 m (outs m) c main_v16_0 = (pdats m 2 c).arrAt 2 cfg2.N := by
  show (Gen.V6 m (outs m) c) (Proc.devRef .tc main_v16_0) = _
  simp only [Gen.V6, Function.update_of_ne (StableHlo.devRef_ne_of_ne (by decide) : (Proc.devRef .tc main_v16_0 : DevRef τ sig) ≠ Proc.devRef .tc main_v16_1), Function.update_self]
  exact outs_o2a m _ c

/-- The exit contents at output window 3's array: what the write-backs left. -/
theorem hout_at2_3 (c : Dev nD) : Gen.V6 m (outs m) c main_v16_1 = (pdats m 2 c).arrAt 3 cfg2.N := by
  show (Gen.V6 m (outs m) c) (Proc.devRef .tc main_v16_1) = _
  simp only [Gen.V6, Function.update_self]
  exact outs_o2b m _ c

set_option maxHeartbeats 1000000 in
theorem hF2 (c : Dev nD) : ∀ w : Fin cfg2.W, (pdats m 2 c).arrAt w cfg2.N = Gen.V6 m (outs m) c (Pipeline.arrRef spec2 w) := by
  intro w
  rcases w with ⟨_ | _ | _ | _ | w, hw⟩
  · exact (((pdats m 2 c).arrAt_in 0 rfl _).trans (A_eq2 (U2 m) c 0)).trans (hin_kept2 m c main_v15_0 (by decide)).symm
  · exact (((pdats m 2 c).arrAt_in 1 rfl _).trans (A_eq2 (U2 m) c 1)).trans (hin_kept2 m c main_v15_1 (by decide)).symm
  · exact (hout_at2_2 m c).symm
  · exact (hout_at2_3 m c).symm
  · exact absurd hw (by have : cfg2.W = 4 := rfl; omega)

theorem hrest2 (c : Dev nD) : ∀ b, b ∉ Finset.univ.image (Pipeline.arrRef spec2) → Gen.V6 m (outs m) c b = U2 m c b := fun b hb =>
  hin_kept2 m c b (by
    intro hmem
    simp only [List.mem_cons, List.mem_nil_iff, or_false] at hmem
    rcases hmem with rfl | rfl
    · exact hb (Finset.mem_image.mpr ⟨2, Finset.mem_univ _, rfl⟩)
    · exact hb (Finset.mem_image.mpr ⟨3, Finset.mem_univ _, rfl⟩))

set_option backward.isDefEq.respectTransparency.types false in
/-- Region 2 over the thread state: entered with every unscoped buffer at the boundary's contents, left with them at
    the next boundary's; its arrays split out of the unscoped buffers and put back at the exit contents; the generator
    register into the invariant and out; nothing owed; no semaphore of the kernel's own. -/
def reg2 : Pipeline.RegionSeg (pcfgs (F := F)) Gen.adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (U2 m) c).loose
  hwaits := Pipeline.hwaits_of_owed_zero _ _ _ _ L lv 2 fun _ _ => rfl
  pre c := iprop(StableHlo.held (c : Thread nD τ) (Pipeline.ucRefs τ sig) (Gen.V5 m (outs m) c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := UR sig nD τ) (Lvl := ℕ) spec2 c (U2 m c)
  hentry c := by
    rw [Pipeline.ownSems0_none]
    rw [V5_eq m c]
    have hsplit := Pipeline.arrays_of_unscopedBufs (p := 2) (pcfgs (F := F)) Gen.adm (pdats m) launch2.win launch2.arr_whole c
      ((pdats m 2 c).share_full fun _ => rfl) (U2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toPhiA2 c).trans (hin2 (U2 m) c)
  hout c := by
    rw [Pipeline.ownSems0_none]
    exact (hout2 (U2 m) c).trans (fromPhiA2 c)
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (U2 m c) (fun b => Gen.V6 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

set_option backward.isDefEq.respectTransparency.types false in
/-- Every weakly fair execution of @main from memory m with zero counters terminates; the result buffer ends at the
    last boundary's contents and every argument as launched. -/
theorem run_main : θ_run defs (onTc (τ := τ) (main (F := F))) ⟨m, fun _ => 0, ρ⟩ (fun r => ∀ c : Dev nD,
      r.2.mem ((c.tc : Thread nD τ).loc main_v30) = Gen.V9 m (outs m) c main_v30
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Gen.run_cond m (EP := emb₁) (ι := ()) (𝒱₀ := Variants.none) (L := L) (lv := lv) (hL := fun _ _ => rfl) (ρ := ρ) (outs := outs m)
    (pdats := pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ => R)
    (hE0 := by
      refine Pipeline.initEach L lv (fun c => ?_)
      iintro ⟨⟨-, HO, -, Hp, -⟩, -⟩
      imodintro
      isplitl [Hp]; · iexists _; iexact Hp
      iexists ∅; iexact HO)
    (hE3 := fun c => by
      iintro ⟨-, HO⟩
      iexact HO)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)

end Cert.Kernel.Hand

end
-- ==== Proof.KI.R0.lean ====
/-
  The first kernel region: the node-feature product h·W, ten row blocks of 5000 rows.

  At a grid point t the body reads the point's block of h (rows 5000·t … 5000·t + 4999) and the whole of W,
  and stores their product (rounded operands, zero accumulator) over the whole output block; it also reads the
  output block first, a value it never uses.  Nothing is carried from point to point.  Here: what each
  staging buffer holds after the body at a point, as a function of the arrays the region is entered with (V);
  the body's triple; and the per-point obligation the pipeline rule asks for.
-/
import proofs.«424763_j188978561164_3_alg».proof.Proof.Gen.KernelIdeal.Launch
import proofs.«424763_j188978561164_3_alg».proof.Proof.Gen.KernelIdeal.Skeleton
import proofs.«424763_j188978561164_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the pipeline hands the body -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of h is in its staging buffer at every point (it is fetched at every point). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- W is in its staging buffer at every point (fetched once; its block index never moves). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output block -/

abbrev r0_x : Rect S5000x128 := Rect.unit (s := S5000x128) ![0, 0] S5000x128.size inb_S5000x128_S5000x128_0_0
abbrev r0_w : Rect S128x128 := Rect.unit (s := S128x128) ![0, 0] S128x128.size inb_S128x128_S128x128_0_0

/-- The output block after the body: one store over the whole block, of the product of the two blocks read. -/
def out0_2 (x0 : Vec F S5000x128 .f32) (x1 : Vec F S128x128 .f32) : Vec F S5000x128 .f32 :=
  View.canon [⟨r0_x, k0_pay1 (View.ld x0 r0_x) (View.ld x1 r0_w)⟩]

theorem cover0_2 (p0 : Vec F S5000x128 .f32) (y : S5000x128.Idx) :
    ∃ pc ∈ ([⟨r0_x, p0⟩] : List (View.Piece (Elt F) S5000x128 .f32)), y ∈ pc.1.set :=
  View.cover_of_tiled [⟨r0_x, p0⟩] S5000x128.size (by rfl) y

/-! ## The body's triple -/

set_option maxHeartbeats 1000000 in
/-- On whole staging buffers, the inputs' at x0 and x1 and the output's at anything, the body runs to its
    continuation with the inputs' as they were and the output's at the product. -/
theorem sound_kernel0 (c : Dev nD) (E : Set ℕ) (i : grid0.Coords) (arg1 : Memref sig .tc .vmem S5000x128 .f32) (harg1 : arg1.IsWhole)
    (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data and the per-point obligation -/

/-- The region's proof data on core c: the arrays as the region finds them; after the body at point t the input
    buffers at their blocks and the output's at the product of the two; the invariant is the rest of the scoped
    memory and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline rule's obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
/-
  The second kernel region: the edge scores and their running maximum, 200 blocks of 3200 edges.

  At a grid point t the body reads the point's block of edge features (3200 × 128), the whole weight matrix
  (128 × 128) and attention row (1 × 128), and the point's blocks of source and destination scores (3200 × 4 each);
  from them it computes the block's 3200 × 4 scores (rounded product, scaled, summed per head over 32 lanes, added to
  the two score blocks, leaky-rectified) and stores them over the whole output block.  A scratch row of four words is
  kept from point to point: at the first point it is reset to -∞; at every point it becomes the maximum of itself and
  the column maxima of the point's scores, and that row is stored over the second output's block, which is written
  back once, after the last point.  Here: the body's triple in its two cases (first point / later point); what each
  staging buffer and the scratch row hold after the body at a point, as a function of the arrays the region is
  entered with (V); the invariant that carries the scratch row; and the per-point obligation the pipeline rule asks for.
-/
import proofs.«424763_j188978561164_3_alg».proof.Proof.Gen.KernelIdeal.Launch
import proofs.«424763_j188978561164_3_alg».proof.Proof.Gen.KernelIdeal.Skeleton
import proofs.«424763_j188978561164_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer loads and stores -/

section Whole

variable {Val : EltTy → Type} [∀ e, Nonempty (Val e)] {S : Shape} {e : EltTy} {sg : RefSig} {κ : Kind} {sp : Space}

/-- A store over the whole shape (offsets zero, the shape's own extents), made last, leaves its payload, whatever
    was stored before. -/
theorem read_store_whole (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ fun y => ⟨_, List.mem_cons.mpr (Or.inl rfl), View.mem_set_unit_zero h inb y⟩).trans
    (View.canon_cons_unit_zero h inb w L)

/-- A load over the whole shape reads the contents. -/
theorem readAt_whole (v : View sg κ sp S e) (f : v.ty.Contents Val) {off : Fin S.rank → ℕ} (h : off = fun _ => 0)
    (inb : ∀ a, off a + S.size a ≤ S.size a) :
    v.readAt Val (Rect.unit off S.size inb).toLoadRect f = v.read Val f :=
  (View.readAt_eq_ld v f _).trans (View.ld_unit_zero h inb _)

/-- A load over the whole shape after a store over the whole shape reads that store's payload. -/
theorem readCov_whole (v : View sg κ sp S e) {off : Fin S.rank → ℕ} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w :=
  (View.readCov_eq_canon_ld v _ (Rect.unit off S.size inb)
      fun y => ⟨_, List.mem_cons.mpr (Or.inl rfl), View.mem_set_unit_zero h inb y⟩).trans
    ((congrArg (fun X => View.ld X (Rect.unit off S.size inb)) (View.canon_cons_unit_zero h inb w L)).trans
      (View.ld_unit_zero h inb w))

end Whole

theorem zeros2 : (![0, 0] : Fin 2 → ℕ) = fun _ => 0 := by funext a; fin_cases a <;> rfl

/-! ## The branch on the grid coordinate -/

/-- The branch of the body: the grid coordinate is zero. -/
abbrev cond1 (i : grid1.Coords) : Prop :=
  (Scalar.cmpi .ne (Scalar.extui (Scalar.cmpi .eq (BitVec.ofNat 32 (i 0).val) 0#32)) 0#32) = 1#1

/-- It holds at the first point and at no other. -/
theorem hcond1 : ∀ t : Fin cfg1.N, cond1 (grid1.coords t) ↔ t.val = 0 :=
  (by decide +kernel : ∀ t : Fin grid1.N, cond1 (grid1.coords t) ↔ t.val = 0)

/-! ## The body's triple

On whole staging buffers — the five inputs' at x0 … x4, the two outputs' at anything — and the scratch row, the body
runs to its continuation with the inputs' buffers as they were, the first output's at the scores of x0 … x4, and the
scratch row and the second output's both at the new running maximum. -/

set_option maxHeartbeats 1000000 in
/-- At the first point (the branch taken): the scratch row, at anything before, is reset to -∞ first. -/
theorem sound_kernel1_A (c : Dev nD) (E : Set ℕ) (i : grid1.Coords) (hc : cond1 i)
    (arg1 : Memref sig .tc .vmem S3200x128 .f32) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S3200x4 .f32) (harg4 : arg4.IsWhole)
    (arg5 : Memref sig .tc .vmem S3200x4 .f32) (harg5 : arg5.IsWhole)
    (arg6 : Memref sig .tc .vmem S3200x4 .f32) (harg6 : arg6.IsWhole)
    (arg7 : Memref sig .tc .vmem S1x4 .f32) (harg7 : arg7.IsWhole)
    (arg8 : Memref sig .tc .vmem S1x4 .f32) (harg8 : arg8.IsWhole)
    (x0 : Vec F S3200x128 .f32) (x1 : Vec F S128x128 .f32) (x2 : Vec F S1x128 .f32)
    (x3 : Vec F S3200x4 .f32) (x4 : Vec F S3200x4 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
        ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (k1_pay3 x0 x1 x2 x3 x4)
            ∗ owns (c : Thread nD τ) arg7 fullShare (k1_pay1 (k1_pay3 x0 x1 x2 x3 x4) (k1_pay2 (F := F)))
            ∗ owns (c : Thread nD τ) arg8 fullShare (k1_pay1 (k1_pay3 x0 x1 x2 x3 x4) (k1_pay2 (F := F)))) -∗ K ⟨⟩))
      ⊢ wp frame (wpE (defs₀ (F := F)) Variants.none c none) E
          (cc1__edge_score_combine_kernel i arg1 harg1 arg2 harg2 arg3 harg3 arg4 harg4 arg5 harg5 arg6 harg6 arg7 harg7 arg8 harg8) K := by
  simp only [cc1__edge_score_combine_kernel_eq_skeleton]; unfold cc1__edge_score_combine_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds, %fs, -, HS⟩, Hk⟩
  subst hf0 hf1 hf2 hf3 hf4
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (read_store_whole (S := S3200x4) arg6.view f5 zeros2 _ _ _).trans ?_
    simp only [readAt_whole (S := S3200x128) _ _ zeros2, readAt_whole (S := S128x128) _ _ zeros2,
      readAt_whole (S := S1x128) _ _ zeros2, readAt_whole (S := S3200x4) _ _ zeros2, readAt_whole (S := S1x4) _ _ zeros2]
  isplitl [H6]
  · iexists _; isplitr
    swap; · iexact H6
    ipureintro
    sl_unfold_words
    refine (read_store_whole (S := S1x4) arg7.view f6 zeros2 _ _ _).trans ?_
    refine (readCov_whole (S := S1x4) arg8.view zeros2 _ _ _).trans ?_
    simp only [readAt_whole (S := S3200x128) _ _ zeros2, readAt_whole (S := S128x128) _ _ zeros2,
      readAt_whole (S := S1x128) _ _ zeros2, readAt_whole (S := S3200x4) _ _ zeros2, readAt_whole (S := S1x4) _ _ zeros2, readCov_whole (S := S1x4) _ zeros2]
  iexists _; isplitr
  swap; · iexact HS
  ipureintro
  sl_unfold_words
  refine (read_store_whole (S := S1x4) arg8.view fs zeros2 _ _ _).trans ?_
  simp only [readAt_whole (S := S3200x128) _ _ zeros2, readAt_whole (S := S128x128) _ _ zeros2,
      readAt_whole (S := S1x128) _ _ zeros2, readAt_whole (S := S3200x4) _ _ zeros2, readAt_whole (S := S1x4) _ _ zeros2, readCov_whole (S := S1x4) _ zeros2]

set_option maxHeartbeats 1000000 in
/-- At a later point (the branch not taken): the scratch row holds xs, the running maximum so far. -/
theorem sound_kernel1_B (c : Dev nD) (E : Set ℕ) (i : grid1.Coords) (hc : ¬cond1 i)
    (arg1 : Memref sig .tc .vmem S3200x128 .f32) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S3200x4 .f32) (harg4 : arg4.IsWhole)
    (arg5 : Memref sig .tc .vmem S3200x4 .f32) (harg5 : arg5.IsWhole)
    (arg6 : Memref sig .tc .vmem S3200x4 .f32) (harg6 : arg6.IsWhole)
    (arg7 : Memref sig .tc .vmem S1x4 .f32) (harg7 : arg7.IsWhole)
    (arg8 : Memref sig .tc .vmem S1x4 .f32) (harg8 : arg8.IsWhole)
    (x0 : Vec F S3200x128 .f32) (x1 : Vec F S128x128 .f32) (x2 : Vec F S1x128 .f32)
    (x3 : Vec F S3200x4 .f32) (x4 : Vec F S3200x4 .f32) (xs : Vec F S1x4 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
        ∗ (∃ d, owns (c : Thread nD τ) arg6 fullShare d) ∗ (∃ d, owns (c : Thread nD τ) arg7 fullShare d)
        ∗ owns (c : Thread nD τ) arg8 fullShare xs
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (k1_pay3 x0 x1 x2 x3 x4)
            ∗ owns (c : Thread nD τ) arg7 fullShare (k1_pay1 (k1_pay3 x0 x1 x2 x3 x4) xs)
            ∗ owns (c : Thread nD τ) arg8 fullShare (k1_pay1 (k1_pay3 x0 x1 x2 x3 x4) xs)) -∗ K ⟨⟩))
      ⊢ wp frame (wpE (defs₀ (F := F)) Variants.none c none) E
          (cc1__edge_score_combine_kernel i arg1 harg1 arg2 harg2 arg3 harg3 arg4 harg4 arg5 harg5 arg6 harg6 arg7 harg7 arg8 harg8) K := by
  simp only [cc1__edge_score_combine_kernel_eq_skeleton]; unfold cc1__edge_score_combine_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs, %hfs, HS⟩, Hk⟩
  subst hf0 hf1 hf2 hf3 hf4 hfs
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (read_store_whole (S := S3200x4) arg6.view f5 zeros2 _ _ _).trans ?_
    simp only [readAt_whole (S := S3200x128) _ _ zeros2, readAt_whole (S := S128x128) _ _ zeros2,
      readAt_whole (S := S1x128) _ _ zeros2, readAt_whole (S := S3200x4) _ _ zeros2, readAt_whole (S := S1x4) _ _ zeros2]
  isplitl [H6]
  · iexists _; isplitr
    swap; · iexact H6
    ipureintro
    sl_unfold_words
    refine (read_store_whole (S := S1x4) arg7.view f6 zeros2 _ _ _).trans ?_
    refine (readCov_whole (S := S1x4) arg8.view zeros2 _ _ _).trans ?_
    simp only [readAt_whole (S := S3200x128) _ _ zeros2, readAt_whole (S := S128x128) _ _ zeros2,
      readAt_whole (S := S1x128) _ _ zeros2, readAt_whole (S := S3200x4) _ _ zeros2, readAt_whole (S := S1x4) _ _ zeros2]
  iexists _; isplitr
  swap; · iexact HS
  ipureintro
  sl_unfold_words
  refine (read_store_whole (S := S1x4) arg8.view fs zeros2 _ _ _).trans ?_
  simp only [readAt_whole (S := S3200x128) _ _ zeros2, readAt_whole (S := S128x128) _ _ zeros2,
      readAt_whole (S := S1x128) _ _ zeros2, readAt_whole (S := S3200x4) _ _ zeros2, readAt_whole (S := S1x4) _ _ zeros2]

/-! ## The staging memrefs and the scratch -/

/-- Each window's current staging memref at point t, as the pipeline passes it to the body, and its wholeness. -/
abbrev ms1_0 (t : Fin cfg1.N) : Memref sig .tc .vmem S3200x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S3200x4 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S3200x4 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S3200x4 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x4 .f32 := win1_6.stage (cfg1.slots t 6)
abbrev hs1_6 (t : Fin cfg1.N) : (ms1_6 t).IsWhole := hstage1_6 ((cfg1.slots t 6).cast nbuf1_6)

/-- The scratch row the kernel keeps from point to point: a whole scoped buffer of its own. -/
abbrev scM1 : Memref sig .tc .vmem S1x4 .f32 := Memref.whole cc1_scratch0

/-- What the launch hands the region, with the scratch row taken out of the scoped rest: the row owned at some
    contents, every other scoped buffer that is no staging buffer of this region (unopened), and the generator register. -/
theorem PhiA1_eq (c : Dev nD) :
    (Pipeline.ΦA spec1 c : sProp 𝕄)
      = iprop(((∃ d, owns (c : Thread nD τ) scM1 fullShare d)
          ∗ Pipeline.scopedRestBut (Ix := Unit) (Name := ℕ) (U := UR sig nD τ) (Lvl := ℕ) (Val := Elt F) spec1 c [cc1_scratch0])
        ∗ (∃ r, prngReg c r)) := by
  unfold Pipeline.ΦA
  rw [Pipeline.scopedRest_split_of_list spec1 c [cc1_scratch0] (by decide) (by decide)]
  simp only [scM1, owns_whole, bigSepL_singleton]
  rfl

variable (V : (c : Dev nD) → (b : Ref sig .tc) → Buf (Elt F) ((c : Thread nD τ).loc b))

/-! ## The blocks the pipeline hands the body, and what the body computes from them -/

/-- Window w's block at point t, read off its array as the region finds it. -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scores of point t's 3200 edges (4 heads each): computed from the point's blocks of the five inputs. -/
noncomputable def logits1 (c : Dev nD) (t : Fin cfg1.N) : Vec F S3200x4 .f32 :=
  k1_pay3 (iblk1 V c 0 t) (iblk1 V c 1 t) (iblk1 V c 2 t) (iblk1 V c 3 t) (iblk1 V c 4 t)

/-- The running per-head maximum after point n: at the first point the maximum of that point's scores with -∞,
    afterwards the maximum of the point's scores with what the point before left. -/
noncomputable def runmax1 (c : Dev nD) : (n : ℕ) → n < cfg1.N → Vec F S1x4 .f32
  | 0, h => k1_pay1 (logits1 V c ⟨0, h⟩) (k1_pay2 (F := F))
  | n + 1, h => k1_pay1 (logits1 V c ⟨n + 1, h⟩) (runmax1 c n (Nat.lt_of_succ_lt h))

theorem runmax1_zero (c : Dev nD) (t : Fin cfg1.N) (h0 : t.val = 0) :
    runmax1 V c t.val t.isLt = k1_pay1 (logits1 V c t) (k1_pay2 (F := F)) := by
  obtain ⟨n, hn⟩ := t
  cases n with
  | zero => rfl
  | succ n => exact absurd h0 (Nat.succ_ne_zero n)

theorem runmax1_pos (c : Dev nD) (t : Fin cfg1.N) (h0 : t.val ≠ 0) :
    runmax1 V c t.val t.isLt
      = k1_pay1 (logits1 V c t) (runmax1 V c (t.val - 1) (Nat.lt_of_le_of_lt (Nat.sub_le _ _) t.isLt)) := by
  obtain ⟨n, hn⟩ := t
  cases n with
  | zero => exact absurd rfl h0
  | succ n => rfl

/-! ## The region invariant -/

/-- Before point n: at the first point what the launch hands the region; afterwards the same with the scratch row
    at the running maximum the point before left. -/
noncomputable def PhiS1 (c : Dev nD) : (n : ℕ) → n ≤ cfg1.N → sProp 𝕄
  | 0, _ => Pipeline.ΦA spec1 c
  | n + 1, hn => iprop((owns (c : Thread nD τ) scM1 fullShare (runmax1 V c n hn)
        ∗ Pipeline.scopedRestBut (Ix := Unit) (Name := ℕ) (U := UR sig nD τ) (Lvl := ℕ) (Val := Elt F) spec1 c [cc1_scratch0])
      ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((owns (c : Thread nD τ) scM1 fullShare (runmax1 V c n hn)
        ∗ Pipeline.scopedRestBut (Ix := Unit) (Name := ℕ) (U := UR sig nD τ) (Lvl := ℕ) (Val := Elt F) spec1 c [cc1_scratch0])
      ∗ (∃ r, prngReg c r)) := rfl

theorem PhiS1_pos (c : Dev nD) (n : ℕ) (h : n ≤ cfg1.N) (hz : n ≠ 0) :
    PhiS1 V c n h = iprop((owns (c : Thread nD τ) scM1 fullShare (runmax1 V c (n - 1) (by omega))
        ∗ Pipeline.scopedRestBut (Ix := Unit) (Name := ℕ) (U := UR sig nD τ) (Lvl := ℕ) (Val := Elt F) spec1 c [cc1_scratch0])
      ∗ (∃ r, prngReg c r)) := by
  cases n with
  | zero => exact absurd rfl hz
  | succ n => rfl

/-! ## The proof data -/

/-- The region's proof data on core c: the arrays as the region finds them; after the body at point t the input
    buffers at their blocks, the score block's buffer at the point's scores, the maximum's buffer at the running
    maximum; the invariant carries the scratch row at the running maximum; nothing owed; full shares. -/
noncomputable def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => logits1 V c t
    | ⟨6, _⟩ => runmax1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = logits1 V c t := by dsimp only [dat1]
theorem after1_6 (c : Dev nD) (t : Fin cfg1.N) : (dat1 V c).after 6 t = runmax1 V c t.val t.isLt := by dsimp only [dat1]

/-- The score block after point t, from the point's input blocks. -/
theorem after1_5_eq (c : Dev nD) (t : Fin cfg1.N) :
    (dat1 V c).after 5 t = k1_pay3 (iblk1 V c 0 t) (iblk1 V c 1 t) (iblk1 V c 2 t) (iblk1 V c 3 t) (iblk1 V c 4 t) := by
  rw [after1_5]; rfl

/-- The running maximum after the first point. -/
theorem after1_6_zero (c : Dev nD) (t : Fin cfg1.N) (h0 : t.val = 0) :
    (dat1 V c).after 6 t = k1_pay1 ((dat1 V c).after 5 t) (k1_pay2 (F := F)) := by
  rw [after1_6, after1_5]; exact runmax1_zero V c t h0

/-- The running maximum after a later point, from the one before. -/
theorem after1_6_succ (c : Dev nD) (t : Fin cfg1.N) (h0 : t.val ≠ 0) :
    (dat1 V c).after 6 t = k1_pay1 ((dat1 V c).after 5 t) ((dat1 V c).after 6 ⟨t.val - 1, by omega⟩) := by
  rw [after1_6, after1_5, after1_6]; exact runmax1_pos V c t h0

theorem PhiS1_castSucc (c : Dev nD) (t : Fin cfg1.N) :
    (dat1 V c).Φ t.castSucc = PhiS1 V c t.val (Nat.le_of_lt t.isLt) := by
  dsimp only [dat1]; simp only [Fin.coe_castSucc]

/-! ## What the body finds in the input buffers

An input window's current staging buffer holds the window's block at every point, fetched there or not: where it
is not fetched its block index has not moved, and the body left the block in place. -/

/-- The edge-feature block (fetched at every point). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The weight matrix (fetched once; its block index never moves). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The attention row (fetched once). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- The source-score block (fetched at every point). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- The destination-score block (fetched at every point). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The per-point obligation -/

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t))

set_option maxHeartbeats 2000000 in
/-- The body at any point. The input buffers hold their blocks; at the first point the invariant is what the launch
    hands over, the scratch row at anything, and the body resets it; at a later point the invariant hands the body the
    scratch row at the running maximum the point before left. Either way the body returns the row at this point's
    running maximum, which is the invariant before the next point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ,
    after1_0, after1_1, after1_2, after1_3, after1_4, after1_5, after1_6, PhiS1_castSucc]
  by_cases hz : t.val = 0
  · rw [PhiS1_zero V c _ _ hz, PhiA1_eq, runmax1_zero V c t hz]
    unfold logits1
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel1_A c Set.univ (grid1.coords t) ((hcond1 t).mpr hz) (ms1_0 t) (hs1_0 t) (ms1_1 t) (hs1_1 t)
      (ms1_2 t) (hs1_2 t) (ms1_3 t) (hs1_3 t) (ms1_4 t) (hs1_4 t) (ms1_5 t) (hs1_5 t) (ms1_6 t) (hs1_6 t)
      scM1 (Memref.isWhole_whole _) (iblk1 V c 0 t) (iblk1 V c 1 t) (iblk1 V c 2 t) (iblk1 V c 3 t) (iblk1 V c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS HR Hg]
    · isplitr [Hg]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [PhiS1_pos V c _ _ hz, runmax1_pos V c t hz]
    unfold logits1
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel1_B c Set.univ (grid1.coords t) (fun h => hz ((hcond1 t).mp h)) (ms1_0 t) (hs1_0 t) (ms1_1 t) (hs1_1 t)
      (ms1_2 t) (hs1_2 t) (ms1_3 t) (hs1_3 t) (ms1_4 t) (hs1_4 t) (ms1_5 t) (hs1_5 t) (ms1_6 t) (hs1_6 t)
      scM1 (Memref.isWhole_whole _) (iblk1 V c 0 t) (iblk1 V c 1 t) (iblk1 V c 2 t) (iblk1 V c 3 t) (iblk1 V c 4 t)
      (runmax1 V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS HR Hg]
    · isplitr [Hg]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The pipeline rule's obligation, at every point. -/
theorem body_obligation1 (c : Dev nD) : BodyObligation (dat1 (F := F) V c) (defs₀ (F := F)) Variants.none () Set.univ := fun t => by
  rw [bigSep_W1, bigSep_W1]
  exact sound_body1 V c t

/-! ## Into and out of the region -/

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]

/-- After the last point the invariant gives it back: the scratch row's contents are forgotten. -/
theorem hout1 (c : Dev nD) : (dat1 V c).Φ (Fin.last cfg1.N) ⊢ (Pipeline.ΦA spec1 c : sProp 𝕄) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 200 := N_1; omega), PhiA1_eq]
  iintro ⟨⟨HS, HR⟩, Hg⟩
  isplitr [Hg]
  · isplitl [HS]
    · iexists _; iexact HS
    iexact HR
  iexact Hg

end Cert.KernelIdeal.Hand

end
-- ==== Proof.KI.R2.lean ====
/-
  The third kernel region: the weights exp(e - m) of the edge scores and the running sum of their columns,
  one hundred row blocks of 6400 rows.

  At a grid point t the body reads the point's block of e (rows 6400·t … 6400·t + 6399) and the row m of column
  maxima, stores exp(e - m) over the whole block of weights, adds the column sums of that block to a running sum
  it keeps in a buffer of its own from point to point, and stores the running sum over the whole [1,4] output
  block.  At the first point (grid coordinate 0) it first fills the running sum with zeros; at every other point
  the running sum is what the point before left.  Here: the two cases' triples; the running sum after each point,
  by recursion on the point; the region's proof data, whose invariant carries the running sum's buffer at that
  value; the per-point obligation the pipeline rule asks for; and what each output block holds after the body,
  as the payloads of its stores applied to the blocks read.
-/
import proofs.«424763_j188978561164_3_alg».proof.Proof.Gen.KernelIdeal.Launch
import proofs.«424763_j188978561164_3_alg».proof.Proof.Gen.KernelIdeal.Skeleton
import proofs.«424763_j188978561164_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Whole-block rectangles -/

/-- The zero offsets, as the stores and loads of the body spell them. -/
theorem hz2 : (![0, 0] : Fin 2 → Nat) = fun _ => 0 := funext fun a => by fin_cases a <;> rfl

/-- A list of stores whose last one (the head) is over the whole [6400,4] block covers the block. -/
theorem cover2_wide (p : Vec F S6400x4 .f32) (L : List (View.Piece (Elt F) S6400x4 .f32)) (y : S6400x4.Idx) :
    ∃ pc ∈ ((⟨Rect.unit (s := S6400x4) ![0, 0] S6400x4.size inb_S6400x4_S6400x4_0_0, p⟩ : View.Piece (Elt F) S6400x4 .f32) :: L), y ∈ pc.1.set :=
  ⟨_, List.mem_cons.mpr (Or.inl rfl), View.mem_set_unit_zero hz2 inb_S6400x4_S6400x4_0_0 y⟩

/-- The same for the [1,4] blocks. -/
theorem cover2_row (p : Vec F S1x4 .f32) (L : List (View.Piece (Elt F) S1x4 .f32)) (y : S1x4.Idx) :
    ∃ pc ∈ ((⟨Rect.unit (s := S1x4) ![0, 0] S1x4.size inb_S1x4_S1x4_0_0, p⟩ : View.Piece (Elt F) S1x4 .f32) :: L), y ∈ pc.1.set :=
  ⟨_, List.mem_cons.mpr (Or.inl rfl), View.mem_set_unit_zero hz2 inb_S1x4_S1x4_0_0 y⟩

/-! ## The branch of the body -/

/-- The condition under which the body zeroes the running sum: the grid coordinate is 0. -/
abbrev cond2 (i : grid2.Coords) : Prop := (Scalar.cmpi .ne (Scalar.extui (Scalar.cmpi .eq (BitVec.ofNat 32 (i 0).val) 0#32)) 0#32) = 1#1

/-- It holds at the first of the 100 points and at no other. -/
theorem hcond2 : ∀ t : Fin cfg2.N, cond2 (grid2.coords t) ↔ t.val % 100 = 0 :=
  (by decide +kernel : ∀ t : Fin grid2.N, cond2 (grid2.coords t) ↔ t.val % 100 = 0)

/-! ## The body's triples -/

set_option maxHeartbeats 1000000 in
/-- At a point that is not the first: on whole buffers, the two inputs' at e and m, the two outputs' at anything and the
    running sum at s, the body runs to its continuation with the inputs' as they were, the weights' block at
    exp(e - m) and both the sum's block and the running sum at s + the column sums of the weights. -/
theorem sound_kernel2_later (c : Dev nD) (E : Set ℕ) (i : grid2.Coords)
    (arg1 : Memref sig .tc .vmem S6400x4 .f32) (harg1 : arg1.IsWhole) (arg2 : Memref sig .tc .vmem S1x4 .f32) (harg2 : arg2.IsWhole)
    (arg3 : Memref sig .tc .vmem S6400x4 .f32) (harg3 : arg3.IsWhole) (arg4 : Memref sig .tc .vmem S1x4 .f32) (harg4 : arg4.IsWhole)
    (arg5 : Memref sig .tc .vmem S1x4 .f32) (harg5 : arg5.IsWhole) (hc : ¬cond2 i)
    (x0 : Vec F S6400x4 .f32) (x1 : Vec F S1x4 .f32) (xs : Vec F S1x4 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ owns (c : Thread nD τ) arg5 fullShare xs
        ∗ (iprop(owns (c : Thread nD τ) arg1 fullShare x0 ∗ owns (c : Thread nD τ) arg2 fullShare x1
            ∗ owns (c : Thread nD τ) arg3 fullShare (k2_pay2 x0 x1)
            ∗ owns (c : Thread nD τ) arg4 fullShare (k2_pay3 x0 x1 xs)
            ∗ owns (c : Thread nD τ) arg5 fullShare (k2_pay3 x0 x1 xs)) -∗ K ⟨⟩))
      ⊢ wp frame (wpE (defs₀ (F := F)) Variants.none c none) E
          (cc2__sumexp_weight_kernel i arg1 harg1 arg2 harg2 arg3 harg3 arg4 harg4 arg5 harg5) K := by
  simp only [cc2__sumexp_weight_kernel_eq_skeleton]; unfold cc2__sumexp_weight_kernel_skel
  unfold owns
  iintro ⟨⟨%f0, %hf0, H0⟩, ⟨%f1, %hf1, H1⟩, ⟨%d2, %f2, -, H2⟩, ⟨%d3, %f3, -, H3⟩, ⟨%fs, %hfs, HS⟩, Hk⟩
  obtain rfl := harg1.eq_unread hf0; obtain rfl := harg2.eq_unread hf1; obtain rfl := harg5.eq_unread hfs
  sl_exec (disch := first | exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    rw [View.read_writes_eq_canon _ _ _ (cover2_wide _ _), View.canon_unit_zero hz2]
    simp only [View.readAt_eq_ld, harg1.read_unread, harg2.read_unread, View.ld_unit_zero (S := S6400x4) hz2, View.ld_unit_zero (S := S1x4) hz2]
  isplitl [H3]
  · iexists _; isplitr
    swap; · iexact H3
    ipureintro
    rw [View.read_writes_eq_canon _ _ _ (cover2_row _ _), View.canon_unit_zero hz2]
    sl_unfold_words
    rw [View.readCov_unit_zero (S := S1x4) _ hz2]
    simp only [View.readAt_eq_ld, harg1.read_unread, harg2.read_unread, harg5.read_unread, View.ld_unit_zero (S := S6400x4) hz2, View.ld_unit_zero (S := S1x4) hz2]
  iexists _; isplitr
  swap; · iexact HS
  ipureintro
  sl_unfold_words
  rw [View.read_writes_eq_canon _ _ _ (cover2_row _ _), View.canon_unit_zero hz2]
  simp only [View.readAt_eq_ld, harg1.read_unread, harg2.read_unread, harg5.read_unread, View.ld_unit_zero (S := S6400x4) hz2, View.ld_unit_zero (S := S1x4) hz2]

set_option maxHeartbeats 1000000 in
/-- At the first point: the same from the running sum at anything, which the body first fills with zeros. -/
theorem sound_kernel2_first (c : Dev nD) (E : Set ℕ) (i : grid2.Coords)
    (arg1 : Memref sig .tc .vmem S6400x4 .f32) (harg1 : arg1.IsWhole) (arg2 : Memref sig .tc .vmem S1x4 .f32) (harg2 : arg2.IsWhole)
    (arg3 : Memref sig .tc .vmem S6400x4 .f32) (harg3 : arg3.IsWhole) (arg4 : Memref sig .tc .vmem S1x4 .f32) (harg4 : arg4.IsWhole)
    (arg5 : Memref sig .tc .vmem S1x4 .f32) (harg5 : arg5.IsWhole) (hc : cond2 i)
    (x0 : Vec F S6400x4 .f32) (x1 : Vec F S1x4 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (∃ d, owns (c : Thread nD τ) arg5 fullShare d)
        ∗ (iprop(owns (c : Thread nD τ) arg1 fullShare x0 ∗ owns (c : Thread nD τ) arg2 fullShare x1
            ∗ owns (c : Thread nD τ) arg3 fullShare (k2_pay2 x0 x1)
            ∗ owns (c : Thread nD τ) arg4 fullShare (k2_pay3 x0 x1 (k2_pay1 (F := F)))
            ∗ owns (c : Thread nD τ) arg5 fullShare (k2_pay3 x0 x1 (k2_pay1 (F := F)))) -∗ K ⟨⟩))
      ⊢ wp frame (wpE (defs₀ (F := F)) Variants.none c none) E
          (cc2__sumexp_weight_kernel i arg1 harg1 arg2 harg2 arg3 harg3 arg4 harg4 arg5 harg5) K := by
  simp only [cc2__sumexp_weight_kernel_eq_skeleton]; unfold cc2__sumexp_weight_kernel_skel
  unfold owns
  iintro ⟨⟨%f0, %hf0, H0⟩, ⟨%f1, %hf1, H1⟩, ⟨%d2, %f2, -, H2⟩, ⟨%d3, %f3, -, H3⟩, ⟨%ds, %fs, -, HS⟩, Hk⟩
  obtain rfl := harg1.eq_unread hf0; obtain rfl := harg2.eq_unread hf1
  sl_exec (disch := first | exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    rw [View.read_writes_eq_canon _ _ _ (cover2_wide _ _), View.canon_unit_zero hz2]
    simp only [View.readAt_eq_ld, harg1.read_unread, harg2.read_unread, View.ld_unit_zero (S := S6400x4) hz2, View.ld_unit_zero (S := S1x4) hz2]
  isplitl [H3]
  · iexists _; isplitr
    swap; · iexact H3
    ipureintro
    rw [View.read_writes_eq_canon _ _ _ (cover2_row _ _), View.canon_unit_zero hz2]
    sl_unfold_words
    rw [View.readCov_eq_canon_ld _ _ _ (cover2_row _ _), View.canon_cons_unit_zero (S := S1x4) hz2, View.ld_unit_zero (S := S1x4) hz2,
      View.readCov_unit_zero (S := S1x4) _ hz2]
    simp only [View.readAt_eq_ld, harg1.read_unread, harg2.read_unread, View.ld_unit_zero (S := S6400x4) hz2, View.ld_unit_zero (S := S1x4) hz2]
  iexists _; isplitr
  swap; · iexact HS
  ipureintro
  sl_unfold_words
  rw [View.read_writes_eq_canon _ _ _ (cover2_row _ _), View.canon_cons_unit_zero (S := S1x4) hz2, View.readCov_unit_zero (S := S1x4) _ hz2]
  simp only [View.readAt_eq_ld, harg1.read_unread, harg2.read_unread, View.ld_unit_zero (S := S6400x4) hz2, View.ld_unit_zero (S := S1x4) hz2]

/-! ## The blocks the pipeline hands the body -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The block of e is in its staging buffer at every point (it is fetched at every point). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The row m is in its staging buffer at every point (fetched once; its block index never moves). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The running sum, point by point -/

/-- The running sum after the body at point n: at the first point the column sums of the point's weights added to
    zero, afterwards added to what the point before left. -/
def sum2 (c : Dev nD) : (n : ℕ) → n < cfg2.N → Vec F S1x4 .f32
  | 0, h => k2_pay3 (iblk2 V c 0 ⟨0, h⟩) (iblk2 V c 1 ⟨0, h⟩) (k2_pay1 (F := F))
  | n + 1, h => k2_pay3 (iblk2 V c 0 ⟨n + 1, h⟩) (iblk2 V c 1 ⟨n + 1, h⟩) (sum2 c n (Nat.lt_of_succ_lt h))

theorem sum2_first (c : Dev nD) (t : Fin cfg2.N) (h0 : t.val = 0) :
    sum2 V c t.val t.isLt = k2_pay3 (iblk2 V c 0 t) (iblk2 V c 1 t) (k2_pay1 (F := F)) := by
  obtain ⟨n, hn⟩ := t
  cases n with
  | zero => rfl
  | succ n => exact absurd h0 (Nat.succ_ne_zero n)

theorem sum2_later (c : Dev nD) (t : Fin cfg2.N) (h0 : t.val ≠ 0) :
    sum2 V c t.val t.isLt
      = k2_pay3 (iblk2 V c 0 t) (iblk2 V c 1 t) (sum2 V c (t.val - 1) (Nat.lt_of_le_of_lt (Nat.sub_le _ _) t.isLt)) := by
  obtain ⟨n, hn⟩ := t
  cases n with
  | zero => exact absurd rfl h0
  | succ n => rfl

/-! ## The region's invariant -/

/-- The buffer the body keeps the running sum in, whole. -/
abbrev scM2 : Memref sig .tc .vmem S1x4 .f32 := Memref.whole cc2_scratch0

/-- Every other scoped buffer of the core that is no staging buffer of this region, at some contents each: the body
    touches none of them. -/
abbrev rest2 (c : Dev nD) : sProp 𝕄 :=
  Pipeline.scopedRestBut (Ix := Unit) (Name := ℕ) (U := UR sig nD τ) (Lvl := ℕ) (Val := Elt F) spec2 c [cc2_scratch0]

/-- What the region is entered with, the running sum's buffer named: that buffer at some contents, the other scoped
    buffers, the generator register at some state. -/
theorem PhiA2_eq (c : Dev nD) :
    (Pipeline.ΦA spec2 c : sProp 𝕄)
      = iprop(iprop((∃ d, owns (c : Thread nD τ) scM2 fullShare d) ∗ rest2 (F := F) c) ∗ (∃ r, prngReg c r)) := by
  unfold Pipeline.ΦA
  rw [Pipeline.scopedRest_split_of_list spec2 c [cc2_scratch0] (by decide) (by decide)]
  simp only [bigSepL_singleton, scM2, owns_whole]; try rfl

/-- The invariant before position n: before the first point what the region is entered with; afterwards the same
    with the running sum's buffer at what the point before left. -/
def Phi2 (c : Dev nD) : (n : ℕ) → n ≤ cfg2.N → sProp 𝕄
  | 0, _ => Pipeline.ΦA spec2 c
  | n + 1, hn => iprop(iprop(owns (c : Thread nD τ) scM2 fullShare (sum2 V c n hn) ∗ rest2 (F := F) c) ∗ (∃ r, prngReg c r))

theorem Phi2_zero (c : Dev nD) (n : ℕ) (h : n ≤ cfg2.N) (hz : n = 0) : Phi2 V c n h = Pipeline.ΦA spec2 c := by
  subst hz; rfl

theorem Phi2_succ (c : Dev nD) (n : ℕ) (hn : n < cfg2.N) :
    Phi2 V c (n + 1) hn = iprop(iprop(owns (c : Thread nD τ) scM2 fullShare (sum2 V c n hn) ∗ rest2 (F := F) c) ∗ (∃ r, prngReg c r)) := rfl

theorem Phi2_pos (c : Dev nD) (n : ℕ) (h : n ≤ cfg2.N) (hz : n ≠ 0) :
    Phi2 V c n h = iprop(iprop(owns (c : Thread nD τ) scM2 fullShare (sum2 V c (n - 1) (by omega)) ∗ rest2 (F := F) c) ∗ (∃ r, prngReg c r)) := by
  cases n with
  | zero => exact absurd rfl hz
  | succ n => rfl

/-! ## The proof data and the per-point obligation -/

/-- The region's proof data on core c: the arrays as the region finds them; after the body at point t the input
    buffers at their blocks, the weights' at exp(e - m) of the two, the sum's at the running sum after t; the
    invariant as above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay2 (iblk2 V c 0 t) (iblk2 V c 1 t)
    | ⟨3, _⟩ => sum2 V c t.val t.isLt
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_3 (c : Dev nD) (t : Fin cfg2.N) : (dat2 V c).after 3 t = sum2 V c t.val t.isLt := by dsimp only [dat2]

/-- The weights' block after the body at point t: exp(e - m) of the point's blocks. -/
theorem after2_2_eq (c : Dev nD) (t : Fin cfg2.N) : (dat2 V c).after 2 t = k2_pay2 (iblk2 V c 0 t) (iblk2 V c 1 t) := by dsimp only [dat2]

/-- The sum's block after the body at the first point: the column sums of the point's weights added to zero. -/
theorem after2_3_zero (c : Dev nD) (t : Fin cfg2.N) (h0 : t.val = 0) :
    (dat2 V c).after 3 t = k2_pay3 (iblk2 V c 0 t) (iblk2 V c 1 t) (k2_pay1 (F := F)) := by
  rw [after2_3]; exact sum2_first V c t h0

/-- The sum's block after the body at a later point: the column sums of the point's weights added to what the
    block held after the point before. -/
theorem after2_3_succ (c : Dev nD) (t : Fin cfg2.N) (h0 : t.val ≠ 0) :
    (dat2 V c).after 3 t = k2_pay3 (iblk2 V c 0 t) (iblk2 V c 1 t) ((dat2 V c).after 3 ⟨t.val - 1, by omega⟩) := by
  rw [after2_3, after2_3]; exact sum2_later V c t h0

theorem Phi2_castSucc (c : Dev nD) (t : Fin cfg2.N) :
    (dat2 V c).Φ t.castSucc = Phi2 V c t.val (Nat.le_of_lt t.isLt) := by
  dsimp only [dat2]; simp only [Fin.coe_castSucc]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point t, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

set_option maxHeartbeats 1000000 in
/-- The body at any point: the inputs' buffers hold their blocks; at the first point the invariant hands the
    running sum's buffer at anything and the first triple applies, at any other it hands it at what the point
    before left and the other triple applies; either way the buffer goes back at the running sum after this point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl,
    show (dat2 V c).Φ t.succ = Phi2 V c (t.val + 1) t.isLt from rfl, Phi2_succ, Phi2_castSucc,
    after2_0, after2_1, after2_2_eq, after2_3]
  have hN : t.val < 100 := lt_of_lt_of_eq t.isLt (show cfg2.N = 100 from N_2)
  by_cases hz : t.val = 0
  · rw [Phi2_zero V c _ _ hz, PhiA2_eq, sum2_first V c t hz]
    iintro ⟨⟨⟨HS, Hr⟩, Hg⟩, Ho, ⟨%d0, H0⟩, ⟨%d1, H1⟩, ⟨%d2, H2⟩, ⟨%d3, H3⟩⟩
    iapply (sound_kernel2_first c Set.univ _ _ _ _ _ _ _ _ _ _ _ ((hcond2 t).mpr (by omega)) (iblk2 V c 0 t) (iblk2 V c 1 t) _)
    isplitl [H0]; · iexact H0
    isplitl [H1]; · iexact H1
    isplitl [H2]; · iexists _; iexact H2
    isplitl [H3]; · iexists _; iexact H3
    isplitl [HS]; · iexact HS
    iintro ⟨H0, H1, H2, H3, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    iexact H3
  · rw [Phi2_pos V c _ _ hz, sum2_later V c t hz]
    iintro ⟨⟨⟨HS, Hr⟩, Hg⟩, Ho, ⟨%d0, H0⟩, ⟨%d1, H1⟩, ⟨%d2, H2⟩, ⟨%d3, H3⟩⟩
    iapply (sound_kernel2_later c Set.univ _ _ _ _ _ _ _ _ _ _ _ (fun h => hz (by have := (hcond2 t).mp h; omega)) (iblk2 V c 0 t) (iblk2 V c 1 t) _ _)
    isplitl [H0]; · iexact H0
    isplitl [H1]; · iexact H1
    isplitl [H2]; · iexists _; iexact H2
    isplitl [H3]; · iexists _; iexact H3
    isplitl [HS]; · iexact HS
    iintro ⟨H0, H1, H2, H3, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    iexact H3

/-- The pipeline rule's obligation, at every point. -/
theorem body_obligation2 (c : Dev nD) : BodyObligation (dat2 (F := F) V c) (defs₀ (F := F)) Variants.none () Set.univ := fun t => by
  rw [bigSep_W2, bigSep_W2]
  exact sound_body2 V c t

/-- What the region is entered with is the invariant before the first point. -/
theorem hin2 (c : Dev nD) : (Pipeline.ΦA spec2 c : sProp 𝕄) ⊢ (dat2 V c).Φ 0 := by
  rw [show (dat2 V c).Φ 0 = Phi2 V c 0 (Nat.zero_le _) from rfl, Phi2_zero V c 0 _ rfl]
  try exact Idealize.SL.BI.Entails.refl _

/-- After the last point the invariant gives it back: the running sum's value is forgotten. -/
theorem hout2 (c : Dev nD) : (dat2 V c).Φ (Fin.last cfg2.N) ⊢ (Pipeline.ΦA spec2 c : sProp 𝕄) := by
  rw [show (dat2 V c).Φ (Fin.last cfg2.N) = Phi2 V c (Fin.last cfg2.N).val (Nat.le_of_lt_succ (Fin.last cfg2.N).isLt) from rfl,
    Phi2_pos V c _ _ (by rw [Fin.val_last]; have : cfg2.N = 100 := N_2; omega), PhiA2_eq]
  iintro ⟨⟨HS, Hr⟩, Hg⟩
  isplitl [HS Hr]
  · isplitl [HS]
    · iexists _; iexact HS
    iexact Hr
  iexact Hg

end Cert.KernelIdeal.Hand

end
-- ==== Proof.KI.Run.lean ====
/-
  The program's run: its three kernel regions chained through the host operations between them.

  What each region is entered with is what the launch, the regions before it and the host stretches between have
  left: the launch memory; then the first region's product written over main_v0; then the host stretches that make
  the edge scores; then the second region's logits and their maximum; then the third region's weights and their sum;
  then the host stretches that gather, scale, scatter and rectify.  Each region is a segment whose proof data is
  the region's own, stated at the contents it is entered with; the launch over the segments gives termination, the
  result buffer at the last boundary's contents, and every argument as launched.
-/
import proofs.«424763_j188978561164_3_alg».proof.Proof.Gen.KernelIdeal.Launch
import proofs.«424763_j188978561164_3_alg».proof.Proof.Gen.KernelIdeal.Skeleton
import proofs.«424763_j188978561164_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«424763_j188978561164_3_alg».proof.Proof.KI.R0
import proofs.«424763_j188978561164_3_alg».proof.Proof.KI.R1
import proofs.«424763_j188978561164_3_alg».proof.Proof.KI.R2
import proofs.«424763_j188978561164_3_alg».proof.Proof.KI.RunCond
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions are entered with, and what they leave -/

/-- The first region's entry contents: the launch memory. -/
abbrev U0 (c : Dev nD) (b : Ref sig .tc) : Buf (Elt F) ((c : Thread nD τ).loc b) := Gen.V0 m c b

/-- What the first region leaves in main_v0. -/
def o0 (c : Dev nD) : Buf (Elt F) ((c : Thread nD τ).loc main_v0) := (dat0 (U0 m) c).arrAt 2 cfg0.N

/-- The regions' results so far: the first region's only. -/
def outsA : Gen.Outs (F := F) := fun _ r c =>
  if h : r = main_v0 then h ▸ o0 m c else Gen.V0 m c r

/-- The second region's entry contents. -/
abbrev U1 (c : Dev nD) (b : Ref sig .tc) : Buf (Elt F) ((c : Thread nD τ).loc b) := Gen.V4 m (outsA m) c b

def o1a (c : Dev nD) : Buf (Elt F) ((c : Thread nD τ).loc main_v15_0) := (dat1 (U1 m) c).arrAt 5 cfg1.N
def o1b (c : Dev nD) : Buf (Elt F) ((c : Thread nD τ).loc main_v15_1) := (dat1 (U1 m) c).arrAt 6 cfg1.N

/-- The regions' results so far: the first two regions'. -/
def outsB : Gen.Outs (F := F) := fun _ r c =>
  if h : r = main_v0 then h ▸ o0 m c
  else if h : r = main_v15_0 then h ▸ o1a m c
  else if h : r = main_v15_1 then h ▸ o1b m c
  else Gen.V0 m c r

/-- The third region's entry contents. -/
abbrev U2 (c : Dev nD) (b : Ref sig .tc) : Buf (Elt F) ((c : Thread nD τ).loc b) := Gen.V5 m (outsB m) c b

def o2a (c : Dev nD) : Buf (Elt F) ((c : Thread nD τ).loc main_v16_0) := (dat2 (U2 m) c).arrAt 2 cfg2.N
def o2b (c : Dev nD) : Buf (Elt F) ((c : Thread nD τ).loc main_v16_1) := (dat2 (U2 m) c).arrAt 3 cfg2.N

/-- What the three regions leave in the buffers they write. -/
def outs : Gen.Outs (F := F) := fun _ r c =>
  if h : r = main_v0 then h ▸ o0 m c
  else if h : r = main_v15_0 then h ▸ o1a m c
  else if h : r = main_v15_1 then h ▸ o1b m c
  else if h : r = main_v16_0 then h ▸ o2a m c
  else if h : r = main_v16_1 then h ▸ o2b m c
  else Gen.V0 m c r

theorem outsA_o0 (J : ℕ) (c : Dev nD) : outsA m J main_v0 c = o0 m c := by unfold outsA; rw [dif_pos rfl]
theorem outsB_o0 (J : ℕ) (c : Dev nD) : outsB m J main_v0 c = o0 m c := by unfold outsB; rw [dif_pos rfl]
theorem outsB_o1a (J : ℕ) (c : Dev nD) : outsB m J main_v15_0 c = o1a m c := by
  unfold outsB; rw [dif_neg (by decide), dif_pos rfl]
theorem outsB_o1b (J : ℕ) (c : Dev nD) : outsB m J main_v15_1 c = o1b m c := by
  unfold outsB; rw [dif_neg (by decide), dif_neg (by decide), dif_pos rfl]
theorem outs_o0 (J : ℕ) (c : Dev nD) : outs m J main_v0 c = o0 m c := by unfold outs; rw [dif_pos rfl]
theorem outs_o1a (J : ℕ) (c : Dev nD) : outs m J main_v15_0 c = o1a m c := by
  unfold outs; rw [dif_neg (by decide), dif_pos rfl]
theorem outs_o1b (J : ℕ) (c : Dev nD) : outs m J main_v15_1 c = o1b m c := by
  unfold outs; rw [dif_neg (by decide), dif_neg (by decide), dif_pos rfl]
theorem outs_o2a (J : ℕ) (c : Dev nD) : outs m J main_v16_0 c = o2a m c := by
  unfold outs; rw [dif_neg (by decide), dif_neg (by decide), dif_neg (by decide), dif_pos rfl]
theorem outs_o2b (J : ℕ) (c : Dev nD) : outs m J main_v16_1 c = o2b m c := by
  unfold outs; rw [dif_neg (by decide), dif_neg (by decide), dif_neg (by decide), dif_neg (by decide), dif_pos rfl]

/-- The second region's entry contents read only the first region's result. -/
theorem V4_eq (c : Dev nD) : Gen.V4 m (outs m) c = Gen.V4 m (outsA m) c := by
  unfold Gen.V4 Gen.V3 Gen.V2 Gen.V1
  rw [outs_o0 m, outsA_o0 m]

/-- The third region's entry contents read only the first two regions' results. -/
theorem V5_eq (c : Dev nD) : Gen.V5 m (outs m) c = Gen.V5 m (outsB m) c := by
  have h4 : Gen.V4 m (outs m) c = Gen.V4 m (outsB m) c := by
    unfold Gen.V4 Gen.V3 Gen.V2 Gen.V1
    rw [outs_o0 m, outsB_o0 m]
  unfold Gen.V5
  rw [h4, outs_o1a m, outs_o1b m, outsB_o1a m, outsB_o1b m]

/-! ## The proof data family and what rides along -/

/-- Every region's proof data, each at its region's entry contents. -/
def pdats : (p : Fin 3) → (c : Dev nD) → Dat τ (Elt F) Unit ℕ (UR sig nD τ) ℕ (cfgs p) c
  | ⟨0, _⟩ => fun c => dat0 (U0 m) c
  | ⟨1, _⟩ => fun c => dat1 (U1 m) c
  | ⟨2, _⟩ => fun c => dat2 (U2 m) c

/-- No core owes another anything: no level is assigned. -/
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)

/-- The generator register and the scoped rest make the class's invariant of region 1, -/
theorem toPhiA1 (c : Dev nD) :
    iprop((∃ r, prngReg c r) ∗ Pipeline.prefHeld (pcfgs (F := F) 1).pre c (fun _ => fullShare) (Gen.adm (F := F) 1).1 ∗ Pipeline.scopedRest spec1 c)
      ⊢ (Pipeline.ΦA spec1 c : sProp 𝕄) := by
  unfold Pipeline.ΦA
  iintro ⟨Hp, -, Hr⟩
  isplitl [Hr]; · iexact Hr
  iexact Hp
/-- and it gives them back. -/
theorem fromPhiA1 (c : Dev nD) :
    (Pipeline.ΦA spec1 c : sProp 𝕄) ⊢ iprop((∃ r, prngReg c r) ∗ emp ∗ Pipeline.scopedRest spec1 c) := by
  unfold Pipeline.ΦA
  iintro ⟨Hr, Hp⟩
  isplitl [Hp]; · iexact Hp
  isplitr; · iempintro
  iexact Hr

/-- The generator register and the scoped rest make the class's invariant of region 2, -/
theorem toPhiA2 (c : Dev nD) :
    iprop((∃ r, prngReg c r) ∗ Pipeline.prefHeld (pcfgs (F := F) 2).pre c (fun _ => fullShare) (Gen.adm (F := F) 2).1 ∗ Pipeline.scopedRest spec2 c)
      ⊢ (Pipeline.ΦA spec2 c : sProp 𝕄) := by
  unfold Pipeline.ΦA
  iintro ⟨Hp, -, Hr⟩
  isplitl [Hr]; · iexact Hr
  iexact Hp
/-- and it gives them back. -/
theorem fromPhiA2 (c : Dev nD) :
    (Pipeline.ΦA spec2 c : sProp 𝕄) ⊢ iprop((∃ r, prngReg c r) ∗ emp ∗ Pipeline.scopedRest spec2 c) := by
  unfold Pipeline.ΦA
  iintro ⟨Hr, Hp⟩
  isplitl [Hp]; · iexact Hp
  isplitr; · iempintro
  iexact Hr

/-! ## Region 0 as a segment -/

/-- An array the region only reads holds at its exit what it held at its entry. -/
theorem hin_kept0 (c : Dev nD) (r : Ref sig .tc) (h : r ∉ ([main_v0] : List (Ref sig .tc))) :
    Gen.V1 m (outs m) c r = U0 m c r := by
  rw [Gen.V1_of m (outs m) c r h]

/-- The exit contents at output window 2's array: what the write-backs left. -/
theorem hout_at0_2 (c : Dev nD) : Gen.V1 m (outs m) c main_v0 = (pdats m 0 c).arrAt 2 cfg0.N := by
  show (Gen.V1 m (outs m) c) (Proc.devRef .tc main_v0) = _
  simp only [Gen.V1, Function.update_self]
  exact outs_o0 m _ c

set_option maxHeartbeats 1000000 in
theorem hF0 (c : Dev nD) : ∀ w : Fin cfg0.W, (pdats m 0 c).arrAt w cfg0.N = Gen.V1 m (outs m) c (Pipeline.arrRef spec0 w) := by
  intro w
  rcases w with ⟨_ | _ | _ | w, hw⟩
  · exact (((pdats m 0 c).arrAt_in 0 rfl _).trans (A_eq0 (U0 m) c 0)).trans (hin_kept0 m c main_arg1 (by decide)).symm
  · exact (((pdats m 0 c).arrAt_in 1 rfl _).trans (A_eq0 (U0 m) c 1)).trans (hin_kept0 m c main_arg3 (by decide)).symm
  · exact (hout_at0_2 m c).symm
  · exact absurd hw (by have : cfg0.W = 3 := rfl; omega)

theorem hrest0 (c : Dev nD) : ∀ b, b ∉ Finset.univ.image (Pipeline.arrRef spec0) → Gen.V1 m (outs m) c b = U0 m c b := fun b hb =>
  hin_kept0 m c b (by
    intro hmem
    simp only [List.mem_cons, List.mem_nil_iff, or_false] at hmem
    rcases hmem with rfl
    · exact hb (Finset.mem_image.mpr ⟨2, Finset.mem_univ _, rfl⟩))

set_option backward.isDefEq.respectTransparency.types false in
/-- Region 0 over the thread state: entered with every unscoped buffer at the boundary's contents, left with them at
    the next boundary's; its arrays split out of the unscoped buffers and put back at the exit contents; the generator
    register into the invariant and out; nothing owed; no semaphore of the kernel's own. -/
def reg0 : Pipeline.RegionSeg (pcfgs (F := F)) Gen.adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (U0 m) c).loose
  hwaits := Pipeline.hwaits_of_owed_zero _ _ _ _ L lv 0 fun _ _ => rfl
  pre c := iprop(StableHlo.held (c : Thread nD τ) (Pipeline.ucRefs τ sig) (Gen.V0 m c) ∗ R c)
  post c := iprop(StableHlo.held (c : Thread nD τ) (Pipeline.ucRefs τ sig) (Gen.V1 m (outs m) c) ∗ R c)
  X c := iprop(∃ r, prngReg c r)
  Y c := iprop(∃ r, prngReg c r)
  Z c := Pipeline.unscopedRest (Ix := Unit) (Name := ℕ) (U := UR sig nD τ) (Lvl := ℕ) spec0 c (U0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (U0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (U0 m c) (fun b => Gen.V1 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 as a segment -/

/-- An array the region only reads holds at its exit what it held at its entry. -/
theorem hin_kept1 (c : Dev nD) (r : Ref sig .tc) (h : r ∉ ([main_v15_0, main_v15_1] : List (Ref sig .tc))) :
    Gen.V5 m (outs m) c r = U1 m c r := by
  rw [Gen.V5_of m (outs m) c r h, V4_eq m c]

/-- The exit contents at output window 5's array: what the write-backs left. -/
theorem hout_at1_5 (c : Dev nD) : Gen.V5 m (outs m) c main_v15_0 = (pdats m 1 c).arrAt 5 cfg1.N := by
  show (Gen.V5 m (outs m) c) (Proc.devRef .tc main_v15_0) = _
  simp only [Gen.V5, Function.update_of_ne (StableHlo.devRef_ne_of_ne (by decide) : (Proc.devRef .tc main_v15_0 : DevRef τ sig) ≠ Proc.devRef .tc main_v15_1), Function.update_self]
  exact outs_o1a m _ c

/-- The exit contents at output window 6's array: what the write-backs left. -/
theorem hout_at1_6 (c : Dev nD) : Gen.V5 m (outs m) c main_v15_1 = (pdats m 1 c).arrAt 6 cfg1.N := by
  show (Gen.V5 m (outs m) c) (Proc.devRef .tc main_v15_1) = _
  simp only [Gen.V5, Function.update_self]
  exact outs_o1b m _ c

set_option maxHeartbeats 1000000 in
theorem hF1 (c : Dev nD) : ∀ w : Fin cfg1.W, (pdats m 1 c).arrAt w cfg1.N = Gen.V5 m (outs m) c (Pipeline.arrRef spec1 w) := by
  intro w
  rcases w with ⟨_ | _ | _ | _ | _ | _ | _ | w, hw⟩
  · exact (((pdats m 1 c).arrAt_in 0 rfl _).trans (A_eq1 (U1 m) c 0)).trans (hin_kept1 m c main_arg2 (by decide)).symm
  · exact (((pdats m 1 c).arrAt_in 1 rfl _).trans (A_eq1 (U1 m) c 1)).trans (hin_kept1 m c main_arg4 (by decide)).symm
  · exact (((pdats m 1 c).arrAt_in 2 rfl _).trans (A_eq1 (U1 m) c 2)).trans (hin_kept1 m c main_v5 (by decide)).symm
  · exact (((pdats m 1 c).arrAt_in 3 rfl _).trans (A_eq1 (U1 m) c 3)).trans (hin_kept1 m c main_v13 (by decide)).symm
  · exact (((pdats m 1 c).arrAt_in 4 rfl _).trans (A_eq1 (U1 m) c 4)).trans (hin_kept1 m c main_v14 (by decide)).symm
  · exact (hout_at1_5 m c).symm
  · exact (hout_at1_6 m c).symm
  · exact absurd hw (by have : cfg1.W = 7 := rfl; omega)

theorem hrest1 (c : Dev nD) : ∀ b, b ∉ Finset.univ.image (Pipeline.arrRef spec1) → Gen.V5 m (outs m) c b = U1 m c b := fun b hb =>
  hin_kept1 m c b (by
    intro hmem
    simp only [List.mem_cons, List.mem_nil_iff, or_false] at hmem
    rcases hmem with rfl | rfl
    · exact hb (Finset.mem_image.mpr ⟨5, Finset.mem_univ _, rfl⟩)
    · exact hb (Finset.mem_image.mpr ⟨6, Finset.mem_univ _, rfl⟩))

set_option backward.isDefEq.respectTransparency.types false in
/-- Region 1 over the thread state: entered with every unscoped buffer at the boundary's contents, left with them at
    the next boundary's; its arrays split out of the unscoped buffers and put back at the exit contents; the generator
    register into the invariant and out; nothing owed; no semaphore of the kernel's own. -/
def reg1 : Pipeline.RegionSeg (pcfgs (F := F)) Gen.adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (U1 m) c).loose
  hwaits := Pipeline.hwaits_of_owed_zero _ _ _ _ L lv 1 fun _ _ => rfl
  pre c := iprop(StableHlo.held (c : Thread nD τ) (Pipeline.ucRefs τ sig) (Gen.V4 m (outs m) c) ∗ R c)
  post c := iprop(StableHlo.held (c : Thread nD τ) (Pipeline.ucRefs τ sig) (Gen.V5 m (outs m) c) ∗ R c)
  X c := iprop(∃ r, prngReg c r)
  Y c := iprop(∃ r, prngReg c r)
  Z c := Pipeline.unscopedRest (Ix := Unit) (Name := ℕ) (U := UR sig nD τ) (Lvl := ℕ) spec1 c (U1 m c)
  hentry c := by
    rw [Pipeline.ownSems0_none]
    rw [V4_eq m c]
    have hsplit := Pipeline.arrays_of_unscopedBufs (p := 1) (pcfgs (F := F)) Gen.adm (pdats m) launch1.win launch1.arr_whole c
      ((pdats m 1 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toPhiA1 c).trans (hin1 (U1 m) c)
  hout c := by
    rw [Pipeline.ownSems0_none]
    exact (hout1 (U1 m) c).trans (fromPhiA1 c)
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (U1 m c) (fun b => Gen.V5 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 as a segment -/

/-- An array the region only reads holds at its exit what it held at its entry. -/
theorem hin_kept2 (c : Dev nD) (r : Ref sig .tc) (h : r ∉ ([main_v16_0, main_v16_1] : List (Ref sig .tc))) :
    Gen.V6 m (outs m) c r = U2 m c r := by
  rw [Gen.V6_of m (outs m) c r h, V5_eq m c]

/-- The exit contents at output window 2's array: what the write-backs left. -/
theorem hout_at2_2 (c : Dev nD) : Gen.V6 m (outs m) c main_v16_0 = (pdats m 2 c).arrAt 2 cfg2.N := by
  show (Gen.V6 m (outs m) c) (Proc.devRef .tc main_v16_0) = _
  simp only [Gen.V6, Function.update_of_ne (StableHlo.devRef_ne_of_ne (by decide) : (Proc.devRef .tc main_v16_0 : DevRef τ sig) ≠ Proc.devRef .tc main_v16_1), Function.update_self]
  exact outs_o2a m _ c

/-- The exit contents at output window 3's array: what the write-backs left. -/
theorem hout_at2_3 (c : Dev nD) : Gen.V6 m (outs m) c main_v16_1 = (pdats m 2 c).arrAt 3 cfg2.N := by
  show (Gen.V6 m (outs m) c) (Proc.devRef .tc main_v16_1) = _
  simp only [Gen.V6, Function.update_self]
  exact outs_o2b m _ c

set_option maxHeartbeats 1000000 in
theorem hF2 (c : Dev nD) : ∀ w : Fin cfg2.W, (pdats m 2 c).arrAt w cfg2.N = Gen.V6 m (outs m) c (Pipeline.arrRef spec2 w) := by
  intro w
  rcases w with ⟨_ | _ | _ | _ | w, hw⟩
  · exact (((pdats m 2 c).arrAt_in 0 rfl _).trans (A_eq2 (U2 m) c 0)).trans (hin_kept2 m c main_v15_0 (by decide)).symm
  · exact (((pdats m 2 c).arrAt_in 1 rfl _).trans (A_eq2 (U2 m) c 1)).trans (hin_kept2 m c main_v15_1 (by decide)).symm
  · exact (hout_at2_2 m c).symm
  · exact (hout_at2_3 m c).symm
  · exact absurd hw (by have : cfg2.W = 4 := rfl; omega)

theorem hrest2 (c : Dev nD) : ∀ b, b ∉ Finset.univ.image (Pipeline.arrRef spec2) → Gen.V6 m (outs m) c b = U2 m c b := fun b hb =>
  hin_kept2 m c b (by
    intro hmem
    simp only [List.mem_cons, List.mem_nil_iff, or_false] at hmem
    rcases hmem with rfl | rfl
    · exact hb (Finset.mem_image.mpr ⟨2, Finset.mem_univ _, rfl⟩)
    · exact hb (Finset.mem_image.mpr ⟨3, Finset.mem_univ _, rfl⟩))

set_option backward.isDefEq.respectTransparency.types false in
/-- Region 2 over the thread state: entered with every unscoped buffer at the boundary's contents, left with them at
    the next boundary's; its arrays split out of the unscoped buffers and put back at the exit contents; the generator
    register into the invariant and out; nothing owed; no semaphore of the kernel's own. -/
def reg2 : Pipeline.RegionSeg (pcfgs (F := F)) Gen.adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (U2 m) c).loose
  hwaits := Pipeline.hwaits_of_owed_zero _ _ _ _ L lv 2 fun _ _ => rfl
  pre c := iprop(StableHlo.held (c : Thread nD τ) (Pipeline.ucRefs τ sig) (Gen.V5 m (outs m) c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := UR sig nD τ) (Lvl := ℕ) spec2 c (U2 m c)
  hentry c := by
    rw [Pipeline.ownSems0_none]
    rw [V5_eq m c]
    have hsplit := Pipeline.arrays_of_unscopedBufs (p := 2) (pcfgs (F := F)) Gen.adm (pdats m) launch2.win launch2.arr_whole c
      ((pdats m 2 c).share_full fun _ => rfl) (U2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toPhiA2 c).trans (hin2 (U2 m) c)
  hout c := by
    rw [Pipeline.ownSems0_none]
    exact (hout2 (U2 m) c).trans (fromPhiA2 c)
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (U2 m c) (fun b => Gen.V6 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

set_option backward.isDefEq.respectTransparency.types false in
/-- Every weakly fair execution of @main from memory m with zero counters terminates; the result buffer ends at the
    last boundary's contents and every argument as launched. -/
theorem run_main : θ_run defs (onTc (τ := τ) (main (F := F))) ⟨m, fun _ => 0, ρ⟩ (fun r => ∀ c : Dev nD,
      r.2.mem ((c.tc : Thread nD τ).loc main_v30) = Gen.V9 m (outs m) c main_v30
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Gen.run_cond m (EP := emb₁) (ι := ()) (𝒱₀ := Variants.none) (L := L) (lv := lv) (hL := fun _ _ => rfl) (ρ := ρ) (outs := outs m)
    (pdats := pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ => R)
    (hE0 := by
      refine Pipeline.initEach L lv (fun c => ?_)
      iintro ⟨⟨-, HO, -, Hp, -⟩, -⟩
      imodintro
      isplitl [Hp]; · iexists _; iexact Hp
      iexists ∅; iexact HO)
    (hE3 := fun c => by
      iintro ⟨-, HO⟩
      iexact HO)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)

end Cert.KernelIdeal.Hand

end
-- ==== Proof.RefImports.lean ====
/- The reference's generated run and its read-at-an-index lemmas, gathered for the modules that state what the reference computes. -/
import proofs.«424763_j188978561164_3_alg».proof.Proof.Gen.ReferenceIdeal.Run
import proofs.«424763_j188978561164_3_alg».proof.Proof.Gen.ReferenceIdeal.Read
-- ==== Proof.LibPlainDot.lean ====
/-
  A plain matrix product read at an entry.

  For dimension numbers that contract the left operand's axis 1 with the right operand's axis 0, keep the
  left operand's axis 0 and the right operand's axis 1, and have no batch axes, the operand indices at the
  result entry (p, q) and contraction position k are (p, k) and (k, q). So, at the ideal values, a
  `tpu.matmul` into the zero accumulator is the textbook sum  ∑ k, l (p, k) * r (k, q)  over the
  extended reals. Stated for ANY record with those six lists (each equation is `rfl` at a printed record),
  at any extents and element formats.
-/
import Idealize.ShloMosaic.Lib.ValueIdx
import Idealize.ShloMosaic.PureOps.Ideal.Laws

noncomputable section

namespace Idealize.ShloMosaic.PlainDot

open Idealize.ShloMosaic Idealize.ShloMosaic.ValueIdx

variable {M K N : Nat} (d : DotDims ⟨2, ![M, K]⟩ ⟨2, ![K, N]⟩ ⟨2, ![M, N]⟩)

/-- Two reads of an index at positions that are equal numbers agree. -/
private theorem val_congr {n : Nat} {sz : Fin n → Nat} (j : (a : Fin n) → Fin (sz a)) :
    ∀ (a b : Nat) (ha : a < n) (hb : b < n), a = b → (j ⟨a, ha⟩).val = (j ⟨b, hb⟩).val :=
  fun a b ha hb h => by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hln : d.lhsNonContracting = [0]) (hrn : d.rhsNonContracting = [1]) (hlb : d.lhsBatch = [])
    (hrb : d.rhsBatch = []) (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact val_congr j _ _ _ _ (by simp [hlb, hln, hrn])

/-- A `tpu.matmul` of such a record into the zero accumulator, at the ideal values and at entry (p, q): the sum
    over the contraction positions of the products of the left operand's row p and the right operand's column q. -/
theorem matmul_zero_apply {φ₁ φ₂ : FTy}
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![K, N]⟩ φ₂)
    (p : Fin M) (q : Fin N) :
    FloatOps.matmul d prec l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hln hlb _ _
    | ⟨1, _⟩ => exact (lhs_col d hlc _ _).trans hk)
  have er : d.rhsIdx (ix2 p q) ((contrEquiv1 d K hr hs).symm k) = ix2 k q := funext fun a => Fin.ext (by
    match a with
    | ⟨0, _⟩ => exact (rhs_row d hrc _ _).trans hk
    | ⟨1, _⟩ => exact rhs_col d hln hrn hlb hrb _ _)
  rw [el, er]

/-- The same at any index of the result, its two coordinates read off it. -/
theorem matmul_zero_apply_at {φ₁ φ₂ : FTy}
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![K, N]⟩ φ₂)
    (y : (⟨2, ![M, N]⟩ : Shape).Idx) :
    FloatOps.matmul d prec l r (constant (F := Ideal) ⟨2, ![M, N]⟩ .f32 0x00000000#32) y
      = ∑ k : Fin K, l (ix2 ⟨(y 0).val, (y 0).isLt⟩ k) * r (ix2 k ⟨(y 1).val, (y 1).isLt⟩) :=
  (congrArg (FloatOps.matmul d prec l r (constant (F := Ideal) ⟨2, ![M, N]⟩ .f32 0x00000000#32)) (eq_ix2 y)).trans
    (matmul_zero_apply d hlc hrc hln hrn hlb hrb hr hs prec l r (y 0) (y 1))

end Idealize.ShloMosaic.PlainDot

end
-- ==== Proof.KI.Val0.lean ====
/-
  What the first kernel region (the node-feature product h·W, ten row blocks of 5000 rows) leaves in its output
  array, entry by entry, as a function of the arrays it is entered with.

  At a grid point t the body reads rows 5000·t … 5000·t + 4999 of h (a [50000,128] array) and the whole of W
  ([128,128]), rounds both to the narrower format (the identity at the ideal values), and stores their product
  into the zero accumulator over the whole output block: entry (p, j) of the block is Σ_q h (5000·t + p, q) · W (q, j).
  The output's blocks are written back at every point and tile the [50000,128] output array, row r by point
  r / 5000. So the array ends holding, at (n, j), the sum Σ_q h (n, q) · W (q, j).
-/
import proofs.«424763_j188978561164_3_alg».proof.Proof.KI.R0
import proofs.«424763_j188978561164_3_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.ShloMosaic.Pipeline (Dat Cfg Window BodyObligation cellOf)
open scoped BigOperators

/-! ## The body's product at an entry of the block -/

/-- Entry (p, j) of the stored product: row p of the left block against column j of the right one. -/
theorem pay0_apply (x0 : Vec Ideal S5000x128 .f32) (x1 : Vec Ideal S128x128 .f32) (p : Fin 5000) (j : Fin 128) :
    k0_pay1 x0 x1 (ix2 p j) = ∑ q : Fin 128, x0 (ix2 p q) * x1 (ix2 q j) := by
  unfold k0_pay1
  exact PlainDot.matmul_zero_apply dot_S5000x128_S128x128_S5000x128_1_0_0_1_n_n rfl rfl rfl rfl rfl rfl rfl rfl none _ _ p j

theorem zeros0 : (![0, 0] : Fin 2 → ℕ) = fun _ => 0 := funext fun a => by fin_cases a <;> rfl

/-- What the body leaves in the output block is that product of the two blocks it read: the one store covers the
    block, and both loads read their whole buffers. -/
theorem out0_2_eq (x0 : Vec Ideal S5000x128 .f32) (x1 : Vec Ideal S128x128 .f32) : out0_2 x0 x1 = k0_pay1 x0 x1 := by
  unfold out0_2
  rw [View.canon_unit_zero (S := S5000x128) zeros0]
  simp only [View.ld_unit_zero (S := S5000x128) zeros0, View.ld_unit_zero (S := S128x128) zeros0]

/-! ## The whole-array product -/

/-- The product of a [50000,128] array and a [128,128] array, entry by entry. -/
abbrev prod0 (A : S50000x128.Idx → EReal) (W : S128x128.Idx → EReal) : S50000x128.Idx → EReal :=
  fun i => ∑ q : Fin 128, A (ix2 (⟨(i 0).val, idx2_lt0 i⟩ : Fin 50000) q) * W (ix2 q (⟨(i 1).val, idx2_lt1 i⟩ : Fin 128))

/-- A block's product is the whole-array product at the block's rows: if the left block is rows 5000·b … of A and
    the right block is W, entry y of the block's product is the array product at the entry b·5000 rows further down. -/
theorem block_entry (A : S50000x128.Idx → EReal) (W : S128x128.Idx → EReal)
    (x0 : Vec Ideal S5000x128 .f32) (x1 : Vec Ideal S128x128 .f32) (b : ℕ)
    (h0 : ∀ (y : S5000x128.Idx) (i : S50000x128.Idx), (i 0).val = 5000 * b + (y 0).val → (i 1).val = (y 1).val → x0 y = A i)
    (h1 : ∀ y : S128x128.Idx, x1 y = W y)
    (y : S5000x128.Idx) (i : S50000x128.Idx) (hi0 : (i 0).val = 5000 * b + (y 0).val) (hi1 : (i 1).val = (y 1).val) :
    k0_pay1 x0 x1 y = prod0 A W i := by
  obtain ⟨p, j, rfl⟩ : ∃ (p : Fin 5000) (j : Fin 128), y = ix2 p j := ⟨y 0, y 1, eq_ix2 y⟩
  rw [pay0_apply]
  refine Finset.sum_congr rfl fun q _ => ?_
  rw [h0 (ix2 p q) (ix2 (⟨(i 0).val, idx2_lt0 i⟩ : Fin 50000) q) hi0 rfl, h1 (ix2 q j)]
  exact congrArg (fun z => A (ix2 (⟨(i 0).val, idx2_lt0 i⟩ : Fin 50000) q) * W (ix2 q z)) (Fin.ext hi1.symm)

/-! ## The blocks, read off the arrays -/

variable (V : (c : Dev nD) → (b : Ref sig .tc) → Buf (Elt Ideal) ((c : Thread nD τ).loc b))

/-- The printed block indices, decided over the grid: the row-block windows sit at block (t, 0), the matrix at (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left block at point t is rows 5000·t … 5000·t + 4999 of h. -/
theorem iblk0_0_apply (c : Dev nD) (t : Fin cfg0.N) (y : S5000x128.Idx) (i : S50000x128.Idx)
    (h0 : (i 0).val = 5000 * t.val + (y 0).val) (h1 : (i 1).val = (y 1).val) :
    (iblk0 V c 0 t : Vec Ideal S5000x128 .f32) y = (V c main_arg1 : S50000x128.Idx → EReal) i := by
  obtain ⟨e0, e1, -⟩ := idx_facts0 t
  unfold iblk0
  rw [View.read_apply]
  show V c main_arg1 _ = V c main_arg1 _
  congr 1
  funext a
  apply Fin.ext
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- The right block at any point is the whole of W. -/
theorem iblk0_1_apply (c : Dev nD) (t : Fin cfg0.N) (y : S128x128.Idx) :
    (iblk0 V c 1 t : Vec Ideal S128x128 .f32) y = (V c main_arg3 : S128x128.Idx → EReal) y := by
  obtain ⟨-, -, e0, e1, -⟩ := idx_facts0 t
  unfold iblk0
  rw [View.read_apply]
  show V c main_arg3 _ = V c main_arg3 _
  congr 1
  funext a
  apply Fin.ext
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-! ## From the blocks to the array -/

/-- What point t writes back is block t of the whole-array product of the arrays the region is entered with. -/
theorem flushed0_eq (c : Dev nD) (t : Fin cfg0.N) :
    (dat0 (F := Ideal) V c).flushed 2 t
      = ((cfg0.win 2).blk t).view.read (Elt Ideal) (prod0 (V c main_arg1) (V c main_arg3)) := by
  show (cfg0.win 2).cut (grid0.coords t) ((dat0 (F := Ideal) V c).after 2 t) = _
  rw [after0_2, out0_2_eq]
  obtain ⟨-, -, -, -, e0, e1⟩ := idx_facts0 t
  funext y
  rw [View.read_apply]
  refine block_entry (V c main_arg1) (V c main_arg3) (iblk0 V c 0 t) (iblk0 V c 1 t) t.val
    (iblk0_0_apply V c t) (iblk0_1_apply V c t) y _ ?_ ?_
  · show win0_2.index t (0 : Fin 2) * 5000 + 1 * (y 0).val = 5000 * t.val + (y 0).val; rw [e0]; omega
  · show win0_2.index t (1 : Fin 2) * 128 + 1 * (y 1).val = (y 1).val; rw [e1]; omega

/-- An entry of the output array is in point t's block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v0).slice (win0_2.rect t)).set ↔ _
  rw [View.set_slice_whole, Rect.mem_set_unit]
  exact Iff.rfl

/-- Every entry is in the block of the point its row falls to: row r is covered by point r / 5000. -/
theorem cover0 (i : S50000x128.Idx) : ∃ t : Fin cfg0.N, (cfg0.win 2).flush t = true ∧ i ∈ ((cfg0.win 2).blk t).view.set := by
  have hN : cfg0.N = 10 := N_0
  have hi0 : (i 0).val < 50000 := idx2_lt0 i
  have hi1 : (i 1).val < 128 := idx2_lt1 i
  refine ⟨⟨(i 0).val / 5000, by omega⟩, flush0_2 _, ?_⟩
  obtain ⟨-, -, -, -, e0, e1⟩ := idx_facts0 ⟨(i 0).val / 5000, by omega⟩
  rw [mem_blk0]
  intro a
  match a with
  | ⟨0, _⟩ =>
    show win0_2.index _ (0 : Fin 2) * 5000 ≤ (i 0).val ∧ (i 0).val < win0_2.index _ (0 : Fin 2) * 5000 + 5000
    rw [e0]; dsimp only; omega
  | ⟨1, _⟩ =>
    show win0_2.index _ (1 : Fin 2) * 128 ≤ (i 1).val ∧ (i 1).val < win0_2.index _ (1 : Fin 2) * 128 + 128
    rw [e1]; omega

/-- The output array after the region: the whole-array product. -/
theorem final0 (c : Dev nD) : (dat0 (F := Ideal) V c).arrAt 2 cfg0.N = prod0 (V c main_arg1) (V c main_arg3) :=
  (dat0 (F := Ideal) V c).arrAt_eq_of_cover 2 (prod0 (V c main_arg1) (V c main_arg3)) (fun t _ => flushed0_eq V c t) cover0

/-- Entry (n, j) of the product of a [50000,128] array and a [128,128] array. -/
abbrev dot0 (A : S50000x128.Idx → EReal) (W : S128x128.Idx → EReal) (n : Fin 50000) (j : Fin 128) : EReal :=
  ∑ q : Fin 128, A (ix2 n q) * W (ix2 q j)

/-- THE REGION'S VALUES: entry (n, j) of the output array is Σ_q h (n, q) · W (q, j). -/
theorem region0_values (V : (c : Dev nD) → (b : Ref sig .tc) → Buf (Elt Ideal) ((c : Thread nD τ).loc b)) (c : Dev nD) (n : Fin 50000) (j : Fin 128) :
    ((dat0 (F := Ideal) V c).arrAt 2 cfg0.N : S50000x128.Idx → EReal) (ix2 n j) = dot0 (V c main_arg1) (V c main_arg3) n j := by
  rw [final0 V c]

end Cert.KernelIdeal.Hand

end
-- ==== Proof.Spec.lean ====
/-
  The graph-attention layer both programs compute, as one family of functions of the argument arrays over the
  extended reals.

  Nodes n < 50000, edges k < 640000 with endpoints src k, dst k, four heads hh of width 32 laid side by side in
  the 128 feature columns (column 32·hh + d).  With Wh = h·W and We = edge_feat·W_e:
    pre k hh = Σ_d Wh[src k, hh, d]·a_src[hh, d] + Σ_d Wh[dst k, hh, d]·a_dst[hh, d] + Σ_d We[k, hh, d]·a_edge[hh, d]
    e k hh   = pre k hh if it is ≥ 0, else 0.2·pre k hh            (leaky rectifier, the slope the f32 word 0x3E4CCCCD)
    mx hh    = the maximum of e k hh over all edges k               (a softmax over ALL edges, per head)
    w k hh   = exp (e k hh − mx hh),   l hh = Σ_k w k hh
  The reference normalises each weight before the messages are added up at their destination node; the kernel
  adds the unnormalised messages up and multiplies the node's sum by 1 / l hh afterwards.  Both end with max(·, 0).
-/
import Idealize.ShloMosaic.PureOps.Ideal
import Idealize.ShloMosaic.Lib.ValueIdx

noncomputable section

namespace Cert.Spec

open Idealize.ShloMosaic Idealize.ShloMosaic.ValueIdx
open scoped BigOperators

/-- Column of head `hh`, lane `d` among the 128 feature columns. -/
def col (hh : Fin 4) (d : Fin 32) : Fin 128 := ⟨32 * hh.val + d.val, by omega⟩

/-- The leaky rectifier's slope as the programs carry it: the f32 word of 0.2. -/
def slope : EReal := Ideal.ofBits .f32 0x3E4CCCCD#32

/-- The leaky rectifier on the extended reals. -/
def lrelu (x : EReal) : EReal := if 0 ≤ x then x else slope * x

section

variable (src dst : Fin 640000 → Fin 50000)
variable (h : (⟨2, ![50000, 128]⟩ : Shape).Idx → EReal) (ef : (⟨2, ![640000, 128]⟩ : Shape).Idx → EReal)
variable (W We : (⟨2, ![128, 128]⟩ : Shape).Idx → EReal)
variable (asrc adst aedge : (⟨3, ![1, 4, 32]⟩ : Shape).Idx → EReal)

/-- Node features through the weight matrix: (h·W)[n, j]. -/
def Wh (n : Fin 50000) (j : Fin 128) : EReal := ∑ q : Fin 128, h (ix2 n q) * W (ix2 q j)

/-- Edge features through their weight matrix: (edge_feat·W_e)[k, j]. -/
def Weh (k : Fin 640000) (j : Fin 128) : EReal := ∑ q : Fin 128, ef (ix2 k q) * We (ix2 q j)

/-- A node's score against an attention vector `a`, per head. -/
def nodeScore (a : (⟨3, ![1, 4, 32]⟩ : Shape).Idx → EReal) (n : Fin 50000) (hh : Fin 4) : EReal :=
  ∑ d : Fin 32, Wh h W n (col hh d) * a (ix3 0 hh d)

/-- An edge's own score, per head. -/
def edgeScore (k : Fin 640000) (hh : Fin 4) : EReal :=
  ∑ d : Fin 32, Weh ef We k (col hh d) * aedge (ix3 0 hh d)

/-- The attention logit before the rectifier. -/
def pre (k : Fin 640000) (hh : Fin 4) : EReal :=
  nodeScore h W asrc (src k) hh + nodeScore h W adst (dst k) hh + edgeScore ef We aedge k hh

/-- The attention logit. -/
def e (k : Fin 640000) (hh : Fin 4) : EReal := lrelu (pre src dst h ef W We asrc adst aedge k hh)

/-- The largest logit of a head over all edges. -/
def mx (hh : Fin 4) : EReal := Finset.univ.sup fun k : Fin 640000 => e src dst h ef W We asrc adst aedge k hh

/-- The unnormalised attention weight. -/
def w (k : Fin 640000) (hh : Fin 4) : EReal :=
  Ideal.exp (e src dst h ef W We asrc adst aedge k hh - mx src dst h ef W We asrc adst aedge hh)

/-- The softmax denominator of a head. -/
def l (hh : Fin 4) : EReal := ∑ k : Fin 640000, w src dst h ef W We asrc adst aedge k hh

/-- What the kernel's program leaves at node n, head hh, lane d: the unnormalised messages landing at n summed,
    the sum scaled by the reciprocal of the head's denominator, rectified. -/
def kernelOut (n : Fin 50000) (hh : Fin 4) (d : Fin 32) : EReal :=
  max ((∑ k ∈ Finset.univ.filter (fun k => dst k = n),
        Wh h W (src k) (col hh d) * w src dst h ef W We asrc adst aedge k hh)
      * Ideal.div 1 (l src dst h ef W We asrc adst aedge hh)) 0

/-- What the reference leaves there: each message scaled by its normalised weight, then summed, rectified. -/
def refOut (n : Fin 50000) (hh : Fin 4) (d : Fin 32) : EReal :=
  max (∑ k ∈ Finset.univ.filter (fun k => dst k = n),
        Ideal.div (w src dst h ef W We asrc adst aedge k hh) (l src dst h ef W We asrc adst aedge hh)
          * Wh h W (src k) (col hh d)) 0

end

end Cert.Spec

end
-- ==== Proof.LibRowRead.lean ====
/-
  Rows of a rank-2 array read through a reduction over the columns, and a unit middle axis dropped.

  A sum or a maximum over axis 1 of an [R, C] array, at row p, ranges over the entries (p, k), k a column:
  the sum is their sum, the maximum the fold of max from the starting value. An [R, 1, C] array cast to [R, C]
  reads, at (p, k), the entry (p, 0, k). And the four float words these programs use, as extended reals.
-/
import Idealize.ShloMosaic.PureOps.Ideal.Laws
import Idealize.ShloMosaic.Lib.Pipeline.Value
import Idealize.ShloMosaic.Lib.ValueIdx

noncomputable section

namespace Cert.RowRead

open Idealize.ShloMosaic Idealize.ShloMosaic.ValueIdx

variable {R C : ℕ} {φ : FTy}

/-- The reduced index p with column k put back is (p, k). -/
theorem lift_row (h : (⟨2, ![R, C]⟩ : Shape).Reduces [1] (⟨1, ![R]⟩ : Shape)) (p : Fin R)
    (k : Fin ((⟨2, ![R, C]⟩ : Shape).size 1)) : h.lift (ix1 p) k = ix2 p (⟨k.val, k.isLt⟩ : Fin C) := by
  funext c; apply Fin.ext
  fin_cases c <;> rfl

/-- A sum over the columns, at row p. -/
theorem rowSum_apply (src : FVec Ideal (⟨2, ![R, C]⟩ : Shape) φ) (acc : BitVec φ.bits)
    (h : (⟨2, ![R, C]⟩ : Shape).Reduces [1] (⟨1, ![R]⟩ : Shape)) (hφ : FKind.Formats φ)
    (hacc : acc = FKind.add.neutral φ hφ) (p : Fin R) :
    multiReduction .add [1] (⟨1, ![R]⟩ : Shape) src acc h hφ hacc (ix1 p) = ∑ k : Fin C, src (ix2 p k) := by
  rw [Ideal.multiReduction_add_single]
  exact Finset.sum_congr rfl fun k _ => congrArg src (lift_row h p k)

/-- A maximum over the columns, at row p: the fold of max from the accumulator's value. -/
theorem rowMax_apply (src : FVec Ideal (⟨2, ![R, C]⟩ : Shape) φ) (acc : BitVec φ.bits)
    (h : (⟨2, ![R, C]⟩ : Shape).Reduces [1] (⟨1, ![R]⟩ : Shape)) (hφ : FKind.Formats φ)
    (hacc : acc = FKind.maximumf.neutral φ hφ) (p : Fin R) :
    multiReduction .maximumf [1] (⟨1, ![R]⟩ : Shape) src acc h hφ hacc (ix1 p)
      = (Finset.univ : Finset (Fin C)).fold max (Ideal.ofBits φ acc) (fun k => src (ix2 p k)) := by
  rw [Ideal.multiReduction_maximumf_single]
  have hf : (src ∘ h.lift (ix1 p)) = fun k : Fin C => src (ix2 p k) := funext fun k => congrArg src (lift_row h p k)
  exact congrArg (fun f => Finset.fold max (Ideal.ofBits φ acc) f (Finset.univ : Finset (Fin C))) hf

/-- The f32 sum from the zero word, its side proofs typed as a program spells them. -/
theorem rowSum_f32 (src : FVec Ideal (⟨2, ![R, C]⟩ : Shape) .f32)
    (h : (⟨2, ![R, C]⟩ : Shape).Reduces [1] (⟨1, ![R]⟩ : Shape)) (hφ : FKind.Formats .f32)
    (hacc : (0x00000000#32 : BitVec 32) = 0x00000000#32) (p : Fin R) :
    multiReduction .add [1] (⟨1, ![R]⟩ : Shape) src 0x00000000#32 h hφ hacc (ix1 p) = ∑ k : Fin C, src (ix2 p k) :=
  rowSum_apply src _ h hφ hacc p

/-- The f32 maximum from the word of -∞, likewise: the fold of max from the bottom element. -/
theorem rowMax_f32 (src : FVec Ideal (⟨2, ![R, C]⟩ : Shape) .f32)
    (h : (⟨2, ![R, C]⟩ : Shape).Reduces [1] (⟨1, ![R]⟩ : Shape)) (hφ : FKind.Formats .f32)
    (hacc : (0xFF800000#32 : BitVec 32) = 0xFF800000#32) (p : Fin R) :
    multiReduction .maximumf [1] (⟨1, ![R]⟩ : Shape) src 0xFF800000#32 h hφ hacc (ix1 p)
      = (Finset.univ : Finset (Fin C)).fold max ⊥ (fun k => src (ix2 p k)) := by
  have e : Ideal.ofBits .f32 0xFF800000#32 = ⊥ := by simp [Ideal.ofBits, Ideal.ieee]
  rw [← e]
  exact rowMax_apply src _ h hφ hacc p

/-- The host's maximum over the columns, at row p: the fold of max from the initial value. -/
theorem hostRowMax_apply (x : FVec Ideal (⟨2, ![R, C]⟩ : Shape) φ) (init : (⟨0, ![]⟩ : Shape).Idx → Ideal φ)
    (h' : (⟨2, ![R, C]⟩ : Shape).ReducesTo [1] (⟨1, ![R]⟩ : Shape))
    (h : (⟨2, ![R, C]⟩ : Shape).Reduces [1] (⟨1, ![R]⟩ : Shape)) (hu : 0 < (⟨0, ![]⟩ : Shape).numel) (p : Fin R) :
    Host.reduce FloatOps.maximumf x init h' hu (ix1 p)
      = (Finset.univ : Finset (Fin C)).fold max (init (Shape.Idx.first hu)) (fun k => x (ix2 p k)) := by
  rw [Host.reduce_eq_fold_single FloatOps.maximumf x init h' h hu]
  have hf : (x ∘ h.lift (ix1 p)) = fun k : Fin C => x (ix2 p k) := funext fun k => congrArg x (lift_row h p k)
  exact congrArg (fun f => Finset.fold max (init (Shape.Idx.first hu)) f (Finset.univ : Finset (Fin C))) hf

/-- An [R, 1, C] array with its unit axis dropped reads, at (p, k), the entry (p, 0, k). -/
theorem squeeze_apply {α : Type} (x : (⟨3, ![R, 1, C]⟩ : Shape).Idx → α)
    (h : (⟨3, ![R, 1, C]⟩ : Shape).ShapeCasts (⟨2, ![R, C]⟩ : Shape)) (p : Fin R) (k : Fin C) :
    shapeCast (⟨2, ![R, C]⟩ : Shape) x h (ix2 p k) = x (ix3 p (0 : Fin 1) k) :=
  shapeCast_apply x h _ _ (by
    rw [Shape.rowMajor_val_three, Shape.rowMajor_val_two]
    show (p.val * 1 + 0) * C + k.val = p.val * C + k.val
    rw [Nat.mul_one, Nat.add_zero])

/-- Reading a vector through `exp`, entry by entry. -/
theorem exp_apply {s : Shape} (a : FVec Ideal s φ) (i : s.Idx) : exp a i = Ideal.exp (a i) := rfl

/-! ## The float words -/

theorem word_zero : Ideal.ofBits .f32 0x00000000#32 = 0 := Ideal.ofBits_zero_f32
theorem word_one : Ideal.ofBits .f32 0x3F800000#32 = 1 := by simp [Ideal.ofBits, Ideal.ieee, -EReal.coe_mul]; norm_num
theorem word_thousand : Ideal.ofBits .f32 0x447A0000#32 = ((1000 : ℝ) : EReal) := by
  simp [Ideal.ofBits, Ideal.ieee, -EReal.coe_mul]; norm_num
theorem word_neg_inf : Ideal.ofBits .f32 0xFF800000#32 = ⊥ := by simp [Ideal.ofBits, Ideal.ieee]

end Cert.RowRead

end
-- ==== Proof.LibColumn.lean ====
/-
  Keep-dims columns read at an index.

  A row statistic of an [a, b] array (a row's maximum, a row's sum) is computed as an [a] vector, cast to the
  column [a, 1] and broadcast back over the b columns. Read at (p, c) the result is the statistic of row p,
  whatever the column c. The two layout steps, at any extents and element type.
-/
import Idealize.ShloMosaic.Lib.Pipeline.Value
import Idealize.ShloMosaic.Lib.ValueIdx

noncomputable section

namespace Idealize.ShloMosaic.Column

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two steps together: an `[a]` vector as a column, broadcast over `b` columns, at `(p, c)` is the vector at `p`. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

end Idealize.ShloMosaic.Column

end
-- ==== Proof.KI.Val1.lean ====
/-
  What the second kernel region (the edge scores combined, 200 blocks of 3200 edges) leaves in its two output
  arrays, index by index, as a function of the arrays it is entered with.

  At a grid point t the body reads the point's block of edge_feat (rows 3200·t … 3200·t + 3199), the whole of
  W_e, the whole of a_edge laid out as one row of 128 columns, and the point's blocks of the two node-score
  arrays. For row p of the block and head hh it forms
      pre = src score (p, hh) + dst score (p, hh) + Σ_d (Σ_q edge_feat (p, q) · W_e (q, 32·hh + d)) · a_edge (0, 32·hh + d),
  stores the leaky rectifier of pre at (p, hh) of the logits block, and keeps in a one-row block the running
  maximum, per head, of all the logits so far (started at -∞ at the first point). The logits blocks tile the
  logits array; the running maximum is written back after the last point only. So the logits array ends holding
  the rectified pre of every edge, and the one-row array the maximum over all edges of that array, per head.
-/
import proofs.«424763_j188978561164_3_alg».proof.Proof.KI.R1
import proofs.«424763_j188978561164_3_alg».proof.Proof.Spec
import proofs.«424763_j188978561164_3_alg».proof.Proof.LibRowRead
import proofs.«424763_j188978561164_3_alg».proof.Proof.LibPlainDot
import proofs.«424763_j188978561164_3_alg».proof.Proof.LibColumn
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.ShloMosaic.Pipeline (Dat Cfg Window BodyObligation cellOf)
open scoped BigOperators

/-! ## The logits payload at an index of the block -/

/-- The product the lane sums are taken of: the edge block through W_e (rounded operands, zero accumulator: at
    the ideal values the plain sum), times the attention row broadcast down the rows. -/
theorem scaled_apply (x0 : Vec Ideal S3200x128 .f32) (x1 : Vec Ideal S128x128 .f32) (x2 : Vec Ideal S1x128 .f32)
    (p : Fin 3200) (j : Fin 128) :
    mulf (matmul dot_S3200x128_S128x128_S3200x128_1_0_0_1_n_n none (truncf .bf16 x0 bitsLt_bf16_f32) (truncf .bf16 x1 bitsLt_bf16_f32)
          (constant (F := Ideal) S3200x128 .f32 0x00000000#32))
        (broadcastTo S3200x128 (shapeCast S1x128 x2 shapeCasts_S1x128_S1x128) broadcasts_S1x128_S3200x128) (ix2 p j)
      = (∑ q : Fin 128, x0 (ix2 p q) * x1 (ix2 q j)) * x2 (ix2 (0 : Fin 1) j) := by
  rw [mulf_apply, shapeCast_self]
  congr 1
  · exact PlainDot.matmul_zero_apply dot_S3200x128_S128x128_S3200x128_1_0_0_1_n_n rfl rfl rfl rfl rfl rfl rfl rfl none _ _ p j
  · refine broadcastTo_apply x2 _ (ix2 p j) (ix2 (0 : Fin 1) j) fun a => ?_
    match a with
    | ⟨0, _⟩ => rfl
    | ⟨1, _⟩ => rfl

/-- A lane sum kept as a column: the columns off … off + 31 of row p added up. -/
theorem laneSum_apply (v : FVec Ideal S3200x128 .f32) (off : Nat) (hoff : off + 32 ≤ 128) (hs : S3200x128.Slices ![0, off] S3200x32)
    (p : Fin 3200) (u : Fin 1) :
    shapeCast S3200x1 (multiReduction .add [1] S3200 (extractStridedSlice S3200x32 ![0, off] v hs) 0x00000000#32
        reduces_S3200x32_S3200 (.inl rfl) rfl) shapeCasts_S3200_S3200x1 (ix2 p u)
      = ∑ d : Fin 32, v (ix2 p (⟨off + d.val, by omega⟩ : Fin 128)) := by
  rw [Column.shapeCast_a_a1_apply, Cert.RowRead.rowSum_f32]
  refine Finset.sum_congr rfl fun d _ => ?_
  refine extractStridedSlice_apply _ v hs (ix2 p d) _ fun a => ?_
  match a with
  | ⟨0, _⟩ => show p.val = 0 + p.val; omega
  | ⟨1, _⟩ => rfl

/-- The rectifier as the body spells it (compare with zero, select, the slope times the value) is the
    specification's. -/
theorem rect_eq (x : EReal) :
    Scalar.select (Ideal.cmp .oge x (Ideal.ofBits .f32 0x00000000#32)) x (Ideal.ofBits .f32 0x3E4CCCCD#32 * x) = Cert.Spec.lrelu x := by
  unfold Cert.Spec.lrelu Cert.Spec.slope Scalar.select Ideal.cmp
  rw [Ideal.ofBits_zero_f32]
  by_cases h : (0 : EReal) ≤ x
  · simp [h]
  · simp [h]

/-- Four columns laid side by side, read at column hh: the hh-th of them. -/
theorem cat4_apply (c0 c1 c2 c3 : FVec Ideal S3200x1 .f32) (p : Fin 3200) (hh : Fin 4) :
    concatenate S3200x4 1 [⟨S3200x1, c0⟩, ⟨S3200x1, c1⟩, ⟨S3200x1, c2⟩, ⟨S3200x1, c3⟩]
        concatenates_S3200x1_S3200x1_S3200x1_S3200x1_S3200x4_d1 (ix2 p hh)
      = (match hh with | ⟨0, _⟩ => c0 | ⟨1, _⟩ => c1 | ⟨2, _⟩ => c2 | ⟨3, _⟩ => c3) (ix2 p (0 : Fin 1)) := by
  have hi : ∀ (hh : Fin 4) (b : Fin S3200x1.rank), b.cast (rfl : S3200x1.rank = S3200x4.rank) ≠ (1 : Fin S3200x4.rank) →
      ((ix2 p (0 : Fin 1) : S3200x1.Idx) b).val = ((ix2 p hh : S3200x4.Idx) (b.cast rfl)).val := fun hh b hb => by
    match b with
    | ⟨0, _⟩ => rfl
    | ⟨1, _⟩ => exact absurd rfl hb
  match hh with
  | ⟨0, hk⟩ => exact concatenate_apply_piece 1 [⟨S3200x1, c0⟩, ⟨S3200x1, c1⟩, ⟨S3200x1, c2⟩, ⟨S3200x1, c3⟩] _ (ix2 p ⟨0, hk⟩) 0 (by simp) S3200x1 c0 rfl rfl 0 rfl (ix2 p 0) (hi _) rfl
  | ⟨1, hk⟩ => exact concatenate_apply_piece 1 [⟨S3200x1, c0⟩, ⟨S3200x1, c1⟩, ⟨S3200x1, c2⟩, ⟨S3200x1, c3⟩] _ (ix2 p ⟨1, hk⟩) 1 (by simp) S3200x1 c1 rfl rfl 1 rfl (ix2 p 0) (hi _) rfl
  | ⟨2, hk⟩ => exact concatenate_apply_piece 1 [⟨S3200x1, c0⟩, ⟨S3200x1, c1⟩, ⟨S3200x1, c2⟩, ⟨S3200x1, c3⟩] _ (ix2 p ⟨2, hk⟩) 2 (by simp) S3200x1 c2 rfl rfl 2 rfl (ix2 p 0) (hi _) rfl
  | ⟨3, hk⟩ => exact concatenate_apply_piece 1 [⟨S3200x1, c0⟩, ⟨S3200x1, c1⟩, ⟨S3200x1, c2⟩, ⟨S3200x1, c3⟩] _ (ix2 p ⟨3, hk⟩) 3 (by simp) S3200x1 c3 rfl rfl 3 rfl (ix2 p 0) (hi _) rfl

/-- THE LOGITS PAYLOAD at row p, head hh of the block. -/
theorem pay3_apply (x0 : Vec Ideal S3200x128 .f32) (x1 : Vec Ideal S128x128 .f32) (x2 : Vec Ideal S1x128 .f32)
    (x3 x4 : Vec Ideal S3200x4 .f32) (p : Fin 3200) (hh : Fin 4) :
    k1_pay3 (F := Ideal) x0 x1 x2 x3 x4 (ix2 p hh)
      = Cert.Spec.lrelu (x3 (ix2 p hh) + x4 (ix2 p hh)
          + ∑ d : Fin 32, (∑ q : Fin 128, x0 (ix2 p q) * x1 (ix2 q (Cert.Spec.col hh d))) * x2 (ix2 (0 : Fin 1) (Cert.Spec.col hh d))) := by
  unfold k1_pay3
  dsimp only
  rw [select_apply, cmpf_apply, mulf_apply, broadcast_apply, broadcast_apply]
  refine Eq.trans (rect_eq _) (congrArg Cert.Spec.lrelu ?_)
  rw [addf_apply, addf_apply, shapeCast_self, shapeCast_self, cat4_apply]
  congr 1
  match hh with
  | ⟨0, _⟩ =>
    refine (laneSum_apply _ 0 (by omega) _ p 0).trans (Finset.sum_congr rfl fun d _ => ?_)
    exact (scaled_apply x0 x1 x2 p _).trans (by congr)
  | ⟨1, _⟩ =>
    refine (laneSum_apply _ 32 (by omega) _ p 0).trans (Finset.sum_congr rfl fun d _ => ?_)
    exact (scaled_apply x0 x1 x2 p _).trans (by congr)
  | ⟨2, _⟩ =>
    refine (laneSum_apply _ 64 (by omega) _ p 0).trans (Finset.sum_congr rfl fun d _ => ?_)
    exact (scaled_apply x0 x1 x2 p _).trans (by congr)
  | ⟨3, _⟩ =>
    refine (laneSum_apply _ 96 (by omega) _ p 0).trans (Finset.sum_congr rfl fun d _ => ?_)
    exact (scaled_apply x0 x1 x2 p _).trans (by congr)

/-! ## The running maximum's payloads -/

/-- The reduced index hh with row k put back is (k, hh). -/
theorem lift_col (h : S3200x4.Reduces [0] S4) (hh : Fin 4) (k : Fin (S3200x4.size 0)) :
    h.lift (ix1 hh) k = ix2 (⟨k.val, k.isLt⟩ : Fin 3200) hh := by
  funext c; apply Fin.ext
  fin_cases c <;> rfl

/-- A fold of max from the bottom element is the supremum. -/
theorem fold_max_bot_eq_sup {ι : Type} (s : Finset ι) (f : ι → EReal) : s.fold max ⊥ f = s.sup f :=
  le_antisymm ((Finset.fold_max_le _).2 ⟨bot_le, fun x hx => Finset.le_sup hx⟩)
    (Finset.sup_le fun x hx => (Finset.le_fold_max _).2 (Or.inr ⟨x, hx, le_rfl⟩))

/-- A maximum over the rows from the word of -∞, at column hh: the supremum of the column. -/
theorem colMax_f32 (src : FVec Ideal S3200x4 .f32) (h : S3200x4.Reduces [0] S4) (hφ : FKind.Formats .f32)
    (hacc : (0xFF800000#32 : BitVec 32) = 0xFF800000#32) (hh : Fin 4) :
    multiReduction .maximumf [0] S4 src 0xFF800000#32 h hφ hacc (ix1 hh) = Finset.univ.sup fun p : Fin 3200 => src (ix2 p hh) := by
  refine (Ideal.multiReduction_maximumf_single src 0xFF800000#32 h hφ hacc (ix1 hh)).trans ?_
  have e0 : (FloatOps.ofBits (F := Ideal) .f32 0xFF800000#32 : EReal) = ⊥ := Cert.RowRead.word_neg_inf
  rw [e0, fold_max_bot_eq_sup]
  have hf : (src ∘ h.lift (ix1 hh)) = fun k : Fin 3200 => src (ix2 k hh) :=
    funext fun k => congrArg src (lift_col h hh k)
  exact congrArg (fun f => Finset.sup (Finset.univ : Finset (Fin 3200)) f) hf

/-- The new running maximum, per head: the old one against the largest logit of the block's 3200 rows. -/
theorem pay1_apply (e : FVec Ideal S3200x4 .f32) (old : Vec Ideal S1x4 .f32) (hh : Fin 4) :
    k1_pay1 (F := Ideal) e old (ix2 (0 : Fin 1) hh)
      = max (old (ix2 (0 : Fin 1) hh)) (Finset.univ.sup fun p : Fin 3200 => e (ix2 p hh)) := by
  unfold k1_pay1
  dsimp only
  rw [shapeCast_self, maximumf_apply]
  congr 1
  rw [shapeCast_apply _ shapeCasts_S4_S1x4 (ix2 (0 : Fin 1) hh) (ix1 hh) (by
    rw [Shape.rowMajor_val_two, Shape.rowMajor_val_one]; show hh.val = 0 * 4 + hh.val; omega)]
  exact colMax_f32 e _ _ _ hh

/-- The fill the first point starts the running maximum from: -∞ everywhere. -/
theorem pay2_apply (i : S1x4.Idx) : k1_pay2 (F := Ideal) i = ⊥ := by
  unfold k1_pay2
  rw [shapeCast_self, broadcast_apply]
  exact Cert.RowRead.word_neg_inf

/-! ## From the blocks to the arrays -/

variable (V : (c : Dev nD) → (b : Ref sig .tc) → Buf (Elt Ideal) ((c : Thread nD τ).loc b))

/-- The logit the region leaves for edge k and head hh, as a function of the five arrays it reads. -/
abbrev edgeLogit (ef : S640000x128.Idx → EReal) (We : S128x128.Idx → EReal) (ae : S1x128.Idx → EReal)
    (ss sd : S640000x4.Idx → EReal) (k : Fin 640000) (hh : Fin 4) : EReal :=
  Cert.Spec.lrelu (ss (ix2 k hh) + sd (ix2 k hh)
    + ∑ d : Fin 32, (∑ q : Fin 128, ef (ix2 k q) * We (ix2 q (Cert.Spec.col hh d))) * ae (ix2 (0 : Fin 1) (Cert.Spec.col hh d)))

/-- The logits array the region leaves, as one function of the arrays it is entered with. -/
abbrev logitsOf (c : Dev nD) : S640000x4.Idx → EReal := fun i =>
  edgeLogit (V c main_arg2) (V c main_arg4) (V c main_v5) (V c main_v13) (V c main_v14)
    ⟨(i 0).val, idx2_lt0 i⟩ ⟨(i 1).val, idx2_lt1 i⟩

/-- The printed index maps over the grid: the blocked windows step with the point along the rows and stay at
    column block 0; the whole-array windows stay at block (0, 0). -/
theorem index_facts1 : ∀ t : Fin cfg1.N,
    (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = t.val ∧ win1_3.index t (1 : Fin 2) = 0)
    ∧ (win1_4.index t (0 : Fin 2) = t.val ∧ win1_4.index t (1 : Fin 2) = 0)
    ∧ (win1_5.index t (0 : Fin 2) = t.val ∧ win1_5.index t (1 : Fin 2) = 0)
    ∧ (win1_6.index t (0 : Fin 2) = 0 ∧ win1_6.index t (1 : Fin 2) = 0) :=
  (by decide +kernel : ∀ t : Fin grid1.N, _)

theorem lt_of_point (t : Fin cfg1.N) (p : Fin 3200) : 3200 * t.val + p.val < 640000 := by
  have ht : t.val < 200 := lt_of_lt_of_eq t.isLt N_1
  have := p.isLt; omega

/-- The edge-feature block at point t is rows 3200·t … 3200·t + 3199 of the array. -/
theorem iblk1_0_apply {c : Dev nD} (t : Fin cfg1.N) (p : Fin 3200) (q : Fin 128) :
    (iblk1 V c 0 t : Vec Ideal S3200x128 .f32) (ix2 p q)
      = (V c main_arg2 : S640000x128.Idx → EReal) (ix2 ⟨3200 * t.val + p.val, lt_of_point t p⟩ q) := by
  obtain ⟨⟨e0, e1⟩, -⟩ := index_facts1 t
  unfold iblk1
  rw [View.read_apply]
  show V c main_arg2 _ = V c main_arg2 _
  congr 1
  funext a
  apply Fin.ext
  match a with
  | ⟨0, _⟩ => show win1_0.index t (0 : Fin 2) * 3200 + 1 * p.val = 3200 * t.val + p.val; rw [e0]; omega
  | ⟨1, _⟩ => show win1_0.index t (1 : Fin 2) * 128 + 1 * q.val = q.val; rw [e1]; omega

/-- W_e's block is the whole of W_e at every point. -/
theorem iblk1_1_apply {c : Dev nD} (t : Fin cfg1.N) (a : Fin 128) (b : Fin 128) :
    (iblk1 V c 1 t : Vec Ideal S128x128 .f32) (ix2 a b) = (V c main_arg4 : S128x128.Idx → EReal) (ix2 a b) := by
  obtain ⟨-, ⟨e0, e1⟩, -⟩ := index_facts1 t
  unfold iblk1
  rw [View.read_apply]
  show V c main_arg4 _ = V c main_arg4 _
  congr 1
  funext x
  apply Fin.ext
  match x with
  | ⟨0, _⟩ => show win1_1.index t (0 : Fin 2) * 128 + 1 * a.val = a.val; rw [e0]; omega
  | ⟨1, _⟩ => show win1_1.index t (1 : Fin 2) * 128 + 1 * b.val = b.val; rw [e1]; omega

/-- The attention row's block is the whole row at every point. -/
theorem iblk1_2_apply {c : Dev nD} (t : Fin cfg1.N) (a : Fin 1) (b : Fin 128) :
    (iblk1 V c 2 t : Vec Ideal S1x128 .f32) (ix2 a b) = (V c main_v5 : S1x128.Idx → EReal) (ix2 a b) := by
  obtain ⟨-, -, ⟨e0, e1⟩, -⟩ := index_facts1 t
  unfold iblk1
  rw [View.read_apply]
  show V c main_v5 _ = V c main_v5 _
  congr 1
  funext x
  apply Fin.ext
  match x with
  | ⟨0, _⟩ => show win1_2.index t (0 : Fin 2) * 1 + 1 * a.val = a.val; rw [e0]; omega
  | ⟨1, _⟩ => show win1_2.index t (1 : Fin 2) * 128 + 1 * b.val = b.val; rw [e1]; omega

/-- The source scores' block at point t is rows 3200·t … 3200·t + 3199 of the array. -/
theorem iblk1_3_apply {c : Dev nD} (t : Fin cfg1.N) (p : Fin 3200) (hh : Fin 4) :
    (iblk1 V c 3 t : Vec Ideal S3200x4 .f32) (ix2 p hh)
      = (V c main_v13 : S640000x4.Idx → EReal) (ix2 ⟨3200 * t.val + p.val, lt_of_point t p⟩ hh) := by
  obtain ⟨-, -, -, ⟨e0, e1⟩, -⟩ := index_facts1 t
  unfold iblk1
  rw [View.read_apply]
  show V c main_v13 _ = V c main_v13 _
  congr 1
  funext a
  apply Fin.ext
  match a with
  | ⟨0, _⟩ => show win1_3.index t (0 : Fin 2) * 3200 + 1 * p.val = 3200 * t.val + p.val; rw [e0]; omega
  | ⟨1, _⟩ => show win1_3.index t (1 : Fin 2) * 4 + 1 * hh.val = hh.val; rw [e1]; omega

/-- The destination scores' block likewise. -/
theorem iblk1_4_apply {c : Dev nD} (t : Fin cfg1.N) (p : Fin 3200) (hh : Fin 4) :
    (iblk1 V c 4 t : Vec Ideal S3200x4 .f32) (ix2 p hh)
      = (V c main_v14 : S640000x4.Idx → EReal) (ix2 ⟨3200 * t.val + p.val, lt_of_point t p⟩ hh) := by
  obtain ⟨-, -, -, -, ⟨e0, e1⟩, -⟩ := index_facts1 t
  unfold iblk1
  rw [View.read_apply]
  show V c main_v14 _ = V c main_v14 _
  congr 1
  funext a
  apply Fin.ext
  match a with
  | ⟨0, _⟩ => show win1_4.index t (0 : Fin 2) * 3200 + 1 * p.val = 3200 * t.val + p.val; rw [e0]; omega
  | ⟨1, _⟩ => show win1_4.index t (1 : Fin 2) * 4 + 1 * hh.val = hh.val; rw [e1]; omega

/-- THE LOGITS BLOCK of point t, row p, head hh, is the logit of edge 3200·t + p. -/
theorem pay3_at_point {c : Dev nD} (t : Fin cfg1.N) (p : Fin 3200) (hh : Fin 4) :
    k1_pay3 (F := Ideal) (iblk1 V c 0 t) (iblk1 V c 1 t) (iblk1 V c 2 t) (iblk1 V c 3 t) (iblk1 V c 4 t) (ix2 p hh)
      = edgeLogit (V c main_arg2) (V c main_arg4) (V c main_v5) (V c main_v13) (V c main_v14)
          ⟨3200 * t.val + p.val, lt_of_point t p⟩ hh := by
  refine (pay3_apply (iblk1 V c 0 t) (iblk1 V c 1 t) (iblk1 V c 2 t) (iblk1 V c 3 t) (iblk1 V c 4 t) p hh).trans ?_
  unfold edgeLogit
  refine congrArg Cert.Spec.lrelu ?_
  refine congrArg₂ (fun a b : EReal => a + b)
    (congrArg₂ (fun a b : EReal => a + b) (iblk1_3_apply V t p hh) (iblk1_4_apply V t p hh)) ?_
  refine Finset.sum_congr rfl fun d _ => ?_
  exact congrArg₂ (fun a b : EReal => a * b)
    (Finset.sum_congr rfl fun q _ => congrArg₂ (fun a b : EReal => a * b) (iblk1_0_apply V t p q) (iblk1_1_apply V t q _))
    (iblk1_2_apply V t 0 _)

/-! ## The logits array -/

/-- WHAT POINT t WRITES BACK to the logits array is block t of `logitsOf`. -/
theorem flushed5_eq {c : Dev nD} (dat : Dat τ (Elt Ideal) Unit ℕ (UR sig nD τ) ℕ cfg1 c)
    (h5 : ∀ t : Fin cfg1.N, dat.after 5 t = k1_pay3 (F := Ideal) (iblk1 V c 0 t) (iblk1 V c 1 t) (iblk1 V c 2 t) (iblk1 V c 3 t) (iblk1 V c 4 t))
    (t : Fin cfg1.N) :
    dat.flushed 5 t = ((cfg1.win 5).blk t).view.read (Elt Ideal) (logitsOf V c) := by
  show (cfg1.win 5).cut (grid1.coords t) (dat.after 5 t) = _
  rw [h5]
  obtain ⟨-, -, -, -, -, ⟨e0, e1⟩, -⟩ := index_facts1 t
  funext j
  obtain ⟨p, hh, rfl⟩ : ∃ (p : Fin 3200) (hh : Fin 4), j = (ix2 p hh : S3200x4.Idx) := ⟨j 0, j 1, eq_ix2 j⟩
  rw [View.read_apply]
  show k1_pay3 (F := Ideal) (iblk1 V c 0 t) (iblk1 V c 1 t) (iblk1 V c 2 t) (iblk1 V c 3 t) (iblk1 V c 4 t) (ix2 p hh)
    = logitsOf V c (((cfg1.win 5).blk t).view.emb (ix2 p hh))
  refine (pay3_at_point V t p hh).trans ?_
  have hk : (⟨3200 * t.val + p.val, lt_of_point t p⟩ : Fin 640000)
      = ⟨((((cfg1.win 5).blk t).view.emb (ix2 p hh) : S640000x4.Idx) 0).val, idx2_lt0 _⟩ := Fin.ext (by
    show 3200 * t.val + p.val = win1_5.index t (0 : Fin 2) * 3200 + 1 * p.val; rw [e0]; omega)
  have hh' : hh = ⟨((((cfg1.win 5).blk t).view.emb (ix2 p hh) : S640000x4.Idx) 1).val, idx2_lt1 _⟩ := Fin.ext (by
    show hh.val = win1_5.index t (1 : Fin 2) * 4 + 1 * hh.val; rw [e1]; omega)
  show edgeLogit _ _ _ _ _ _ _ = edgeLogit _ _ _ _ _ _ _
  rw [← hk, ← hh']

/-- An index of the logits array is in point t's block iff each coordinate is in the block's range on its axis. -/
theorem mem_blk5 (t : Fin cfg1.N) (i : S640000x4.Idx) :
    i ∈ ((cfg1.win 5).blk t).view.set
      ↔ ∀ a : Fin 2, win1_5.index t a * S3200x4.size a ≤ (i a).val ∧ (i a).val < win1_5.index t a * S3200x4.size a + S3200x4.size a := by
  show i ∈ ((View.whole main_v15_0).slice (win1_5.rect t)).set ↔ _
  rw [View.set_slice_whole, Rect.mem_set_unit]
  exact Iff.rfl

/-- Every row of the logits array is in the block of the point its number divided by 3200 names. -/
theorem cover5 (i : S640000x4.Idx) : ∃ t : Fin cfg1.N, (cfg1.win 5).flush t = true ∧ i ∈ ((cfg1.win 5).blk t).view.set := by
  have hi0 : (i 0).val < 640000 := idx2_lt0 i
  have hi1 : (i 1).val < 4 := idx2_lt1 i
  let t : Fin cfg1.N := ⟨(i 0).val / 3200, lt_of_lt_of_eq (by omega : (i 0).val / 3200 < 200) N_1.symm⟩
  obtain ⟨-, -, -, -, -, ⟨e0, e1⟩, -⟩ := index_facts1 t
  have ht : t.val = (i 0).val / 3200 := rfl
  refine ⟨t, flush1_5 t, ?_⟩
  rw [mem_blk5]
  intro a
  match a with
  | ⟨0, _⟩ =>
    show win1_5.index t (0 : Fin 2) * 3200 ≤ (i 0).val ∧ (i 0).val < win1_5.index t (0 : Fin 2) * 3200 + 3200
    rw [e0, ht]; omega
  | ⟨1, _⟩ =>
    show win1_5.index t (1 : Fin 2) * 4 ≤ (i 1).val ∧ (i 1).val < win1_5.index t (1 : Fin 2) * 4 + 4
    rw [e1]; omega

/-- THE LOGITS ARRAY after the region: `logitsOf` of the arrays the region is entered with. -/
theorem final5 {c : Dev nD} (dat : Dat τ (Elt Ideal) Unit ℕ (UR sig nD τ) ℕ cfg1 c)
    (h5 : ∀ t : Fin cfg1.N, dat.after 5 t = k1_pay3 (F := Ideal) (iblk1 V c 0 t) (iblk1 V c 1 t) (iblk1 V c 2 t) (iblk1 V c 3 t) (iblk1 V c 4 t)) :
    dat.arrAt 5 cfg1.N = logitsOf V c :=
  dat.arrAt_eq_of_cover 5 (logitsOf V c) (fun t _ => flushed5_eq V dat h5 t) cover5

/-! ## The running maximum -/

/-- The last grid point, the only one that writes the running maximum back. -/
abbrev lastPoint : Fin cfg1.N := ⟨199, lt_of_lt_of_eq (by omega : 199 < 200) N_1.symm⟩

/-- An index of the one-row array is in point t's block iff each coordinate is in the block's range on its axis. -/
theorem mem_blk6 (t : Fin cfg1.N) (i : S1x4.Idx) :
    i ∈ ((cfg1.win 6).blk t).view.set
      ↔ ∀ a : Fin 2, win1_6.index t a * S1x4.size a ≤ (i a).val ∧ (i a).val < win1_6.index t a * S1x4.size a + S1x4.size a := by
  show i ∈ ((View.whole main_v15_1).slice (win1_6.rect t)).set ↔ _
  rw [View.set_slice_whole, Rect.mem_set_unit]
  exact Iff.rfl

/-- THE ONE-ROW ARRAY after the region is what the body left in its block at the last point. -/
theorem final6 {c : Dev nD} (dat : Dat τ (Elt Ideal) Unit ℕ (UR sig nD τ) ℕ cfg1 c) :
    dat.arrAt 6 cfg1.N = dat.after 6 lastPoint := by
  refine dat.arrAt_eq_of_cover 6 (dat.after 6 lastPoint) (fun t hf => ?_) (fun i => ?_)
  · have h199 : t.val = 199 := by
      have h1 := (flush1_6 t).mp hf
      have h2 : t.val < 200 := lt_of_lt_of_eq t.isLt N_1
      omega
    obtain rfl : t = lastPoint := Fin.ext h199
    obtain ⟨-, -, -, -, -, -, ⟨e0, e1⟩⟩ := index_facts1 lastPoint
    show (cfg1.win 6).cut (grid1.coords lastPoint) (dat.after 6 lastPoint) = _
    funext j
    rw [View.read_apply]
    show dat.after 6 lastPoint j = dat.after 6 lastPoint (((cfg1.win 6).blk lastPoint).view.emb j)
    congr 1
    funext a
    apply Fin.ext
    match a with
    | ⟨0, _⟩ => show (j 0).val = win1_6.index lastPoint (0 : Fin 2) * 1 + 1 * (j 0).val; rw [e0]; omega
    | ⟨1, _⟩ => show (j 1).val = win1_6.index lastPoint (1 : Fin 2) * 4 + 1 * (j 1).val; rw [e1]; omega
  · obtain ⟨-, -, -, -, -, -, ⟨e0, e1⟩⟩ := index_facts1 lastPoint
    have hi0 : (i 0).val < 1 := idx2_lt0 i
    have hi1 : (i 1).val < 4 := idx2_lt1 i
    refine ⟨lastPoint, (flush1_6 lastPoint).mpr rfl, ?_⟩
    rw [mem_blk6]
    intro a
    match a with
    | ⟨0, _⟩ =>
      show win1_6.index lastPoint (0 : Fin 2) * 1 ≤ (i 0).val ∧ (i 0).val < win1_6.index lastPoint (0 : Fin 2) * 1 + 1
      rw [e0]; omega
    | ⟨1, _⟩ =>
      show win1_6.index lastPoint (1 : Fin 2) * 4 ≤ (i 1).val ∧ (i 1).val < win1_6.index lastPoint (1 : Fin 2) * 4 + 4
      rw [e1]; omega

section RunningMax

variable {c : Dev nD} (dat : Dat τ (Elt Ideal) Unit ℕ (UR sig nD τ) ℕ cfg1 c)

/-- The running maximum of head hh as the body leaves it at point t. -/
abbrev runMax (t : Fin cfg1.N) (hh : Fin 4) : EReal := (dat.after 6 t : S1x4.Idx → EReal) (ix2 (0 : Fin 1) hh)

/-- The logit of row p, head hh, of the block the body leaves at point t. -/
abbrev blkLogit (t : Fin cfg1.N) (p : Fin 3200) (hh : Fin 4) : EReal := (dat.after 5 t : S3200x4.Idx → EReal) (ix2 p hh)

/-- At the first point the running maximum is the largest logit of the first block (it starts from -∞). -/
theorem runMax_zero
    (h6z : ∀ t : Fin cfg1.N, t.val = 0 → dat.after 6 t = k1_pay1 (F := Ideal) (dat.after 5 t) (k1_pay2 (F := Ideal)))
    (t : Fin cfg1.N) (h0 : t.val = 0) (hh : Fin 4) :
    runMax dat t hh = Finset.sup (α := EReal) Finset.univ fun p : Fin 3200 => blkLogit dat t p hh := by
  unfold runMax
  rw [h6z t h0]
  refine (pay1_apply (dat.after 5 t) (k1_pay2 (F := Ideal)) hh).trans ?_
  rw [pay2_apply]
  exact max_eq_right bot_le

/-- At a later point it is the previous point's against the largest logit of the point's block. -/
theorem runMax_succ
    (h6s : ∀ (t : Fin cfg1.N) (h0 : t.val ≠ 0), dat.after 6 t = k1_pay1 (F := Ideal) (dat.after 5 t) (dat.after 6 ⟨t.val - 1, by omega⟩))
    (n : ℕ) (hn : n + 1 < cfg1.N) (hh : Fin 4) :
    runMax dat ⟨n + 1, hn⟩ hh
      = max (runMax dat ⟨n, Nat.lt_of_succ_lt hn⟩ hh)
          (Finset.sup (α := EReal) Finset.univ fun p : Fin 3200 => blkLogit dat ⟨n + 1, hn⟩ p hh) := by
  unfold runMax
  rw [h6s ⟨n + 1, hn⟩ (Nat.succ_ne_zero n)]
  exact pay1_apply (dat.after 5 ⟨n + 1, hn⟩) (dat.after 6 ⟨n + 1 - 1, by omega⟩) hh

/-- The block's logit at point t, row p is the array's logit of edge 3200·t + p. -/
theorem blkLogit_eq
    (h5 : ∀ t : Fin cfg1.N, dat.after 5 t = k1_pay3 (F := Ideal) (iblk1 V c 0 t) (iblk1 V c 1 t) (iblk1 V c 2 t) (iblk1 V c 3 t) (iblk1 V c 4 t))
    (t : Fin cfg1.N) (p : Fin 3200) (hh : Fin 4) :
    blkLogit dat t p hh = logitsOf V c (ix2 ⟨3200 * t.val + p.val, lt_of_point t p⟩ hh) := by
  unfold blkLogit
  rw [h5 t]
  exact pay3_at_point V t p hh

variable (h5 : ∀ t : Fin cfg1.N, dat.after 5 t = k1_pay3 (F := Ideal) (iblk1 V c 0 t) (iblk1 V c 1 t) (iblk1 V c 2 t) (iblk1 V c 3 t) (iblk1 V c 4 t))
  (h6z : ∀ t : Fin cfg1.N, t.val = 0 → dat.after 6 t = k1_pay1 (F := Ideal) (dat.after 5 t) (k1_pay2 (F := Ideal)))
  (h6s : ∀ (t : Fin cfg1.N) (h0 : t.val ≠ 0), dat.after 6 t = k1_pay1 (F := Ideal) (dat.after 5 t) (dat.after 6 ⟨t.val - 1, by omega⟩))

include h5 in
/-- A block's largest logit is at most the largest logit of the array. -/
theorem blkSup_le (t : Fin cfg1.N) (hh : Fin 4) :
    (Finset.sup (α := EReal) Finset.univ fun p : Fin 3200 => blkLogit dat t p hh)
      ≤ Finset.sup (α := EReal) Finset.univ fun k : Fin 640000 => logitsOf V c (ix2 k hh) :=
  Finset.sup_le fun p _ => by
    rw [blkLogit_eq V dat h5 t p hh]
    exact Finset.le_sup (f := fun k : Fin 640000 => logitsOf V c (ix2 k hh)) (Finset.mem_univ _)

include h5 h6z h6s in
/-- The running maximum never exceeds the largest logit of the array, -/
theorem runMax_le (hh : Fin 4) : ∀ (n : ℕ) (hn : n < cfg1.N),
    runMax dat ⟨n, hn⟩ hh ≤ Finset.sup (α := EReal) Finset.univ fun k : Fin 640000 => logitsOf V c (ix2 k hh)
  | 0, hn => by
    rw [runMax_zero dat h6z ⟨0, hn⟩ rfl hh]
    exact blkSup_le V dat h5 _ hh
  | n + 1, hn => by
    rw [runMax_succ dat h6s n hn hh]
    exact max_le (runMax_le hh n (Nat.lt_of_succ_lt hn)) (blkSup_le V dat h5 _ hh)

include h6z h6s in
/-- and after point n it is at least every logit of the blocks of points 0 … n. -/
theorem le_runMax (hh : Fin 4) : ∀ (n : ℕ) (hn : n < cfg1.N) (s : ℕ) (hs : s ≤ n) (p : Fin 3200),
    blkLogit dat ⟨s, lt_of_le_of_lt hs hn⟩ p hh ≤ runMax dat ⟨n, hn⟩ hh
  | 0, hn, s, hs, p => by
    obtain rfl : s = 0 := by omega
    rw [runMax_zero dat h6z ⟨0, hn⟩ rfl hh]
    exact Finset.le_sup (f := fun p : Fin 3200 => blkLogit dat ⟨0, hn⟩ p hh) (Finset.mem_univ p)
  | n + 1, hn, s, hs, p => by
    rw [runMax_succ dat h6s n hn hh]
    by_cases h : s = n + 1
    · subst h
      exact le_max_of_le_right (Finset.le_sup (f := fun p : Fin 3200 => blkLogit dat ⟨n + 1, hn⟩ p hh) (Finset.mem_univ p))
    · exact le_max_of_le_left (le_runMax hh n (Nat.lt_of_succ_lt hn) s (by omega) p)

end RunningMax

/-! ## The region's two output arrays -/

/-- WHAT THE REGION LEAVES: the logits array holds every edge's logit, per head, and the one-row array the
    largest logit of each head over all edges. -/
theorem region1_values {c : Dev nD}
    (dat : Dat τ (Elt Ideal) Unit ℕ (UR sig nD τ) ℕ cfg1 c) (hA : ∀ w, dat.A w = V c (Pipeline.arrRef spec1 w))
    (h5 : ∀ t : Fin cfg1.N, dat.after 5 t = k1_pay3 (F := Ideal) (iblk1 V c 0 t) (iblk1 V c 1 t) (iblk1 V c 2 t) (iblk1 V c 3 t) (iblk1 V c 4 t))
    (h6z : ∀ t : Fin cfg1.N, t.val = 0 → dat.after 6 t = k1_pay1 (F := Ideal) (dat.after 5 t) (k1_pay2 (F := Ideal)))
    (h6s : ∀ (t : Fin cfg1.N) (h0 : t.val ≠ 0), dat.after 6 t = k1_pay1 (F := Ideal) (dat.after 5 t) (dat.after 6 ⟨t.val - 1, by omega⟩)) :
    (∀ (k : Fin 640000) (hh : Fin 4), (dat.arrAt 5 cfg1.N : S640000x4.Idx → EReal) (ix2 k hh)
        = edgeLogit (V c main_arg2) (V c main_arg4) (V c main_v5) (V c main_v13) (V c main_v14) k hh)
    ∧ (∀ hh : Fin 4, (dat.arrAt 6 cfg1.N : S1x4.Idx → EReal) (ix2 (0 : Fin 1) hh)
        = Finset.sup (α := EReal) Finset.univ fun k : Fin 640000 => (dat.arrAt 5 cfg1.N : S640000x4.Idx → EReal) (ix2 k hh)) := by
  refine ⟨fun k hh => ?_, fun hh => ?_⟩
  · rw [final5 V dat h5]
  · rw [final6 dat, final5 V dat h5]
    show runMax dat lastPoint hh = Finset.sup (α := EReal) Finset.univ fun k : Fin 640000 => logitsOf V c (ix2 k hh)
    refine le_antisymm (runMax_le V dat h5 h6z h6s hh 199 _) (Finset.sup_le fun k _ => ?_)
    have hk : k.val < 640000 := k.isLt
    have hp : k.val % 3200 < 3200 := Nat.mod_lt _ (by omega)
    have hs : k.val / 3200 ≤ 199 := by omega
    have key := le_runMax dat h6z h6s hh 199 lastPoint.isLt (k.val / 3200) hs ⟨k.val % 3200, hp⟩
    rw [blkLogit_eq V dat h5] at key
    have ek : (⟨3200 * (k.val / 3200) + k.val % 3200, lt_of_point ⟨k.val / 3200, lt_of_le_of_lt hs lastPoint.isLt⟩ ⟨k.val % 3200, hp⟩⟩ : Fin 640000) = k :=
      Fin.ext (Nat.div_add_mod k.val 3200)
    rw [ek] at key
    exact key

end Cert.KernelIdeal.Hand

end
-- ==== Proof.KI.Val2.lean ====
/-
  What the third kernel region (the weights and the sum of their columns, 100 blocks of 6400 edges) leaves in
  its two output arrays, index by index, as a function of the arrays it is entered with.

  At a grid point t the body reads the point's block of the score array e (rows 6400·t … 6400·t + 6399) and the
  row m of column maxima, and stores exp(e (k, h) - m (0, h)) at every (k, h) of the weights' block; the blocks
  tile the weights' array, which so ends holding exp(e - m) everywhere. The one-row block holds the running sum:
  zero plus the column sums of the first block's weights after the first point, and after point t what it held
  after point t - 1 plus the column sums of block t. It is written back after the last point only, so the
  one-row array ends holding, per column, the sum over the hundred blocks of their column sums: the sum of the
  weights' array over all 640000 rows, a row k counted at block k / 6400, place k % 6400.
-/
import proofs.«424763_j188978561164_3_alg».proof.Proof.KI.R2
import proofs.«424763_j188978561164_3_alg».proof.Proof.LibRowRead
import proofs.«424763_j188978561164_3_alg».proof.Proof.LibColumn
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.ShloMosaic.Pipeline (Dat Cfg Window BodyObligation cellOf)
open scoped BigOperators

/-! ## The payloads at an index -/

/-- The reduced index q with row k put back is (k, q). -/
theorem lift_col_sum {R C : ℕ} (h : (⟨2, ![R, C]⟩ : Shape).Reduces [0] (⟨1, ![C]⟩ : Shape)) (q : Fin C)
    (k : Fin ((⟨2, ![R, C]⟩ : Shape).size 0)) : h.lift (ix1 q) k = ix2 (⟨k.val, k.isLt⟩ : Fin R) q := by
  funext a; apply Fin.ext
  fin_cases a <;> rfl

/-- A sum over the rows, at column q. -/
theorem colSum_apply {R C : ℕ} {φ : FTy} (src : FVec Ideal (⟨2, ![R, C]⟩ : Shape) φ) (acc : BitVec φ.bits)
    (h : (⟨2, ![R, C]⟩ : Shape).Reduces [0] (⟨1, ![C]⟩ : Shape)) (hφ : FKind.Formats φ)
    (hacc : acc = FKind.add.neutral φ hφ) (q : Fin C) :
    multiReduction .add [0] (⟨1, ![C]⟩ : Shape) src acc h hφ hacc (ix1 q) = ∑ k : Fin R, src (ix2 k q) := by
  rw [Ideal.multiReduction_add_single]
  exact Finset.sum_congr rfl fun k _ => congrArg src (lift_col_sum h q k)

/-- The f32 sum from the zero word, its side proofs typed as a program spells them. -/
theorem colSum_f32 {R C : ℕ} (src : FVec Ideal (⟨2, ![R, C]⟩ : Shape) .f32)
    (h : (⟨2, ![R, C]⟩ : Shape).Reduces [0] (⟨1, ![C]⟩ : Shape)) (hφ : FKind.Formats .f32)
    (hacc : (0x00000000#32 : BitVec 32) = 0x00000000#32) (q : Fin C) :
    multiReduction .add [0] (⟨1, ![C]⟩ : Shape) src 0x00000000#32 h hφ hacc (ix1 q) = ∑ k : Fin R, src (ix2 k q) :=
  colSum_apply src _ h hφ hacc q

/-- A weight: exp of the score less the maximum of its column. -/
theorem weightPay_apply (x0 : Vec Ideal S6400x4 .f32) (x1 : Vec Ideal S1x4 .f32) (j : S6400x4.Idx) :
    k2_pay2 (F := Ideal) x0 x1 j = Ideal.exp (x0 j - x1 (ix2 (0 : Fin 1) (j 1 : Fin 4))) := by
  unfold k2_pay2
  (try dsimp only)
  rw [Cert.RowRead.exp_apply, subf_apply, shapeCast_self, shapeCast_self]
  congr 2
  refine broadcastTo_apply x1 _ j (ix2 (0 : Fin 1) (j 1 : Fin 4)) fun a => ?_
  match a with
  | ⟨0, _⟩ => rfl
  | ⟨1, _⟩ => rfl

/-- The zero fill is zero everywhere. -/
theorem zeroPay_apply (hh : Fin 4) : k2_pay1 (F := Ideal) (ix2 (0 : Fin 1) hh) = 0 := by
  unfold k2_pay1
  (try dsimp only)
  rw [shapeCast_self, broadcast_apply]
  exact Ideal.ofBits_zero_f32

/-- The new running sum: the old one plus the column's sum of the block's weights. -/
theorem sumPay_apply (x0 : Vec Ideal S6400x4 .f32) (x1 : Vec Ideal S1x4 .f32) (s : Vec Ideal S1x4 .f32) (hh : Fin 4) :
    k2_pay3 (F := Ideal) x0 x1 s (ix2 (0 : Fin 1) hh) = s (ix2 (0 : Fin 1) hh) + ∑ p : Fin 6400, k2_pay2 (F := Ideal) x0 x1 (ix2 p hh) := by
  unfold k2_pay3
  (try dsimp only)
  rw [shapeCast_self, addf_apply]
  congr 1
  rw [shapeCast_apply _ shapeCasts_S4_S1x4 (ix2 (0 : Fin 1) hh) (ix1 hh) (by
    rw [Shape.rowMajor_val_one, Shape.rowMajor_val_two]
    show hh.val = (0 : Fin 1).val * 4 + hh.val
    simp)]
  exact colSum_f32 _ _ _ _ hh

/-! ## A sum over the rows, block by block -/

/-- A sum over 640000 rows is the sum over 100 blocks of the sums over each block's 6400 rows. -/
theorem sum_blocks (f : ℕ → EReal) :
    ∑ t ∈ Finset.range 100, ∑ p : Fin 6400, f (6400 * t + p.val) = ∑ k : Fin 640000, f k.val := by
  rw [Finset.sum_range (fun t => ∑ p : Fin 6400, f (6400 * t + p.val)), ← Fintype.sum_prod_type']
  exact Fintype.sum_equiv (finProdFinEquiv (m := 100) (n := 6400)) _ (fun k : Fin (100 * 6400) => f k.val) fun x => by
    show f (6400 * x.1.val + x.2.val) = f (x.2.val + 6400 * x.1.val)
    rw [Nat.add_comm]

variable (V : (c : Dev nD) → (b : Ref sig .tc) → Buf (Elt Ideal) ((c : Thread nD τ).loc b))

/-! ## The arrays the region reads, and the weights they determine -/

/-- The score array e as the region finds it. -/
abbrev scoreArr (c : Dev nD) : S640000x4.Idx → EReal := V c main_v15_0
/-- The row m of column maxima as the region finds it. -/
abbrev maxRow (c : Dev nD) : S1x4.Idx → EReal := V c main_v15_1
/-- The weights' array after the region. -/
abbrev weightArr (c : Dev nD) : S640000x4.Idx → EReal := (dat2 (F := Ideal) V c).arrAt 2 cfg2.N
/-- The one-row array after the region. -/
abbrev sumRow (c : Dev nD) : S1x4.Idx → EReal := (dat2 (F := Ideal) V c).arrAt 3 cfg2.N

/-- The weights: exp of each score less its column's maximum. -/
def weights (c : Dev nD) : S640000x4.Idx → EReal :=
  fun i => Ideal.exp (scoreArr V c i - maxRow V c (ix2 (0 : Fin 1) (i 1 : Fin 4)))

/-- The weight at row number r of column hh; zero past the last row. -/
def weightAt (c : Dev nD) (r : ℕ) (hh : Fin 4) : EReal :=
  if h : r < 640000 then weights V c (ix2 (⟨r, h⟩ : Fin 640000) hh) else 0

/-! ## Where the blocks sit -/

/-- The block index maps over the grid: the scores' and the weights' blocks are block t of their arrays at point t;
    the two one-row blocks are their whole arrays. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0 :=
  (by decide +kernel : ∀ t : Fin grid2.N, _)

/-- The body's weights at point t, at place j of the block, are the weights at the place of the array the block's j is. -/
theorem pay2_blk (c : Dev nD) (t : Fin cfg2.N) (j : S6400x4.Idx) :
    k2_pay2 (F := Ideal) (iblk2 V c 0 t) (iblk2 V c 1 t) j = weights V c (((cfg2.win 2).blk t).view.emb j) := by
  refine (weightPay_apply (iblk2 V c 0 t) (iblk2 V c 1 t) j).trans ?_
  obtain ⟨e0, e1, e2, e3, e4, e5, e6, e7⟩ := idx_facts2 t
  have h0 : ((cfg2.win 0).blk t).view.emb j = ((cfg2.win 2).blk t).view.emb j := by
    funext a; apply Fin.ext
    match a with
    | ⟨0, _⟩ => show win2_0.index t (0 : Fin 2) * 6400 + 1 * (j 0).val = win2_2.index t (0 : Fin 2) * 6400 + 1 * (j 0).val; omega
    | ⟨1, _⟩ => show win2_0.index t (1 : Fin 2) * 4 + 1 * (j 1).val = win2_2.index t (1 : Fin 2) * 4 + 1 * (j 1).val; omega
  have h1 : ((cfg2.win 1).blk t).view.emb (ix2 (0 : Fin 1) (j 1 : Fin 4)) = ix2 (0 : Fin 1) ((((cfg2.win 2).blk t).view.emb j) 1 : Fin 4) := by
    funext a; apply Fin.ext
    match a with
    | ⟨0, _⟩ => show win2_1.index t (0 : Fin 2) * 1 + 1 * 0 = 0; omega
    | ⟨1, _⟩ => show win2_1.index t (1 : Fin 2) * 4 + 1 * (j 1).val = win2_2.index t (1 : Fin 2) * 4 + 1 * (j 1).val; omega
  show Ideal.exp (scoreArr V c (((cfg2.win 0).blk t).view.emb j)
        - maxRow V c (((cfg2.win 1).blk t).view.emb (ix2 (0 : Fin 1) (j 1 : Fin 4))))
      = Ideal.exp (scoreArr V c (((cfg2.win 2).blk t).view.emb j)
        - maxRow V c (ix2 (0 : Fin 1) ((((cfg2.win 2).blk t).view.emb j) 1 : Fin 4)))
  rw [h0, h1]
  rfl

/-- Place (p, hh) of the weights' block at point t is row 6400·t + p of the array. -/
theorem emb2_apply (t : Fin cfg2.N) (p : Fin 6400) (hh : Fin 4) (h : 6400 * t.val + p.val < 640000) :
    ((cfg2.win 2).blk t).view.emb (ix2 p hh) = ix2 (⟨6400 * t.val + p.val, h⟩ : Fin 640000) hh := by
  obtain ⟨e0, e1, e2, e3, e4, e5, e6, e7⟩ := idx_facts2 t
  funext a; apply Fin.ext
  match a with
  | ⟨0, _⟩ => show win2_2.index t (0 : Fin 2) * 6400 + 1 * p.val = 6400 * t.val + p.val; omega
  | ⟨1, _⟩ => show win2_2.index t (1 : Fin 2) * 4 + 1 * hh.val = hh.val; omega

/-! ## The weights' array -/

/-- What point t writes back is block t of the weights. -/
theorem flushed2_eq (c : Dev nD) (t : Fin cfg2.N) :
    (dat2 (F := Ideal) V c).flushed 2 t = ((cfg2.win 2).blk t).view.read (Elt Ideal) (weights V c) := by
  show (cfg2.win 2).cut (grid2.coords t) ((dat2 (F := Ideal) V c).after 2 t) = _
  rw [after2_2_eq]
  funext j
  exact pay2_blk V c t j

/-- An index of the array is in point t's block iff each coordinate is in the block's range on its axis. -/
theorem mem_blk2 (t : Fin cfg2.N) (i : S640000x4.Idx) :
    i ∈ ((cfg2.win 2).blk t).view.set ↔ ∀ a : Fin 2, win2_2.index t a * S6400x4.size a ≤ (i a).val ∧ (i a).val < win2_2.index t a * S6400x4.size a + S6400x4.size a := by
  show i ∈ ((View.whole main_v16_0).slice (win2_2.rect t)).set ↔ _
  rw [View.set_slice_whole, Rect.mem_set_unit]
  exact Iff.rfl

/-- Row r of the array is in the block of point r / 6400, which is written back. -/
theorem cover2 (i : S640000x4.Idx) : ∃ t : Fin cfg2.N, (cfg2.win 2).flush t = true ∧ i ∈ ((cfg2.win 2).blk t).view.set := by
  have hi0 : (i 0).val < 640000 := (i 0).isLt
  have hi1 : (i 1).val < 4 := (i 1).isLt
  have hN : cfg2.N = 100 := N_2
  refine ⟨⟨(i 0).val / 6400, by rw [hN]; omega⟩, flush2_2 _, ?_⟩
  rw [mem_blk2]
  obtain ⟨e0, e1, e2, e3, e4, e5, e6, e7⟩ := idx_facts2 ⟨(i 0).val / 6400, by rw [hN]; omega⟩
  intro a
  match a with
  | ⟨0, _⟩ =>
    show win2_2.index _ (0 : Fin 2) * 6400 ≤ (i 0).val ∧ (i 0).val < win2_2.index _ (0 : Fin 2) * 6400 + 6400
    rw [e4]; show (i 0).val / 6400 * 6400 ≤ (i 0).val ∧ (i 0).val < (i 0).val / 6400 * 6400 + 6400; omega
  | ⟨1, _⟩ =>
    show win2_2.index _ (1 : Fin 2) * 4 ≤ (i 1).val ∧ (i 1).val < win2_2.index _ (1 : Fin 2) * 4 + 4
    rw [e5]; omega

/-- The weights' array after the region: the weights, everywhere. -/
theorem final2 (c : Dev nD) : weightArr V c = weights V c :=
  (dat2 (F := Ideal) V c).arrAt_eq_of_cover 2 (weights V c) (fun t _ => flushed2_eq V c t) cover2

/-! ## The one-row array -/

theorem last2 : 99 < cfg2.N := by rw [show cfg2.N = 100 from N_2]; omega

/-- The one point that writes the one-row block back, the last, writes the running sum after it. -/
theorem flushed3_eq (c : Dev nD) (t : Fin cfg2.N) (hf : (cfg2.win 3).flush t = true) :
    (dat2 (F := Ideal) V c).flushed 3 t = ((cfg2.win 3).blk t).view.read (Elt Ideal) (sum2 (F := Ideal) V c 99 last2) := by
  have ht : t.val = 99 := by
    have h1 := (flush2_3 t).mp hf
    have h2 : t.val < 100 := lt_of_lt_of_eq t.isLt (show cfg2.N = 100 from N_2)
    omega
  obtain ⟨e0, e1, e2, e3, e4, e5, e6, e7⟩ := idx_facts2 t
  show (cfg2.win 3).cut (grid2.coords t) ((dat2 (F := Ideal) V c).after 3 t) = _
  rw [after2_3]
  obtain ⟨n, hn⟩ := t
  have hn99 : n = 99 := ht
  subst hn99
  funext j
  show sum2 (F := Ideal) V c 99 hn j = sum2 (F := Ideal) V c 99 last2 (((cfg2.win 3).blk ⟨99, hn⟩).view.emb j)
  refine congrArg (sum2 (F := Ideal) V c 99 hn) ?_
  funext a; apply Fin.ext
  match a with
  | ⟨0, _⟩ => show (j 0).val = win2_3.index ⟨99, hn⟩ (0 : Fin 2) * 1 + 1 * (j 0).val; omega
  | ⟨1, _⟩ => show (j 1).val = win2_3.index ⟨99, hn⟩ (1 : Fin 2) * 4 + 1 * (j 1).val; omega

theorem mem_blk3 (t : Fin cfg2.N) (i : S1x4.Idx) :
    i ∈ ((cfg2.win 3).blk t).view.set ↔ ∀ a : Fin 2, win2_3.index t a * S1x4.size a ≤ (i a).val ∧ (i a).val < win2_3.index t a * S1x4.size a + S1x4.size a := by
  show i ∈ ((View.whole main_v16_1).slice (win2_3.rect t)).set ↔ _
  rw [View.set_slice_whole, Rect.mem_set_unit]
  exact Iff.rfl

/-- The last point's block is the whole one-row array. -/
theorem cover3 (i : S1x4.Idx) : ∃ t : Fin cfg2.N, (cfg2.win 3).flush t = true ∧ i ∈ ((cfg2.win 3).blk t).view.set := by
  have hi0 : (i 0).val < 1 := (i 0).isLt
  have hi1 : (i 1).val < 4 := (i 1).isLt
  refine ⟨⟨99, last2⟩, (flush2_3 _).mpr rfl, ?_⟩
  rw [mem_blk3]
  obtain ⟨e0, e1, e2, e3, e4, e5, e6, e7⟩ := idx_facts2 ⟨99, last2⟩
  intro a
  match a with
  | ⟨0, _⟩ =>
    show win2_3.index _ (0 : Fin 2) * 1 ≤ (i 0).val ∧ (i 0).val < win2_3.index _ (0 : Fin 2) * 1 + 1
    rw [e6]; omega
  | ⟨1, _⟩ =>
    show win2_3.index _ (1 : Fin 2) * 4 ≤ (i 1).val ∧ (i 1).val < win2_3.index _ (1 : Fin 2) * 4 + 4
    rw [e7]; omega

/-- The one-row array after the region: the running sum after the last point. -/
theorem final3 (c : Dev nD) : sumRow V c = sum2 (F := Ideal) V c 99 last2 :=
  (dat2 (F := Ideal) V c).arrAt_eq_of_cover 3 (sum2 (F := Ideal) V c 99 last2) (fun t hf => flushed3_eq V c t hf) cover3

/-! ## The running sum in closed form -/

/-- The column sums of block t's weights, by row number. -/
theorem blockSum (c : Dev nD) (t : Fin cfg2.N) (hh : Fin 4) :
    ∑ p : Fin 6400, k2_pay2 (F := Ideal) (iblk2 V c 0 t) (iblk2 V c 1 t) (ix2 p hh) = ∑ p : Fin 6400, weightAt V c (6400 * t.val + p.val) hh := by
  have ht : t.val < 100 := lt_of_lt_of_eq t.isLt (show cfg2.N = 100 from N_2)
  refine Finset.sum_congr rfl fun p _ => ?_
  have hp : p.val < 6400 := p.isLt
  have h : 6400 * t.val + p.val < 640000 := by omega
  rw [pay2_blk V c t (ix2 p hh), emb2_apply t p hh h]
  unfold weightAt
  rw [dif_pos h]

/-- The running sum after the first point, and after a later one, over the extended reals. -/
theorem sum2_at_zero (c : Dev nD) (hn : 0 < cfg2.N) :
    sum2 (F := Ideal) V c 0 hn = k2_pay3 (F := Ideal) (iblk2 V c 0 ⟨0, hn⟩) (iblk2 V c 1 ⟨0, hn⟩) (k2_pay1 (F := Ideal)) :=
  sum2_first (F := Ideal) V c ⟨0, hn⟩ rfl

theorem sum2_at_succ (c : Dev nD) (n : ℕ) (hn : n + 1 < cfg2.N) :
    sum2 (F := Ideal) V c (n + 1) hn
      = k2_pay3 (F := Ideal) (iblk2 V c 0 ⟨n + 1, hn⟩) (iblk2 V c 1 ⟨n + 1, hn⟩) (sum2 (F := Ideal) V c n (Nat.lt_of_succ_lt hn)) :=
  sum2_later (F := Ideal) V c ⟨n + 1, hn⟩ (Nat.succ_ne_zero n)

/-- After point n the running sum holds, per column, the sum of the weights of blocks 0 … n. -/
theorem sum2_eq (c : Dev nD) (hh : Fin 4) (n : ℕ) (hn : n < cfg2.N) :
    sum2 (F := Ideal) V c n hn (ix2 (0 : Fin 1) hh) = ∑ t ∈ Finset.range (n + 1), ∑ p : Fin 6400, weightAt V c (6400 * t + p.val) hh := by
  induction n with
  | zero =>
    rw [sum2_at_zero V c hn]
    refine (sumPay_apply (iblk2 V c 0 ⟨0, hn⟩) (iblk2 V c 1 ⟨0, hn⟩) (k2_pay1 (F := Ideal)) hh).trans ?_
    rw [zeroPay_apply, zero_add, Finset.sum_range_one]
    exact blockSum V c ⟨0, hn⟩ hh
  | succ n ih =>
    rw [sum2_at_succ V c n hn]
    refine (sumPay_apply (iblk2 V c 0 ⟨n + 1, hn⟩) (iblk2 V c 1 ⟨n + 1, hn⟩) (sum2 (F := Ideal) V c n (Nat.lt_of_succ_lt hn)) hh).trans ?_
    rw [ih (Nat.lt_of_succ_lt hn), Finset.sum_range_succ _ (n + 1)]
    exact congrArg (fun z : EReal => (∑ t ∈ Finset.range (n + 1), ∑ p : Fin 6400, weightAt V c (6400 * t + p.val) hh) + z)
      (blockSum V c ⟨n + 1, hn⟩ hh)

/-! ## The two arrays -/

/-- After the region the weights' array holds exp(e - m) at every index, and the one-row array the sum of the
    weights' array over all rows, column by column. -/
theorem region2_arrays (c : Dev nD) :
    (∀ (k : Fin 640000) (hh : Fin 4), weightArr V c (ix2 k hh)
        = Ideal.exp (scoreArr V c (ix2 k hh) - maxRow V c (ix2 (0 : Fin 1) hh)))
    ∧ (∀ hh : Fin 4, sumRow V c (ix2 (0 : Fin 1) hh) = ∑ k : Fin 640000, weightArr V c (ix2 k hh)) := by
  refine ⟨fun k hh => ?_, fun hh => ?_⟩
  · rw [final2]; rfl
  · rw [final3, final2]
    refine (sum2_eq V c hh 99 last2).trans ((sum_blocks fun r => weightAt V c r hh).trans ?_)
    refine Finset.sum_congr rfl fun k _ => ?_
    unfold weightAt
    rw [dif_pos k.isLt]

/-- exp of the score at (k, hh) less the maximum of column hh. -/
abbrev weightOf (e : S640000x4.Idx → EReal) (m : S1x4.Idx → EReal) (k : Fin 640000) (hh : Fin 4) : EReal :=
  Ideal.exp (e (ix2 k hh) - m (ix2 (0 : Fin 1) hh))

/-- The sum of column hh over all 640000 rows. -/
abbrev colSumOf (w : S640000x4.Idx → EReal) (hh : Fin 4) : EReal := ∑ k : Fin 640000, w (ix2 k hh)

/-- The same with the arrays spelled as the proof data and the region-entry contents give them. -/
theorem region2_values (c : Dev nD) :
    (∀ (k : Fin 640000) (hh : Fin 4), ((dat2 (F := Ideal) V c).arrAt 2 cfg2.N : S640000x4.Idx → EReal) (ix2 k hh)
        = weightOf (V c main_v15_0) (V c main_v15_1) k hh)
    ∧ (∀ hh : Fin 4, ((dat2 (F := Ideal) V c).arrAt 3 cfg2.N : S1x4.Idx → EReal) (ix2 (0 : Fin 1) hh)
        = colSumOf ((dat2 (F := Ideal) V c).arrAt 2 cfg2.N) hh) :=
  region2_arrays V c

end Cert.KernelIdeal.Hand

end
-- ==== Proof.Edges.lean ====
/-
  The edges' endpoints as node numbers: row 0 of the int32 index array holds each edge's source, row 1 its
  destination. With every word a natural number below 50000 the endpoints are elements of Fin 50000.
-/
import proofs.«424763_j188978561164_3_alg».proof.Proof.Spec

noncomputable section

namespace Cert.Spec

open Idealize.ShloMosaic Idealize.ShloMosaic.ValueIdx

/-- Edge k's source node. -/
def srcOf (x0 : (⟨2, ![2, 640000]⟩ : Shape).Idx → BitVec 32) (h : ∀ i, (x0 i).toNat < 50000) : Fin 640000 → Fin 50000 :=
  fun k => ⟨(x0 (ix2 (0 : Fin 2) k)).toNat, h _⟩

/-- Edge k's destination node. -/
def dstOf (x0 : (⟨2, ![2, 640000]⟩ : Shape).Idx → BitVec 32) (h : ∀ i, (x0 i).toNat < 50000) : Fin 640000 → Fin 50000 :=
  fun k => ⟨(x0 (ix2 (1 : Fin 2) k)).toNat, h _⟩

theorem srcOf_val (x0 : (⟨2, ![2, 640000]⟩ : Shape).Idx → BitVec 32) (h : ∀ i, (x0 i).toNat < 50000) (k : Fin 640000) :
    (srcOf x0 h k).val = (x0 (ix2 (0 : Fin 2) k)).toNat := rfl

theorem dstOf_val (x0 : (⟨2, ![2, 640000]⟩ : Shape).Idx → BitVec 32) (h : ∀ i, (x0 i).toNat < 50000) (k : Fin 640000) :
    (dstOf x0 h k).val = (x0 (ix2 (1 : Fin 2) k)).toNat := rfl

end Cert.Spec

end
-- ==== Proof.LibTake.lean ====
/-
  jnp.take along axis 0 with in-range indices.

  The default-mode take wraps negative indices once, gathers with the wrapped indices as start
  indices, and replaces by a fill value every row whose wrapped index lies outside the table.
  When every index is already a natural number below the table's row count N (with N below 2³¹,
  so that each word is non-negative as a signed integer), nothing wraps, every row passes the
  range test, and the whole composite is the plain gather at the given indices.

  Also here: a concatenation of in-range indices with an iota stays in range.
-/
import Idealize.ShloMosaic.PureOps
import Idealize.ShloMosaic.Lib.StableHlo.Predicate
import Idealize.ShloMosaic.Lib.ReduceAll
import Idealize.ShloMosaic.Lib.Pipeline.Value

namespace Cert.LibTake

open Idealize.ShloMosaic
open Idealize.ShloMosaic.StableHlo.Predicate

variable {α : Type}

/-! ## A select whose condition is all ones -/

/-- A select under a mask that is 1 at every index returns its first branch. -/
theorem select_ones {s : Shape} (mask : IVec s 1) (a b : s.Idx → α) (h : ∀ i, mask i = 1#1) :
    select mask a b = a := by
  funext i
  show Scalar.select (mask i) (a i) (b i) = a i
  unfold Scalar.select
  rw [h i]
  exact if_pos rfl

/-- A select under a mask that is 1 nowhere returns its second branch. -/
theorem select_none {s : Shape} (mask : IVec s 1) (a b : s.Idx → α) (h : ∀ i, ¬ mask i = 1#1) :
    select mask a b = b := by
  funext i
  show Scalar.select (mask i) (a i) (b i) = b i
  unfold Scalar.select
  exact if_neg (h i)

/-! ## The wrap of negative indices -/

/-- With every index a natural number below N < 2³¹, no index is negative as a signed word, so the
    select that adds N to the negative ones returns the index vector itself. -/
theorem wrap_id {R N : Nat} (hN : N < 2 ^ 31) (idx : IVec ⟨1, ![R]⟩ 32) (hidx : ∀ r, (idx r).toNat < N)
    (hz hn : (⟨0, ![]⟩ : Shape).BroadcastsInDim ⟨1, ![R]⟩ ![]) :
    select (cmpi .slt idx (broadcastInDim ⟨1, ![R]⟩ ![] hz (constantI ⟨0, ![]⟩ 32 0#32)))
      (addi idx (broadcastInDim ⟨1, ![R]⟩ ![] hn (constantI ⟨0, ![]⟩ 32 (BitVec.ofNat 32 N)))) idx = idx := by
  apply select_none
  intro r
  show ¬ IntOp.cmpi .slt (idx r) 0#32 = 1#1
  have hr := hidx r
  rw [slt_iff_toNat (by omega) (by decide)]
  simp

/-! ## The range mask -/

/-- A left fold by `and` from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = (1#1 : BitVec 1) from by decide]
    exact foldl_andi_ones f hf l

/-- A reduction by `and` from an initial value 1 of an array that is 1 everywhere is 1 at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1)
    (j : t.Idx) : Host.reduce IntOp.andi x init h hu j = 1#1 := by
  rw [Host.reduce_eq_foldl, hinit]
  exact foldl_andi_ones x hx _

/-- With every index a natural number below N < 2³¹, the start-index column passes both range tests
    (0 ≤ index, index ≤ N − 1) in every row, so the row mask — their conjunction reduced by `and` along the
    column axis — is 1 at every row. -/
theorem mask_ones {R N : Nat} (hN : N < 2 ^ 31) (idx : IVec ⟨1, ![R]⟩ 32) (hidx : ∀ r, (idx r).toNat < N)
    (hI : (⟨1, ![R]⟩ : Shape).BroadcastsInDim ⟨2, ![R, 1]⟩ ![0])
    (h0 : (⟨0, ![]⟩ : Shape).BroadcastsInDim ⟨2, ![R, 1]⟩ ![])
    (h1 : (⟨1, ![1]⟩ : Shape).BroadcastsInDim ⟨2, ![1, 1]⟩ ![1])
    (h2 : (⟨2, ![1, 1]⟩ : Shape).BroadcastsInDim ⟨2, ![R, 1]⟩ ![0, 1])
    (hr : (⟨2, ![R, 1]⟩ : Shape).ReducesTo [1] ⟨1, ![R]⟩) (hu : 0 < (⟨0, ![]⟩ : Shape).numel)
    (j : (⟨1, ![R]⟩ : Shape).Idx) :
    Host.reduce IntOp.andi
      (andi
        (cmpi .sge (broadcastInDim ⟨2, ![R, 1]⟩ ![0] hI idx)
          (broadcastInDim ⟨2, ![R, 1]⟩ ![] h0 (constantI ⟨0, ![]⟩ 32 0#32)))
        (cmpi .sle (broadcastInDim ⟨2, ![R, 1]⟩ ![0] hI idx)
          (broadcastInDim ⟨2, ![R, 1]⟩ ![0, 1] h2
            (broadcastInDim ⟨2, ![1, 1]⟩ ![1] h1 (constantI ⟨1, ![1]⟩ 32 (BitVec.ofNat 32 (N - 1)))))))
      (constantI ⟨0, ![]⟩ 1 1#1) hr hu j = 1#1 := by
  apply reduce_andi_ones _ _ hr hu _ rfl
  intro i
  -- the start index at i is one of the given indices
  obtain ⟨r, hIr⟩ : ∃ r, broadcastInDim ⟨2, ![R, 1]⟩ ![0] hI idx i = idx r := ⟨_, rfl⟩
  have hlt := hidx r
  have hM : (BitVec.ofNat 32 (N - 1)).toNat = N - 1 := by
    rw [BitVec.toNat_ofNat]; exact Nat.mod_eq_of_lt (by omega)
  show IntOp.andi (IntOp.cmpi .sge (broadcastInDim ⟨2, ![R, 1]⟩ ![0] hI idx i) 0#32)
      (IntOp.cmpi .sle (broadcastInDim ⟨2, ![R, 1]⟩ ![0] hI idx i) (BitVec.ofNat 32 (N - 1))) = 1#1
  rw [hIr, IntOp.andi_eq_one, sge_iff_toNat (by omega) (by decide), sle_iff_toNat (by omega) (by rw [hM]; omega), hM]
  exact ⟨Nat.zero_le _, by omega⟩

/-! ## The take composite is the plain gather -/

/-- THE TAKE OF ROWS (a table whose gathered slices have C entries each; result [R, C]). With every index a natural number
    below N < 2³¹: the wrap of negative indices does nothing, the row mask — broadcast along the rows of the result — is
    all ones, and so the select between the gathered rows and the fill array is the gather at the given indices kept
    as an [R, 1] column. The table's shape, the gather's dimension numbers and the fill array are arbitrary. -/
theorem take_rows_eq {R N C : Nat} {s : Shape} (hN : N < 2 ^ 31) (idx : IVec ⟨1, ![R]⟩ 32)
    (hidx : ∀ r, (idx r).toNat < N) (d : GatherDims s ⟨2, ![R, 1]⟩ ⟨2, ![R, C]⟩) (x : s.Idx → α)
    (fill : (⟨2, ![R, C]⟩ : Shape).Idx → α)
    (hz hn : (⟨0, ![]⟩ : Shape).BroadcastsInDim ⟨1, ![R]⟩ ![])
    (hI : (⟨1, ![R]⟩ : Shape).BroadcastsInDim ⟨2, ![R, 1]⟩ ![0])
    (h0 : (⟨0, ![]⟩ : Shape).BroadcastsInDim ⟨2, ![R, 1]⟩ ![])
    (h1 : (⟨1, ![1]⟩ : Shape).BroadcastsInDim ⟨2, ![1, 1]⟩ ![1])
    (h2 : (⟨2, ![1, 1]⟩ : Shape).BroadcastsInDim ⟨2, ![R, 1]⟩ ![0, 1])
    (hr : (⟨2, ![R, 1]⟩ : Shape).ReducesTo [1] ⟨1, ![R]⟩) (hu : 0 < (⟨0, ![]⟩ : Shape).numel)
    (hm : (⟨1, ![R]⟩ : Shape).BroadcastsInDim ⟨2, ![R, C]⟩ ![0]) :
    select
      (broadcastInDim ⟨2, ![R, C]⟩ ![0] hm
        (Host.reduce IntOp.andi
          (andi
            (cmpi .sge
              (broadcastInDim ⟨2, ![R, 1]⟩ ![0] hI
                (select (cmpi .slt idx (broadcastInDim ⟨1, ![R]⟩ ![] hz (constantI ⟨0, ![]⟩ 32 0#32)))
                  (addi idx (broadcastInDim ⟨1, ![R]⟩ ![] hn (constantI ⟨0, ![]⟩ 32 (BitVec.ofNat 32 N)))) idx))
              (broadcastInDim ⟨2, ![R, 1]⟩ ![] h0 (constantI ⟨0, ![]⟩ 32 0#32)))
            (cmpi .sle
              (broadcastInDim ⟨2, ![R, 1]⟩ ![0] hI
                (select (cmpi .slt idx (broadcastInDim ⟨1, ![R]⟩ ![] hz (constantI ⟨0, ![]⟩ 32 0#32)))
                  (addi idx (broadcastInDim ⟨1, ![R]⟩ ![] hn (constantI ⟨0, ![]⟩ 32 (BitVec.ofNat 32 N)))) idx))
              (broadcastInDim ⟨2, ![R, 1]⟩ ![0, 1] h2
                (broadcastInDim ⟨2, ![1, 1]⟩ ![1] h1 (constantI ⟨1, ![1]⟩ 32 (BitVec.ofNat 32 (N - 1)))))))
          (constantI ⟨0, ![]⟩ 1 1#1) hr hu))
      (Host.gather d x
        (broadcastInDim ⟨2, ![R, 1]⟩ ![0] hI
          (select (cmpi .slt idx (broadcastInDim ⟨1, ![R]⟩ ![] hz (constantI ⟨0, ![]⟩ 32 0#32)))
            (addi idx (broadcastInDim ⟨1, ![R]⟩ ![] hn (constantI ⟨0, ![]⟩ 32 (BitVec.ofNat 32 N)))) idx)))
      fill
    = Host.gather d x (broadcastInDim ⟨2, ![R, 1]⟩ ![0] hI idx) := by
  rw [wrap_id hN idx hidx hz hn]
  apply select_ones
  intro i
  exact mask_ones hN idx hidx hI h0 h1 h2 hr hu _

/-- THE TAKE OF ENTRIES (a table whose gathered slices are single entries; result [R]). As `take_rows_eq`, the row
    mask used as it is. -/
theorem take_vec_eq {R N : Nat} {s : Shape} (hN : N < 2 ^ 31) (idx : IVec ⟨1, ![R]⟩ 32)
    (hidx : ∀ r, (idx r).toNat < N) (d : GatherDims s ⟨2, ![R, 1]⟩ ⟨1, ![R]⟩) (x : s.Idx → α)
    (fill : (⟨1, ![R]⟩ : Shape).Idx → α)
    (hz hn : (⟨0, ![]⟩ : Shape).BroadcastsInDim ⟨1, ![R]⟩ ![])
    (hI : (⟨1, ![R]⟩ : Shape).BroadcastsInDim ⟨2, ![R, 1]⟩ ![0])
    (h0 : (⟨0, ![]⟩ : Shape).BroadcastsInDim ⟨2, ![R, 1]⟩ ![])
    (h1 : (⟨1, ![1]⟩ : Shape).BroadcastsInDim ⟨2, ![1, 1]⟩ ![1])
    (h2 : (⟨2, ![1, 1]⟩ : Shape).BroadcastsInDim ⟨2, ![R, 1]⟩ ![0, 1])
    (hr : (⟨2, ![R, 1]⟩ : Shape).ReducesTo [1] ⟨1, ![R]⟩) (hu : 0 < (⟨0, ![]⟩ : Shape).numel) :
    select
      (Host.reduce IntOp.andi
        (andi
          (cmpi .sge
            (broadcastInDim ⟨2, ![R, 1]⟩ ![0] hI
              (select (cmpi .slt idx (broadcastInDim ⟨1, ![R]⟩ ![] hz (constantI ⟨0, ![]⟩ 32 0#32)))
                (addi idx (broadcastInDim ⟨1, ![R]⟩ ![] hn (constantI ⟨0, ![]⟩ 32 (BitVec.ofNat 32 N)))) idx))
            (broadcastInDim ⟨2, ![R, 1]⟩ ![] h0 (constantI ⟨0, ![]⟩ 32 0#32)))
          (cmpi .sle
            (broadcastInDim ⟨2, ![R, 1]⟩ ![0] hI
              (select (cmpi .slt idx (broadcastInDim ⟨1, ![R]⟩ ![] hz (constantI ⟨0, ![]⟩ 32 0#32)))
                (addi idx (broadcastInDim ⟨1, ![R]⟩ ![] hn (constantI ⟨0, ![]⟩ 32 (BitVec.ofNat 32 N)))) idx))
            (broadcastInDim ⟨2, ![R, 1]⟩ ![0, 1] h2
              (broadcastInDim ⟨2, ![1, 1]⟩ ![1] h1 (constantI ⟨1, ![1]⟩ 32 (BitVec.ofNat 32 (N - 1)))))))
        (constantI ⟨0, ![]⟩ 1 1#1) hr hu)
      (Host.gather d x
        (broadcastInDim ⟨2, ![R, 1]⟩ ![0] hI
          (select (cmpi .slt idx (broadcastInDim ⟨1, ![R]⟩ ![] hz (constantI ⟨0, ![]⟩ 32 0#32)))
            (addi idx (broadcastInDim ⟨1, ![R]⟩ ![] hn (constantI ⟨0, ![]⟩ 32 (BitVec.ofNat 32 N)))) idx)))
      fill
    = Host.gather d x (broadcastInDim ⟨2, ![R, 1]⟩ ![0] hI idx) := by
  rw [wrap_id hN idx hidx hz hn]
  apply select_ones
  intro i
  exact mask_ones hN idx hidx hI h0 h1 h2 hr hu i

/-! ## Indices followed by an iota -/

/-- A vector of n words each below B as a natural number, followed by the positions 0, 1, …, m − 1 with m ≤ B, has
    every entry below B. -/
theorem concat_iota_lt {n m T B : Nat} (hmB : m ≤ B) (v : IVec ⟨1, ![n]⟩ 32) (hv : ∀ i, (v i).toNat < B)
    (hc : Shape.Concatenates [(⟨1, ![n]⟩ : Shape), ⟨1, ![m]⟩] ⟨1, ![T]⟩ 0) (j : (⟨1, ![T]⟩ : Shape).Idx) :
    (concatenate ⟨1, ![T]⟩ 0 [⟨⟨1, ![n]⟩, v⟩, ⟨⟨1, ![m]⟩, iotaInDim ⟨1, ![m]⟩ 32 0⟩] hc j).toNat < B := by
  have hT : n + (m + 0) = T := hc.2.2
  have hj : (j 0).val < T := (j 0).isLt
  by_cases hlt : (j 0).val < n
  · rw [concatenate_pair_apply_left (t := ⟨1, ![T]⟩) (s₁ := ⟨1, ![n]⟩) (s₂ := ⟨1, ![m]⟩) (0 : Fin 1) v _ hc j rfl (Shape.Idx.ofFin ⟨(j 0).val, hlt⟩) (fun b => by
      have hb : b = 0 := Subsingleton.elim _ _
      subst hb; rfl)]
    exact hv _
  · have hm' : (j 0).val - n < m := by omega
    rw [concatenate_pair_apply_right (t := ⟨1, ![T]⟩) (s₁ := ⟨1, ![n]⟩) (s₂ := ⟨1, ![m]⟩) (0 : Fin 1) v _ hc j rfl rfl (Shape.Idx.ofFin ⟨(j 0).val - n, hm'⟩)
      (fun b hb => absurd (Subsingleton.elim _ _) hb) (by show (j 0).val - n + n = (j 0).val; omega)]
    show (BitVec.ofNat 32 ((j 0).val - n)).toNat < B
    rw [BitVec.toNat_ofNat]
    exact lt_of_le_of_lt (Nat.mod_le _ _) (by omega)

end Cert.LibTake
-- ==== Proof.LibRowGather.lean ====
/-
  A `stablehlo.gather` of WHOLE ROWS of a rank-2 operand, read at an index.

  What `x[idx]` of a table `x : [N, C]` at an integer vector `idx : [R]` lowers to: start indices `[R, 1]`, offset_dims
  `[1]`, collapsed_slice_dims `[0]`, start_index_map `[0]`, index_vector_dim `1`, slice sizes `[1, C]`. Result element
  `(r, j)` is the operand at row `idx[r, 0]` — read as a signed integer and clamped into `[0, N − 1]`, as the host gather
  clamps every start index — and column `j`.
-/
import Idealize.ShloMosaic.PureOps.Ideal
import Idealize.ShloMosaic.Lib.ValueIdx

noncomputable section

namespace Cert.LibRowGather

open Idealize.ShloMosaic Idealize.ShloMosaic.ValueIdx

variable {α : Type}

/-- Those dimension numbers for an operand `[N, C]`, start indices `[R, 1]` and result `[R, C]`; their conditions `wf`
    are decided on a program's literal shapes. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(r, j)`: the operand at the start index `idx[r, 0]`, read signed and clamped into
    `[0, N − 1]`, and at column `j`. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (y : (⟨2, ![R, C]⟩ : Shape).Idx) :
    Host.gather (rowDims N C R wf) x idx y
      = x (ix2 (⟨min (idx (ix2 (⟨(y 0).val, idx2_lt0 y⟩ : Fin R) (0 : Fin 1))).toInt.toNat (N - 1), by omega⟩ : Fin N)
            (⟨(y 1).val, idx2_lt1 y⟩ : Fin C)) := by
  unfold Host.gather
  congr 1
  funext a
  refine Fin.ext ?_
  show (rowDims N C R wf).start y idx a + (rowDims N C R wf).batchCoord y a + (rowDims N C R wf).offCoord y a = _
  rw [GatherDims.batchCoord_eq_zero _ _ _ List.not_mem_nil]
  simp only [Nat.add_zero]
  match a with
  | ⟨0, _⟩ =>
    -- operand axis 0 (rows): in the start index map and collapsed, so the coordinate is the clamped start alone
    rw [GatherDims.offCoord_eq_zero _ _ _ (fun h => ((GatherDims.mem_sKept _ _).mp h).1 (List.mem_singleton.mpr rfl))]
    simp only [Nat.add_zero]
    unfold GatherDims.start
    rw [dif_pos (show (⟨0, by omega⟩ : Fin 2) ∈ (rowDims N C R wf).startIndexMap from List.mem_singleton.mpr rfl)]
    have hsi : (rowDims N C R wf).siIdx y ⟨List.idxOf (⟨0, by omega⟩ : Fin 2) (rowDims N C R wf).startIndexMap,
        List.idxOf_lt_length_iff.2 (List.mem_singleton.mpr rfl)⟩
          = ix2 (⟨(y 0).val, idx2_lt0 y⟩ : Fin R) (0 : Fin 1) := by
      funext b; refine Fin.ext ?_
      match b with
      | ⟨0, _⟩ => rfl
      | ⟨1, _⟩ => rfl
    rw [hsi]
    rfl
  | ⟨1, h1⟩ =>
    -- operand axis 1 (columns): not in the start index map, so the start is 0; it is the one kept axis, read by the
    -- result's offset axis 1
    have hne : (⟨1, h1⟩ : Fin 2) ≠ 0 := fun h => Nat.one_ne_zero (congrArg Fin.val h)
    have hst : (rowDims N C R wf).start y idx ⟨1, h1⟩ = 0 := by
      unfold GatherDims.start
      rw [dif_neg (fun h => hne (List.mem_singleton.mp h))]
    have hk : (⟨1, h1⟩ : Fin 2) ∈ (rowDims N C R wf).sKept :=
      (GatherDims.mem_sKept _ _).mpr ⟨fun h => hne (List.mem_singleton.mp h), List.not_mem_nil⟩
    rw [hst, Nat.zero_add]
    unfold GatherDims.offCoord
    rw [dif_pos hk]
    rfl

end Cert.LibRowGather

end
-- ==== Proof.LibAfter.lean ====
/-
  The contents of a buffer after a line of host operations, read one operation at a time.

  Every buffer of a printed program is written by one operation. So what the line leaves in the buffer operation k
  writes is what operation k left there, and that is its function applied to what the WHOLE line leaves in the buffers
  it reads, since no operation from k on writes those. The bookkeeping is a list ys of the references the operations
  write, in order: "x is not written from position k on" is "x is not among ys from position k on", a decidable
  question about a list of references.
-/
import Idealize.ShloMosaic.Lib.StableHlo.Run

noncomputable section

namespace Cert.LibAfter

open Idealize.ShloMosaic Idealize.ShloMosaic.StableHlo

variable {τ : Topo} {sig : RefSig} {Val : EltTy → Type}

/-- The contents after two lines run one after the other. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A buffer no operation from position k on writes holds what the first k operations left. -/
theorem after_take (ops : List (HloOp τ sig Val)) (k : Nat) (V : Valuation τ sig Val) (b : DevRef τ sig)
    (h : ∀ o ∈ ops.drop k, b ∉ o.writes) : after ops V b = after (ops.take k) V b := by
  conv_lhs => rw [← List.take_append_drop k ops]
  rw [after_append, after_of_forall_not_mem _ _ h]

/-- A buffer no operation after position k writes holds what operation k left, run on what the first k operations left. -/
theorem after_at (ops : List (HloOp τ sig Val)) (k : Nat) (hk : k < ops.length) (V : Valuation τ sig Val)
    (b : DevRef τ sig) (h : ∀ o ∈ ops.drop (k + 1), b ∉ o.writes) :
    after ops V b = (ops[k]).result (after (ops.take k) V) b := by
  conv_lhs => rw [← List.take_append_drop k ops, List.drop_eq_getElem_cons hk]
  rw [after_append, after_cons, after_of_forall_not_mem _ _ h]

/-- The line writes, operation by operation, exactly the references ys, one each. -/
def Writes (ops : List (HloOp τ sig Val)) (ys : List (Ref sig .tc)) : Prop :=
  ops.map (fun o => o.writes) = ys.map fun y => ({Proc.devRef .tc y} : Finset (DevRef τ sig))

/-- A reference that is not among ys from position k on is written by no operation from position k on. -/
theorem Writes.not_written {ops : List (HloOp τ sig Val)} {ys : List (Ref sig .tc)} (hW : Writes ops ys) (k : Nat)
    (x : Ref sig .tc) (hx : x ∉ ys.drop k) : ∀ o ∈ ops.drop k, (Proc.devRef .tc x : DevRef τ sig) ∉ o.writes := by
  intro o ho hmem
  have h1 : o.writes ∈ (ops.drop k).map (fun o => o.writes) := List.mem_map_of_mem ho
  rw [List.map_drop, hW, ← List.map_drop] at h1
  obtain ⟨y', hy', he⟩ := List.mem_map.mp h1
  rw [← he, Finset.mem_singleton] at hmem
  have hxy : x = y' := Proc.devRef_injective _ hmem
  exact hx (hxy ▸ hy')

variable {ops : List (HloOp τ sig Val)} {ys : List (Ref sig .tc)}

/-- What the line leaves in the buffer operation k writes: operation k's result on what the first k operations left. -/
theorem Writes.at (hW : Writes ops ys) (V : Valuation τ sig Val) (k : Nat) {op : HloOp τ sig Val} {y : Ref sig .tc}
    (hop : ops[k]? = some op) (hy : y ∉ ys.drop (k + 1)) :
    after ops V (Proc.devRef .tc y) = op.result (after (ops.take k) V) (Proc.devRef .tc y) := by
  obtain ⟨hk, he⟩ := List.getElem?_eq_some_iff.mp hop
  rw [after_at ops k hk V _ (hW.not_written (k + 1) y hy), he]

/-- A buffer not written from position k on: what the first k operations left there is what the whole line leaves. -/
theorem Writes.back (hW : Writes ops ys) (V : Valuation τ sig Val) (k : Nat) (x : Ref sig .tc) (hx : x ∉ ys.drop k) :
    after (ops.take k) V (Proc.devRef .tc x) = after ops V (Proc.devRef .tc x) :=
  (after_take ops k V _ (hW.not_written k x hx)).symm

/-- A buffer the line never writes keeps its contents. -/
theorem Writes.kept (hW : Writes ops ys) (V : Valuation τ sig Val) (x : Ref sig .tc) (hx : x ∉ ys) :
    after ops V (Proc.devRef .tc x) = V (Proc.devRef .tc x) :=
  after_of_forall_not_mem ops V (hW.not_written 0 x hx)

/-! ## One operation: its result buffer from its operands' buffers, all after the whole line -/

theorem Writes.nullary (hW : Writes ops ys) (V : Valuation τ sig Val) (k : Nat) {y : Ref sig .tc} {v : y.ty.Contents Val} {hy}
    (hop : ops[k]? = some (nullary y v hy)) (hy' : y ∉ ys.drop (k + 1)) :
    after ops V (Proc.devRef .tc y) = v := by
  rw [hW.at V k hop hy', nullary_result]

theorem Writes.unary (hW : Writes ops ys) (V : Valuation τ sig Val) (k : Nat) {x y : Ref sig .tc}
    {f : x.ty.Contents Val → y.ty.Contents Val} {hx hy}
    (hop : ops[k]? = some (unary x y f hx hy)) (hy' : y ∉ ys.drop (k + 1)) (hx' : x ∉ ys.drop k) :
    after ops V (Proc.devRef .tc y) = f (after ops V (Proc.devRef .tc x)) := by
  rw [hW.at V k hop hy', unary_result]
  exact congrArg f (hW.back V k x hx')

theorem Writes.binary (hW : Writes ops ys) (V : Valuation τ sig Val) (k : Nat) {a b y : Ref sig .tc}
    {f : a.ty.Contents Val → b.ty.Contents Val → y.ty.Contents Val} {ha hb hy}
    (hop : ops[k]? = some (binary a b y f ha hb hy)) (hy' : y ∉ ys.drop (k + 1)) (ha' : a ∉ ys.drop k)
    (hb' : b ∉ ys.drop k) :
    after ops V (Proc.devRef .tc y) = f (after ops V (Proc.devRef .tc a)) (after ops V (Proc.devRef .tc b)) := by
  rw [hW.at V k hop hy', binary_result]
  exact congrArg₂ f (hW.back V k a ha') (hW.back V k b hb')

theorem Writes.ternary (hW : Writes ops ys) (V : Valuation τ sig Val) (k : Nat) {c a b y : Ref sig .tc}
    {f : c.ty.Contents Val → a.ty.Contents Val → b.ty.Contents Val → y.ty.Contents Val} {hc ha hb hy}
    (hop : ops[k]? = some (ternary c a b y f hc ha hb hy)) (hy' : y ∉ ys.drop (k + 1)) (hc' : c ∉ ys.drop k)
    (ha' : a ∉ ys.drop k) (hb' : b ∉ ys.drop k) :
    after ops V (Proc.devRef .tc y)
      = f (after ops V (Proc.devRef .tc c)) (after ops V (Proc.devRef .tc a)) (after ops V (Proc.devRef .tc b)) := by
  rw [hW.at V k hop hy', ternary_result, hW.back V k c hc', hW.back V k a ha', hW.back V k b hb']

theorem Writes.reshape (hW : Writes ops ys) (V : Valuation τ sig Val) (k : Nat) {x y : Ref sig .tc}
    {he : x.ty.elt = y.ty.elt} {hn : x.ty.shape.ShapeCasts y.ty.shape} {hx hy}
    (hop : ops[k]? = some (reshape x y he hn hx hy)) (hy' : y ∉ ys.drop (k + 1)) (hx' : x ∉ ys.drop k) :
    after ops V (Proc.devRef .tc y) = fun i => he ▸ shapeCast y.ty.shape (after ops V (Proc.devRef .tc x)) hn i := by
  rw [hW.at V k hop hy', reshape_result, hW.back V k x hx']

/-! ## The same for an operation of a called function

  A called function's operation names its buffers through typed references and carries contents across the equation
  "the buffer's type is the value's type". When that equation is the reflexive one the transport is the identity, and
  the operation's function applies to the buffers' contents as they are. -/

theorem Writes.tunary (hW : Writes ops ys) (V : Valuation τ sig Val) (k : Nat) {x y : Ref sig .tc} {ox ux oy uy}
    {g : x.ty.Contents Val → y.ty.Contents Val}
    (hop : ops[k]? = some (TRef.unary (⟨x, rfl, ox, ux⟩ : TRef sig x.ty) (⟨y, rfl, oy, uy⟩ : TRef sig y.ty) g))
    (hy' : y ∉ ys.drop (k + 1)) (hx' : x ∉ ys.drop k) :
    after ops V (Proc.devRef .tc y) = g (after ops V (Proc.devRef .tc x)) := by
  have h := hW.unary V k hop hy' hx'
  simpa only [TRef.toBuf, TRef.ofBuf, cast_eq] using h

theorem Writes.tbinary (hW : Writes ops ys) (V : Valuation τ sig Val) (k : Nat) {a b y : Ref sig .tc} {oa ua ob ub oy uy}
    {g : a.ty.Contents Val → b.ty.Contents Val → y.ty.Contents Val}
    (hop : ops[k]? = some (TRef.binary (⟨a, rfl, oa, ua⟩ : TRef sig a.ty) (⟨b, rfl, ob, ub⟩ : TRef sig b.ty)
      (⟨y, rfl, oy, uy⟩ : TRef sig y.ty) g))
    (hy' : y ∉ ys.drop (k + 1)) (ha' : a ∉ ys.drop k) (hb' : b ∉ ys.drop k) :
    after ops V (Proc.devRef .tc y) = g (after ops V (Proc.devRef .tc a)) (after ops V (Proc.devRef .tc b)) := by
  have h := hW.binary V k hop hy' ha' hb'
  simpa only [TRef.toBuf, TRef.ofBuf, cast_eq] using h

theorem Writes.tternary (hW : Writes ops ys) (V : Valuation τ sig Val) (k : Nat) {c a b y : Ref sig .tc}
    {oc uc oa ua ob ub oy uy} {g : c.ty.Contents Val → a.ty.Contents Val → b.ty.Contents Val → y.ty.Contents Val}
    (hop : ops[k]? = some (TRef.ternary (⟨c, rfl, oc, uc⟩ : TRef sig c.ty) (⟨a, rfl, oa, ua⟩ : TRef sig a.ty)
      (⟨b, rfl, ob, ub⟩ : TRef sig b.ty) (⟨y, rfl, oy, uy⟩ : TRef sig y.ty) g))
    (hy' : y ∉ ys.drop (k + 1)) (hc' : c ∉ ys.drop k) (ha' : a ∉ ys.drop k) (hb' : b ∉ ys.drop k) :
    after ops V (Proc.devRef .tc y)
      = g (after ops V (Proc.devRef .tc c)) (after ops V (Proc.devRef .tc a)) (after ops V (Proc.devRef .tc b)) := by
  have h := hW.ternary V k hop hy' hc' ha' hb'
  simpa only [TRef.toBuf, TRef.ofBuf, cast_eq] using h

end Cert.LibAfter

end
-- ==== Proof.KI.Host1.lean ====
/-
  The host operations between the first and the second kernel region, read at an index.

  After the first region has left h·W in its buffer, the program
    * cuts the two rows of the [2, 640000] edge index array out as the source and the destination index vector,
    * flattens the edge attention vector [1, 4, 32] to [1, 128] (entry (0, hh, d) lands in column 32·hh + d),
    * splits the node features [50000, 128] into heads [50000, 4, 32] and scores every node, per head, against the
      source and against the destination attention vector: the product with the vector broadcast along the nodes,
      summed over the 32 lanes from the zero word,
    * and carries the node scores to the edges by two takes along axis 0: row src k of the source table and row
      dst k of the destination table for edge k.
  A take wraps negative indices once, gathers, and replaces by a fill value every row whose index is out of range.
  With every index a natural number below 50000 nothing wraps and no row is replaced, so the take is the plain row
  gather, and the gather's clamp of an in-range index is the index itself.

  The statements read each buffer the second region finds at an index, over the buffers as the first region left them.
-/
import proofs.«424763_j188978561164_3_alg».proof.Proof.Gen.KernelIdeal.Regions
import proofs.«424763_j188978561164_3_alg».proof.Proof.Edges
import proofs.«424763_j188978561164_3_alg».proof.Proof.LibTake
import proofs.«424763_j188978561164_3_alg».proof.Proof.LibRowGather
import proofs.«424763_j188978561164_3_alg».proof.Proof.LibAfter
import Idealize.ShloMosaic.Lib.StableHlo.Run
import Idealize.ShloMosaic.Lib.Pipeline.Value
import Idealize.ShloMosaic.Lib.ValueIdx
import Idealize.ShloMosaic.Lib.IdealHost
import Idealize.ShloMosaic.PureOps.Ideal.Laws

set_option maxRecDepth 4096

noncomputable section

namespace Cert.KernelIdeal.Hand

open Cert.KernelIdeal Cert.KernelIdeal.Gen
open Idealize.ShloMosaic Idealize.ShloMosaic.TcCoe Idealize.ShloMosaic.ValueIdx
open scoped BigOperators

variable (m : (ℓ : Loc nD τ sig) → Buf (Elt Ideal) ℓ) (outs : Gen.Outs (F := Ideal)) (c : Dev nD)

/-! ## Layout readings over plain arrays -/

/-- Row r of a [2, 640000] array, sliced out as a [1, 640000] array and flattened, holds at k the entry (r, k). -/
theorem row_flat_apply {α : Type} (x : S2x640000.Idx → α) (o : Nat) (r : Fin 2) (hr : r.val = o)
    (hs : S2x640000.Slices ![o, 0] S1x640000) (hc : S1x640000.ShapeCasts S640000) (k : Fin 640000) :
    shapeCast S640000 (extractStridedSlice S1x640000 ![o, 0] x hs) hc (ix1 k) = x (ix2 r k) := by
  rw [shapeCast_apply _ hc (ix1 k) (ix2 (0 : Fin 1) k) (by
    rw [Shape.rowMajor_val_two, Shape.rowMajor_val_one]; show 0 * 640000 + k.val = k.val; omega)]
  exact extractStridedSlice_apply _ x hs _ (ix2 r k) (fun a => by
    match a with
    | ⟨0, _⟩ => show r.val = o + 0; omega
    | ⟨1, _⟩ => show k.val = 0 + k.val; omega)

/-- A [1, 4, 32] array flattened to [1, 128] holds at column 32·hh + d the entry (0, hh, d). -/
theorem heads_flat_apply {α : Type} (x : S1x4x32.Idx → α) (hc : S1x4x32.ShapeCasts S1x128) (hh : Fin 4) (d : Fin 32) :
    shapeCast S1x128 x hc (ix2 (0 : Fin 1) (Cert.Spec.col hh d)) = x (ix3 (0 : Fin 1) hh d) :=
  shapeCast_apply x hc _ _ (by
    rw [Shape.rowMajor_val_three, Shape.rowMajor_val_two]
    show (0 * 4 + hh.val) * 32 + d.val = 0 * 128 + (32 * hh.val + d.val); omega)

/-- A [50000, 128] array split into [50000, 4, 32] holds at (n, hh, d) the entry (n, 32·hh + d). -/
theorem heads_split_apply {α : Type} (x : S50000x128.Idx → α) (hc : S50000x128.ShapeCasts S50000x4x32)
    (n : Fin 50000) (hh : Fin 4) (d : Fin 32) :
    shapeCast S50000x4x32 x hc (ix3 n hh d) = x (ix2 n (Cert.Spec.col hh d)) :=
  shapeCast_apply x hc _ _ (by
    rw [Shape.rowMajor_val_three, Shape.rowMajor_val_two]
    show n.val * 128 + (32 * hh.val + d.val) = (n.val * 4 + hh.val) * 32 + d.val; omega)

/-- A [1, 4, 32] array broadcast along the rows of [50000, 4, 32] holds at (n, hh, d) the entry (0, hh, d). -/
theorem heads_bcast_apply {α : Type} (a : S1x4x32.Idx → α) (hb : S1x4x32.BroadcastsInDim S50000x4x32 ![0, 1, 2])
    (n : Fin 50000) (hh : Fin 4) (d : Fin 32) :
    broadcastInDim S50000x4x32 ![0, 1, 2] hb a (ix3 n hh d) = a (ix3 (0 : Fin 1) hh d) :=
  broadcastInDim_apply _ hb a _ _ (fun b => by
    match b with
    | ⟨0, _⟩ => rfl
    | ⟨1, _⟩ => rfl
    | ⟨2, _⟩ => rfl)

/-- The reduced index (n, hh) with lane k put back on axis 2 is (n, hh, k). -/
theorem lift_lane (h : S50000x4x32.Reduces [2] S50000x4) (n : Fin 50000) (hh : Fin 4) (k : Fin (S50000x4x32.size 2)) :
    h.lift (ix2 n hh) k = ix3 n hh (⟨k.val, k.isLt⟩ : Fin 32) := by
  funext b; apply Fin.ext
  fin_cases b <;> rfl

/-- The per-head score of every node against an attention vector: the host's sum over the lanes, from the zero
    word, of the node's features split into heads times the vector broadcast along the nodes. At (n, hh) it is
    the sum over the 32 lanes d of feature (n, 32·hh + d) times the vector's entry (0, hh, d). -/
theorem score_apply (x : S50000x128.Idx → EReal) (a : S1x4x32.Idx → EReal)
    (hc : S50000x128.ShapeCasts S50000x4x32) (hb : S1x4x32.BroadcastsInDim S50000x4x32 ![0, 1, 2])
    (hr' : S50000x4x32.ReducesTo [2] S50000x4) (hu : 0 < S_.numel) (n : Fin 50000) (hh : Fin 4) :
    (Host.reduceAdd (F := Ideal) (φ := .f32) (mulf (F := Ideal) (φ := .f32) (shapeCast S50000x4x32 x hc) (broadcastInDim S50000x4x32 ![0, 1, 2] hb a))
        (constant (F := Ideal) S_ .f32 0x00000000#32) hr' hu : S50000x4.Idx → EReal) (ix2 n hh)
      = ∑ d : Fin 32, x (ix2 n (Cert.Spec.col hh d)) * a (ix3 (0 : Fin 1) hh d) := by
  have hr : S50000x4x32.Reduces [2] S50000x4 := by decide
  rw [hostReduceAdd_apply, Ideal.hostReduceAdd_single hr' hr]
  rw [show (constant (F := Ideal) S_ .f32 0x00000000#32) (Shape.Idx.first hu) = (0 : EReal) from Ideal.ofBits_zero_f32, zero_add]
  refine Finset.sum_congr rfl fun k _ => ?_
  rw [lift_lane hr n hh k, mulf_apply, heads_split_apply, heads_bcast_apply]
  rfl

/-- Node n's features of head hh against an attention vector a: the sum over the 32 lanes d of x[n, 32·hh + d] · a[0, hh, d]. -/
abbrev headScore (x : S50000x128.Idx → EReal) (a : S1x4x32.Idx → EReal) (n : Fin 50000) (hh : Fin 4) : EReal :=
  ∑ d : Fin 32, x (ix2 n (Cert.Spec.col hh d)) * a (ix3 (0 : Fin 1) hh d)

/-- The row gather of a [50000, 4] table at a vector of 640000 indices that are natural numbers below 50000, read
    at (k, hh): the clamp of an in-range index is the index, so it is the table's row idx k at column hh. -/
theorem gather_apply (x : S50000x4.Idx → EReal) (idx : S640000.Idx → BitVec 32)
    (hidx : ∀ r, (idx r).toNat < 50000) (k : Fin 640000) (hh : Fin 4) :
    Host.gather gather_S50000x4_S640000x1_S640000x4_1_0_n_n_0_1_14 x
        (broadcastInDim S640000x1 ![0] bcast_S640000_S640000x1_0 idx) (ix2 k hh)
      = x (ix2 (⟨(idx (ix1 k)).toNat, hidx _⟩ : Fin 50000) hh) := by
  have hd : gather_S50000x4_S640000x1_S640000x4_1_0_n_n_0_1_14
      = Cert.LibRowGather.rowDims 50000 4 640000 gather_S50000x4_S640000x1_S640000x4_1_0_n_n_0_1_14_wf := rfl
  have hb : ∀ p : Fin 640000, p.val = k.val →
      broadcastInDim S640000x1 ![0] bcast_S640000_S640000x1_0 idx (ix2 p (0 : Fin 1)) = idx (ix1 k) := fun p hp =>
    broadcastInDim_apply _ _ idx _ _ (fun a => by
      match a with
      | ⟨0, _⟩ => exact hp.symm)
  have hlt := hidx (ix1 k)
  have hint : (idx (ix1 k)).toInt = ((idx (ix1 k)).toNat : Int) := BitVec.toInt_eq_toNat_of_lt (by omega)
  rw [hd, Cert.LibRowGather.gather_rows_apply (by norm_num)]
  refine congrArg x (congrArg₂ (ix2 (n0 := 50000) (n1 := 4)) (Fin.ext ?_) (Fin.ext rfl))
  show min (broadcastInDim S640000x1 ![0] bcast_S640000_S640000x1_0 idx (ix2 _ (0 : Fin 1))).toInt.toNat (50000 - 1)
    = (idx (ix1 k)).toNat
  rw [hb _ rfl, hint, Int.toNat_natCast]
  omega

/-! ## The buffers after the first stretch -/

/-- After the first stretch the source-index buffer holds row 0 of the index array. -/
theorem v2_after1 (k : Fin 640000) :
    (Gen.V2 m outs c main_v2 : S640000.Idx → BitVec 32) (ix1 k)
      = (Gen.V1 m outs c main_arg0 : S2x640000.Idx → BitVec 32) (ix2 (0 : Fin 2) k) := by
  have e : (Gen.V2 m outs c main_v2 : S640000.Idx → BitVec 32)
      = shapeCast S640000 (extractStridedSlice S1x640000 ![0, 0]
          (Gen.V1 m outs c main_arg0 : S2x640000.Idx → BitVec 32) slices_S2x640000_S1x640000_0_0)
          shapeCasts_S1x640000_S640000 := by
    dsimp only [Gen.V2]; simp only [hostOps1]; after_results; rfl
  rw [e]; exact row_flat_apply _ 0 0 rfl _ _ k

/-- After the first stretch the destination-index buffer holds row 1 of the index array. -/
theorem v4_after1 (k : Fin 640000) :
    (Gen.V2 m outs c main_v4 : S640000.Idx → BitVec 32) (ix1 k)
      = (Gen.V1 m outs c main_arg0 : S2x640000.Idx → BitVec 32) (ix2 (1 : Fin 2) k) := by
  have e : (Gen.V2 m outs c main_v4 : S640000.Idx → BitVec 32)
      = shapeCast S640000 (extractStridedSlice S1x640000 ![1, 0]
          (Gen.V1 m outs c main_arg0 : S2x640000.Idx → BitVec 32) slices_S2x640000_S1x640000_1_0)
          shapeCasts_S1x640000_S640000 := by
    dsimp only [Gen.V2]; simp only [hostOps1]; after_results; rfl
  rw [e]; exact row_flat_apply _ 1 1 rfl _ _ k

/-- After the first stretch the flattened edge attention vector holds at column 32·hh + d the entry (0, hh, d). -/
theorem v5_after1 (hh : Fin 4) (d : Fin 32) :
    (Gen.V2 m outs c main_v5 : S1x128.Idx → EReal) (ix2 (0 : Fin 1) (Cert.Spec.col hh d))
      = (Gen.V1 m outs c main_arg7 : S1x4x32.Idx → EReal) (ix3 (0 : Fin 1) hh d) := by
  have e : (Gen.V2 m outs c main_v5 : S1x128.Idx → EReal)
      = shapeCast S1x128 (Gen.V1 m outs c main_arg7 : S1x4x32.Idx → EReal) shapeCasts_S1x4x32_S1x128 := by
    dsimp only [Gen.V2]; simp only [hostOps1]; after_results; rfl
  rw [e]; exact heads_flat_apply _ _ hh d

/-- After the first stretch the source-score table holds, at node n and head hh, the node's features of that head
    against the source attention vector. -/
theorem v9_after1 (n : Fin 50000) (hh : Fin 4) :
    (Gen.V2 m outs c main_v9 : S50000x4.Idx → EReal) (ix2 n hh)
      = headScore (Gen.V1 m outs c main_v0) (Gen.V1 m outs c main_arg5) n hh := by
  have e : (Gen.V2 m outs c main_v9 : S50000x4.Idx → EReal)
      = Host.reduceAdd (F := Ideal) (φ := .f32)
          (mulf (F := Ideal) (φ := .f32)
            (shapeCast S50000x4x32 (Gen.V1 m outs c main_v0 : S50000x128.Idx → EReal) shapeCasts_S50000x128_S50000x4x32)
            (broadcastInDim S50000x4x32 ![0, 1, 2] bcast_S1x4x32_S50000x4x32_0_1_2
              (Gen.V1 m outs c main_arg5 : S1x4x32.Idx → EReal)))
          (constant (F := Ideal) S_ .f32 0x00000000#32) reducesTo_S50000x4x32_S50000x4_d2 h_S_ := by
    dsimp only [Gen.V2]; simp only [hostOps1]; after_results; rfl
  rw [e]; exact score_apply _ _ _ _ _ _ n hh

/-- Likewise the destination-score table, against the destination attention vector. -/
theorem v12_after1 (n : Fin 50000) (hh : Fin 4) :
    (Gen.V2 m outs c main_v12 : S50000x4.Idx → EReal) (ix2 n hh)
      = headScore (Gen.V1 m outs c main_v0) (Gen.V1 m outs c main_arg6) n hh := by
  have e : (Gen.V2 m outs c main_v12 : S50000x4.Idx → EReal)
      = Host.reduceAdd (F := Ideal) (φ := .f32)
          (mulf (F := Ideal) (φ := .f32)
            (shapeCast S50000x4x32 (Gen.V1 m outs c main_v0 : S50000x128.Idx → EReal) shapeCasts_S50000x128_S50000x4x32)
            (broadcastInDim S50000x4x32 ![0, 1, 2] bcast_S1x4x32_S50000x4x32_0_1_2
              (Gen.V1 m outs c main_arg6 : S1x4x32.Idx → EReal)))
          (constant (F := Ideal) S_ .f32 0x00000000#32) reducesTo_S50000x4x32_S50000x4_d2 h_S_ := by
    dsimp only [Gen.V2]; simp only [hostOps1]; after_results; rfl
  rw [e]; exact score_apply _ _ _ _ _ _ n hh

/-! ## The two takes -/

theorem writes_take0 : Cert.LibAfter.Writes (hostOps1_1 : List (HloOp τ sig (Elt Ideal))) hostOps1_1_W := rfl

/-- The take of rows of the table held in main_v9 at the indices held in main_v2, run from any valuation W whose
    indices are natural numbers below 50000: every index is in range, so the composite (wrap of negative indices,
    range mask, gather, select against the fill value) leaves the plain row gather in main_v13. -/
theorem take0_eq (W : Valuation τ sig (Elt Ideal))
    (hidx : ∀ r, ((W main_v2 : S640000.Idx → BitVec 32) r).toNat < 50000) :
    (StableHlo.after hostOps1_1 W main_v13 : S640000x4.Idx → EReal)
      = Host.gather gather_S50000x4_S640000x1_S640000x4_1_0_n_n_0_1_14 (W main_v9 : S50000x4.Idx → EReal)
          (broadcastInDim S640000x1 ![0] bcast_S640000_S640000x1_0 (W main_v2 : S640000.Idx → BitVec 32)) := by
  have hW := writes_take0
  -- the two buffers the stretch only reads
  have eI := hW.kept W main_v2 (by decide)
  have eT := hW.kept W main_v9 (by decide)
  -- the stretch's operations, each result from its operands' buffers
  have h0 := hW.nullary W 0 (y := main_call0_c) rfl (by decide)
  have h1 := hW.tunary W 1 (x := main_call0_c) (y := main_call0_v0) rfl (by decide) (by decide)
  have h2 := hW.tbinary W 2 (a := main_v2) (b := main_call0_v0) (y := main_call0_v1) rfl (by decide) (by decide) (by decide)
  have h3 := hW.nullary W 3 (y := main_call0_c_0) rfl (by decide)
  have h4 := hW.tunary W 4 (x := main_call0_c_0) (y := main_call0_v2) rfl (by decide) (by decide)
  have h5 := hW.tbinary W 5 (a := main_v2) (b := main_call0_v2) (y := main_call0_v3) rfl (by decide) (by decide) (by decide)
  have h6 := hW.tternary W 6 (c := main_call0_v1) (a := main_call0_v3) (b := main_v2) (y := main_call0_v4) rfl (by decide) (by decide) (by decide) (by decide)
  have h7 := hW.tunary W 7 (x := main_call0_v4) (y := main_call0_v5) rfl (by decide) (by decide)
  have h8 := hW.nullary W 8 (y := main_call0_c_1) rfl (by decide)
  have h9 := hW.nullary W 9 (y := main_call0_c_2) rfl (by decide)
  have h10 := hW.tunary W 10 (x := main_call0_c_2) (y := main_call0_v6) rfl (by decide) (by decide)
  have h11 := hW.tbinary W 11 (a := main_call0_v5) (b := main_call0_v6) (y := main_call0_v7) rfl (by decide) (by decide) (by decide)
  have h12 := hW.tunary W 12 (x := main_call0_c_1) (y := main_call0_v8) rfl (by decide) (by decide)
  have h13 := hW.tunary W 13 (x := main_call0_v8) (y := main_call0_v9) rfl (by decide) (by decide)
  have h14 := hW.tbinary W 14 (a := main_call0_v5) (b := main_call0_v9) (y := main_call0_v10) rfl (by decide) (by decide) (by decide)
  have h15 := hW.tbinary W 15 (a := main_call0_v7) (b := main_call0_v10) (y := main_call0_v11) rfl (by decide) (by decide) (by decide)
  have h16 := hW.nullary W 16 (y := main_call0_c_3) rfl (by decide)
  have h17 := hW.tbinary W 17 (a := main_call0_v11) (b := main_call0_c_3) (y := main_call0_v12) rfl (by decide) (by decide) (by decide)
  have h18 := hW.tbinary W 18 (a := main_v9) (b := main_call0_v5) (y := main_call0_v13) rfl (by decide) (by decide) (by decide)
  have h19 := hW.tunary W 19 (x := main_call0_v12) (y := main_call0_v14) rfl (by decide) (by decide)
  have h20 := hW.nullary W 20 (y := main_call0_cst) rfl (by decide)
  have h21 := hW.tunary W 21 (x := main_call0_cst) (y := main_call0_v15) rfl (by decide) (by decide)
  have h22 := hW.tternary W 22 (c := main_call0_v14) (a := main_call0_v13) (b := main_call0_v15) (y := main_v13) rfl (by decide) (by decide) (by decide) (by decide)
  rw [h22, h19, h17, h16, h15, h11, h14, h13, h12, h8, h10, h9, h18, h7, h6, h2, h1, h0, h5, h4, h3, h21, h20, eI, eT]
  exact Cert.LibTake.take_rows_eq (R := 640000) (N := 50000) (C := 4) (s := S50000x4) (by norm_num)
    (W main_v2 : S640000.Idx → BitVec 32) hidx gather_S50000x4_S640000x1_S640000x4_1_0_n_n_0_1_14
    (W main_v9 : S50000x4.Idx → EReal) _ bcast_S_S640000 bcast_S_S640000 bcast_S640000_S640000x1_0
    bcast_S_S640000x1 bcast_S1_S1x1_1 bcast_S1x1_S640000x1_0_1 reducesTo_S640000x1_S640000_d1 h_S_
    bcast_S640000_S640000x4_0

theorem writes_take1 : Cert.LibAfter.Writes (hostOps1_2 : List (HloOp τ sig (Elt Ideal))) hostOps1_2_W := rfl

/-- The take of rows of the table held in main_v12 at the indices held in main_v4, run from any valuation W whose
    indices are natural numbers below 50000: every index is in range, so the composite (wrap of negative indices,
    range mask, gather, select against the fill value) leaves the plain row gather in main_v14. -/
theorem take1_eq (W : Valuation τ sig (Elt Ideal))
    (hidx : ∀ r, ((W main_v4 : S640000.Idx → BitVec 32) r).toNat < 50000) :
    (StableHlo.after hostOps1_2 W main_v14 : S640000x4.Idx → EReal)
      = Host.gather gather_S50000x4_S640000x1_S640000x4_1_0_n_n_0_1_14 (W main_v12 : S50000x4.Idx → EReal)
          (broadcastInDim S640000x1 ![0] bcast_S640000_S640000x1_0 (W main_v4 : S640000.Idx → BitVec 32)) := by
  have hW := writes_take1
  -- the two buffers the stretch only reads
  have eI := hW.kept W main_v4 (by decide)
  have eT := hW.kept W main_v12 (by decide)
  -- the stretch's operations, each result from its operands' buffers
  have h0 := hW.nullary W 0 (y := main_call1_c) rfl (by decide)
  have h1 := hW.tunary W 1 (x := main_call1_c) (y := main_call1_v0) rfl (by decide) (by decide)
  have h2 := hW.tbinary W 2 (a := main_v4) (b := main_call1_v0) (y := main_call1_v1) rfl (by decide) (by decide) (by decide)
  have h3 := hW.nullary W 3 (y := main_call1_c_0) rfl (by decide)
  have h4 := hW.tunary W 4 (x := main_call1_c_0) (y := main_call1_v2) rfl (by decide) (by decide)
  have h5 := hW.tbinary W 5 (a := main_v4) (b := main_call1_v2) (y := main_call1_v3) rfl (by decide) (by decide) (by decide)
  have h6 := hW.tternary W 6 (c := main_call1_v1) (a := main_call1_v3) (b := main_v4) (y := main_call1_v4) rfl (by decide) (by decide) (by decide) (by decide)
  have h7 := hW.tunary W 7 (x := main_call1_v4) (y := main_call1_v5) rfl (by decide) (by decide)
  have h8 := hW.nullary W 8 (y := main_call1_c_1) rfl (by decide)
  have h9 := hW.nullary W 9 (y := main_call1_c_2) rfl (by decide)
  have h10 := hW.tunary W 10 (x := main_call1_c_2) (y := main_call1_v6) rfl (by decide) (by decide)
  have h11 := hW.tbinary W 11 (a := main_call1_v5) (b := main_call1_v6) (y := main_call1_v7) rfl (by decide) (by decide) (by decide)
  have h12 := hW.tunary W 12 (x := main_call1_c_1) (y := main_call1_v8) rfl (by decide) (by decide)
  have h13 := hW.tunary W 13 (x := main_call1_v8) (y := main_call1_v9) rfl (by decide) (by decide)
  have h14 := hW.tbinary W 14 (a := main_call1_v5) (b := main_call1_v9) (y := main_call1_v10) rfl (by decide) (by decide) (by decide)
  have h15 := hW.tbinary W 15 (a := main_call1_v7) (b := main_call1_v10) (y := main_call1_v11) rfl (by decide) (by decide) (by decide)
  have h16 := hW.nullary W 16 (y := main_call1_c_3) rfl (by decide)
  have h17 := hW.tbinary W 17 (a := main_call1_v11) (b := main_call1_c_3) (y := main_call1_v12) rfl (by decide) (by decide) (by decide)
  have h18 := hW.tbinary W 18 (a := main_v12) (b := main_call1_v5) (y := main_call1_v13) rfl (by decide) (by decide) (by decide)
  have h19 := hW.tunary W 19 (x := main_call1_v12) (y := main_call1_v14) rfl (by decide) (by decide)
  have h20 := hW.nullary W 20 (y := main_call1_cst) rfl (by decide)
  have h21 := hW.tunary W 21 (x := main_call1_cst) (y := main_call1_v15) rfl (by decide) (by decide)
  have h22 := hW.tternary W 22 (c := main_call1_v14) (a := main_call1_v13) (b := main_call1_v15) (y := main_v14) rfl (by decide) (by decide) (by decide) (by decide)
  rw [h22, h19, h17, h16, h15, h11, h14, h13, h12, h8, h10, h9, h18, h7, h6, h2, h1, h0, h5, h4, h3, h21, h20, eI, eT]
  exact Cert.LibTake.take_rows_eq (R := 640000) (N := 50000) (C := 4) (s := S50000x4) (by norm_num)
    (W main_v4 : S640000.Idx → BitVec 32) hidx gather_S50000x4_S640000x1_S640000x4_1_0_n_n_0_1_14
    (W main_v12 : S50000x4.Idx → EReal) _ bcast_S_S640000 bcast_S_S640000 bcast_S640000_S640000x1_0
    bcast_S_S640000x1 bcast_S1_S1x1_1 bcast_S1x1_S640000x1_0_1 reducesTo_S640000x1_S640000_d1 h_S_
    bcast_S640000_S640000x4_0

/-! ## The buffers the second kernel region finds -/

/-- The source-index buffer as the second region finds it: row 0 of the index array. -/
theorem host1_v2 (k : Fin 640000) :
    (Gen.V4 m outs c main_v2 : S640000.Idx → BitVec 32) (ix1 k)
      = (Gen.V1 m outs c main_arg0 : S2x640000.Idx → BitVec 32) (ix2 (0 : Fin 2) k) := by
  rw [Gen.V4_of m outs c main_v2 (by decide), Gen.V3_of m outs c main_v2 (by decide)]
  exact v2_after1 m outs c k

/-- The destination-index buffer as the second region finds it: row 1 of the index array. -/
theorem host1_v4 (k : Fin 640000) :
    (Gen.V4 m outs c main_v4 : S640000.Idx → BitVec 32) (ix1 k)
      = (Gen.V1 m outs c main_arg0 : S2x640000.Idx → BitVec 32) (ix2 (1 : Fin 2) k) := by
  rw [Gen.V4_of m outs c main_v4 (by decide), Gen.V3_of m outs c main_v4 (by decide)]
  exact v4_after1 m outs c k

/-- The flattened edge attention vector as the second region finds it. -/
theorem host1_v5 (hh : Fin 4) (d : Fin 32) :
    (Gen.V4 m outs c main_v5 : S1x128.Idx → EReal) (ix2 (0 : Fin 1) (Cert.Spec.col hh d))
      = (Gen.V1 m outs c main_arg7 : S1x4x32.Idx → EReal) (ix3 (0 : Fin 1) hh d) := by
  rw [Gen.V4_of m outs c main_v5 (by decide), Gen.V3_of m outs c main_v5 (by decide)]
  exact v5_after1 m outs c hh d

/-- The per-edge source score as the second region finds it: edge k's source node's score, per head. -/
theorem host1_v13 (hr : ∀ i, ((Gen.V1 m outs c main_arg0 : S2x640000.Idx → BitVec 32) i).toNat < 50000)
    (k : Fin 640000) (hh : Fin 4) :
    (Gen.V4 m outs c main_v13 : S640000x4.Idx → EReal) (ix2 k hh)
      = headScore (Gen.V1 m outs c main_v0) (Gen.V1 m outs c main_arg5) (Cert.Spec.srcOf (Gen.V1 m outs c main_arg0) hr k) hh := by
  have hidx : ∀ r, ((Gen.V2 m outs c main_v2 : S640000.Idx → BitVec 32) r).toNat < 50000 := fun r => by
    obtain ⟨k', rfl⟩ : ∃ k' : Fin 640000, r = ix1 k' := ⟨r 0, eq_ix1 r⟩
    rw [v2_after1]; exact hr _
  have hrow : (⟨((Gen.V2 m outs c main_v2 : S640000.Idx → BitVec 32) (ix1 k)).toNat, hidx _⟩ : Fin 50000)
      = Cert.Spec.srcOf (Gen.V1 m outs c main_arg0) hr k := Fin.ext (by
    show ((Gen.V2 m outs c main_v2 : S640000.Idx → BitVec 32) (ix1 k)).toNat
      = ((Gen.V1 m outs c main_arg0 : S2x640000.Idx → BitVec 32) (ix2 (0 : Fin 2) k)).toNat
    rw [v2_after1])
  rw [Gen.V4_of m outs c main_v13 (by decide)]
  dsimp only [Gen.V3]
  rw [take0_eq (Gen.V2 m outs c) hidx, gather_apply _ _ hidx k hh, hrow]
  exact v9_after1 m outs c _ hh

/-- The per-edge destination score as the second region finds it: edge k's destination node's score, per head. -/
theorem host1_v14 (hr : ∀ i, ((Gen.V1 m outs c main_arg0 : S2x640000.Idx → BitVec 32) i).toNat < 50000)
    (k : Fin 640000) (hh : Fin 4) :
    (Gen.V4 m outs c main_v14 : S640000x4.Idx → EReal) (ix2 k hh)
      = headScore (Gen.V1 m outs c main_v0) (Gen.V1 m outs c main_arg6) (Cert.Spec.dstOf (Gen.V1 m outs c main_arg0) hr k) hh := by
  have e4 : (Gen.V3 m outs c main_v4 : S640000.Idx → BitVec 32) = Gen.V2 m outs c main_v4 :=
    Gen.V3_of m outs c main_v4 (by decide)
  have e12 : (Gen.V3 m outs c main_v12 : S50000x4.Idx → EReal) = Gen.V2 m outs c main_v12 :=
    Gen.V3_of m outs c main_v12 (by decide)
  have hidx : ∀ r, ((Gen.V3 m outs c main_v4 : S640000.Idx → BitVec 32) r).toNat < 50000 := fun r => by
    obtain ⟨k', rfl⟩ : ∃ k' : Fin 640000, r = ix1 k' := ⟨r 0, eq_ix1 r⟩
    rw [e4, v4_after1]; exact hr _
  have hrow : (⟨((Gen.V3 m outs c main_v4 : S640000.Idx → BitVec 32) (ix1 k)).toNat, hidx _⟩ : Fin 50000)
      = Cert.Spec.dstOf (Gen.V1 m outs c main_arg0) hr k := Fin.ext (by
    show ((Gen.V3 m outs c main_v4 : S640000.Idx → BitVec 32) (ix1 k)).toNat
      = ((Gen.V1 m outs c main_arg0 : S2x640000.Idx → BitVec 32) (ix2 (1 : Fin 2) k)).toNat
    rw [e4, v4_after1])
  dsimp only [Gen.V4]
  rw [take1_eq (Gen.V3 m outs c) hidx, gather_apply _ _ hidx k hh, hrow, e12]
  exact v12_after1 m outs c _ hh

end Cert.KernelIdeal.Hand

end
-- ==== Proof.LibScatterRows.lean ====
/-
  ROW SCATTER-ADD READ AT AN ENTRY.

  A segment sum over the leading axis is the accumulating scatter whose dimension numbers are
  update window axes [1] (or none, for a vector), inserted window axes [0], scatter-dims-to-operand-dims
  [0] and index vector axis 1, over an operand [C, A] (or [C]), scatter indices [N, 1] and updates [N, A]
  (or [N]). Update row n carries ONE start index, the word idx[n, 0] read as a signed integer; it is the
  start on operand axis 0, where the window coordinate is 0 because that axis is inserted. On operand axis 1
  the start is 0 (the map does not name the axis) and the window coordinate is the update's own column. So
  update element (n, a') lands at operand element (idx[n, 0], a') when 0 ≤ idx[n, 0] < C and is dropped
  otherwise; the column is always in range, being below A on both sides.

  Hence the result at (c, a) is the operand there plus the sum, over the rows n whose index word reads
  exactly c, of upd[n, a]:

      scatter(x, idx, upd)[c, a] = x[c, a] + ∑ n, if idx[n, 0] = c then upd[n, a] else 0 .

  An index word that is negative or at least C matches no c below C, so the dropped updates need no
  separate clause. The statements hold at every extent C, N, A and every index width w, for any record of
  dimension numbers whose four lists are the ones above. The rank-1 form (operand [C], updates [N]) is the
  same with the column removed.
-/
import Idealize.ShloMosaic.Lib.ValueIdx
import Idealize.ShloMosaic.PureOps.Ideal

noncomputable section

open scoped BigOperators

namespace Idealize.ShloMosaic.ScatterRows

open Idealize.ShloMosaic Idealize.ShloMosaic.ValueIdx

/-! ## Operand [C, A], scatter indices [N, 1], updates [N, A] -/

section Rows2
variable {C N A w : ℕ}

/-- The row scatter's dimension numbers as a record of literal lists: update window axes [1], inserted
    window axes [0], scatter-dims-to-operand-dims [0], index vector axis 1. -/
abbrev rows2 (wf : ScatterDims.WF ⟨2, ![C, A]⟩ ⟨2, ![N, 1]⟩ ⟨2, ![N, A]⟩ [1] [0] [0] 1) :
    ScatterDims ⟨2, ![C, A]⟩ ⟨2, ![N, 1]⟩ ⟨2, ![N, A]⟩ := ⟨[1], [0], [0], 1, wf⟩

/-- On operand axis 0 the window of update (n, a') starts at the index word idx[n, 0], read signed. -/
theorem rows2_start0 (wf : ScatterDims.WF ⟨2, ![C, A]⟩ ⟨2, ![N, 1]⟩ ⟨2, ![N, A]⟩ [1] [0] [0] 1)
    (j : (⟨2, ![N, A]⟩ : Shape).Idx) (idx : IVec ⟨2, ![N, 1]⟩ w) :
    (rows2 wf).start j idx 0 = (idx (ix2 (j 0) (0 : Fin 1))).toInt := by
  unfold ScatterDims.start
  rw [dif_pos (List.mem_singleton.mpr rfl)]
  congr 2
  funext b
  refine Fin.ext ?_
  match b with
  | ⟨0, _⟩ => rfl
  | ⟨1, _⟩ => rfl

/-- On operand axis 1, which the map does not name, the window starts at 0. -/
theorem rows2_start1 (wf : ScatterDims.WF ⟨2, ![C, A]⟩ ⟨2, ![N, 1]⟩ ⟨2, ![N, A]⟩ [1] [0] [0] 1)
    (j : (⟨2, ![N, A]⟩ : Shape).Idx) (idx : IVec ⟨2, ![N, 1]⟩ w) :
    (rows2 wf).start j idx 1 = 0 := by
  unfold ScatterDims.start
  rw [dif_neg (show ¬ ((1 : Fin 2) ∈ ([0] : List (Fin 2))) by decide)]

/-- Operand axis 0 is inserted: the window coordinate there is 0. -/
theorem rows2_window0 (wf : ScatterDims.WF ⟨2, ![C, A]⟩ ⟨2, ![N, 1]⟩ ⟨2, ![N, A]⟩ [1] [0] [0] 1)
    (j : (⟨2, ![N, A]⟩ : Shape).Idx) :
    (rows2 wf).window j 0 = 0 := by
  unfold ScatterDims.window
  have h : ¬ ((0 : Fin 2) ∈ (rows2 wf).sKept) := by
    show ¬ ((0 : Fin 2) ∈ ([1] : List (Fin 2)))
    decide
  rw [dif_neg h]

/-- Operand axis 1 is the one kept axis: the window coordinate there is the update's column. -/
theorem rows2_window1 (wf : ScatterDims.WF ⟨2, ![C, A]⟩ ⟨2, ![N, 1]⟩ ⟨2, ![N, A]⟩ [1] [0] [0] 1)
    (j : (⟨2, ![N, A]⟩ : Shape).Idx) :
    (rows2 wf).window j 1 = (j 1).val := by
  unfold ScatterDims.window
  have h : (1 : Fin 2) ∈ (rows2 wf).sKept := by
    show (1 : Fin 2) ∈ ([1] : List (Fin 2))
    decide
  rw [dif_pos h]
  rfl

/-- WHERE AN UPDATE LANDS: update (n, a') lands at operand element (c, a) exactly when its row's index word
    reads c and its column is a. (An index word outside [0, C) lands nowhere, and equals no c below C.) -/
theorem rows2_resultIdx?_eq_some (wf : ScatterDims.WF ⟨2, ![C, A]⟩ ⟨2, ![N, 1]⟩ ⟨2, ![N, A]⟩ [1] [0] [0] 1)
    (j : (⟨2, ![N, A]⟩ : Shape).Idx) (idx : IVec ⟨2, ![N, 1]⟩ w) (c : Fin C) (a : Fin A) :
    (rows2 wf).resultIdx? j idx = some (ix2 c a) ↔
      (idx (ix2 (j 0) (0 : Fin 1))).toInt = (c.val : ℤ) ∧ j 1 = a := by
  have e0 : (rows2 wf).start j idx 0 + ((rows2 wf).window j 0 : ℕ) = (idx (ix2 (j 0) (0 : Fin 1))).toInt := by
    rw [rows2_start0, rows2_window0]; simp
  have e1 : (rows2 wf).start j idx 1 + ((rows2 wf).window j 1 : ℕ) = ((j 1).val : ℤ) := by
    rw [rows2_start1, rows2_window1]; simp
  unfold ScatterDims.resultIdx?
  split_ifs with h
  · rw [Option.some.injEq]
    constructor
    · intro hf
      have h0 : ((rows2 wf).start j idx 0 + ((rows2 wf).window j 0 : ℕ)).toNat = c.val :=
        congrArg Fin.val (congrFun hf 0)
      have h1 : ((rows2 wf).start j idx 1 + ((rows2 wf).window j 1 : ℕ)).toNat = a.val :=
        congrArg Fin.val (congrFun hf 1)
      have hp := (h 0).1
      rw [e0] at h0 hp
      rw [e1] at h1
      refine ⟨by omega, Fin.ext (by omega)⟩
    · rintro ⟨hc, ha⟩
      funext b
      refine Fin.ext ?_
      match b with
      | ⟨0, _⟩ =>
        show ((rows2 wf).start j idx 0 + ((rows2 wf).window j 0 : ℕ)).toNat = c.val
        rw [e0, hc]; simp
      | ⟨1, _⟩ =>
        show ((rows2 wf).start j idx 1 + ((rows2 wf).window j 1 : ℕ)).toNat = a.val
        rw [e1, ha]; simp
  · constructor
    · intro hf; cases hf
    · rintro ⟨hc, ha⟩
      refine absurd ?_ h
      intro b
      match b with
      | ⟨0, _⟩ =>
        show 0 ≤ (rows2 wf).start j idx 0 + ((rows2 wf).window j 0 : ℕ) ∧
          (rows2 wf).start j idx 0 + ((rows2 wf).window j 0 : ℕ) < ((C : ℕ) : ℤ)
        rw [e0, hc]
        have := c.isLt
        omega
      | ⟨1, _⟩ =>
        show 0 ≤ (rows2 wf).start j idx 1 + ((rows2 wf).window j 1 : ℕ) ∧
          (rows2 wf).start j idx 1 + ((rows2 wf).window j 1 : ℕ) < ((A : ℕ) : ℤ)
        rw [e1, ha]
        have := a.isLt
        omega

/-- The same, for an update index given by its coordinates. -/
theorem rows2_resultIdx?_ix2 (wf : ScatterDims.WF ⟨2, ![C, A]⟩ ⟨2, ![N, 1]⟩ ⟨2, ![N, A]⟩ [1] [0] [0] 1)
    (n : Fin N) (b : Fin A) (idx : IVec ⟨2, ![N, 1]⟩ w) (c : Fin C) (a : Fin A) :
    (rows2 wf).resultIdx? (ix2 n b) idx = some (ix2 c a) ↔
      (idx (ix2 n (0 : Fin 1))).toInt = (c.val : ℤ) ∧ b = a :=
  rows2_resultIdx?_eq_some wf (ix2 n b) idx c a

/-- The row scatter-add of the literal record, read at (c, a). -/
theorem rows2_apply (wf : ScatterDims.WF ⟨2, ![C, A]⟩ ⟨2, ![N, 1]⟩ ⟨2, ![N, A]⟩ [1] [0] [0] 1)
    (x : (⟨2, ![C, A]⟩ : Shape).Idx → EReal) (idx : IVec ⟨2, ![N, 1]⟩ w)
    (upd : (⟨2, ![N, A]⟩ : Shape).Idx → EReal) (c : Fin C) (a : Fin A) :
    Ideal.hostScatterAdd (rows2 wf) x idx upd (ix2 c a) =
      x (ix2 c a) + ∑ n : Fin N, if (idx (ix2 n (0 : Fin 1))).toInt = (c.val : ℤ) then upd (ix2 n a) else 0 := by
  unfold Ideal.hostScatterAdd
  congr 1
  rw [Finset.sum_filter, sum_idx2]
  refine Finset.sum_congr rfl fun n _ => ?_
  simp only [rows2_resultIdx?_ix2]
  by_cases hc : (idx (ix2 n (0 : Fin 1))).toInt = (c.val : ℤ)
  · simp [hc]
  · simp [hc]

end Rows2

/-- ROW SCATTER-ADD AT AN ENTRY, operand [C, A]: for any dimension-number record with update window axes
    [1], inserted window axes [0], scatter-dims-to-operand-dims [0] and index vector axis 1, the result at
    (c, a) is the operand there plus the sum of upd[n, a] over the rows n whose index word idx[n, 0], read
    signed, is c. Rows whose index word is negative or at least C contribute nothing. -/
theorem scatterRows2_apply {C N A w : ℕ} (d : ScatterDims ⟨2, ![C, A]⟩ ⟨2, ![N, 1]⟩ ⟨2, ![N, A]⟩)
    (hu : d.updateWindowDims = [1]) (hi : d.insertedWindowDims = [0]) (hs : d.scatterDimsToOperandDims = [0])
    (hv : d.indexVectorDim = 1)
    (x : (⟨2, ![C, A]⟩ : Shape).Idx → EReal) (idx : IVec ⟨2, ![N, 1]⟩ w)
    (upd : (⟨2, ![N, A]⟩ : Shape).Idx → EReal) (c : Fin C) (a : Fin A) :
    Ideal.hostScatterAdd d x idx upd (ix2 c a) =
      x (ix2 c a) + ∑ n : Fin N, if (idx (ix2 n (0 : Fin 1))).toInt = (c.val : ℤ) then upd (ix2 n a) else 0 := by
  obtain ⟨uw, iw, sd, iv, wf⟩ := d
  dsimp only at hu hi hs hv
  subst hu hi hs hv
  exact rows2_apply wf x idx upd c a

/-! ## Operand [C], scatter indices [N, 1], updates [N] -/

section Rows1
variable {C N w : ℕ}

/-- A rank-1 index set is its one coordinate's range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- The vector scatter's dimension numbers as a record of literal lists: no update window axes, inserted
    window axes [0], scatter-dims-to-operand-dims [0], index vector axis 1. -/
abbrev rows1 (wf : ScatterDims.WF ⟨1, ![C]⟩ ⟨2, ![N, 1]⟩ ⟨1, ![N]⟩ [] [0] [0] 1) :
    ScatterDims ⟨1, ![C]⟩ ⟨2, ![N, 1]⟩ ⟨1, ![N]⟩ := ⟨[], [0], [0], 1, wf⟩

/-- On the operand's one axis the window of update n starts at the index word idx[n, 0], read signed. -/
theorem rows1_start0 (wf : ScatterDims.WF ⟨1, ![C]⟩ ⟨2, ![N, 1]⟩ ⟨1, ![N]⟩ [] [0] [0] 1)
    (j : (⟨1, ![N]⟩ : Shape).Idx) (idx : IVec ⟨2, ![N, 1]⟩ w) :
    (rows1 wf).start j idx 0 = (idx (ix2 (j 0) (0 : Fin 1))).toInt := by
  unfold ScatterDims.start
  rw [dif_pos (List.mem_singleton.mpr rfl)]
  congr 2
  funext b
  refine Fin.ext ?_
  match b with
  | ⟨0, _⟩ => rfl
  | ⟨1, _⟩ => rfl

/-- The operand's one axis is inserted: the window coordinate there is 0. -/
theorem rows1_window0 (wf : ScatterDims.WF ⟨1, ![C]⟩ ⟨2, ![N, 1]⟩ ⟨1, ![N]⟩ [] [0] [0] 1)
    (j : (⟨1, ![N]⟩ : Shape).Idx) :
    (rows1 wf).window j 0 = 0 := by
  unfold ScatterDims.window
  have h : ¬ ((0 : Fin 1) ∈ (rows1 wf).sKept) := by
    show ¬ ((0 : Fin 1) ∈ ([] : List (Fin 1)))
    decide
  rw [dif_neg h]

/-- WHERE AN UPDATE LANDS: update n lands at operand element c exactly when its index word reads c. -/
theorem rows1_resultIdx?_eq_some (wf : ScatterDims.WF ⟨1, ![C]⟩ ⟨2, ![N, 1]⟩ ⟨1, ![N]⟩ [] [0] [0] 1)
    (j : (⟨1, ![N]⟩ : Shape).Idx) (idx : IVec ⟨2, ![N, 1]⟩ w) (c : Fin C) :
    (rows1 wf).resultIdx? j idx = some (ix1 c) ↔ (idx (ix2 (j 0) (0 : Fin 1))).toInt = (c.val : ℤ) := by
  have e0 : (rows1 wf).start j idx 0 + ((rows1 wf).window j 0 : ℕ) = (idx (ix2 (j 0) (0 : Fin 1))).toInt := by
    rw [rows1_start0, rows1_window0]; simp
  unfold ScatterDims.resultIdx?
  split_ifs with h
  · rw [Option.some.injEq]
    constructor
    · intro hf
      have h0 : ((rows1 wf).start j idx 0 + ((rows1 wf).window j 0 : ℕ)).toNat = c.val :=
        congrArg Fin.val (congrFun hf 0)
      have hp := (h 0).1
      rw [e0] at h0 hp
      omega
    · intro hc
      funext b
      refine Fin.ext ?_
      match b with
      | ⟨0, _⟩ =>
        show ((rows1 wf).start j idx 0 + ((rows1 wf).window j 0 : ℕ)).toNat = c.val
        rw [e0, hc]; simp
  · constructor
    · intro hf; cases hf
    · intro hc
      refine absurd ?_ h
      intro b
      match b with
      | ⟨0, _⟩ =>
        show 0 ≤ (rows1 wf).start j idx 0 + ((rows1 wf).window j 0 : ℕ) ∧
          (rows1 wf).start j idx 0 + ((rows1 wf).window j 0 : ℕ) < ((C : ℕ) : ℤ)
        rw [e0, hc]
        have := c.isLt
        omega

/-- The same, for an update index given by its coordinate. -/
theorem rows1_resultIdx?_ix1 (wf : ScatterDims.WF ⟨1, ![C]⟩ ⟨2, ![N, 1]⟩ ⟨1, ![N]⟩ [] [0] [0] 1)
    (n : Fin N) (idx : IVec ⟨2, ![N, 1]⟩ w) (c : Fin C) :
    (rows1 wf).resultIdx? (ix1 n) idx = some (ix1 c) ↔ (idx (ix2 n (0 : Fin 1))).toInt = (c.val : ℤ) :=
  rows1_resultIdx?_eq_some wf (ix1 n) idx c

/-- The vector scatter-add of the literal record, read at c. -/
theorem rows1_apply (wf : ScatterDims.WF ⟨1, ![C]⟩ ⟨2, ![N, 1]⟩ ⟨1, ![N]⟩ [] [0] [0] 1)
    (x : (⟨1, ![C]⟩ : Shape).Idx → EReal) (idx : IVec ⟨2, ![N, 1]⟩ w)
    (upd : (⟨1, ![N]⟩ : Shape).Idx → EReal) (c : Fin C) :
    Ideal.hostScatterAdd (rows1 wf) x idx upd (ix1 c) =
      x (ix1 c) + ∑ n : Fin N, if (idx (ix2 n (0 : Fin 1))).toInt = (c.val : ℤ) then upd (ix1 n) else 0 := by
  unfold Ideal.hostScatterAdd
  congr 1
  rw [Finset.sum_filter, sum_idx1]
  refine Finset.sum_congr rfl fun n _ => ?_
  simp only [rows1_resultIdx?_ix1]

end Rows1

/-- ROW SCATTER-ADD AT AN ENTRY, operand [C]: for any dimension-number record with no update window axes,
    inserted window axes [0], scatter-dims-to-operand-dims [0] and index vector axis 1, the result at c is the
    operand there plus the sum of upd[n] over the positions n whose index word idx[n, 0], read signed, is c.
    Positions whose index word is negative or at least C contribute nothing. -/
theorem scatterRows1_apply {C N w : ℕ} (d : ScatterDims ⟨1, ![C]⟩ ⟨2, ![N, 1]⟩ ⟨1, ![N]⟩)
    (hu : d.updateWindowDims = []) (hi : d.insertedWindowDims = [0]) (hs : d.scatterDimsToOperandDims = [0])
    (hv : d.indexVectorDim = 1)
    (x : (⟨1, ![C]⟩ : Shape).Idx → EReal) (idx : IVec ⟨2, ![N, 1]⟩ w)
    (upd : (⟨1, ![N]⟩ : Shape).Idx → EReal) (c : Fin C) :
    Ideal.hostScatterAdd d x idx upd (ix1 c) =
      x (ix1 c) + ∑ n : Fin N, if (idx (ix2 n (0 : Fin 1))).toInt = (c.val : ℤ) then upd (ix1 n) else 0 := by
  obtain ⟨uw, iw, sd, iv, wf⟩ := d
  dsimp only at hu hi hs hv
  subst hu hi hs hv
  exact rows1_apply wf x idx upd c

end Idealize.ShloMosaic.ScatterRows

end
-- ==== Proof.KI.Host3.lean ====
/-
  The host operations after the last kernel region, read at an index.

  After the softmax region the program holds, per edge k and head hh, the unnormalised weight w k hh, and per head the
  denominator l hh. What follows is plain array code: the rows of the projected node features are taken at the edges'
  source nodes (a default-mode take, which with every index in range is the plain row gather); each weight is repeated
  over its head's 32 columns; the products are summed into their destination nodes' rows (a segment sum: a row
  scatter-add into zeros); each node's row is multiplied by the reciprocals 1 / l hh, laid out over the columns; the
  result is rectified. Read at node n and column 32·hh + d this is

      max ((Σ_{k : dst k = n} Wh[src k, 32·hh + d] · w k hh) · (1 / l hh)) 0.

  The three stretches of operations are read separately over an arbitrary valuation of the buffers, and the
  arithmetic at an index is proved over plain arrays before it is applied to the buffers.
-/
import proofs.«424763_j188978561164_3_alg».proof.Proof.Gen.KernelIdeal.Regions
import proofs.«424763_j188978561164_3_alg».proof.Proof.Edges
import proofs.«424763_j188978561164_3_alg».proof.Proof.LibTake
import proofs.«424763_j188978561164_3_alg».proof.Proof.LibRowGather
import proofs.«424763_j188978561164_3_alg».proof.Proof.LibScatterRows
import proofs.«424763_j188978561164_3_alg».proof.Proof.LibAfter
import proofs.«424763_j188978561164_3_alg».proof.Proof.LibRowRead
import Idealize.ShloMosaic.Lib.StableHlo.Run
import Idealize.ShloMosaic.Lib.ValueIdx
import Idealize.ShloMosaic.Lib.Pipeline.Value
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.StableHlo
open scoped BigOperators

/-! ## The operations read at an index, over plain arrays -/

/-- A word below 50000 read as a signed integer and back is its natural value. -/
theorem toInt_of_lt {w : BitVec 32} {n : ℕ} (h : w.toNat = n) (hn : n < 50000) : w.toInt = (n : ℤ) := by
  rw [BitVec.toInt_eq_toNat_cond, if_pos (by omega), h]

/-- A vector as an [n, 1] column, read at (k, 0). -/
theorem column_at (idx : S640000.Idx → BitVec 32) (k : Fin 640000) (u : Fin 1) :
    broadcastInDim S640000x1 ![0] bcast_S640000_S640000x1_0 idx (ix2 k u) = idx (ix1 k) :=
  broadcastInDim_apply _ _ idx _ (ix1 k) (fun a => by
    match a with
    | ⟨0, _⟩ => rfl)

/-- The row gather at (k, j) with an in-range index reads the table's row of that index. -/
theorem gather_at (x : S50000x128.Idx → EReal) (idx : S640000.Idx → BitVec 32) (k : Fin 640000) (j : Fin 128)
    (s : Fin 50000) (hs : (idx (ix1 k)).toNat = s.val) :
    Host.gather gather_S50000x128_S640000x1_S640000x128_1_0_n_n_0_1_1128 x
      (broadcastInDim S640000x1 ![0] bcast_S640000_S640000x1_0 idx) (ix2 k j) = x (ix2 s j) := by
  have e : gather_S50000x128_S640000x1_S640000x128_1_0_n_n_0_1_1128
      = Cert.LibRowGather.rowDims 50000 128 640000 gather_S50000x128_S640000x1_S640000x128_1_0_n_n_0_1_1128_wf := rfl
  rw [e, Cert.LibRowGather.gather_rows_apply (by norm_num)]
  congr 1
  funext a
  refine Fin.ext ?_
  match a with
  | ⟨0, _⟩ =>
    show min (broadcastInDim S640000x1 ![0] bcast_S640000_S640000x1_0 idx (ix2 k (0 : Fin 1))).toInt.toNat (50000 - 1) = s.val
    rw [column_at, toInt_of_lt hs s.isLt, Int.toNat_natCast]
    have := s.isLt
    omega
  | ⟨1, _⟩ => rfl

/-- A [640000, 4] array repeated 32 times along a new last axis and flattened to 128 columns, at column 32·hh + d. -/
theorem repeat_at (wv : S640000x4.Idx → EReal) (k : Fin 640000) (hh : Fin 4) (d : Fin 32) :
    shapeCast S640000x128
      (broadcastInDim S640000x4x32 ![0, 1] bcast_S640000x4_S640000x4x32_0_1 wv)
      shapeCasts_S640000x4x32_S640000x128 (ix2 k (Cert.Spec.col hh d)) = wv (ix2 k hh) := by
  rw [shapeCast_apply _ _ _ (ix3 k hh d) (by
    rw [Shape.rowMajor_val_three, Shape.rowMajor_val_two]
    show (k.val * 4 + hh.val) * 32 + d.val = k.val * 128 + (32 * hh.val + d.val)
    omega)]
  exact broadcastInDim_apply _ _ wv _ (ix2 k hh) (fun a => by
    match a with
    | ⟨0, _⟩ => rfl
    | ⟨1, _⟩ => rfl)

/-- A [1, 4] row repeated 32 times, flattened to [1, 128] and broadcast down 50000 rows, at (n, 32·hh + d). -/
theorem repeat_row_at (v : S1x4.Idx → EReal) (n : Fin 50000) (hh : Fin 4) (d : Fin 32) :
    broadcastInDim S50000x128 ![0, 1] bcast_S1x128_S50000x128_0_1
      (shapeCast S1x128 (broadcastInDim S1x4x32 ![0, 1] bcast_S1x4_S1x4x32_0_1 v) shapeCasts_S1x4x32_S1x128)
      (ix2 n (Cert.Spec.col hh d)) = v (ix2 (0 : Fin 1) hh) := by
  rw [broadcastInDim_apply _ _ _ _ (ix2 (0 : Fin 1) (Cert.Spec.col hh d)) (fun a => by
    match a with
    | ⟨0, _⟩ => rfl
    | ⟨1, _⟩ => rfl)]
  rw [shapeCast_apply _ _ _ (ix3 (0 : Fin 1) hh d) (by
    rw [Shape.rowMajor_val_three, Shape.rowMajor_val_two]
    show (0 * 4 + hh.val) * 32 + d.val = 0 * 128 + (32 * hh.val + d.val)
    omega)]
  exact broadcastInDim_apply _ _ v _ (ix2 (0 : Fin 1) hh) (fun a => by
    match a with
    | ⟨0, _⟩ => rfl
    | ⟨1, _⟩ => rfl)

/-- Over the extended reals the host's accumulating scatter is the exact sum of the colliding updates. -/
theorem scatterAdd_fun (z : FVec Ideal S50000x128 .f32) (I : IVec S640000x1 32) (upd : FVec Ideal S640000x128 .f32) :
    Host.scatterAdd (F := Ideal) scatter_S50000x128_S640000x1_S640000x128_1_0_0_1 z I upd
      = Ideal.hostScatterAdd scatter_S50000x128_S640000x1_S640000x128_1_0_0_1 z I upd := rfl

/-- The host's division at an entry. -/
theorem hostDivf_at (a b : FVec Ideal S1x4 .f32) (i : S1x4.Idx) :
    Host.divf (F := Ideal) a b i = Ideal.div (a i) (b i) := rfl

/-- The row scatter-add into zeros at (n, j), its indices the destination nodes: the sum of the update rows landing at n. -/
theorem scatter_at (idx : S640000.Idx → BitVec 32) (upd : S640000x128.Idx → EReal) (dst : Fin 640000 → Fin 50000)
    (hdst : ∀ k, (idx (ix1 k)).toNat = (dst k).val) (n : Fin 50000) (j : Fin 128) :
    Host.scatterAdd (F := Ideal) scatter_S50000x128_S640000x1_S640000x128_1_0_0_1
        (broadcastInDim S50000x128 ![] bcast_S_S50000x128 (constant (F := Ideal) S_ .f32 0x00000000#32))
        (broadcastInDim S640000x1 ![0] bcast_S640000_S640000x1_0 idx) upd (ix2 n j)
      = ∑ k ∈ Finset.univ.filter (fun k => dst k = n), upd (ix2 k j) := by
  rw [Finset.sum_filter, scatterAdd_fun, ScatterRows.scatterRows2_apply _ rfl rfl rfl rfl,
    broadcastInDim_apply _ _ _ _ ix0 (fun a => a.elim0), constant_apply, Ideal.ofBits_zero_f32, zero_add]
  refine Finset.sum_congr rfl fun k _ => ?_
  rw [column_at, toInt_of_lt (hdst k) (dst k).isLt]
  by_cases h : dst k = n
  · rw [if_pos h, if_pos (by rw [h])]
  · rw [if_neg h, if_neg (fun h' => h (Fin.ext (by exact_mod_cast h')))]

/-- What the operations after the last kernel region leave at node n, head hh, lane d, as a function of the arrays they
    read: the projected node features x, the unnormalised weights wv, the denominators lv, and the edges' endpoints. -/
abbrev outVal (x : S50000x128.Idx → EReal) (wv : S640000x4.Idx → EReal) (lv : S1x4.Idx → EReal)
    (src dst : Fin 640000 → Fin 50000) (n : Fin 50000) (hh : Fin 4) (d : Fin 32) : EReal :=
  max ((∑ k ∈ Finset.univ.filter (fun k => dst k = n), x (ix2 (src k) (Cert.Spec.col hh d)) * wv (ix2 k hh))
        * Ideal.div 1 (lv (ix2 (0 : Fin 1) hh))) 0

/-- The host operations after the last kernel region as one term of the buffers they read, at node n, head hh, lane d. -/
theorem out_at (x : S50000x128.Idx → EReal) (i2 i4 : S640000.Idx → BitVec 32) (wv : S640000x4.Idx → EReal)
    (lv : S1x4.Idx → EReal) (src dst : Fin 640000 → Fin 50000)
    (hsrc : ∀ k, (i2 (ix1 k)).toNat = (src k).val) (hdst : ∀ k, (i4 (ix1 k)).toNat = (dst k).val)
    (n : Fin 50000) (hh : Fin 4) (d : Fin 32) :
    maximumf
      (mulf
        (Host.scatterAdd (F := Ideal) scatter_S50000x128_S640000x1_S640000x128_1_0_0_1
          (broadcastInDim S50000x128 ![] bcast_S_S50000x128 (constant (F := Ideal) S_ .f32 0x00000000#32))
          (broadcastInDim S640000x1 ![0] bcast_S640000_S640000x1_0 i4)
          (mulf
            (Host.gather gather_S50000x128_S640000x1_S640000x128_1_0_n_n_0_1_1128 x
              (broadcastInDim S640000x1 ![0] bcast_S640000_S640000x1_0 i2))
            (shapeCast S640000x128
              (broadcastInDim S640000x4x32 ![0, 1] bcast_S640000x4_S640000x4x32_0_1 wv)
              shapeCasts_S640000x4x32_S640000x128)))
        (broadcastInDim S50000x128 ![0, 1] bcast_S1x128_S50000x128_0_1
          (shapeCast S1x128
            (broadcastInDim S1x4x32 ![0, 1] bcast_S1x4_S1x4x32_0_1
              (Host.divf (F := Ideal)
                (broadcastInDim S1x4 ![] bcast_S_S1x4 (constant (F := Ideal) S_ .f32 0x3F800000#32)) lv))
            shapeCasts_S1x4x32_S1x128)))
      (broadcastInDim S50000x128 ![] bcast_S_S50000x128 (constant (F := Ideal) S_ .f32 0x00000000#32))
      (ix2 n (Cert.Spec.col hh d))
    = outVal x wv lv src dst n hh d := by
  have hsum : ∀ k : Fin 640000,
      mulf (F := Ideal) (φ := .f32)
        (Host.gather gather_S50000x128_S640000x1_S640000x128_1_0_n_n_0_1_1128 x
          (broadcastInDim S640000x1 ![0] bcast_S640000_S640000x1_0 i2))
        (shapeCast S640000x128
          (broadcastInDim S640000x4x32 ![0, 1] bcast_S640000x4_S640000x4x32_0_1 wv)
          shapeCasts_S640000x4x32_S640000x128) (ix2 k (Cert.Spec.col hh d))
      = x (ix2 (src k) (Cert.Spec.col hh d)) * wv (ix2 k hh) := fun k => by
    rw [mulf_apply, gather_at x i2 k _ (src k) (hsrc k), repeat_at]
  rw [maximumf_apply, mulf_apply, scatter_at _ _ dst hdst, repeat_row_at, hostDivf_at,
    broadcastInDim_apply _ _ _ (ix2 n (Cert.Spec.col hh d)) ix0 (fun a => a.elim0), constant_apply, Ideal.ofBits_zero_f32,
    broadcastInDim_apply _ _ _ (ix2 (0 : Fin 1) hh) ix0 (fun a => a.elim0), constant_apply, Cert.RowRead.word_one,
    Finset.sum_congr rfl (fun k _ => hsum k)]

/-! ## The three stretches over an arbitrary valuation -/

open Cert.LibAfter in
/-- The take's operations write, one each, the references listed for them. -/
theorem writes3 : Writes (hostOps3 (F := Ideal)) hostOps3_W := rfl

open Cert.LibAfter in
/-- After the take's operations, with every index in range, its result is the plain row gather. -/
theorem ops3_v17 (W : Valuation τ sig (Elt Ideal))
    (hidx : ∀ r, ((W (Proc.devRef .tc main_v2) : S640000.Idx → BitVec 32) r).toNat < 50000) :
    (after hostOps3 W (Proc.devRef .tc main_v17) : S640000x128.Idx → EReal)
      = Host.gather gather_S50000x128_S640000x1_S640000x128_1_0_n_n_0_1_1128 (W (Proc.devRef .tc main_v0) : S50000x128.Idx → EReal)
          (broadcastInDim S640000x1 ![0] bcast_S640000_S640000x1_0 (W (Proc.devRef .tc main_v2) : S640000.Idx → BitVec 32)) := by
  have hW := writes3
  -- the operands the take reads are not written by it
  have k2 : (after hostOps3 W (Proc.devRef .tc main_v2) : S640000.Idx → BitVec 32) = (W (Proc.devRef .tc main_v2) : S640000.Idx → BitVec 32) := hW.kept W main_v2 (by decide)
  have k0 : (after hostOps3 W (Proc.devRef .tc main_v0) : S50000x128.Idx → EReal) = (W (Proc.devRef .tc main_v0) : S50000x128.Idx → EReal) := hW.kept W main_v0 (by decide)
  -- the wrap of negative indices
  have e_c : (after hostOps3 W (Proc.devRef .tc main_call2_c) : S_.Idx → BitVec 32) = constantI S_ 32 0#32 := hW.nullary W 0 rfl (by decide)
  have e_v0 : (after hostOps3 W (Proc.devRef .tc main_call2_v0) : S640000.Idx → BitVec 32) = broadcastInDim S640000 ![] bcast_S_S640000 (constantI S_ 32 0#32) :=
    (hW.tunary W 1 rfl (by decide) (by decide)).trans (congrArg _ e_c)
  have e_v1 : (after hostOps3 W (Proc.devRef .tc main_call2_v1) : S640000.Idx → BitVec 1) = cmpi .slt (W (Proc.devRef .tc main_v2) : S640000.Idx → BitVec 32) (broadcastInDim S640000 ![] bcast_S_S640000 (constantI S_ 32 0#32)) :=
    (hW.tbinary W 2 rfl (by decide) (by decide) (by decide)).trans (congrArg₂ _ k2 e_v0)
  have e_c0 : (after hostOps3 W (Proc.devRef .tc main_call2_c_0) : S_.Idx → BitVec 32) = constantI S_ 32 50000#32 := hW.nullary W 3 rfl (by decide)
  have e_v2 : (after hostOps3 W (Proc.devRef .tc main_call2_v2) : S640000.Idx → BitVec 32) = broadcastInDim S640000 ![] bcast_S_S640000 (constantI S_ 32 50000#32) :=
    (hW.tunary W 4 rfl (by decide) (by decide)).trans (congrArg _ e_c0)
  have e_v3 : (after hostOps3 W (Proc.devRef .tc main_call2_v3) : S640000.Idx → BitVec 32) = addi (W (Proc.devRef .tc main_v2) : S640000.Idx → BitVec 32) (broadcastInDim S640000 ![] bcast_S_S640000 (constantI S_ 32 50000#32)) :=
    (hW.tbinary W 5 rfl (by decide) (by decide) (by decide)).trans (congrArg₂ _ k2 e_v2)
  have e_v4 : (after hostOps3 W (Proc.devRef .tc main_call2_v4) : S640000.Idx → BitVec 32) = (W (Proc.devRef .tc main_v2) : S640000.Idx → BitVec 32) := by
    rw [hW.tternary W 6 rfl (by decide) (by decide) (by decide) (by decide), e_v1, e_v3, k2]
    exact Cert.LibTake.wrap_id (N := 50000) (by norm_num) (W (Proc.devRef .tc main_v2) : S640000.Idx → BitVec 32) hidx _ _
  have e_v5 : (after hostOps3 W (Proc.devRef .tc main_call2_v5) : S640000x1.Idx → BitVec 32) = broadcastInDim S640000x1 ![0] bcast_S640000_S640000x1_0 (W (Proc.devRef .tc main_v2) : S640000.Idx → BitVec 32) :=
    (hW.tunary W 7 rfl (by decide) (by decide)).trans (congrArg _ e_v4)
  -- the range mask
  have e_c1 : (after hostOps3 W (Proc.devRef .tc main_call2_c_1) : S1.Idx → BitVec 32) = constantI S1 32 49999#32 := hW.nullary W 8 rfl (by decide)
  have e_c2 : (after hostOps3 W (Proc.devRef .tc main_call2_c_2) : S_.Idx → BitVec 32) = constantI S_ 32 0#32 := hW.nullary W 9 rfl (by decide)
  have e_v6 : (after hostOps3 W (Proc.devRef .tc main_call2_v6) : S640000x1.Idx → BitVec 32) = broadcastInDim S640000x1 ![] bcast_S_S640000x1 (constantI S_ 32 0#32) :=
    (hW.tunary W 10 rfl (by decide) (by decide)).trans (congrArg _ e_c2)
  have e_v7 : (after hostOps3 W (Proc.devRef .tc main_call2_v7) : S640000x1.Idx → BitVec 1) = cmpi .sge (broadcastInDim S640000x1 ![0] bcast_S640000_S640000x1_0 (W (Proc.devRef .tc main_v2) : S640000.Idx → BitVec 32))
      (broadcastInDim S640000x1 ![] bcast_S_S640000x1 (constantI S_ 32 0#32)) :=
    (hW.tbinary W 11 rfl (by decide) (by decide) (by decide)).trans (congrArg₂ _ e_v5 e_v6)
  have e_v8 : (after hostOps3 W (Proc.devRef .tc main_call2_v8) : S1x1.Idx → BitVec 32) = broadcastInDim S1x1 ![1] bcast_S1_S1x1_1 (constantI S1 32 49999#32) :=
    (hW.tunary W 12 rfl (by decide) (by decide)).trans (congrArg _ e_c1)
  have e_v9 : (after hostOps3 W (Proc.devRef .tc main_call2_v9) : S640000x1.Idx → BitVec 32) = broadcastInDim S640000x1 ![0, 1] bcast_S1x1_S640000x1_0_1
      (broadcastInDim S1x1 ![1] bcast_S1_S1x1_1 (constantI S1 32 49999#32)) :=
    (hW.tunary W 13 rfl (by decide) (by decide)).trans (congrArg _ e_v8)
  have e_v10 : (after hostOps3 W (Proc.devRef .tc main_call2_v10) : S640000x1.Idx → BitVec 1) = cmpi .sle (broadcastInDim S640000x1 ![0] bcast_S640000_S640000x1_0 (W (Proc.devRef .tc main_v2) : S640000.Idx → BitVec 32))
      (broadcastInDim S640000x1 ![0, 1] bcast_S1x1_S640000x1_0_1
        (broadcastInDim S1x1 ![1] bcast_S1_S1x1_1 (constantI S1 32 49999#32))) :=
    (hW.tbinary W 14 rfl (by decide) (by decide) (by decide)).trans (congrArg₂ _ e_v5 e_v9)
  have e_v11 : (after hostOps3 W (Proc.devRef .tc main_call2_v11) : S640000x1.Idx → BitVec 1) = andi
      (cmpi .sge (broadcastInDim S640000x1 ![0] bcast_S640000_S640000x1_0 (W (Proc.devRef .tc main_v2) : S640000.Idx → BitVec 32))
        (broadcastInDim S640000x1 ![] bcast_S_S640000x1 (constantI S_ 32 0#32)))
      (cmpi .sle (broadcastInDim S640000x1 ![0] bcast_S640000_S640000x1_0 (W (Proc.devRef .tc main_v2) : S640000.Idx → BitVec 32))
        (broadcastInDim S640000x1 ![0, 1] bcast_S1x1_S640000x1_0_1
          (broadcastInDim S1x1 ![1] bcast_S1_S1x1_1 (constantI S1 32 49999#32)))) :=
    (hW.tbinary W 15 rfl (by decide) (by decide) (by decide)).trans (congrArg₂ _ e_v7 e_v10)
  have e_c3 : (after hostOps3 W (Proc.devRef .tc main_call2_c_3) : S_.Idx → BitVec 1) = constantI S_ 1 1#1 := hW.nullary W 16 rfl (by decide)
  have e_v12 : ∀ j, (after hostOps3 W (Proc.devRef .tc main_call2_v12) : S640000.Idx → BitVec 1) j = 1#1 := fun j => by
    rw [hW.tbinary W 17 rfl (by decide) (by decide) (by decide), e_v11, e_c3]
    exact Cert.LibTake.mask_ones (N := 50000) (by norm_num) (W (Proc.devRef .tc main_v2) : S640000.Idx → BitVec 32) hidx _ _ _ _ _ _ j
  -- the select between the gathered rows and the fill
  have e_v13 : (after hostOps3 W (Proc.devRef .tc main_call2_v13) : S640000x128.Idx → EReal) = Host.gather gather_S50000x128_S640000x1_S640000x128_1_0_n_n_0_1_1128 (W (Proc.devRef .tc main_v0) : S50000x128.Idx → EReal)
      (broadcastInDim S640000x1 ![0] bcast_S640000_S640000x1_0 (W (Proc.devRef .tc main_v2) : S640000.Idx → BitVec 32)) :=
    (hW.tbinary W 18 rfl (by decide) (by decide) (by decide)).trans (congrArg₂ _ k0 e_v5)
  have e_v14 : (after hostOps3 W (Proc.devRef .tc main_call2_v14) : S640000x128.Idx → BitVec 1) = broadcastInDim S640000x128 ![0] bcast_S640000_S640000x128_0 (after hostOps3 W (Proc.devRef .tc main_call2_v12) : S640000.Idx → BitVec 1) :=
    hW.tunary W 19 rfl (by decide) (by decide)
  rw [hW.tternary W 22 rfl (by decide) (by decide) (by decide) (by decide), e_v13, e_v14]
  exact Cert.LibTake.select_ones _ _ _ (fun i => e_v12 _)

/-- After the rectifier's three operations: the maximum of the product array with the zero array. -/
theorem ops3_2_v30 (W : Valuation τ sig (Elt Ideal)) :
    (StableHlo.after hostOps3_2 W (Proc.devRef .tc main_v30) : S50000x128.Idx → EReal)
      = maximumf (W (Proc.devRef .tc main_v29) : S50000x128.Idx → EReal)
          (broadcastInDim S50000x128 ![] bcast_S_S50000x128 (constant (F := Ideal) S_ .f32 0x00000000#32)) := by
  after_results
  rfl

/-- After the fourteen operations between the take and the rectifier: the segment sum of the weighted gathered rows,
    times the reciprocal of the denominators laid out over the feature columns. -/
theorem ops3_1_v29 (W : Valuation τ sig (Elt Ideal)) :
    (StableHlo.after hostOps3_1 W (Proc.devRef .tc main_v29) : S50000x128.Idx → EReal)
      = mulf
          (Host.scatterAdd (F := Ideal) scatter_S50000x128_S640000x1_S640000x128_1_0_0_1
            (broadcastInDim S50000x128 ![] bcast_S_S50000x128 (constant (F := Ideal) S_ .f32 0x00000000#32))
            (broadcastInDim S640000x1 ![0] bcast_S640000_S640000x1_0 (W (Proc.devRef .tc main_v4) : S640000.Idx → BitVec 32))
            (mulf (W (Proc.devRef .tc main_v17) : S640000x128.Idx → EReal)
              (shapeCast S640000x128
                (broadcastInDim S640000x4x32 ![0, 1] bcast_S640000x4_S640000x4x32_0_1
                  (W (Proc.devRef .tc main_v16_0) : S640000x4.Idx → EReal))
                shapeCasts_S640000x4x32_S640000x128)))
          (broadcastInDim S50000x128 ![0, 1] bcast_S1x128_S50000x128_0_1
            (shapeCast S1x128
              (broadcastInDim S1x4x32 ![0, 1] bcast_S1x4_S1x4x32_0_1
                (Host.divf (F := Ideal)
                  (broadcastInDim S1x4 ![] bcast_S_S1x4 (constant (F := Ideal) S_ .f32 0x3F800000#32))
                  (W (Proc.devRef .tc main_v16_1) : S1x4.Idx → EReal)))
              shapeCasts_S1x4x32_S1x128)) := by
  after_results_simp
  rfl

/-! ## The buffers after the last stretch -/

variable (m : (ℓ : Loc nD τ sig) → Buf (Elt Ideal) ℓ) (outs : Gen.Outs (F := Ideal)) (c : Dev nD)

/-- The result array: the maximum of the scaled sums with the zero array. -/
theorem v30_eq :
    (Gen.V9 m outs c main_v30 : S50000x128.Idx → EReal)
      = maximumf (Gen.V8 m outs c main_v29 : S50000x128.Idx → EReal)
          (broadcastInDim S50000x128 ![] bcast_S_S50000x128 (constant (F := Ideal) S_ .f32 0x00000000#32)) :=
  ops3_2_v30 (Gen.V8 m outs c)

/-- The scaled sums: the segment sum of the taken rows times the repeated weights, times the repeated reciprocals of the
    denominators; the destination column, the weights and the denominators are read as the last region left them. -/
theorem v29_eq :
    (Gen.V8 m outs c main_v29 : S50000x128.Idx → EReal)
      = mulf
          (Host.scatterAdd (F := Ideal) scatter_S50000x128_S640000x1_S640000x128_1_0_0_1
            (broadcastInDim S50000x128 ![] bcast_S_S50000x128 (constant (F := Ideal) S_ .f32 0x00000000#32))
            (broadcastInDim S640000x1 ![0] bcast_S640000_S640000x1_0 (Gen.V6 m outs c main_v4 : S640000.Idx → BitVec 32))
            (mulf (Gen.V7 m outs c main_v17 : S640000x128.Idx → EReal)
              (shapeCast S640000x128
                (broadcastInDim S640000x4x32 ![0, 1] bcast_S640000x4_S640000x4x32_0_1
                  (Gen.V6 m outs c main_v16_0 : S640000x4.Idx → EReal))
                shapeCasts_S640000x4x32_S640000x128)))
          (broadcastInDim S50000x128 ![0, 1] bcast_S1x128_S50000x128_0_1
            (shapeCast S1x128
              (broadcastInDim S1x4x32 ![0, 1] bcast_S1x4_S1x4x32_0_1
                (Host.divf (F := Ideal)
                  (broadcastInDim S1x4 ![] bcast_S_S1x4 (constant (F := Ideal) S_ .f32 0x3F800000#32))
                  (Gen.V6 m outs c main_v16_1 : S1x4.Idx → EReal)))
              shapeCasts_S1x4x32_S1x128)) := by
  have e := ops3_1_v29 (Gen.V7 m outs c)
  rw [Gen.V7_of m outs c main_v4 (by decide), Gen.V7_of m outs c main_v16_0 (by decide),
    Gen.V7_of m outs c main_v16_1 (by decide)] at e
  exact e

/-- THE RESULT AT NODE n, HEAD hh, LANE d. With the two index vectors holding the edges' endpoints src and dst (as natural
    numbers below 50000), the program's result at (n, 32·hh + d) is the rectified, rescaled sum over the edges ending at n
    of the source node's projected feature times the edge's unnormalised weight. -/
theorem host3_apply (src dst : Fin 640000 → Fin 50000)
    (hsrc : ∀ k : Fin 640000, ((Gen.V6 m outs c main_v2 : S640000.Idx → BitVec 32) (ix1 k)).toNat = (src k).val)
    (hdst : ∀ k : Fin 640000, ((Gen.V6 m outs c main_v4 : S640000.Idx → BitVec 32) (ix1 k)).toNat = (dst k).val)
    (n : Fin 50000) (hh : Fin 4) (d : Fin 32) :
    (Gen.V9 m outs c main_v30 : S50000x128.Idx → EReal) (ix2 n (Cert.Spec.col hh d))
      = outVal (Gen.V6 m outs c main_v0) (Gen.V6 m outs c main_v16_0) (Gen.V6 m outs c main_v16_1) src dst n hh d := by
  have hidx : ∀ r : S640000.Idx, ((Gen.V6 m outs c main_v2 : S640000.Idx → BitVec 32) r).toNat < 50000 := fun r =>
    lt_of_eq_of_lt
      ((congrArg (fun i : S640000.Idx => ((Gen.V6 m outs c main_v2 : S640000.Idx → BitVec 32) i).toNat) (eq_ix1 r)).trans
        (hsrc (r 0)))
      (src (r 0)).isLt
  have e17 : (Gen.V7 m outs c main_v17 : S640000x128.Idx → EReal) = _ := ops3_v17 (Gen.V6 m outs c) hidx
  rw [v30_eq, v29_eq, e17]
  exact out_at _ _ _ _ _ src dst hsrc hdst n hh d

end Cert.KernelIdeal.Hand

end
-- ==== Proof.KI.Value.lean ====
/-
  What the kernel's program leaves in its result buffer, index by index: the specification's kernel form.

  Read backwards from the result.  The host tail after the third region gathers rows of h·W at the edges' sources,
  scales them by the third region's weights, adds them up at the edges' destinations, multiplies by the reciprocal of
  the third region's sums and rectifies.  The third region's weights are exp (logit − maximum) of the second region's
  logits and maximum, its sums their sums over all edges.  The second region's logits are the leaky-rectified sum of
  the gathered node scores (host stretches between the first two regions: lane sums of h·W against the attention
  vectors, gathered at the sources and at the destinations) and the edge's own score; its maximum is the logits'
  maximum over all edges.  The first region's output is h·W.
-/
import proofs.«424763_j188978561164_3_alg».proof.Proof.Gen.KernelIdeal.Launch
import proofs.«424763_j188978561164_3_alg».proof.Proof.Gen.KernelIdeal.Skeleton
import proofs.«424763_j188978561164_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«424763_j188978561164_3_alg».proof.Proof.KI.Run
import proofs.«424763_j188978561164_3_alg».proof.Proof.KI.Val0
import proofs.«424763_j188978561164_3_alg».proof.Proof.KI.Val1
import proofs.«424763_j188978561164_3_alg».proof.Proof.KI.Val2
import proofs.«424763_j188978561164_3_alg».proof.Proof.KI.Host1
import proofs.«424763_j188978561164_3_alg».proof.Proof.KI.Host3
import proofs.«424763_j188978561164_3_alg».proof.Proof.Edges
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

variable (m : (ℓ : Loc nD τ sig) → Buf (Elt Ideal) ℓ) (c : Dev nD)

/-! ## The arguments as arrays -/

abbrev a0 : S2x640000.Idx → BitVec 32 := m ((c.tc : Thread nD τ).loc main_arg0)
abbrev a1 : S50000x128.Idx → EReal := m ((c.tc : Thread nD τ).loc main_arg1)
abbrev a2 : S640000x128.Idx → EReal := m ((c.tc : Thread nD τ).loc main_arg2)
abbrev a3 : S128x128.Idx → EReal := m ((c.tc : Thread nD τ).loc main_arg3)
abbrev a4 : S128x128.Idx → EReal := m ((c.tc : Thread nD τ).loc main_arg4)
abbrev a5 : S1x4x32.Idx → EReal := m ((c.tc : Thread nD τ).loc main_arg5)
abbrev a6 : S1x4x32.Idx → EReal := m ((c.tc : Thread nD τ).loc main_arg6)
abbrev a7 : S1x4x32.Idx → EReal := m ((c.tc : Thread nD τ).loc main_arg7)

/-! ## Buffers no host stretch and no region writes in between -/

section Kept
variable (o : Gen.Outs (F := Ideal))

theorem V1_arg (r : Ref sig .tc) (h : r ∉ ([main_v0] : List (Ref sig .tc))) : Gen.V1 m o c r = Gen.V0 m c r := Gen.V1_of m o c r h

theorem V4_of_V1 (r : Ref sig .tc) (h1 : r ∉ Gen.hostOps1_W) (h2 : r ∉ Gen.hostOps1_1_W) (h3 : r ∉ Gen.hostOps1_2_W) :
    Gen.V4 m o c r = Gen.V1 m o c r :=
  (Gen.V4_of m o c r h3).trans ((Gen.V3_of m o c r h2).trans (Gen.V2_of m o c r h1))

theorem V6_of_V4 (r : Ref sig .tc) (h5 : r ∉ ([main_v15_0, main_v15_1] : List (Ref sig .tc))) (h6 : r ∉ ([main_v16_0, main_v16_1] : List (Ref sig .tc))) :
    Gen.V6 m o c r = Gen.V4 m o c r :=
  (Gen.V6_of m o c r h6).trans (Gen.V5_of m o c r h5)

theorem V1_v0 : Gen.V1 m o c main_v0 = o 1 main_v0 c := by
  show (Gen.V1 m o c) (Proc.devRef .tc main_v0) = _
  simp only [Gen.V1, Function.update_self]

theorem V5_v15_0 : Gen.V5 m o c main_v15_0 = o 5 main_v15_0 c := by
  show (Gen.V5 m o c) (Proc.devRef .tc main_v15_0) = _
  simp only [Gen.V5, Function.update_of_ne (StableHlo.devRef_ne_of_ne (by decide) : (Proc.devRef .tc main_v15_0 : DevRef τ sig) ≠ Proc.devRef .tc main_v15_1), Function.update_self]

theorem V5_v15_1 : Gen.V5 m o c main_v15_1 = o 5 main_v15_1 c := by
  show (Gen.V5 m o c) (Proc.devRef .tc main_v15_1) = _
  simp only [Gen.V5, Function.update_self]

theorem V6_v16_0 : Gen.V6 m o c main_v16_0 = o 6 main_v16_0 c := by
  show (Gen.V6 m o c) (Proc.devRef .tc main_v16_0) = _
  simp only [Gen.V6, Function.update_of_ne (StableHlo.devRef_ne_of_ne (by decide) : (Proc.devRef .tc main_v16_0 : DevRef τ sig) ≠ Proc.devRef .tc main_v16_1), Function.update_self]

theorem V6_v16_1 : Gen.V6 m o c main_v16_1 = o 6 main_v16_1 c := by
  show (Gen.V6 m o c) (Proc.devRef .tc main_v16_1) = _
  simp only [Gen.V6, Function.update_self]

/-- The index array reaches every boundary as launched. -/
theorem V1_a0 : (Gen.V1 m o c main_arg0 : S2x640000.Idx → BitVec 32) = a0 m c := V1_arg m c o main_arg0 (by decide)

end Kept

/-- The endpoints do not depend on which boundary's copy of the index array they are read from. -/
theorem srcOf_congr {X Y : S2x640000.Idx → BitVec 32} (h : X = Y) (hX : ∀ i, (X i).toNat < 50000) (hY : ∀ i, (Y i).toNat < 50000) :
    Cert.Spec.srcOf X hX = Cert.Spec.srcOf Y hY := by subst h; rfl
theorem dstOf_congr {X Y : S2x640000.Idx → BitVec 32} (h : X = Y) (hX : ∀ i, (X i).toNat < 50000) (hY : ∀ i, (Y i).toNat < 50000) :
    Cert.Spec.dstOf X hX = Cert.Spec.dstOf Y hY := by subst h; rfl

section Values
variable (hr : ∀ i, (a0 m c i).toNat < 50000)

local notation "src" => Cert.Spec.srcOf (a0 m c) hr
local notation "dst" => Cert.Spec.dstOf (a0 m c) hr

/-! ## The first region's product, wherever it is read -/

theorem o0_apply (n : Fin 50000) (j : Fin 128) :
    (o0 m c : S50000x128.Idx → EReal) (ix2 n j) = Cert.Spec.Wh (a1 m c) (a3 m c) n j :=
  region0_values (U0 m) c n j

/-! ## The second region's entry: the gathered node scores -/

include hr in
theorem hrA : ∀ i, ((Gen.V1 m (outsA m) c main_arg0 : S2x640000.Idx → BitVec 32) i).toNat < 50000 := by
  rw [V1_a0 m c (outsA m)]; exact hr

theorem U1_v13 (k : Fin 640000) (hh : Fin 4) :
    (U1 m c main_v13 : S640000x4.Idx → EReal) (ix2 k hh) = Cert.Spec.nodeScore (a1 m c) (a3 m c) (a5 m c) (src k) hh := by
  have h := host1_v13 m (outsA m) c (hrA m c hr) k hh
  rw [srcOf_congr (V1_a0 m c (outsA m)) (hrA m c hr) hr] at h
  refine h.trans ?_
  have e0 : Gen.V1 m (outsA m) c main_v0 = o0 m c := (V1_v0 m c (outsA m)).trans (outsA_o0 m 1 c)
  have e5 : Gen.V1 m (outsA m) c main_arg5 = a5 m c := V1_arg m c (outsA m) main_arg5 (by decide)
  rw [e0, e5]
  dsimp only [headScore]
  unfold Cert.Spec.nodeScore
  show (_ : EReal) = _
  exact Finset.sum_congr rfl fun d _ => by rw [o0_apply m c]

theorem U1_v14 (k : Fin 640000) (hh : Fin 4) :
    (U1 m c main_v14 : S640000x4.Idx → EReal) (ix2 k hh) = Cert.Spec.nodeScore (a1 m c) (a3 m c) (a6 m c) (dst k) hh := by
  have h := host1_v14 m (outsA m) c (hrA m c hr) k hh
  rw [dstOf_congr (V1_a0 m c (outsA m)) (hrA m c hr) hr] at h
  refine h.trans ?_
  have e0 : Gen.V1 m (outsA m) c main_v0 = o0 m c := (V1_v0 m c (outsA m)).trans (outsA_o0 m 1 c)
  have e5 : Gen.V1 m (outsA m) c main_arg6 = a6 m c := V1_arg m c (outsA m) main_arg6 (by decide)
  rw [e0, e5]
  dsimp only [headScore]
  unfold Cert.Spec.nodeScore
  show (_ : EReal) = _
  exact Finset.sum_congr rfl fun d _ => by rw [o0_apply m c]

theorem U1_v5 (hh : Fin 4) (d : Fin 32) :
    (U1 m c main_v5 : S1x128.Idx → EReal) (ix2 (0 : Fin 1) (Cert.Spec.col hh d)) = a7 m c (ix3 (0 : Fin 1) hh d) := by
  rw [show (U1 m c main_v5 : S1x128.Idx → EReal) = Gen.V4 m (outsA m) c main_v5 from rfl, host1_v5 m (outsA m) c hh d,
    show (Gen.V1 m (outsA m) c main_arg7 : S1x4x32.Idx → EReal) = a7 m c from V1_arg m c (outsA m) main_arg7 (by decide)]

theorem U1_arg2 : (U1 m c main_arg2 : S640000x128.Idx → EReal) = a2 m c :=
  (V4_of_V1 m c (outsA m) main_arg2 (by decide) (by decide) (by decide)).trans (V1_arg m c (outsA m) main_arg2 (by decide))
theorem U1_arg4 : (U1 m c main_arg4 : S128x128.Idx → EReal) = a4 m c :=
  (V4_of_V1 m c (outsA m) main_arg4 (by decide) (by decide) (by decide)).trans (V1_arg m c (outsA m) main_arg4 (by decide))

/-! ## The second region's outputs: the logits and their maximum -/

theorem o1a_apply (k : Fin 640000) (hh : Fin 4) :
    (o1a m c : S640000x4.Idx → EReal) (ix2 k hh)
      = Cert.Spec.e src dst (a1 m c) (a2 m c) (a3 m c) (a4 m c) (a5 m c) (a6 m c) (a7 m c) k hh := by
  have h := (region1_values (U1 m) (dat1 (F := Ideal) (U1 m) c) (fun w => A_eq1 (U1 m) c w) (fun t => after1_5_eq (U1 m) c t)
    (fun t h0 => after1_6_zero (U1 m) c t h0) (fun t h0 => after1_6_succ (U1 m) c t h0)).1 k hh
  refine (show (o1a m c : S640000x4.Idx → EReal) (ix2 k hh) = _ from h).trans ?_
  rw [U1_arg2 m c, U1_arg4 m c]
  dsimp only [edgeLogit]
  rw [U1_v13 m c hr, U1_v14 m c hr]
  unfold Cert.Spec.e Cert.Spec.pre Cert.Spec.edgeScore Cert.Spec.Weh
  simp only [U1_v5 m c]

theorem o1b_apply (hh : Fin 4) :
    (o1b m c : S1x4.Idx → EReal) (ix2 (0 : Fin 1) hh)
      = Cert.Spec.mx src dst (a1 m c) (a2 m c) (a3 m c) (a4 m c) (a5 m c) (a6 m c) (a7 m c) hh := by
  have h := (region1_values (U1 m) (dat1 (F := Ideal) (U1 m) c) (fun w => A_eq1 (U1 m) c w) (fun t => after1_5_eq (U1 m) c t)
    (fun t h0 => after1_6_zero (U1 m) c t h0) (fun t h0 => after1_6_succ (U1 m) c t h0)).2 hh
  refine (show (o1b m c : S1x4.Idx → EReal) (ix2 (0 : Fin 1) hh) = _ from h).trans ?_
  unfold Cert.Spec.mx
  refine congrArg _ (funext fun k => ?_)
  exact o1a_apply m c hr k hh

/-! ## The third region's outputs: the weights and their sum -/

theorem o2a_apply (k : Fin 640000) (hh : Fin 4) :
    (o2a m c : S640000x4.Idx → EReal) (ix2 k hh)
      = Cert.Spec.w src dst (a1 m c) (a2 m c) (a3 m c) (a4 m c) (a5 m c) (a6 m c) (a7 m c) k hh := by
  have e1 : U2 m c main_v15_0 = o1a m c := (V5_v15_0 m c (outsB m)).trans (outsB_o1a m 5 c)
  have e2 : U2 m c main_v15_1 = o1b m c := (V5_v15_1 m c (outsB m)).trans (outsB_o1b m 5 c)
  refine (show (o2a m c : S640000x4.Idx → EReal) (ix2 k hh) = _ from (region2_values (U2 m) c).1 k hh).trans ?_
  rw [e1, e2]
  dsimp only [weightOf]
  rw [o1a_apply m c hr, o1b_apply m c hr]
  rfl

theorem o2b_apply (hh : Fin 4) :
    (o2b m c : S1x4.Idx → EReal) (ix2 (0 : Fin 1) hh)
      = Cert.Spec.l src dst (a1 m c) (a2 m c) (a3 m c) (a4 m c) (a5 m c) (a6 m c) (a7 m c) hh := by
  refine (show (o2b m c : S1x4.Idx → EReal) (ix2 (0 : Fin 1) hh) = _ from (region2_values (U2 m) c).2 hh).trans ?_
  dsimp only [colSumOf]
  unfold Cert.Spec.l
  show (_ : EReal) = _
  exact Finset.sum_congr rfl fun k _ => o2a_apply m c hr k hh

/-! ## The result -/

theorem hsrc6 (k : Fin 640000) : ((Gen.V6 m (outs m) c main_v2 : S640000.Idx → BitVec 32) (ix1 k)).toNat = (src k).val := by
  rw [V6_of_V4 m c (outs m) main_v2 (by decide) (by decide), host1_v2 m (outs m) c k, V1_a0 m c (outs m)]
  rfl

theorem hdst6 (k : Fin 640000) : ((Gen.V6 m (outs m) c main_v4 : S640000.Idx → BitVec 32) (ix1 k)).toNat = (dst k).val := by
  rw [V6_of_V4 m c (outs m) main_v4 (by decide) (by decide), host1_v4 m (outs m) c k, V1_a0 m c (outs m)]
  rfl

/-- The kernel's program's result at node n, head hh, lane d. -/
theorem kernel_apply (n : Fin 50000) (hh : Fin 4) (d : Fin 32) :
    (Gen.V9 m (outs m) c main_v30 : S50000x128.Idx → EReal) (ix2 n (Cert.Spec.col hh d))
      = Cert.Spec.kernelOut src dst (a1 m c) (a2 m c) (a3 m c) (a4 m c) (a5 m c) (a6 m c) (a7 m c) n hh d := by
  have eA : Gen.V6 m (outs m) c main_v0 = o0 m c :=
    (V6_of_V4 m c (outs m) main_v0 (by decide) (by decide)).trans ((V4_of_V1 m c (outs m) main_v0 (by decide) (by decide) (by decide)).trans
      ((V1_v0 m c (outs m)).trans (outs_o0 m 1 c)))
  have eW : Gen.V6 m (outs m) c main_v16_0 = o2a m c := (V6_v16_0 m c (outs m)).trans (outs_o2a m 6 c)
  have eL : Gen.V6 m (outs m) c main_v16_1 = o2b m c := (V6_v16_1 m c (outs m)).trans (outs_o2b m 6 c)
  refine (host3_apply m (outs m) c src dst (hsrc6 m c hr) (hdst6 m c hr) n hh d).trans ?_
  rw [eA, eW, eL]
  dsimp only [outVal]
  unfold Cert.Spec.kernelOut
  rw [o2b_apply m c hr]
  show (_ : EReal) = _
  refine congrArg (fun s : EReal => max (s * Ideal.div 1 (Cert.Spec.l src dst (a1 m c) (a2 m c) (a3 m c) (a4 m c) (a5 m c) (a6 m c) (a7 m c) hh)) 0)
    (Finset.sum_congr rfl fun k _ => ?_)
  rw [o0_apply m c, o2a_apply m c hr]

end Values

end Cert.KernelIdeal.Hand

end
-- ==== Proof.RefLogits.lean ====
/-
  The reference's attention logits, read one entry at a time.

  A gather of whole [A, B] slabs of a rank-3 table [N, A, B] at a column of start indices reads, at (r, a, b), the table
  at the start index of row r (read signed, clamped into [0, N − 1]) and at (a, b).  With every index word a natural
  number below 50000 < 2³¹ the wrap of negative indices does nothing and the clamp is the identity, so the gathered
  slab of edge k is the slab of its source (or destination) node; the table's entry (n, hh, d) is (h·W)[n, 32·hh + d].
  The three lane sums and the leaky rectifier then give the specification's logit e k hh.
-/
import proofs.«424763_j188978561164_3_alg».proof.Proof.RefImports
import proofs.«424763_j188978561164_3_alg».proof.Proof.Edges
import Idealize.ShloMosaic.PureOps.Ideal
import Idealize.ShloMosaic.PureOps.Ideal.Laws
import Idealize.ShloMosaic.Lib.ValueIdx
import Idealize.ShloMosaic.Lib.StableHlo.Predicate

noncomputable section

namespace Cert.RefValue

open Cert.ReferenceIdeal Cert.ReferenceIdeal.Gen Cert.ReferenceIdeal.Read
open Idealize.ShloMosaic Idealize.ShloMosaic.ValueIdx Idealize.ShloMosaic.StableHlo.Predicate
open scoped BigOperators

/-! ## A gather of whole slabs of a rank-3 table -/

section Slabs

variable {α : Type}

/-- The dimension numbers of `x[idx]` for a table `x : [N, A, B]` and an index column `[R, 1]`: offset axes 1 and 2,
    the row axis collapsed and named by the start index map, slice sizes `[1, A, B]`. -/
abbrev slabDims (N A B R : Nat)
    (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

/-- The slab gather read at `(r, a, b)`: the table at the start index `idx[r, 0]`, read signed and clamped into
    `[0, N − 1]`, and at `(a, b)`. -/
theorem gather_slabs_apply {N A B R w : Nat} (hN : 0 < N)
    (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (idx : IVec ⟨2, ![R, 1]⟩ w) (y : (⟨3, ![R, A, B]⟩ : Shape).Idx) :
    Host.gather (slabDims N A B R wf) x idx y
      = x (ix3 (⟨min (idx (ix2 (⟨(y 0).val, (y 0).isLt⟩ : Fin R) (0 : Fin 1))).toInt.toNat (N - 1), by omega⟩ : Fin N)
            (⟨(y 1).val, (y 1).isLt⟩ : Fin A) (⟨(y 2).val, (y 2).isLt⟩ : Fin B)) := by
  unfold Host.gather
  congr 1
  funext a
  refine Fin.ext ?_
  show (slabDims N A B R wf).start y idx a + (slabDims N A B R wf).batchCoord y a + (slabDims N A B R wf).offCoord y a = _
  rw [GatherDims.batchCoord_eq_zero _ _ _ List.not_mem_nil]
  simp only [Nat.add_zero]
  match a with
  | ⟨0, _⟩ =>
    -- the row axis: named by the start index map and collapsed, so the coordinate is the clamped start alone
    rw [GatherDims.offCoord_eq_zero _ _ _ (fun h => ((GatherDims.mem_sKept _ _).mp h).1 (List.mem_singleton.mpr rfl))]
    simp only [Nat.add_zero]
    unfold GatherDims.start
    rw [dif_pos (show (⟨0, by omega⟩ : Fin 3) ∈ (slabDims N A B R wf).startIndexMap from List.mem_singleton.mpr rfl)]
    have hsi : (slabDims N A B R wf).siIdx y ⟨List.idxOf (⟨0, by omega⟩ : Fin 3) (slabDims N A B R wf).startIndexMap,
        List.idxOf_lt_length_iff.2 (List.mem_singleton.mpr rfl)⟩
          = ix2 (⟨(y 0).val, (y 0).isLt⟩ : Fin R) (0 : Fin 1) := by
      funext b; refine Fin.ext ?_
      match b with
      | ⟨0, _⟩ => rfl
      | ⟨1, _⟩ => rfl
    rw [hsi]
    rfl
  | ⟨1, h1⟩ =>
    -- a slab axis: the start is 0; it is kept, read by the result's offset axis 1
    have hne : (⟨1, h1⟩ : Fin 3) ≠ 0 := fun h => Nat.one_ne_zero (congrArg Fin.val h)
    have hst : (slabDims N A B R wf).start y idx ⟨1, h1⟩ = 0 := by
      unfold GatherDims.start
      rw [dif_neg (fun h => hne (List.mem_singleton.mp h))]
    have hk : (⟨1, h1⟩ : Fin 3) ∈ (slabDims N A B R wf).sKept :=
      (GatherDims.mem_sKept _ _).mpr ⟨fun h => hne (List.mem_singleton.mp h), List.not_mem_nil⟩
    rw [hst, Nat.zero_add]
    unfold GatherDims.offCoord
    rw [dif_pos hk]
    rfl
  | ⟨2, h2⟩ =>
    -- the other slab axis, read by the result's offset axis 2
    have hne : (⟨2, h2⟩ : Fin 3) ≠ 0 := fun h => (by decide : (2 : Nat) ≠ 0) (congrArg Fin.val h)
    have hst : (slabDims N A B R wf).start y idx ⟨2, h2⟩ = 0 := by
      unfold GatherDims.start
      rw [dif_neg (fun h => hne (List.mem_singleton.mp h))]
    have hk : (⟨2, h2⟩ : Fin 3) ∈ (slabDims N A B R wf).sKept :=
      (GatherDims.mem_sKept _ _).mpr ⟨fun h => hne (List.mem_singleton.mp h), List.not_mem_nil⟩
    rw [hst, Nat.zero_add]
    unfold GatherDims.offCoord
    rw [dif_pos hk]
    rfl

end Slabs

/-! ## The edges' endpoints as start indices -/

section Endpoints

variable (x0 : (⟨S2x640000, .i32⟩ : BufTy).Contents (Elt Ideal))

/-- A word that is a natural number below 50000 is not negative as a signed word. -/
theorem not_neg_word (a : BitVec 32) (ha : a.toNat < 50000) : ¬ IntOp.cmpi .slt a 0#32 = 1#1 := by
  rw [slt_iff_toNat (by omega) (by decide)]
  simp

/-- Such a word, read signed and clamped into [0, 49999], is itself. -/
theorem clamp_word (a : BitVec 32) (ha : a.toNat < 50000) : min a.toInt.toNat (50000 - 1) = a.toNat := by
  rw [toInt_eq_toNat_of_lt (by omega), Int.toNat_natCast]
  omega

/-- The source column: the wrap of negative indices does nothing, so row k holds the source word of edge k. -/
theorem v13_apply (hr : ∀ i, (x0 i).toNat < 50000) (k : Fin 640000) :
    val_main_v13 (F := Ideal) x0 (ix2 k (0 : Fin 1)) = x0 (ix2 (0 : Fin 2) k) := by
  have h5 : val_main_v5 (F := Ideal) x0 (idx_main_v13 (ix2 k (0 : Fin 1))) = x0 (ix2 (0 : Fin 2) k) := by
    rw [val_main_v5_apply, val_main_v4_apply]
    refine congrArg x0 (funext fun a => Fin.ext ?_)
    match a with
    | ⟨0, _⟩ => rfl
    | ⟨1, _⟩ => show k.val % 640000 = k.val; omega
  rw [val_main_v13_apply, val_main_v12_apply]
  unfold Scalar.select
  rw [if_neg, h5]
  rw [val_main_v9_apply, val_main_v8_apply, val_main_c_apply, h5]
  exact not_neg_word _ (hr _)

/-- The destination column, likewise. -/
theorem v20_apply (hr : ∀ i, (x0 i).toNat < 50000) (k : Fin 640000) :
    val_main_v20 (F := Ideal) x0 (ix2 k (0 : Fin 1)) = x0 (ix2 (1 : Fin 2) k) := by
  have h7 : val_main_v7 (F := Ideal) x0 (idx_main_v20 (ix2 k (0 : Fin 1))) = x0 (ix2 (1 : Fin 2) k) := by
    rw [val_main_v7_apply, val_main_v6_apply]
    refine congrArg x0 (funext fun a => Fin.ext ?_)
    match a with
    | ⟨0, _⟩ => rfl
    | ⟨1, _⟩ => show k.val % 640000 = k.val; omega
  rw [val_main_v20_apply, val_main_v19_apply]
  unfold Scalar.select
  rw [if_neg, h7]
  rw [val_main_v16_apply, val_main_v15_apply, val_main_c_1_apply, h7]
  exact not_neg_word _ (hr _)

end Endpoints

/-! ## The gathered slabs -/

section Table

variable (x0 : (⟨S2x640000, .i32⟩ : BufTy).Contents (Elt Ideal)) (x1 : (⟨S50000x128, .f32⟩ : BufTy).Contents (Elt Ideal))
  (x3 : (⟨S128x128, .f32⟩ : BufTy).Contents (Elt Ideal))

/-- The table's entry (n, hh, d) is (h·W)[n, 32·hh + d]. -/
theorem v1_apply (n : Fin 50000) (hh : Fin 4) (d : Fin 32) :
    val_main_v1 (F := Ideal) x1 x3 (ix3 n hh d) = Cert.Spec.Wh x1 x3 n (Cert.Spec.col hh d) := by
  rw [val_main_v1_apply, val_main_v0_apply]
  unfold Cert.Spec.Wh
  refine Finset.sum_congr rfl fun q _ => ?_
  have el : lidx_main_v0 (idx_main_v1 (ix3 n hh d)) q = ix2 n q := funext fun a => Fin.ext (by
    match a with
    | ⟨0, _⟩ => show ((n.val * 4 + hh.val) * 32 + d.val) / 128 = n.val; omega
    | ⟨1, _⟩ => rfl)
  have er : ridx_main_v0 (idx_main_v1 (ix3 n hh d)) q = ix2 q (Cert.Spec.col hh d) := funext fun a => Fin.ext (by
    match a with
    | ⟨0, _⟩ => rfl
    | ⟨1, _⟩ => show ((n.val * 4 + hh.val) * 32 + d.val) % 128 = 32 * hh.val + d.val; omega)
  rw [el, er]

/-- The slab gathered for edge k at its source: (h·W)[src k, 32·hh + d]. -/
theorem v14_apply (hr : ∀ i, (x0 i).toNat < 50000) (k : Fin 640000) (hh : Fin 4) (d : Fin 32) :
    val_main_v14 (F := Ideal) x0 x1 x3 (ix3 k hh d)
      = Cert.Spec.Wh x1 x3 (Cert.Spec.srcOf x0 hr k) (Cert.Spec.col hh d) := by
  unfold val_main_v14
  rw [show gather_S50000x4x32_S640000x1_S640000x4x32_12_0_n_n_0_1_1432
        = slabDims 50000 4 32 640000 Facts₀.gather_S50000x4x32_S640000x1_S640000x4x32_12_0_n_n_0_1_1432_wf from rfl,
    gather_slabs_apply (by decide)]
  refine (congrArg (val_main_v1 (F := Ideal) x1 x3) (funext fun a => Fin.ext ?_)).trans
    (v1_apply x1 x3 (Cert.Spec.srcOf x0 hr k) hh d)
  match a with
  | ⟨0, _⟩ =>
    show min (val_main_v13 (F := Ideal) x0 (ix2 k (0 : Fin 1))).toInt.toNat (50000 - 1) = (x0 (ix2 (0 : Fin 2) k)).toNat
    rw [v13_apply x0 hr]
    exact clamp_word _ (hr _)
  | ⟨1, _⟩ => rfl
  | ⟨2, _⟩ => rfl

/-- The slab gathered for edge k at its destination: (h·W)[dst k, 32·hh + d]. -/
theorem v21_apply (hr : ∀ i, (x0 i).toNat < 50000) (k : Fin 640000) (hh : Fin 4) (d : Fin 32) :
    val_main_v21 (F := Ideal) x0 x1 x3 (ix3 k hh d)
      = Cert.Spec.Wh x1 x3 (Cert.Spec.dstOf x0 hr k) (Cert.Spec.col hh d) := by
  unfold val_main_v21
  rw [show gather_S50000x4x32_S640000x1_S640000x4x32_12_0_n_n_0_1_1432
        = slabDims 50000 4 32 640000 Facts₀.gather_S50000x4x32_S640000x1_S640000x4x32_12_0_n_n_0_1_1432_wf from rfl,
    gather_slabs_apply (by decide)]
  refine (congrArg (val_main_v1 (F := Ideal) x1 x3) (funext fun a => Fin.ext ?_)).trans
    (v1_apply x1 x3 (Cert.Spec.dstOf x0 hr k) hh d)
  match a with
  | ⟨0, _⟩ =>
    show min (val_main_v20 (F := Ideal) x0 (ix2 k (0 : Fin 1))).toInt.toNat (50000 - 1) = (x0 (ix2 (1 : Fin 2) k)).toNat
    rw [v20_apply x0 hr]
    exact clamp_word _ (hr _)
  | ⟨1, _⟩ => rfl
  | ⟨2, _⟩ => rfl

end Table

/-! ## The three lane sums, the logit and the rectifier -/

section Logits

variable (x0 : (⟨S2x640000, .i32⟩ : BufTy).Contents (Elt Ideal)) (x1 : (⟨S50000x128, .f32⟩ : BufTy).Contents (Elt Ideal))
  (x2 : (⟨S640000x128, .f32⟩ : BufTy).Contents (Elt Ideal)) (x3 x4 : (⟨S128x128, .f32⟩ : BufTy).Contents (Elt Ideal))
  (x5 x6 x7 : (⟨S1x4x32, .f32⟩ : BufTy).Contents (Elt Ideal))

/-- An attention vector broadcast along the edges reads its entry (0, hh, d). -/
theorem vec_idx (k : Fin 640000) (hh : Fin 4) (d : Fin 32) :
    idx_main_v22 (ix3 k hh d) = ix3 (0 : Fin 1) hh d :=
  funext fun a => Fin.ext (by match a with | ⟨0, _⟩ => rfl | ⟨1, _⟩ => rfl | ⟨2, _⟩ => rfl)

/-- The source score of edge k, head hh. -/
theorem v24_apply (hr : ∀ i, (x0 i).toNat < 50000) (k : Fin 640000) (hh : Fin 4) :
    val_main_v24 (F := Ideal) x0 x1 x3 x5 (ix2 k hh)
      = Cert.Spec.nodeScore x1 x3 x5 (Cert.Spec.srcOf x0 hr k) hh := by
  have hz : (val_main_cst (F := Ideal)) (Shape.Idx.first h_S_) = (0 : EReal) := Ideal.ofBits_zero_f32
  rw [val_main_v24_apply, hz, zero_add]
  unfold Cert.Spec.nodeScore
  refine Finset.sum_congr rfl fun d _ => ?_
  have ei : idx_main_v24 (ix2 k hh) d = ix3 k hh d :=
    funext fun a => Fin.ext (by match a with | ⟨0, _⟩ => rfl | ⟨1, _⟩ => rfl | ⟨2, _⟩ => rfl)
  rw [ei, val_main_v23_apply, v14_apply x0 x1 x3 hr, val_main_v22_apply, vec_idx]
  rfl

/-- The destination score of edge k, head hh. -/
theorem v27_apply (hr : ∀ i, (x0 i).toNat < 50000) (k : Fin 640000) (hh : Fin 4) :
    val_main_v27 (F := Ideal) x0 x1 x3 x6 (ix2 k hh)
      = Cert.Spec.nodeScore x1 x3 x6 (Cert.Spec.dstOf x0 hr k) hh := by
  have hz : (val_main_cst_3 (F := Ideal)) (Shape.Idx.first h_S_) = (0 : EReal) := Ideal.ofBits_zero_f32
  rw [val_main_v27_apply, hz, zero_add]
  unfold Cert.Spec.nodeScore
  refine Finset.sum_congr rfl fun d _ => ?_
  have ei : idx_main_v27 (ix2 k hh) d = ix3 k hh d :=
    funext fun a => Fin.ext (by match a with | ⟨0, _⟩ => rfl | ⟨1, _⟩ => rfl | ⟨2, _⟩ => rfl)
  rw [ei, val_main_v26_apply, v21_apply x0 x1 x3 hr, val_main_v25_apply]
  exact congrArg (fun j => Cert.Spec.Wh x1 x3 (Cert.Spec.dstOf x0 hr k) (Cert.Spec.col hh d) * x6 j) (vec_idx k hh d)

/-- The edge's own score. -/
theorem v31_apply (k : Fin 640000) (hh : Fin 4) :
    val_main_v31 (F := Ideal) x2 x4 x7 (ix2 k hh) = Cert.Spec.edgeScore x2 x4 x7 k hh := by
  have hz : (val_main_cst_4 (F := Ideal)) (Shape.Idx.first h_S_) = (0 : EReal) := Ideal.ofBits_zero_f32
  rw [val_main_v31_apply, hz, zero_add]
  unfold Cert.Spec.edgeScore
  refine Finset.sum_congr rfl fun d _ => ?_
  have ei : idx_main_v31 (ix2 k hh) d = ix3 k hh d :=
    funext fun a => Fin.ext (by match a with | ⟨0, _⟩ => rfl | ⟨1, _⟩ => rfl | ⟨2, _⟩ => rfl)
  rw [ei, val_main_v30_apply, val_main_v29_apply, val_main_v3_apply, val_main_v2_apply]
  have ew : (∑ q : Fin 128, x2 (lidx_main_v2 (idx_main_v3 (ix3 k hh d)) q) * x4 (ridx_main_v2 (idx_main_v3 (ix3 k hh d)) q))
      = Cert.Spec.Weh x2 x4 k (Cert.Spec.col hh d) := by
    unfold Cert.Spec.Weh
    refine Finset.sum_congr rfl fun q _ => ?_
    have el : lidx_main_v2 (idx_main_v3 (ix3 k hh d)) q = ix2 k q := funext fun a => Fin.ext (by
      match a with
      | ⟨0, _⟩ => show ((k.val * 4 + hh.val) * 32 + d.val) / 128 = k.val; omega
      | ⟨1, _⟩ => rfl)
    have er : ridx_main_v2 (idx_main_v3 (ix3 k hh d)) q = ix2 q (Cert.Spec.col hh d) := funext fun a => Fin.ext (by
      match a with
      | ⟨0, _⟩ => rfl
      | ⟨1, _⟩ => show ((k.val * 4 + hh.val) * 32 + d.val) % 128 = 32 * hh.val + d.val; omega)
    rw [el, er]
  rw [ew]
  exact congrArg (fun j => Cert.Spec.Weh x2 x4 k (Cert.Spec.col hh d) * x7 j) (vec_idx k hh d)

/-- The leaky rectifier as the program spells it: a select on "0 ≤ x" between x and 0.2·x. -/
theorem lrelu_eq (p : EReal) :
    Scalar.select (Ideal.cmp .oge p (Ideal.ofBits .f32 0x00000000#32)) p (Ideal.ofBits .f32 0x3E4CCCCD#32 * p)
      = Cert.Spec.lrelu p := by
  rw [Ideal.ofBits_zero_f32]
  unfold Cert.Spec.lrelu Cert.Spec.slope Scalar.select Ideal.cmp
  by_cases h : 0 ≤ p
  · rw [if_pos h, if_pos]
    simp [h]
  · rw [if_neg h, if_neg]
    simp [h]

/-- The attention logit of edge k, head hh. -/
theorem v37_apply (hr : ∀ i, (x0 i).toNat < 50000) (k : Fin 640000) (hh : Fin 4) :
    val_main_v37 (F := Ideal) x0 x1 x2 x3 x4 x5 x6 x7 (ix2 k hh)
      = Cert.Spec.e (Cert.Spec.srcOf x0 hr) (Cert.Spec.dstOf x0 hr) x1 x2 x3 x4 x5 x6 x7 k hh := by
  have h32 : val_main_v32 (F := Ideal) x0 x1 x2 x3 x4 x5 x6 x7 (ix2 k hh)
      = Cert.Spec.pre (Cert.Spec.srcOf x0 hr) (Cert.Spec.dstOf x0 hr) x1 x2 x3 x4 x5 x6 x7 k hh := by
    rw [val_main_v32_apply, val_main_v28_apply, v24_apply x0 x1 x3 x5 hr, v27_apply x0 x1 x3 x6 hr, v31_apply x2 x4 x7]
    rfl
  rw [val_main_v37_apply, val_main_v34_apply, val_main_v36_apply, val_main_v35_apply, val_main_cst_6_apply,
    val_main_v33_apply, val_main_cst_5_apply, h32]
  exact lrelu_eq _

end Logits

end Cert.RefValue

end
-- ==== Proof.RefWeights.lean ====
/-
  The reference's normalised attention weights, read one entry at a time.

  A maximum over the rows of an [R, C] array, taken from −∞, is at column c the supremum of the column; the softmax over
  ALL edges of a head then reads: the logit minus the head's supremum, exponentiated — the unnormalised weight — and
  divided by the sum of the head's unnormalised weights.
-/
import proofs.«424763_j188978561164_3_alg».proof.Proof.RefLogits
import Idealize.ShloMosaic.PureOps.Ideal
import Idealize.ShloMosaic.PureOps.Ideal.Laws
import Idealize.ShloMosaic.PureOps.Reduce
import Idealize.ShloMosaic.Lib.ValueIdx
import Mathlib.Order.CompleteLattice.Finset
import Mathlib.Data.Finset.Fold

noncomputable section

namespace Cert.RefValue

open Cert.ReferenceIdeal Cert.ReferenceIdeal.Gen Cert.ReferenceIdeal.Read
open Idealize.ShloMosaic Idealize.ShloMosaic.ValueIdx
open scoped BigOperators

/-! ## A maximum over the rows of a rank-2 array, per column -/

section ColMax

variable {R C : Nat}

/-- The reduced index c with row k put back is (k, c). -/
theorem lift_col (h : (⟨2, ![R, C]⟩ : Shape).Reduces [0] (⟨1, ![C]⟩ : Shape)) (c : Fin C)
    (k : Fin ((⟨2, ![R, C]⟩ : Shape).size 0)) : h.lift (ix1 c) k = ix2 (⟨k.val, k.isLt⟩ : Fin R) c := by
  funext a; apply Fin.ext
  fin_cases a <;> rfl

/-- A fold of max from the bottom element is the supremum. -/
theorem fold_max_bot {ι : Type} (s : Finset ι) (f : ι → EReal) : s.fold max ⊥ f = s.sup f := by
  induction s using Finset.cons_induction with
  | empty => simp
  | cons a s ha ih => rw [Finset.fold_cons, Finset.sup_cons, ih]

/-- The host's maximum over the rows, from an initial value that is −∞, at column c: the supremum of the column. -/
theorem hostColMax_apply (x : FVec Ideal (⟨2, ![R, C]⟩ : Shape) .f32) (init : (⟨0, ![]⟩ : Shape).Idx → Ideal .f32)
    (h' : (⟨2, ![R, C]⟩ : Shape).ReducesTo [0] (⟨1, ![C]⟩ : Shape))
    (h : (⟨2, ![R, C]⟩ : Shape).Reduces [0] (⟨1, ![C]⟩ : Shape)) (hu : 0 < (⟨0, ![]⟩ : Shape).numel)
    (hinit : init (Shape.Idx.first hu) = (⊥ : EReal)) (c : Fin C) :
    Host.reduce FloatOps.maximumf x init h' hu (ix1 c)
      = (Finset.univ : Finset (Fin R)).sup fun k => (x (ix2 k c) : EReal) := by
  rw [Host.reduce_eq_fold_single FloatOps.maximumf x init h' h hu, hinit]
  have hf : (x ∘ h.lift (ix1 c)) = fun k : Fin R => x (ix2 k c) := funext fun k => congrArg x (lift_col h c k)
  refine Eq.trans ?_ (fold_max_bot Finset.univ _)
  exact congrArg (fun f => Finset.fold max (⊥ : EReal) f (Finset.univ : Finset (Fin R))) hf

end ColMax

/-! ## The softmax over all edges of a head -/

section Weights

variable (x0 : (⟨S2x640000, .i32⟩ : BufTy).Contents (Elt Ideal)) (x1 : (⟨S50000x128, .f32⟩ : BufTy).Contents (Elt Ideal))
  (x2 : (⟨S640000x128, .f32⟩ : BufTy).Contents (Elt Ideal)) (x3 x4 : (⟨S128x128, .f32⟩ : BufTy).Contents (Elt Ideal))
  (x5 x6 x7 : (⟨S1x4x32, .f32⟩ : BufTy).Contents (Elt Ideal))

/-- The f32 word of −∞ is the bottom element. -/
theorem word_bot : Ideal.ofBits .f32 0xFF800000#32 = (⊥ : EReal) := by simp [Ideal.ofBits, Ideal.ieee]

/-- The head's largest logit over all edges. -/
theorem v40_apply (hr : ∀ i, (x0 i).toNat < 50000) (hh : Fin 4) :
    val_main_v40 (F := Ideal) x0 x1 x2 x3 x4 x5 x6 x7 (ix1 hh)
      = Cert.Spec.mx (Cert.Spec.srcOf x0 hr) (Cert.Spec.dstOf x0 hr) x1 x2 x3 x4 x5 x6 x7 hh := by
  have h38 : val_main_v38 (F := Ideal) x0 x1 x2 x3 x4 x5 x6 x7 (ix1 hh)
      = Cert.Spec.mx (Cert.Spec.srcOf x0 hr) (Cert.Spec.dstOf x0 hr) x1 x2 x3 x4 x5 x6 x7 hh := by
    unfold val_main_v38 Cert.Spec.mx
    rw [hostColMax_apply (val_main_v37 (F := Ideal) x0 x1 x2 x3 x4 x5 x6 x7) (val_main_cst_7 (F := Ideal))
      reducesTo_S640000x4_S4_d0 (by decide) h_S_ word_bot hh]
    exact Finset.sup_congr rfl fun k _ => v37_apply x0 x1 x2 x3 x4 x5 x6 x7 hr k hh
  rw [val_main_v40_apply, val_main_v39_apply, val_main_cst_8_apply, h38]
  show max (Ideal.ofBits .f32 0xFF800000#32) _ = _
  rw [word_bot]
  exact bot_sup_eq _

/-- The unnormalised weight of edge k, head hh. -/
theorem v44_apply (hr : ∀ i, (x0 i).toNat < 50000) (k : Fin 640000) (hh : Fin 4) :
    val_main_v44 (F := Ideal) x0 x1 x2 x3 x4 x5 x6 x7 (ix2 k hh)
      = Cert.Spec.w (Cert.Spec.srcOf x0 hr) (Cert.Spec.dstOf x0 hr) x1 x2 x3 x4 x5 x6 x7 k hh := by
  have ei : idx_main_v41 (idx_main_v42 (ix2 k hh)) = ix1 hh :=
    funext fun a => Fin.ext (by match a with | ⟨0, _⟩ => rfl)
  rw [val_main_v44_apply, val_main_v43_apply, val_main_v42_apply, val_main_v41_apply, ei,
    v40_apply x0 x1 x2 x3 x4 x5 x6 x7 hr, v37_apply x0 x1 x2 x3 x4 x5 x6 x7 hr]
  rfl

/-- The softmax denominator of head hh. -/
theorem v45_apply (hr : ∀ i, (x0 i).toNat < 50000) (hh : Fin 4) :
    val_main_v45 (F := Ideal) x0 x1 x2 x3 x4 x5 x6 x7 (ix1 hh)
      = Cert.Spec.l (Cert.Spec.srcOf x0 hr) (Cert.Spec.dstOf x0 hr) x1 x2 x3 x4 x5 x6 x7 hh := by
  have hz : (val_main_cst_9 (F := Ideal)) (Shape.Idx.first h_S_) = (0 : EReal) := Ideal.ofBits_zero_f32
  rw [val_main_v45_apply, hz, zero_add]
  unfold Cert.Spec.l
  refine Finset.sum_congr rfl fun k _ => ?_
  have ei : idx_main_v45 (ix1 hh) k = ix2 k hh :=
    funext fun a => Fin.ext (by match a with | ⟨0, _⟩ => rfl | ⟨1, _⟩ => rfl)
  rw [ei]
  exact v44_apply x0 x1 x2 x3 x4 x5 x6 x7 hr k hh

/-- The normalised weight of edge k, head hh. -/
theorem v48_apply (hr : ∀ i, (x0 i).toNat < 50000) (k : Fin 640000) (hh : Fin 4) :
    val_main_v48 (F := Ideal) x0 x1 x2 x3 x4 x5 x6 x7 (ix2 k hh)
      = Ideal.div (Cert.Spec.w (Cert.Spec.srcOf x0 hr) (Cert.Spec.dstOf x0 hr) x1 x2 x3 x4 x5 x6 x7 k hh)
          (Cert.Spec.l (Cert.Spec.srcOf x0 hr) (Cert.Spec.dstOf x0 hr) x1 x2 x3 x4 x5 x6 x7 hh) := by
  have ei : idx_main_v46 (idx_main_v47 (ix2 k hh)) = ix1 hh :=
    funext fun a => Fin.ext (by match a with | ⟨0, _⟩ => rfl)
  rw [val_main_v48_apply, val_main_v47_apply, val_main_v46_apply, ei,
    v45_apply x0 x1 x2 x3 x4 x5 x6 x7 hr, v44_apply x0 x1 x2 x3 x4 x5 x6 x7 hr]
  rfl

end Weights

end Cert.RefValue

end
-- ==== Proof.RefScatter.lean ====
/-
  THE REFERENCE'S SEGMENT SUM OF MESSAGES, READ AT AN ENTRY.

  A segment sum of [A, B] slabs over the leading axis is the accumulating scatter whose dimension numbers are
  update window axes [1, 2], inserted window axes [0], scatter-dims-to-operand-dims [0] and index vector axis 1,
  over an operand [C, A, B], scatter indices [N, 1] and updates [N, A, B]. Update slab n carries ONE start index,
  the word idx[n, 0] read as a signed integer; it is the start on operand axis 0, where the window coordinate is 0
  because that axis is inserted. On operand axes 1 and 2 the start is 0 (the map does not name them) and the window
  coordinate is the update's own coordinate. So update element (n, a', b') lands at operand element
  (idx[n, 0], a', b') when 0 ≤ idx[n, 0] < C and is dropped otherwise. Hence

      scatter(x, idx, upd)[c, a, b] = x[c, a, b] + ∑ n, if idx[n, 0] = c then upd[n, a, b] else 0 .

  In the reference the operand is the zero array, the index column is the edges' destination row, a word that is a
  natural number below 50000 < 2³¹ (so reading it signed changes nothing), and update (k, hh, d) is the normalised
  attention weight of edge k at head hh times the source node's feature (k, hh, d). The result is rectified and
  reshaped [50000, 4, 32] → [50000, 128]: column 32·hh + d holds entry (hh, d).
-/
import proofs.«424763_j188978561164_3_alg».proof.Proof.RefImports
import proofs.«424763_j188978561164_3_alg».proof.Proof.Edges
import Idealize.ShloMosaic.PureOps.Ideal
import Idealize.ShloMosaic.Lib.ValueIdx
import Idealize.ShloMosaic.Lib.StableHlo.Predicate

noncomputable section

open scoped BigOperators

namespace Cert.RefValue

open Idealize.ShloMosaic Idealize.ShloMosaic.ValueIdx

/-! ## Sums over a rank-3 index set -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## Operand [C, A, B], scatter indices [N, 1], updates [N, A, B] -/

section Slabs
variable {C N A B w : ℕ}

/-- The slab scatter's dimension numbers as a record of literal lists: update window axes [1, 2], inserted
    window axes [0], scatter-dims-to-operand-dims [0], index vector axis 1. -/
abbrev slabs (wf : ScatterDims.WF ⟨3, ![C, A, B]⟩ ⟨2, ![N, 1]⟩ ⟨3, ![N, A, B]⟩ [1, 2] [0] [0] 1) :
    ScatterDims ⟨3, ![C, A, B]⟩ ⟨2, ![N, 1]⟩ ⟨3, ![N, A, B]⟩ := ⟨[1, 2], [0], [0], 1, wf⟩

/-- On operand axis 0 the window of update (n, a', b') starts at the index word idx[n, 0], read signed. -/
theorem slabs_start0 (wf : ScatterDims.WF ⟨3, ![C, A, B]⟩ ⟨2, ![N, 1]⟩ ⟨3, ![N, A, B]⟩ [1, 2] [0] [0] 1)
    (j : (⟨3, ![N, A, B]⟩ : Shape).Idx) (idx : IVec ⟨2, ![N, 1]⟩ w) :
    (slabs wf).start j idx 0 = (idx (ix2 (j 0) (0 : Fin 1))).toInt := by
  unfold ScatterDims.start
  rw [dif_pos (List.mem_singleton.mpr rfl)]
  congr 2
  funext b
  refine Fin.ext ?_
  match b with
  | ⟨0, _⟩ => rfl
  | ⟨1, _⟩ => rfl

/-- On operand axis 1, which the map does not name, the window starts at 0. -/
theorem slabs_start1 (wf : ScatterDims.WF ⟨3, ![C, A, B]⟩ ⟨2, ![N, 1]⟩ ⟨3, ![N, A, B]⟩ [1, 2] [0] [0] 1)
    (j : (⟨3, ![N, A, B]⟩ : Shape).Idx) (idx : IVec ⟨2, ![N, 1]⟩ w) :
    (slabs wf).start j idx 1 = 0 := by
  unfold ScatterDims.start
  rw [dif_neg (show ¬ ((1 : Fin 3) ∈ ([0] : List (Fin 3))) by decide)]

/-- On operand axis 2, which the map does not name either, the window starts at 0. -/
theorem slabs_start2 (wf : ScatterDims.WF ⟨3, ![C, A, B]⟩ ⟨2, ![N, 1]⟩ ⟨3, ![N, A, B]⟩ [1, 2] [0] [0] 1)
    (j : (⟨3, ![N, A, B]⟩ : Shape).Idx) (idx : IVec ⟨2, ![N, 1]⟩ w) :
    (slabs wf).start j idx 2 = 0 := by
  unfold ScatterDims.start
  rw [dif_neg (show ¬ ((2 : Fin 3) ∈ ([0] : List (Fin 3))) by decide)]

/-- Operand axis 0 is inserted: the window coordinate there is 0. -/
theorem slabs_window0 (wf : ScatterDims.WF ⟨3, ![C, A, B]⟩ ⟨2, ![N, 1]⟩ ⟨3, ![N, A, B]⟩ [1, 2] [0] [0] 1)
    (j : (⟨3, ![N, A, B]⟩ : Shape).Idx) :
    (slabs wf).window j 0 = 0 := by
  unfold ScatterDims.window
  have h : ¬ ((0 : Fin 3) ∈ (slabs wf).sKept) := by
    show ¬ ((0 : Fin 3) ∈ ([1, 2] : List (Fin 3)))
    decide
  rw [dif_neg h]

/-- Operand axis 1 is the first kept axis: the window coordinate there is the update's coordinate on axis 1. -/
theorem slabs_window1 (wf : ScatterDims.WF ⟨3, ![C, A, B]⟩ ⟨2, ![N, 1]⟩ ⟨3, ![N, A, B]⟩ [1, 2] [0] [0] 1)
    (j : (⟨3, ![N, A, B]⟩ : Shape).Idx) :
    (slabs wf).window j 1 = (j 1).val := by
  unfold ScatterDims.window
  have h : (1 : Fin 3) ∈ (slabs wf).sKept := by
    show (1 : Fin 3) ∈ ([1, 2] : List (Fin 3))
    decide
  rw [dif_pos h]
  rfl

/-- Operand axis 2 is the second kept axis: the window coordinate there is the update's coordinate on axis 2. -/
theorem slabs_window2 (wf : ScatterDims.WF ⟨3, ![C, A, B]⟩ ⟨2, ![N, 1]⟩ ⟨3, ![N, A, B]⟩ [1, 2] [0] [0] 1)
    (j : (⟨3, ![N, A, B]⟩ : Shape).Idx) :
    (slabs wf).window j 2 = (j 2).val := by
  unfold ScatterDims.window
  have h : (2 : Fin 3) ∈ (slabs wf).sKept := by
    show (2 : Fin 3) ∈ ([1, 2] : List (Fin 3))
    decide
  rw [dif_pos h]
  rfl

/-- WHERE AN UPDATE LANDS: update (n, a', b') lands at operand element (c, a, b) exactly when its slab's index
    word reads c and its two slab coordinates are a and b. (An index word outside [0, C) lands nowhere, and
    equals no c below C.) -/
theorem slabs_resultIdx?_eq_some (wf : ScatterDims.WF ⟨3, ![C, A, B]⟩ ⟨2, ![N, 1]⟩ ⟨3, ![N, A, B]⟩ [1, 2] [0] [0] 1)
    (j : (⟨3, ![N, A, B]⟩ : Shape).Idx) (idx : IVec ⟨2, ![N, 1]⟩ w) (c : Fin C) (a : Fin A) (b : Fin B) :
    (slabs wf).resultIdx? j idx = some (ix3 c a b) ↔
      (idx (ix2 (j 0) (0 : Fin 1))).toInt = (c.val : ℤ) ∧ j 1 = a ∧ j 2 = b := by
  have e0 : (slabs wf).start j idx 0 + ((slabs wf).window j 0 : ℕ) = (idx (ix2 (j 0) (0 : Fin 1))).toInt := by
    rw [slabs_start0, slabs_window0]; simp
  have e1 : (slabs wf).start j idx 1 + ((slabs wf).window j 1 : ℕ) = ((j 1).val : ℤ) := by
    rw [slabs_start1, slabs_window1]; simp
  have e2 : (slabs wf).start j idx 2 + ((slabs wf).window j 2 : ℕ) = ((j 2).val : ℤ) := by
    rw [slabs_start2, slabs_window2]; simp
  unfold ScatterDims.resultIdx?
  split_ifs with h
  · rw [Option.some.injEq]
    constructor
    · intro hf
      have h0 : ((slabs wf).start j idx 0 + ((slabs wf).window j 0 : ℕ)).toNat = c.val :=
        congrArg Fin.val (congrFun hf 0)
      have h1 : ((slabs wf).start j idx 1 + ((slabs wf).window j 1 : ℕ)).toNat = a.val :=
        congrArg Fin.val (congrFun hf 1)
      have h2 : ((slabs wf).start j idx 2 + ((slabs wf).window j 2 : ℕ)).toNat = b.val :=
        congrArg Fin.val (congrFun hf 2)
      have hp := (h 0).1
      rw [e0] at h0 hp
      rw [e1] at h1
      rw [e2] at h2
      refine ⟨by omega, Fin.ext (by omega), Fin.ext (by omega)⟩
    · rintro ⟨hc, ha, hb⟩
      funext q
      refine Fin.ext ?_
      match q with
      | ⟨0, _⟩ =>
        show ((slabs wf).start j idx 0 + ((slabs wf).window j 0 : ℕ)).toNat = c.val
        rw [e0, hc]; simp
      | ⟨1, _⟩ =>
        show ((slabs wf).start j idx 1 + ((slabs wf).window j 1 : ℕ)).toNat = a.val
        rw [e1, ha]; simp
      | ⟨2, _⟩ =>
        show ((slabs wf).start j idx 2 + ((slabs wf).window j 2 : ℕ)).toNat = b.val
        rw [e2, hb]; simp
  · constructor
    · intro hf; cases hf
    · rintro ⟨hc, ha, hb⟩
      refine absurd ?_ h
      intro q
      match q with
      | ⟨0, _⟩ =>
        show 0 ≤ (slabs wf).start j idx 0 + ((slabs wf).window j 0 : ℕ) ∧
          (slabs wf).start j idx 0 + ((slabs wf).window j 0 : ℕ) < ((C : ℕ) : ℤ)
        rw [e0, hc]
        have := c.isLt
        omega
      | ⟨1, _⟩ =>
        show 0 ≤ (slabs wf).start j idx 1 + ((slabs wf).window j 1 : ℕ) ∧
          (slabs wf).start j idx 1 + ((slabs wf).window j 1 : ℕ) < ((A : ℕ) : ℤ)
        rw [e1, ha]
        have := a.isLt
        omega
      | ⟨2, _⟩ =>
        show 0 ≤ (slabs wf).start j idx 2 + ((slabs wf).window j 2 : ℕ) ∧
          (slabs wf).start j idx 2 + ((slabs wf).window j 2 : ℕ) < ((B : ℕ) : ℤ)
        rw [e2, hb]
        have := b.isLt
        omega

/-- The same, for an update index given by its coordinates. -/
theorem slabs_resultIdx?_ix3 (wf : ScatterDims.WF ⟨3, ![C, A, B]⟩ ⟨2, ![N, 1]⟩ ⟨3, ![N, A, B]⟩ [1, 2] [0] [0] 1)
    (n : Fin N) (a' : Fin A) (b' : Fin B) (idx : IVec ⟨2, ![N, 1]⟩ w) (c : Fin C) (a : Fin A) (b : Fin B) :
    (slabs wf).resultIdx? (ix3 n a' b') idx = some (ix3 c a b) ↔
      (idx (ix2 n (0 : Fin 1))).toInt = (c.val : ℤ) ∧ a' = a ∧ b' = b :=
  slabs_resultIdx?_eq_some wf (ix3 n a' b') idx c a b

/-- The slab scatter-add of the literal record, read at (c, a, b). -/
theorem slabs_apply (wf : ScatterDims.WF ⟨3, ![C, A, B]⟩ ⟨2, ![N, 1]⟩ ⟨3, ![N, A, B]⟩ [1, 2] [0] [0] 1)
    (x : (⟨3, ![C, A, B]⟩ : Shape).Idx → EReal) (idx : IVec ⟨2, ![N, 1]⟩ w)
    (upd : (⟨3, ![N, A, B]⟩ : Shape).Idx → EReal) (c : Fin C) (a : Fin A) (b : Fin B) :
    Ideal.hostScatterAdd (slabs wf) x idx upd (ix3 c a b) =
      x (ix3 c a b) + ∑ n : Fin N, if (idx (ix2 n (0 : Fin 1))).toInt = (c.val : ℤ) then upd (ix3 n a b) else 0 := by
  unfold Ideal.hostScatterAdd
  congr 1
  rw [Finset.sum_filter, sum_idx3]
  refine Finset.sum_congr rfl fun n _ => ?_
  simp only [slabs_resultIdx?_ix3]
  by_cases hc : (idx (ix2 n (0 : Fin 1))).toInt = (c.val : ℤ)
  · simp [hc, ite_and]
  · simp [hc]

end Slabs

/-- SLAB SCATTER-ADD AT AN ENTRY, operand [C, A, B]: for any dimension-number record with update window axes
    [1, 2], inserted window axes [0], scatter-dims-to-operand-dims [0] and index vector axis 1, the result at
    (c, a, b) is the operand there plus the sum of upd[n, a, b] over the slabs n whose index word idx[n, 0], read
    signed, is c. Slabs whose index word is negative or at least C contribute nothing. -/
theorem scatterSlabs_apply {C N A B w : ℕ} (d : ScatterDims ⟨3, ![C, A, B]⟩ ⟨2, ![N, 1]⟩ ⟨3, ![N, A, B]⟩)
    (hu : d.updateWindowDims = [1, 2]) (hi : d.insertedWindowDims = [0]) (hs : d.scatterDimsToOperandDims = [0])
    (hv : d.indexVectorDim = 1)
    (x : (⟨3, ![C, A, B]⟩ : Shape).Idx → EReal) (idx : IVec ⟨2, ![N, 1]⟩ w)
    (upd : (⟨3, ![N, A, B]⟩ : Shape).Idx → EReal) (c : Fin C) (a : Fin A) (b : Fin B) :
    Ideal.hostScatterAdd d x idx upd (ix3 c a b) =
      x (ix3 c a b) + ∑ n : Fin N, if (idx (ix2 n (0 : Fin 1))).toInt = (c.val : ℤ) then upd (ix3 n a b) else 0 := by
  obtain ⟨uw, iw, sd, iv, wf⟩ := d
  dsimp only at hu hi hs hv
  subst hu hi hs hv
  exact slabs_apply wf x idx upd c a b

/-! ## The reference's scatter of messages, its rectifier and its final reshape -/

section Reference

open Cert.ReferenceIdeal Cert.ReferenceIdeal.Gen Cert.ReferenceIdeal.Read
open Idealize.ShloMosaic.StableHlo.Predicate

/-- Column 32·hh + d of the [50000, 128] result is entry (hh, d) of the [50000, 4, 32] array. -/
theorem idx_v56_col (n : Fin 50000) (hh : Fin 4) (d : Fin 32) :
    idx_main_v56 (ix2 n (Cert.Spec.col hh d)) = ix3 n hh d := by
  funext a
  refine Fin.ext ?_
  have h4 := hh.isLt
  have h32 := d.isLt
  match a with
  | ⟨0, _⟩ => show (n.val * 128 + (32 * hh.val + d.val)) / 128 = n.val; omega
  | ⟨1, _⟩ => show (n.val * 128 + (32 * hh.val + d.val)) / 32 % 4 = hh.val; omega
  | ⟨2, _⟩ => show (n.val * 128 + (32 * hh.val + d.val)) % 32 = d.val; omega

/-- The scatter's index column at row k is row 1 of the edge array at column k. -/
theorem idx_v53_col (k : Fin 640000) :
    idx_main_v6 (idx_main_v7 (idx_main_v53 (ix2 k (0 : Fin 1)))) = ix2 (1 : Fin 2) k := by
  funext a
  refine Fin.ext ?_
  have hk := k.isLt
  match a with
  | ⟨0, _⟩ => rfl
  | ⟨1, _⟩ => show k.val % 640000 = k.val; omega

/-- The broadcast weight at (k, hh, d) is the weight at (k, hh). -/
theorem idx_v50_v49 (k : Fin 640000) (hh : Fin 4) (d : Fin 32) :
    idx_main_v49 (idx_main_v50 (ix3 k hh d)) = ix2 k hh := by
  funext a
  refine Fin.ext ?_
  match a with
  | ⟨0, _⟩ => rfl
  | ⟨1, _⟩ => rfl

/-- Over the extended reals the reference's scatter stage is, as a whole array, the exact accumulating scatter of
    the zero array, the destination column and the messages. -/
theorem v54_fun (x0 : (⟨S2x640000, .i32⟩ : BufTy).Contents (Elt Ideal))
    (x1 : (⟨S50000x128, .f32⟩ : BufTy).Contents (Elt Ideal)) (x2 : (⟨S640000x128, .f32⟩ : BufTy).Contents (Elt Ideal))
    (x3 x4 : (⟨S128x128, .f32⟩ : BufTy).Contents (Elt Ideal)) (x5 x6 x7 : (⟨S1x4x32, .f32⟩ : BufTy).Contents (Elt Ideal)) :
    val_main_v54 (F := Ideal) x0 x1 x2 x3 x4 x5 x6 x7
      = Ideal.hostScatterAdd scatter_S50000x4x32_S640000x1_S640000x4x32_12_0_0_1 (val_main_v52 (F := Ideal))
          (val_main_v53 (F := Ideal) x0) (val_main_v51 (F := Ideal) x0 x1 x2 x3 x4 x5 x6 x7) := rfl

/-- THE SCATTER AT NODE n, HEAD hh, LANE d: the zero operand plus the messages of the edges whose destination word
    reads n, each the edge's normalised weight times its source node's feature. -/
theorem v54_apply (x0 : (⟨S2x640000, .i32⟩ : BufTy).Contents (Elt Ideal))
    (x1 : (⟨S50000x128, .f32⟩ : BufTy).Contents (Elt Ideal)) (x2 : (⟨S640000x128, .f32⟩ : BufTy).Contents (Elt Ideal))
    (x3 x4 : (⟨S128x128, .f32⟩ : BufTy).Contents (Elt Ideal)) (x5 x6 x7 : (⟨S1x4x32, .f32⟩ : BufTy).Contents (Elt Ideal))
    (hr : ∀ i, (x0 i).toNat < 50000)
    (A : Fin 640000 → Fin 4 → Fin 32 → EReal) (att : Fin 640000 → Fin 4 → EReal)
    (h14 : ∀ k hh d, val_main_v14 (F := Ideal) x0 x1 x3 (ix3 k hh d) = A k hh d)
    (h48 : ∀ k hh, val_main_v48 (F := Ideal) x0 x1 x2 x3 x4 x5 x6 x7 (ix2 k hh) = att k hh)
    (n : Fin 50000) (hh : Fin 4) (d : Fin 32) :
    val_main_v54 (F := Ideal) x0 x1 x2 x3 x4 x5 x6 x7 (ix3 n hh d)
      = ∑ k ∈ Finset.univ.filter (fun k => Cert.Spec.dstOf x0 hr k = n), att k hh * A k hh d := by
  rw [v54_fun, scatterSlabs_apply _ rfl rfl rfl rfl]
  rw [val_main_v52_apply, val_main_cst_10_apply, Ideal.ofBits_def, Ideal.ofBits_zero_f32, zero_add, Finset.sum_filter]
  refine Finset.sum_congr rfl fun k _ => ?_
  rw [val_main_v53_apply, val_main_v7_apply, val_main_v6_apply, idx_v53_col, val_main_v51_apply,
    val_main_v50_apply, val_main_v49_apply, idx_v50_v49, h48, h14, Ideal.mulf_def]
  -- the destination word is a natural number below 2³¹, so its signed reading is the number itself
  have hk : (x0 (ix2 (1 : Fin 2) k)).toInt = ((x0 (ix2 (1 : Fin 2) k)).toNat : ℤ) :=
    toInt_eq_toNat_of_lt (by have := hr (ix2 (1 : Fin 2) k); omega)
  have hiff : (x0 (ix2 (1 : Fin 2) k)).toInt = (n.val : ℤ) ↔ Cert.Spec.dstOf x0 hr k = n := by
    rw [hk, Fin.ext_iff, Cert.Spec.dstOf_val]
    exact Nat.cast_inj
  exact if_congr hiff rfl rfl

/-- THE REFERENCE'S RESULT AT NODE n, HEAD hh, LANE d: the messages of the edges that end at n, each the edge's
    normalised weight times its source node's feature, summed and rectified. -/
theorem v56_apply (x0 : (⟨S2x640000, .i32⟩ : BufTy).Contents (Elt Ideal))
    (x1 : (⟨S50000x128, .f32⟩ : BufTy).Contents (Elt Ideal)) (x2 : (⟨S640000x128, .f32⟩ : BufTy).Contents (Elt Ideal))
    (x3 x4 : (⟨S128x128, .f32⟩ : BufTy).Contents (Elt Ideal)) (x5 x6 x7 : (⟨S1x4x32, .f32⟩ : BufTy).Contents (Elt Ideal))
    (hr : ∀ i, (x0 i).toNat < 50000)
    (A : Fin 640000 → Fin 4 → Fin 32 → EReal) (att : Fin 640000 → Fin 4 → EReal)
    (h14 : ∀ k hh d, val_main_v14 (F := Ideal) x0 x1 x3 (ix3 k hh d) = A k hh d)
    (h48 : ∀ k hh, val_main_v48 (F := Ideal) x0 x1 x2 x3 x4 x5 x6 x7 (ix2 k hh) = att k hh)
    (n : Fin 50000) (hh : Fin 4) (d : Fin 32) :
    val_main_v56 (F := Ideal) x0 x1 x2 x3 x4 x5 x6 x7 (ix2 n (Cert.Spec.col hh d))
      = max (∑ k ∈ Finset.univ.filter (fun k => Cert.Spec.dstOf x0 hr k = n), att k hh * A k hh d) 0 := by
  rw [val_main_v56_apply, idx_v56_col, val_main_v55_apply, v54_apply x0 x1 x2 x3 x4 x5 x6 x7 hr A att h14 h48,
    val_main_call1_v0_apply, val_main_call1_cst_apply, Ideal.ofBits_def, Ideal.ofBits_zero_f32, Ideal.maximumf_def]

end Reference

end Cert.RefValue

end
-- ==== Proof.RefValue.lean ====
/-
  What the reference computes, index by index: the rectified, destination-wise sum of the messages, each message a
  gathered row of h·W scaled by the edge's softmax weight — the specification's reference form.
-/
import proofs.«424763_j188978561164_3_alg».proof.Proof.RefWeights
import proofs.«424763_j188978561164_3_alg».proof.Proof.RefScatter

noncomputable section

namespace Cert.RefValue

open Cert.ReferenceIdeal Cert.ReferenceIdeal.Gen Cert.ReferenceIdeal.Read
open Idealize.ShloMosaic Idealize.ShloMosaic.ValueIdx

/-- The reference's result at node n, head hh, lane d. -/
theorem ref_apply (x0 : (⟨S2x640000, .i32⟩ : BufTy).Contents (Elt Ideal)) (x1 : (⟨S50000x128, .f32⟩ : BufTy).Contents (Elt Ideal)) (x2 : (⟨S640000x128, .f32⟩ : BufTy).Contents (Elt Ideal)) (x3 x4 : (⟨S128x128, .f32⟩ : BufTy).Contents (Elt Ideal)) (x5 x6 x7 : (⟨S1x4x32, .f32⟩ : BufTy).Contents (Elt Ideal))
    (hr : ∀ i, (x0 i).toNat < 50000) (n : Fin 50000) (hh : Fin 4) (d : Fin 32) :
    val_main_v56 (F := Ideal) x0 x1 x2 x3 x4 x5 x6 x7 (ix2 n (Cert.Spec.col hh d))
      = Cert.Spec.refOut (Cert.Spec.srcOf x0 hr) (Cert.Spec.dstOf x0 hr) x1 x2 x3 x4 x5 x6 x7 n hh d := by
  rw [v56_apply x0 x1 x2 x3 x4 x5 x6 x7 hr
    (fun k hh d => Cert.Spec.Wh x1 x3 (Cert.Spec.srcOf x0 hr k) (Cert.Spec.col hh d))
    (fun k hh => Ideal.div (Cert.Spec.w (Cert.Spec.srcOf x0 hr) (Cert.Spec.dstOf x0 hr) x1 x2 x3 x4 x5 x6 x7 k hh)
      (Cert.Spec.l (Cert.Spec.srcOf x0 hr) (Cert.Spec.dstOf x0 hr) x1 x2 x3 x4 x5 x6 x7 hh))
    (fun k hh d => v14_apply x0 x1 x3 hr k hh d)
    (fun k hh => v48_apply x0 x1 x2 x3 x4 x5 x6 x7 hr k hh) n hh d]
  rfl

end Cert.RefValue

end
-- ==== Proof.Algebra.lean ====
/-
  The one algebraic law of the graph-attention layer: scaling the summed messages of a node by the reciprocal of
  the softmax denominator equals summing the messages each scaled by its normalised weight.

  The law holds because, with every input entry a real number, every quantity on the way is a real number and
  the denominator is a positive one:
    * finite sums and products of reals are reals, so Wh, Weh, the scores and the logits pre are reals;
    * the leaky rectifier of a real is a real (its slope is a real);
    * the maximum of finitely many reals over a nonempty index set is one of them, hence a real;
    * exp of a real is a positive real, so each weight w is a positive real and their sum l over the nonempty
      set of all edges is a positive real; in particular l ≠ 0 and x / l = x · (1 / l).
  Between coerced reals the identity is the distributive law in ℝ:
    (Σ_{k ∈ S} a_k · w_k) · (1 · (1 / L)) = Σ_{k ∈ S} (w_k · (1 / L)) · a_k.
-/
import proofs.«424763_j188978561164_3_alg».proof.Proof.Spec
import Mathlib.Data.EReal.Inv
import Mathlib.Algebra.BigOperators.Ring.Finset
import Mathlib.Algebra.Order.BigOperators.Group.Finset
import Mathlib.Analysis.SpecialFunctions.Exp

noncomputable section

namespace Cert.Algebra

open Idealize.ShloMosaic Idealize.ShloMosaic.ValueIdx
open scoped BigOperators

/-- An extended real that is the coercion of a real number. -/
def IsReal (x : EReal) : Prop := ∃ r : ℝ, x = (r : EReal)

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

/-- The coercion ℝ → EReal commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real-valued extended reals is real-valued. -/
theorem IsReal.sum {ι : Type*} (s : Finset ι) (f : ι → EReal) (hf : ∀ i, IsReal (f i)) :
    IsReal (∑ i ∈ s, f i) := by
  choose g hg using hf
  refine ⟨∑ i ∈ s, g i, ?_⟩
  rw [coe_sum]
  exact Finset.sum_congr rfl fun i _ => hg i

/-- The supremum of finitely many real-valued extended reals over a nonempty set is one of them. -/
theorem IsReal.sup {ι : Type*} (s : Finset ι) (hs : s.Nonempty) (f : ι → EReal) (hf : ∀ i, IsReal (f i)) :
    IsReal (s.sup f) := by
  obtain ⟨i, _, hi⟩ := Finset.exists_mem_eq_sup s hs f
  rw [hi]
  exact hf i

/-- The rectifier's slope is a real number: its exponent field is not the all-ones one. -/
theorem slope_isReal : IsReal Cert.Spec.slope := by
  unfold Cert.Spec.slope Ideal.ofBits Ideal.ieee
  simp only []
  split_ifs with h1 h2 h3
  all_goals first
    | exact ⟨_, rfl⟩
    | (exfalso; revert h1; decide)

theorem lrelu_isReal {x : EReal} (hx : IsReal x) : IsReal (Cert.Spec.lrelu x) := by
  unfold Cert.Spec.lrelu
  split_ifs
  · exact hx
  · exact slope_isReal.mul hx

/-- exp of a real is a positive real. -/
theorem exp_isPosReal {x : EReal} (hx : IsReal x) : ∃ r : ℝ, 0 < r ∧ Ideal.exp x = (r : EReal) := by
  obtain ⟨a, rfl⟩ := hx
  exact ⟨Real.exp a, Real.exp_pos a, rfl⟩

/-- The distributive law behind the certificate, over arbitrary finite index sets: with real messages a,
    real weights wr and a positive total weight over T, scaling the sum by 1 / total afterwards equals
    scaling every weight by 1 / total first. -/
theorem scale_after_eq_scale_before {ι : Type*} (S T : Finset ι) (a wr : ι → ℝ)
    (hpos : 0 < ∑ k ∈ T, wr k) :
    (∑ k ∈ S, (a k : EReal) * (wr k : EReal)) * Ideal.div 1 (∑ k ∈ T, (wr k : EReal))
      = ∑ k ∈ S, Ideal.div (wr k : EReal) (∑ k ∈ T, (wr k : EReal)) * (a k : EReal) := by
  have hne : (∑ k ∈ T, wr k) ≠ 0 := ne_of_gt hpos
  rw [← coe_sum T wr]
  simp only [Ideal.div_coe hne]
  have hL : ∀ k, (a k : EReal) * (wr k : EReal) = ((a k * wr k : ℝ) : EReal) := fun k => (EReal.coe_mul _ _).symm
  have hR : ∀ k, (wr k : EReal) * ((1 / ∑ k ∈ T, wr k : ℝ) : EReal) * (a k : EReal)
      = ((wr k * (1 / ∑ k ∈ T, wr k) * a k : ℝ) : EReal) := fun k => by
    rw [EReal.coe_mul, EReal.coe_mul]
  simp only [hL, hR]
  rw [← coe_sum, ← coe_sum, ← EReal.coe_one, ← EReal.coe_mul, ← EReal.coe_mul]
  congr 1
  rw [Finset.sum_mul]
  exact Finset.sum_congr rfl fun k _ => by ring

section Main

variable (src dst : Fin 640000 → Fin 50000)
variable (h : (⟨2, ![50000, 128]⟩ : Shape).Idx → EReal) (ef : (⟨2, ![640000, 128]⟩ : Shape).Idx → EReal)
variable (W We : (⟨2, ![128, 128]⟩ : Shape).Idx → EReal)
variable (asrc adst aedge : (⟨3, ![1, 4, 32]⟩ : Shape).Idx → EReal)

/-- (h·W)[n, j] is a real: a finite sum of products of reals. -/
theorem Wh_isReal (hh_ : ∀ i, IsReal (h i)) (hW : ∀ i, IsReal (W i)) (n : Fin 50000) (j : Fin 128) :
    IsReal (Cert.Spec.Wh h W n j) := by
  unfold Cert.Spec.Wh
  exact IsReal.sum _ _ fun q => (hh_ _).mul (hW _)

/-- (edge_feat·W_e)[k, j] is a real. -/
theorem Weh_isReal (hef : ∀ i, IsReal (ef i)) (hWe : ∀ i, IsReal (We i)) (k : Fin 640000) (j : Fin 128) :
    IsReal (Cert.Spec.Weh ef We k j) := by
  unfold Cert.Spec.Weh
  exact IsReal.sum _ _ fun q => (hef _).mul (hWe _)

/-- A node's score against a real attention vector is a real. -/
theorem nodeScore_isReal (hh_ : ∀ i, IsReal (h i)) (hW : ∀ i, IsReal (W i))
    (a : (⟨3, ![1, 4, 32]⟩ : Shape).Idx → EReal) (ha : ∀ i, IsReal (a i)) (n : Fin 50000) (hd : Fin 4) :
    IsReal (Cert.Spec.nodeScore h W a n hd) := by
  unfold Cert.Spec.nodeScore
  exact IsReal.sum _ _ fun q => (Wh_isReal h W hh_ hW _ _).mul (ha _)

/-- An edge's own score is a real. -/
theorem edgeScore_isReal (hef : ∀ i, IsReal (ef i)) (hWe : ∀ i, IsReal (We i)) (haedge : ∀ i, IsReal (aedge i))
    (k : Fin 640000) (hd : Fin 4) : IsReal (Cert.Spec.edgeScore ef We aedge k hd) := by
  unfold Cert.Spec.edgeScore
  exact IsReal.sum _ _ fun q => (Weh_isReal ef We hef hWe _ _).mul (haedge _)

/-- The attention logit is a real. -/
theorem e_isReal (hh_ : ∀ i, IsReal (h i)) (hef : ∀ i, IsReal (ef i)) (hW : ∀ i, IsReal (W i))
    (hWe : ∀ i, IsReal (We i)) (hasrc : ∀ i, IsReal (asrc i)) (hadst : ∀ i, IsReal (adst i))
    (haedge : ∀ i, IsReal (aedge i)) (k : Fin 640000) (hd : Fin 4) :
    IsReal (Cert.Spec.e src dst h ef W We asrc adst aedge k hd) := by
  unfold Cert.Spec.e Cert.Spec.pre
  exact lrelu_isReal (((nodeScore_isReal h W hh_ hW asrc hasrc _ _).add
    (nodeScore_isReal h W hh_ hW adst hadst _ _)).add (edgeScore_isReal ef We aedge hef hWe haedge _ _))

/-- The largest logit of a head is a real: the edge set is nonempty and finite, so it is one of the logits. -/
theorem mx_isReal (hh_ : ∀ i, IsReal (h i)) (hef : ∀ i, IsReal (ef i)) (hW : ∀ i, IsReal (W i))
    (hWe : ∀ i, IsReal (We i)) (hasrc : ∀ i, IsReal (asrc i)) (hadst : ∀ i, IsReal (adst i))
    (haedge : ∀ i, IsReal (aedge i)) (hd : Fin 4) :
    IsReal (Cert.Spec.mx src dst h ef W We asrc adst aedge hd) := by
  unfold Cert.Spec.mx
  exact IsReal.sup _ Finset.univ_nonempty _ fun k =>
    e_isReal src dst h ef W We asrc adst aedge hh_ hef hW hWe hasrc hadst haedge k hd

/-- Every unnormalised attention weight is a positive real. -/
theorem w_isPosReal (hh_ : ∀ i, IsReal (h i)) (hef : ∀ i, IsReal (ef i)) (hW : ∀ i, IsReal (W i))
    (hWe : ∀ i, IsReal (We i)) (hasrc : ∀ i, IsReal (asrc i)) (hadst : ∀ i, IsReal (adst i))
    (haedge : ∀ i, IsReal (aedge i)) (k : Fin 640000) (hd : Fin 4) :
    ∃ r : ℝ, 0 < r ∧ Cert.Spec.w src dst h ef W We asrc adst aedge k hd = (r : EReal) := by
  unfold Cert.Spec.w
  exact exp_isPosReal
    ((e_isReal src dst h ef W We asrc adst aedge hh_ hef hW hWe hasrc hadst haedge k hd).sub
      (mx_isReal src dst h ef W We asrc adst aedge hh_ hef hW hWe hasrc hadst haedge hd))

end Main

/-- The kernel's value (sum the unnormalised messages, then scale by the reciprocal of the denominator) equals
    the reference's (scale each message by its normalised weight, then sum), at every node, head and lane. -/
theorem kernelOut_eq_refOut
    (src dst : Fin 640000 → Fin 50000)
    (h : (⟨2, ![50000, 128]⟩ : Shape).Idx → EReal) (ef : (⟨2, ![640000, 128]⟩ : Shape).Idx → EReal)
    (W We : (⟨2, ![128, 128]⟩ : Shape).Idx → EReal) (asrc adst aedge : (⟨3, ![1, 4, 32]⟩ : Shape).Idx → EReal)
    (hh_ : ∀ i, ∃ r : ℝ, h i = (r : EReal)) (hef : ∀ i, ∃ r : ℝ, ef i = (r : EReal))
    (hW : ∀ i, ∃ r : ℝ, W i = (r : EReal)) (hWe : ∀ i, ∃ r : ℝ, We i = (r : EReal))
    (hasrc : ∀ i, ∃ r : ℝ, asrc i = (r : EReal)) (hadst : ∀ i, ∃ r : ℝ, adst i = (r : EReal))
    (haedge : ∀ i, ∃ r : ℝ, aedge i = (r : EReal))
    (n : Fin 50000) (hd : Fin 4) (d : Fin 32) :
    Cert.Spec.kernelOut src dst h ef W We asrc adst aedge n hd d
      = Cert.Spec.refOut src dst h ef W We asrc adst aedge n hd d := by
  -- the weights of this head as positive reals wr k, the messages' entries as reals a k
  choose wr hwpos hwr using fun k =>
    w_isPosReal src dst h ef W We asrc adst aedge hh_ hef hW hWe hasrc hadst haedge k hd
  choose a ha using fun k : Fin 640000 => Wh_isReal h W hh_ hW (src k) (Cert.Spec.col hd d)
  -- the denominator is the sum of the wr k over all edges
  have hl : Cert.Spec.l src dst h ef W We asrc adst aedge hd = ∑ k : Fin 640000, (wr k : EReal) := by
    unfold Cert.Spec.l
    exact Finset.sum_congr rfl fun k _ => hwr k
  have hpos : 0 < ∑ k : Fin 640000, wr k := Finset.sum_pos (fun k _ => hwpos k) Finset.univ_nonempty
  unfold Cert.Spec.kernelOut Cert.Spec.refOut
  rw [hl]
  simp only [hwr, ha]
  rw [scale_after_eq_scale_before _ Finset.univ a wr hpos]

end Cert.Algebra

end
-- ==== Proof.PreDecode.lean ====
import proofs.«424763_j188978561164_3_alg».proof.Pre_finite_inputs
import proofs.«424763_j188978561164_3_alg».proof.Proof.Gen.Pre_finite_inputs
import Idealize.ShloMosaic.Lib.ReduceAll
import Idealize.ShloMosaic.Lib.StableHlo.Predicate
import Idealize.ShloMosaic.Lib.ValueIdx
import Idealize.ShloMosaic.Lib.Affine
import Idealize.ShloMosaic.PureOps.BitExact
import Idealize.ShloMosaic.PureOps.Ideal
import Mathlib.Data.EReal.Basic

noncomputable section

namespace Cert.PreDecode

open Idealize.ShloMosaic Idealize.ShloMosaic.ValueIdx Cert.Pre_finite_inputs

/-- The rank-0 shape has one index. -/
instance subsingleton_scalar_idx : Subsingleton S_.Idx := ⟨fun a b => funext fun d => d.elim0⟩

/-! ## Words and extended reals at one element -/

/-- The word 0x7F800000 denotes +∞. -/
theorem inf_word : Ideal.ofBits .f32 0x7F800000#32 = (⊤ : EReal) := by
  simp [Ideal.ofBits, Ideal.ieee]

/-- An extended real whose absolute value max x (-x) is strictly below +∞ is a real number:
    at ⊥ the negation is ⊤, at ⊤ the value itself is, and neither is below ⊤. -/
theorem real_of_abs_lt_top (x : EReal) (h : Ideal.cmp .olt (max x (-x)) (⊤ : EReal) = 1#1) :
    ∃ r : ℝ, x = (r : EReal) := by
  have hlt : max x (-x) < ⊤ := by
    simpa [Ideal.cmp, StableHlo.Predicate.ofBool_eq_one_iff] using h
  induction x using EReal.rec with
  | bot => simp at hlt
  | coe r => exact ⟨r, rfl⟩
  | top => simp at hlt

/-- A 32-bit word that tests 0 ≤ w and w < 50000 as a signed word has unsigned value below 50000:
    nonnegative means the top bit is clear, so the signed and unsigned readings agree. -/
theorem toNat_lt_of_range (w : BitVec 32) (h0 : IntOp.cmpi .sge w 0#32 = 1#1) (h1 : IntOp.cmpi .slt w 50000#32 = 1#1) :
    w.toNat < 50000 := by
  rw [IntOp.cmpi_sge, show (0#32 : BitVec 32).toInt = 0 from by decide, BitVec.toInt_pos_iff] at h0
  rw [IntOp.cmpi_slt, BitVec.toInt_eq_toNat_of_lt h0, show (50000#32 : BitVec 32).toInt = 50000 from by decide] at h1
  omega

/-- The and of two one-bit arrays is 1 at an index exactly when both are. -/
theorem andi_at {s : Shape} (x y : IVec s 1) (i : s.Idx) : andi x y i = 1#1 ↔ x i = 1#1 ∧ y i = 1#1 :=
  IntOp.andi_eq_one

/-! ## One all-reduction read back -/

/-- all(|x| < +∞) being 1 says every element of x is a real number. -/
theorem all_real {s : Shape} (x : FVec Ideal s .f32) (hb : S_.BroadcastsInDim s (![] : Fin 0 → Fin s.rank))
    {axes : List (Fin s.rank)} (hr : s.ReducesTo axes S_) (h0 : 0 < S_.numel)
    (e : Host.reduce IntOp.andi
          (cmpf .olt (Host.absf x) (broadcastInDim s ![] hb (constant (F := Ideal) S_ .f32 0x7F800000#32)))
          (constantI S_ 1 1#1) hr h0 ix0 = 1#1) :
    ∀ i, ∃ r : ℝ, x i = (r : EReal) := by
  intro i
  have hi := Host.reduce_andi_all _ _ hr h0 ix0 e i
  apply real_of_abs_lt_top
  rw [← inf_word]
  rw [cmpf_apply, StableHlo.Predicate.bcast_scalar hb h0] at hi
  exact hi

/-- all((0 ≤ e) ∧ (e < 50000)) being 1 says every element of e has unsigned value below 50000. -/
theorem all_range {s : Shape} (a : IVec s 32) (hb : S_.BroadcastsInDim s (![] : Fin 0 → Fin s.rank))
    {axes : List (Fin s.rank)} (hr : s.ReducesTo axes S_) (h0 : 0 < S_.numel)
    (e : Host.reduce IntOp.andi
          (andi (cmpi .sge a (broadcastInDim s ![] hb (constantI S_ 32 0#32)))
                (cmpi .slt a (broadcastInDim s ![] hb (constantI S_ 32 50000#32))))
          (constantI S_ 1 1#1) hr h0 ix0 = 1#1) :
    ∀ i, (a i).toNat < 50000 := by
  intro i
  have hi := Host.reduce_andi_all _ _ hr h0 ix0 e i
  obtain ⟨h1, h2⟩ := (andi_at _ _ _).1 hi
  refine toNat_lt_of_range (a i) ?_ ?_
  · have : cmpi .sge a (broadcastInDim s ![] hb (constantI S_ 32 0#32)) i
        = IntOp.cmpi .sge (a i) (broadcastInDim s ![] hb (constantI S_ 32 0#32) i) := rfl
    rw [this, StableHlo.Predicate.bcast_scalar hb h0] at h1
    exact h1
  · have : cmpi .slt a (broadcastInDim s ![] hb (constantI S_ 32 50000#32)) i
        = IntOp.cmpi .slt (a i) (broadcastInDim s ![] hb (constantI S_ 32 50000#32) i) := rfl
    rw [this, StableHlo.Predicate.bcast_scalar hb h0] at h2
    exact h2

/-! ## The printed precondition decoded -/

section
variable [Cert.Pre_finite_inputs.Facts]
open Cert.Pre_finite_inputs.Facts

/-- The integer conjunct, at any float instance: every entry of the index table is below 50000. -/
theorem decode_range {F : FTy → Type} [FloatOps F]
    (a0 : IVec S2x640000 32) (a1 : FVec F S50000x128 .f32) (a2 : FVec F S640000x128 .f32)
    (a3 a4 : FVec F S128x128 .f32) (a5 a6 a7 : FVec F S1x4x32 .f32)
    (hpre : Cert.Pre_finite_inputs.fn (F := F) a0 a1 a2 a3 a4 a5 a6 a7 = (fun _ => 1#1)) :
    ∀ i, (a0 i).toNat < 50000 := by
  have h := congrFun hpre ix0
  dsimp only [Cert.Pre_finite_inputs.fn, fn_part1, fn_part2] at h
  obtain ⟨-, h0⟩ := (andi_at _ _ _).1 h
  exact all_range a0 _ _ _ h0

/-- The same at the word-level instance. -/
theorem decode_range_bits
    (a0 : IVec S2x640000 32) (a1 : FVec Bits S50000x128 .f32) (a2 : FVec Bits S640000x128 .f32)
    (a3 a4 : FVec Bits S128x128 .f32) (a5 a6 a7 : FVec Bits S1x4x32 .f32)
    (hpre : Cert.Pre_finite_inputs.fn (F := Bits) a0 a1 a2 a3 a4 a5 a6 a7 = (fun _ => 1#1)) :
    ∀ i, (a0 i).toNat < 50000 :=
  decode_range a0 a1 a2 a3 a4 a5 a6 a7 hpre

/-- The whole precondition at the extended reals: all seven float inputs are real-valued and every
    entry of the index table is below 50000. -/
theorem decode
    (a0 : IVec S2x640000 32) (a1 : FVec Ideal S50000x128 .f32) (a2 : FVec Ideal S640000x128 .f32)
    (a3 a4 : FVec Ideal S128x128 .f32) (a5 a6 a7 : FVec Ideal S1x4x32 .f32)
    (hpre : Cert.Pre_finite_inputs.fn (F := Ideal) a0 a1 a2 a3 a4 a5 a6 a7 = (fun _ => 1#1)) :
    (∀ i, ∃ r : ℝ, a1 i = (r : EReal)) ∧ (∀ i, ∃ r : ℝ, a2 i = (r : EReal)) ∧ (∀ i, ∃ r : ℝ, a3 i = (r : EReal))
    ∧ (∀ i, ∃ r : ℝ, a4 i = (r : EReal)) ∧ (∀ i, ∃ r : ℝ, a5 i = (r : EReal)) ∧ (∀ i, ∃ r : ℝ, a6 i = (r : EReal))
    ∧ (∀ i, ∃ r : ℝ, a7 i = (r : EReal)) ∧ (∀ i, (a0 i).toNat < 50000) := by
  have h := congrFun hpre ix0
  dsimp only [Cert.Pre_finite_inputs.fn, fn_part1, fn_part2] at h
  simp only [andi_at] at h
  obtain ⟨⟨⟨⟨⟨⟨⟨h1, h2⟩, h3⟩, h4⟩, h5⟩, h6⟩, h7⟩, h0⟩ := h
  exact ⟨all_real a1 _ _ _ h1, all_real a2 _ _ _ h2, all_real a3 _ _ _ h3, all_real a4 _ _ _ h4,
    all_real a5 _ _ _ h5, all_real a6 _ _ _ h6, all_real a7 _ _ _ h7, all_range a0 _ _ _ h0⟩

end

end Cert.PreDecode
-- ==== Proof.lean ====
/-
  A graph-attention layer, three Pallas kernels and the jnp code around them, against its jnp reference.

  Both programs compute, per node n, head hh and lane d, the rectified sum over the edges k landing at n of
  (h·W)[src k, hh, d] weighted by a softmax over ALL edges of the leaky-rectified attention logits
  (Cert.Spec, module Proof/Spec.lean).  The reference divides each weight exp(e − max) by the head's sum before
  the messages are added up at their destinations; the kernel's program adds the unnormalised messages up and
  multiplies each node's sum by the reciprocal of the head's sum afterwards.  With every float input a real and
  every edge endpoint a node number below 50000 (the precondition), the head's sum is a positive real, so the
  division is the product with its inverse and a product by a real constant distributes over the finite sum:
  the two results are one function (Proof/Algebra.lean).

  The frames: the kernel's program is three kernel regions chained through host operations; each region's
  per-point obligation is proved from its body (Proof/KI/R0.lean, R1.lean, R2.lean: the product h·W; the edge
  scores with a running maximum carried in scratch; the exponentials with a running sum carried in scratch), and the
  launch over the segments (Proof/KI/Run.lean) gives termination, the result buffer's contents, and the arguments
  unchanged — once generically in the float instance, read at the word-level instance for the printed kernel and
  at the extended reals for its idealization.  The reference is a plain host program: its run is its operations'
  composed term.  The idealization rewrote nothing, so there is nothing to preserve.
-/
import proofs.«424763_j188978561164_3_alg».proof.Defs
import proofs.«424763_j188978561164_3_alg».proof.Proof.Gen.Kernel
import proofs.«424763_j188978561164_3_alg».proof.Proof.Gen.KernelIdeal
import proofs.«424763_j188978561164_3_alg».proof.Proof.Gen.ReferenceIdeal
import proofs.«424763_j188978561164_3_alg».proof.Proof.Gen.Pre_finite_inputs
import proofs.«424763_j188978561164_3_alg».proof.Proof.K.Run
import proofs.«424763_j188978561164_3_alg».proof.Proof.KI.Run
import proofs.«424763_j188978561164_3_alg».proof.Proof.RefImports
import proofs.«424763_j188978561164_3_alg».proof.Proof.KI.Value
import proofs.«424763_j188978561164_3_alg».proof.Proof.RefValue
import proofs.«424763_j188978561164_3_alg».proof.Proof.Algebra
import proofs.«424763_j188978561164_3_alg».proof.Proof.PreDecode
import Idealize.ShloMosaic.Adequacy
import Idealize.ShloMosaic.Init

noncomputable section

namespace Cert.Proof

open Idealize.ShloMosaic.TcCoe

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The printed kernel's program runs and leaves its arguments as launched. -/
theorem frame_k : Cert.frame_Kernel := fun m ρ _ =>
  (θ_run (Cert.Kernel.defs (F := Bits)) _ _).mono (fun _ h c => (h c).2) (Cert.Kernel.Hand.run_main (F := Bits) m ρ)

/-- So does its idealization. -/
theorem frame_ki : Cert.frame_KernelIdeal := fun m ρ _ =>
  (θ_run (Cert.KernelIdeal.defs (F := Ideal)) _ _).mono (fun _ h c => (h c).2) (Cert.KernelIdeal.Hand.run_main (F := Ideal) m ρ)

/-- The reference's run with the result dropped. -/
theorem frame_ri : Cert.frame_ReferenceIdeal := fun m ρ _ =>
  (θ_run (Cert.ReferenceIdeal.defs (F := Ideal)) _ _).mono (fun _ h c => (h c).2) (Cert.ReferenceIdeal.Value.run (F := Ideal) m ρ)

/-- Every feature column is a head's lane. -/
theorem col_surj (j : Fin 128) : ∃ (hh : Fin 4) (d : Fin 32), j = Cert.Spec.col hh d :=
  ⟨⟨j.val / 32, by omega⟩, ⟨j.val % 32, Nat.mod_lt _ (by decide)⟩, Fin.ext (by show j.val = 32 * (j.val / 32) + j.val % 32; omega)⟩

open Idealize.ShloMosaic.ValueIdx in
/-- Under the precondition the reference's result, as a function of the kernel's arguments, IS what the kernel's
    program leaves in its result buffer: index by index both are the specification's value, the two forms of which
    agree because the softmax denominator is a positive real. -/
theorem result_eq (m : (ℓ : Loc Cert.KernelIdeal.nD Cert.KernelIdeal.τ Cert.KernelIdeal.sig) → Buf (Elt Ideal) ℓ) (c : Dev Cert.KernelIdeal.nD)
    (hpre : Cert.Pre_finite_inputs.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) = (fun _ => 1#1)) :
    Cert.ReferenceIdeal.Read.val_main_v56 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      = Cert.KernelIdeal.Gen.V9 m (Cert.KernelIdeal.Hand.outs m) c Cert.KernelIdeal.main_v30 := by
  obtain ⟨h1, h2, h3, h4, h5, h6, h7, hr⟩ := Cert.PreDecode.decode _ _ _ _ _ _ _ _ hpre
  funext i
  obtain ⟨n, j, rfl⟩ : ∃ (n : Fin 50000) (j : Fin 128), i = ix2 n j := ⟨i 0, i 1, eq_ix2 i⟩
  obtain ⟨hh, d, rfl⟩ := col_surj j
  refine (Cert.RefValue.ref_apply _ _ _ _ _ _ _ _ hr n hh d).trans ?_
  refine Eq.trans ?_ (Cert.KernelIdeal.Hand.kernel_apply m c hr n hh d).symm
  exact (Cert.Algebra.kernelOut_eq_refOut _ _ _ _ _ _ _ _ _ h1 h2 h3 h4 h5 h6 h7 n hh d).symm

/-- From memories agreeing on the arguments both programs run, and the reference's result is the kernel's. -/
theorem algebraic : Cert.algebraic_KernelIdeal_ReferenceIdeal := by
  intro m ρ m' ρ' hpre hagree
  refine ⟨fun c => Cert.KernelIdeal.Gen.V9 m (Cert.KernelIdeal.Hand.outs m) c Cert.KernelIdeal.main_v30,
    Cert.KernelIdeal.Hand.run_main (F := Ideal) m ρ, ?_⟩
  refine (θ_run (Cert.ReferenceIdeal.defs (F := Ideal)) _ _).mono (fun _ h c => ⟨(h c).1.trans ?_, (h c).2⟩)
    (Cert.ReferenceIdeal.Value.run (F := Ideal) m' ρ')
  rw [Cert.ReferenceIdeal.Read.val_main_v56_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact result_eq m c (hpre c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
